-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x100 : Shape := ⟨2, ![128, 100]⟩
abbrev S100 : Shape := ⟨1, ![100]⟩
abbrev S100x20 : Shape := ⟨2, ![100, 20]⟩
abbrev S20 : Shape := ⟨1, ![20]⟩
abbrev S20x10 : Shape := ⟨2, ![20, 10]⟩
abbrev S10 : Shape := ⟨1, ![10]⟩
abbrev S10x1 : Shape := ⟨2, ![10, 1]⟩
abbrev S1 : Shape := ⟨1, ![1]⟩
abbrev S600000 : Shape := ⟨1, ![600000]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x100 : S_.BroadcastsInDim S128x100 (![] : Fin 0 → Fin S128x100.rank)
  reducesTo_S128x100_S_d0_1 : S128x100.ReducesTo [0, 1] S_
  bcast_S_S100 : S_.BroadcastsInDim S100 (![] : Fin 0 → Fin S100.rank)
  reducesTo_S100_S_d0 : S100.ReducesTo [0] S_
  bcast_S_S100x20 : S_.BroadcastsInDim S100x20 (![] : Fin 0 → Fin S100x20.rank)
  reducesTo_S100x20_S_d0_1 : S100x20.ReducesTo [0, 1] S_
  bcast_S_S20 : S_.BroadcastsInDim S20 (![] : Fin 0 → Fin S20.rank)
  reducesTo_S20_S_d0 : S20.ReducesTo [0] S_
  bcast_S_S20x10 : S_.BroadcastsInDim S20x10 (![] : Fin 0 → Fin S20x10.rank)
  reducesTo_S20x10_S_d0_1 : S20x10.ReducesTo [0, 1] S_
  bcast_S_S10 : S_.BroadcastsInDim S10 (![] : Fin 0 → Fin S10.rank)
  reducesTo_S10_S_d0 : S10.ReducesTo [0] S_
  bcast_S_S10x1 : S_.BroadcastsInDim S10x1 (![] : Fin 0 → Fin S10x1.rank)
  reducesTo_S10x1_S_d0_1 : S10x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg7 : FVec F S20x10 .f32) (main_arg8 : FVec F S10 .f32) (main_arg9 : FVec F S10x1 .f32) (main_arg10 : FVec F S1 .f32) (main_v33 : IVec S_ 1) : IVec S_ 1 :=
  let main_v34 : FVec F S20x10 .f32 := Host.absf main_arg7
  let main_cst_12 : FVec F S_ .f32 := constant S_ .f32 0x7F800000#32
  let main_v35 : FVec F S20x10 .f32 := broadcastInDim S20x10 ![] bcast_S_S20x10 main_cst_12
  let main_v36 : IVec S20x10 1 := cmpf .olt main_v34 main_v35
  let main_c_13 : IVec S_ 1 := constantI S_ 1 1#1
  let main_v37 : IVec S_ 1 := (fun x v => Host.reduce IntOp.andi x v reducesTo_S20x10_S_d0_1 h_S_) main_v36 main_c_13
  let main_v38 : IVec S_ 1 := andi main_v33 main_v37
  let main_v39 : FVec F S10 .f32 := Host.absf main_arg8
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  let main_v44 : FVec F S10x1 .f32 := Host.absf main_arg9
  let main_cst_16 : FVec F S_ .f32 := constant S_ .f32 0x7F800000#32
  let main_v45 : FVec F S10x1 .f32 := broadcastInDim S10x1 ![] bcast_S_S10x1 main_cst_16
  let main_v46 : IVec S10x1 1 := cmpf .olt main_v44 main_v45
  let main_c_17 : IVec S_ 1 := constantI S_ 1 1#1
  let main_v47 : IVec S_ 1 := (fun x v => Host.reduce IntOp.andi x v reducesTo_S10x1_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg4 : FVec F S100x20 .f32) (main_arg5 : FVec F S100x20 .f32) (main_arg6 : FVec F S20 .f32) (main_arg7 : FVec F S20x10 .f32) (main_arg8 : FVec F S10 .f32) (main_arg9 : FVec F S10x1 .f32) (main_arg10 : FVec F S1 .f32) (main_v13 : IVec S_ 1) (main_v16 : IVec S100 1) : IVec S_ 1 :=
  let main_c_5 : IVec S_ 1 := constantI S_ 1 1#1
  let main_v17 : IVec S_ 1 := (fun x v => Host.reduce IntOp.andi x v reducesTo_S100_S_d0 h_S_) main_v16 main_c_5
  let main_v18 : IVec S_ 1 := andi main_v13 main_v17
  let main_v19 : FVec F S100x20 .f32 := Host.absf main_arg4
  let main_cst_6 : FVec F S_ .f32 := constant S_ .f32 0x7F800000#32
  let main_v20 : FVec F S100x20 .f32 := broadcastInDim S100x20 ![] bcast_S_S100x20 main_cst_6
  let main_v21 : IVec S100x20 1 := cmpf .olt main_v19 main_v20
  let main_c_7 : IVec S_ 1 := constantI S_ 1 1#1
  let main_v22 : IVec S_ 1 := (fun x v => Host.reduce IntOp.andi x v reducesTo_S100x20_S_d0_1 h_S_) main_v21 main_c_7
  let main_v23 : IVec S_ 1 := andi main_v18 main_v22
  let main_v24 : FVec F S100x20 .f32 := Host.absf main_arg5
  let main_cst_8 : FVec F S_ .f32 := constant S_ .f32 0x7F800000#32
  let main_v25 : FVec F S100x20 .f32 := broadcastInDim S100x20 ![] bcast_S_S100x20 main_cst_8
  let main_v26 : IVec S100x20 1 := cmpf .olt main_v24 main_v25
  let main_c_9 : IVec S_ 1 := constantI S_ 1 1#1
  let main_v27 : IVec S_ 1 := (fun x v => Host.reduce IntOp.andi x v reducesTo_S100x20_S_d0_1 h_S_) main_v26 main_c_9
  let main_v28 : IVec S_ 1 := andi main_v23 main_v27
  let main_v29 : FVec F S20 .f32 := Host.absf main_arg6
  let main_cst_10 : FVec F S_ .f32 := constant S_ .f32 0x7F800000#32
  let main_v30 : FVec F S20 .f32 := broadcastInDim S20 ![] bcast_S_S20 main_cst_10
  let main_v31 : IVec S20 1 := cmpf .olt main_v29 main_v30
  let main_c_11 : IVec S_ 1 := constantI S_ 1 1#1
  let main_v32 : IVec S_ 1 := (fun x v => Host.reduce IntOp.andi x v reducesTo_S20_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S100000x128 .f32) (main_arg1 : FVec F S128x100 .f32) (main_arg2 : FVec F S128x100 .f32) (main_arg3 : FVec F S100 .f32) (main_arg4 : FVec F S100x20 .f32) (main_arg5 : FVec F S100x20 .f32) (main_arg6 : FVec F S20 .f32) (main_arg7 : FVec F S20x10 .f32) (main_arg8 : FVec F S10 .f32) (main_arg9 : FVec F S10x1 .f32) (main_arg10 : FVec F S1 .f32) (main_arg11 : IVec S600000 32) (main_arg12 : IVec S600000 32) (main_arg13 : IVec S100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x100 .f32 := Host.absf main_arg1
  let main_cst_0 : FVec F S_ .f32 := constant S_ .f32 0x7F800000#32
  let main_v5 : FVec F S128x100 .f32 := broadcastInDim S128x100 ![] bcast_S_S128x100 main_cst_0
  let main_v6 : IVec S128x100 1 := cmpf .olt main_v4 main_v5
  let main_c_1 : IVec S_ 1 := constantI S_ 1 1#1
  let main_v7 : IVec S_ 1 := (fun x v => Host.reduce IntOp.andi x v reducesTo_S128x100_S_d0_1 h_S_) main_v6 main_c_1
  let main_v8 : IVec S_ 1 := andi main_v3 main_v7
  let main_v9 : FVec F S128x100 .f32 := Host.absf main_arg2
  let main_cst_2 : FVec F S_ .f32 := constant S_ .f32 0x7F800000#32
  let main_v10 : FVec F S128x100 .f32 := broadcastInDim S128x100 ![] bcast_S_S128x100 main_cst_2
  let main_v11 : IVec S128x100 1 := cmpf .olt main_v9 main_v10
  let main_c_3 : IVec S_ 1 := constantI S_ 1 1#1
  let main_v12 : IVec S_ 1 := (fun x v => Host.reduce IntOp.andi x v reducesTo_S128x100_S_d0_1 h_S_) main_v11 main_c_3
  let main_v13 : IVec S_ 1 := andi main_v8 main_v12
  let main_v14 : FVec F S100 .f32 := Host.absf main_arg3
  let main_cst_4 : FVec F S_ .f32 := constant S_ .f32 0x7F800000#32
  let main_v15 : FVec F S100 .f32 := broadcastInDim S100 ![] bcast_S_S100 main_cst_4
  let main_v16 : IVec S100 1 := cmpf .olt main_v14 main_v15
  fn_part1 (F := F) main_arg4 main_arg5 main_arg6 main_arg7 main_arg8 main_arg9 main_arg10 main_v13 main_v16
-- ==== Kernel.lean ====
abbrev S100000x128 : Shape := ⟨2, ![100000, 128]⟩
abbrev S128x100 : Shape := ⟨2, ![128, 100]⟩
abbrev S100 : Shape := ⟨1, ![100]⟩
abbrev S100x20 : Shape := ⟨2, ![100, 20]⟩
abbrev S20 : Shape := ⟨1, ![20]⟩
abbrev S20x10 : Shape := ⟨2, ![20, 10]⟩
abbrev S10 : Shape := ⟨1, ![10]⟩
abbrev S10x1 : Shape := ⟨2, ![10, 1]⟩
abbrev S1 : Shape := ⟨1, ![1]⟩
abbrev S600000 : Shape := ⟨1, ![600000]⟩
abbrev S100000 : Shape := ⟨1, ![100000]⟩
abbrev S_ : Shape := ⟨0, ![]⟩
abbrev S600000x1 : Shape := ⟨2, ![600000, 1]⟩
abbrev S100000x1 : Shape := ⟨2, ![100000, 1]⟩
abbrev S600000x128 : Shape := ⟨2, ![600000, 128]⟩
abbrev S1x100 : Shape := ⟨2, ![1, 100]⟩
abbrev S100000x100 : Shape := ⟨2, ![100000, 100]⟩
abbrev S4000x128 : Shape := ⟨2, ![4000, 128]⟩
abbrev S4000x1 : Shape := ⟨2, ![4000, 1]⟩
abbrev S4000x100 : Shape := ⟨2, ![4000, 100]⟩
abbrev S600000x100 : Shape := ⟨2, ![600000, 100]⟩
abbrev S1x20 : Shape := ⟨2, ![1, 20]⟩
abbrev S100000x20 : Shape := ⟨2, ![100000, 20]⟩
abbrev S4000x20 : Shape := ⟨2, ![4000, 20]⟩
abbrev S1x10 : Shape := ⟨2, ![1, 10]⟩
abbrev S1x1 : Shape := ⟨2, ![1, 1]⟩
abbrev S64x1 : Shape := ⟨2, ![64, 1]⟩
abbrev S64x20 : Shape := ⟨2, ![64, 20]⟩
abbrev S1x4000 : Shape := ⟨2, ![1, 4000]⟩
abbrev S64x4000 : Shape := ⟨2, ![64, 4000]⟩
abbrev S64x10 : Shape := ⟨2, ![64, 10]⟩

abbrev nBuf : Space → Nat
  | .hbm => 61
  | .vmem => 33
  | .smem => 0
  | _ => 0

abbrev bufTy : (tb : Table) → Fin (tcTables nBuf tb) → BufTy
  | .hbm, ⟨0, _⟩ => ⟨S100000x128, .f32⟩
  | .hbm, ⟨1, _⟩ => ⟨S128x100, .f32⟩
  | .hbm, ⟨2, _⟩ => ⟨S128x100, .f32⟩
  | .hbm, ⟨3, _⟩ => ⟨S100, .f32⟩
  | .hbm, ⟨4, _⟩ => ⟨S100x20, .f32⟩
  | .hbm, ⟨5, _⟩ => ⟨S100x20, .f32⟩
  | .hbm, ⟨6, _⟩ => ⟨S20, .f32⟩
  | .hbm, ⟨7, _⟩ => ⟨S20x10, .f32⟩
  | .hbm, ⟨8, _⟩ => ⟨S10, .f32⟩
  | .hbm, ⟨9, _⟩ => ⟨S10x1, .f32⟩
  | .hbm, ⟨10, _⟩ => ⟨S1, .f32⟩
  | .hbm, ⟨11, _⟩ => ⟨S600000, .i32⟩
  | .hbm, ⟨12, _⟩ => ⟨S600000, .i32⟩
  | .hbm, ⟨13, _⟩ => ⟨S100000, .i32⟩
  | .hbm, ⟨14, _⟩ => ⟨S_, .f32⟩
  | .hbm, ⟨15, _⟩ => ⟨S600000, .f32⟩
  | .hbm, ⟨16, _⟩ => ⟨S_, .f32⟩
  | .hbm, ⟨17, _⟩ => ⟨S100000, .f32⟩
  | .hbm, ⟨18, _⟩ => ⟨S600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S_, .i32⟩
  | .hbm, ⟨28, _⟩ => ⟨S600000, .i32⟩
  | .hbm, ⟨29, _⟩ => ⟨S600000, .i1⟩
  | .hbm, ⟨30, _⟩ => ⟨S_, .i32⟩
  | .hbm, ⟨31, _⟩ => ⟨S600000, .i32⟩
  | .hbm, ⟨32, _⟩ => ⟨S600000, .i32⟩
  | .hbm, ⟨33, _⟩ => ⟨S600000, .i32⟩
  | .hbm, ⟨34, _⟩ => ⟨S600000x1, .i32⟩
  | .hbm, ⟨35, _⟩ => ⟨S600000x128, .f32⟩
  | .hbm, ⟨36, _⟩ => ⟨S_, .f32⟩
  | .hbm, ⟨37, _⟩ => ⟨S100000x128, .f32⟩
  | .hbm, ⟨38, _⟩ => ⟨S600000x1, .i32⟩
  | .hbm, ⟨39, _⟩ => ⟨S100000x128, .f32⟩
  | .hbm, ⟨40, _⟩ => ⟨S1x100, .f32⟩
  | .hbm, ⟨41, _⟩ => ⟨S100000x100, .f32⟩
  | .hbm, ⟨42, _⟩ => ⟨S_, .i32⟩
  | .hbm, ⟨43, _⟩ => ⟨S600000, .i32⟩
  | .hbm, ⟨44, _⟩ => ⟨S600000, .i1⟩
  | .hbm, ⟨45, _⟩ => ⟨S_, .i32⟩
  | .hbm, ⟨46, _⟩ => ⟨S600000, .i32⟩
  | .hbm, ⟨47, _⟩ => ⟨S600000, .i32⟩
  | .hbm, ⟨48, _⟩ => ⟨S600000, .i32⟩
  | .hbm, ⟨49, _⟩ => ⟨S600000x1, .i32⟩
  | .hbm, ⟨50, _⟩ => ⟨S600000x100, .f32⟩
  | .hbm, ⟨51, _⟩ => ⟨S_, .f32⟩
  | .hbm, ⟨52, _⟩ => ⟨S100000x100, .f32⟩
  | .hbm, ⟨53, _⟩ => ⟨S600000x1, .i32⟩
  | .hbm, ⟨54, _⟩ => ⟨S100000x100, .f32⟩
  | .hbm, ⟨55, _⟩ => ⟨S1x20, .f32⟩
  | .hbm, ⟨56, _⟩ => ⟨S100000x20, .f32⟩
  | .hbm, ⟨57, _⟩ => ⟨S100000x1, .i32⟩
  | .hbm, ⟨58, _⟩ => ⟨S1x10, .f32⟩
  | .hbm, ⟨59, _⟩ => ⟨S1x1, .f32⟩
  | .hbm, ⟨60, _⟩ => ⟨S64x1, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S128x100, .f32⟩
  | .local _ .vmem, ⟨7, _⟩ => ⟨S128x100, .f32⟩
  | .local _ .vmem, ⟨8, _⟩ => ⟨S1x100, .f32⟩
  | .local _ .vmem, ⟨9, _⟩ => ⟨S4000x100, .f32⟩
  | .local _ .vmem, ⟨10, _⟩ => ⟨S4000x100, .f32⟩
  | .local _ .vmem, ⟨11, _⟩ => ⟨S4000x100, .f32⟩
  | .local _ .vmem, ⟨12, _⟩ => ⟨S4000x100, .f32⟩
  | .local _ .vmem, ⟨13, _⟩ => ⟨S4000x100, .f32⟩
  | .local _ .vmem, ⟨14, _⟩ => ⟨S4000x100, .f32⟩
  | .local _ .vmem, ⟨15, _⟩ => ⟨S4000x1, .f32⟩
  | .local _ .vmem, ⟨16, _⟩ => ⟨S4000x1, .f32⟩
  | .local _ .vmem, ⟨17, _⟩ => ⟨S100x20, .f32⟩
  | .local _ .vmem, ⟨18, _⟩ => ⟨S100x20, .f32⟩
  | .local _ .vmem, ⟨19, _⟩ => ⟨S1x20, .f32⟩
  | .local _ .vmem, ⟨20, _⟩ => ⟨S4000x20, .f32⟩
  | .local _ .vmem, ⟨21, _⟩ => ⟨S4000x20, .f32⟩
  | .local _ .vmem, ⟨22, _⟩ => ⟨S4000x20, .f32⟩
  | .local _ .vmem, ⟨23, _⟩ => ⟨S4000x20, .f32⟩
  | .local _ .vmem, ⟨24, _⟩ => ⟨S4000x1, .i32⟩
  | .local _ .vmem, ⟨25, _⟩ => ⟨S4000x1, .i32⟩
  | .local _ .vmem, ⟨26, _⟩ => ⟨S20x10, .f32⟩
  | .local _ .vmem, ⟨27, _⟩ => ⟨S1x10, .f32⟩
  | .local _ .vmem, ⟨28, _⟩ => ⟨S10x1, .f32⟩
  | .local _ .vmem, ⟨29, _⟩ => ⟨S1x1, .f32⟩
  | .local _ .vmem, ⟨30, _⟩ => ⟨S64x1, .f32⟩
  | .local _ .vmem, ⟨31, _⟩ => ⟨S64x20, .f32⟩
  | .local _ .vmem, ⟨32, _⟩ => ⟨S64x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_v4 : Ref sig .tc := ⟨.hbm, 21, rfl⟩
abbrev main_v5 : Ref sig .tc := ⟨.hbm, 22, rfl⟩
abbrev main_cst_2 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_c : Ref sig .tc := ⟨.hbm, 27, rfl⟩
abbrev main_v9 : Ref sig .tc := ⟨.hbm, 28, rfl⟩
abbrev main_v10 : Ref sig .tc := ⟨.hbm, 29, rfl⟩
abbrev main_c_3 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_4 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_c_5 : Ref sig .tc := ⟨.hbm, 42, rfl⟩
abbrev main_v21 : Ref sig .tc := ⟨.hbm, 43, rfl⟩
abbrev main_v22 : Ref sig .tc := ⟨.hbm, 44, rfl⟩
abbrev main_c_6 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_7 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_scratch0 : Ref sig .tc := ⟨.vmem, 31, rfl⟩
abbrev cc2_scratch1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x100 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x100 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x100 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x100 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x100 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x100 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S100x20 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S100x20 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x20 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x20 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def k2_cond2 (i : grid2.Coords) : BitVec 1 :=
  let arg0 : BitVec 32 := BitVec.ofNat 32 (i 0).val
  let c24_i32 : BitVec 32 := 24#32
  let v28 : BitVec 1 := Scalar.cmpi .eq arg0 c24_i32
  let v29 : BitVec 32 := Scalar.extui v28
  let c0_i32_14 : BitVec 32 := 0#32
  let v30 : BitVec 1 := Scalar.cmpi .ne v29 c0_i32_14
  v30

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S4000x20 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S20x10 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x10 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S10x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

class Facts₀ : Prop where
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  shapeCasts_S100_S1x100 : S100.ShapeCasts S1x100
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S128x100_S128x100_0_0 : ∀ a, (![0, 0] : Fin 2 → Nat) a + S128x100.size a ≤ S128x100.size a
  h_S128x100 : 0 < S128x100.numel
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S4000x100 : S1x100.Broadcasts S4000x100
  inb_S4000x100_S4000x100_0_0 : ∀ a, (![0, 0] : Fin 2 → Nat) a + S4000x100.size a ≤ S4000x100.size a
  h_S4000x100 : 0 < S4000x100.numel
  bcast_S_S100000x100 : S_.BroadcastsInDim S100000x100 (![] : Fin 0 → Fin S100000x100.rank)
  shapeCasts_S20_S1x20 : S20.ShapeCasts S1x20
  shapeCasts_S4000x100_S4000x100 : S4000x100.ShapeCasts S4000x100
  broadcasts_S4000x1_S4000x100 : S4000x1.Broadcasts S4000x100
  inb_S100x20_S100x20_0_0 : ∀ a, (![0, 0] : Fin 2 → Nat) a + S100x20.size a ≤ S100x20.size a
  h_S100x20 : 0 < S100x20.numel
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S1x20_S4000x20 : S1x20.Broadcasts S4000x20
  inb_S4000x20_S4000x20_0_0 : ∀ a, (![0, 0] : Fin 2 → Nat) a + S4000x20.size a ≤ S4000x20.size a
  h_S4000x20 : 0 < S4000x20.numel
  shapeCasts_S100000_S100000x1 : S100000.ShapeCasts S100000x1
  shapeCasts_S10_S1x10 : S10.ShapeCasts S1x10
  shapeCasts_S1_S1x1 : S1.ShapeCasts S1x1
  inb_S64x20_S64x20_0_0 : ∀ a, (![0, 0] : Fin 2 → Nat) a + S64x20.size a ≤ S64x20.size a
  h_S64x20 : 0 < S64x20.numel
  shapeCasts_S64x20_S64x20 : S64x20.ShapeCasts S64x20
  inb_S64x1_S64x1_0_0 : ∀ a, (![0, 0] : Fin 2 → Nat) a + S64x1.size a ≤ S64x1.size a
  h_S64x1 : 0 < S64x1.numel
  shapeCasts_S64x1_S64x1 : S64x1.ShapeCasts S64x1
  shapeCasts_S4000x1_S1x4000 : S4000x1.ShapeCasts S1x4000
  iota_S64x4000_d0_w32 : S64x4000.Iotas .tc 32 [0]
  broadcasts_S1x4000_S64x4000 : S1x4000.Broadcasts S64x4000
  natLt_1_32 : 1 < 32
  shapeCasts_S4000x20_S4000x20 : S4000x20.ShapeCasts S4000x20
  broadcasts_S64x1_S64x20 : S64x1.Broadcasts S64x20
  inb_S20x10_S20x10_0_0 : ∀ a, (![0, 0] : Fin 2 → Nat) a + S20x10.size a ≤ S20x10.size a
  h_S20x10 : 0 < S20x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S64x10 : S1x10.Broadcasts S64x10
  inb_S10x1_S10x1_0_0 : ∀ a, (![0, 0] : Fin 2 → Nat) a + S10x1.size a ≤ S10x1.size a
  h_S10x1 : 0 < S10x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x1 : S1x1.Broadcasts S64x1
  scatter_S100000_S600000x1_S600000_n_0_0_1_wf : ScatterDims.WF S100000 S600000x1 S600000 [] [0] [0] 1
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S4000x128_S128x100_S4000x100_1_0_0_1_n_n_wf : DotDims.WF S4000x128 S128x100 S4000x100 [1] [0] [0] [1] [] []
  gather_S100000x100_S600000x1_S600000x100_1_0_n_n_0_1_1100_wf : GatherDims.WF S100000x100 S600000x1 S600000x100 [1] [0] [] [0] [] 1 ![1, 100]
  scatter_S100000x100_S600000x1_S600000x100_1_0_0_1_wf : ScatterDims.WF S100000x100 S600000x1 S600000x100 [1] [0] [0] 1
  dot_S4000x100_S100x20_S4000x20_1_0_0_1_n_n_wf : DotDims.WF S4000x100 S100x20 S4000x20 [1] [0] [0] [1] [] []
  dot_S64x4000_S4000x20_S64x20_1_0_0_1_n_n_wf : DotDims.WF S64x4000 S4000x20 S64x20 [1] [0] [0] [1] [] []
  dot_S64x4000_S4000x1_S64x1_1_0_0_1_n_n_wf : DotDims.WF S64x4000 S4000x1 S64x1 [1] [0] [0] [1] [] []
  dot_S64x20_S20x10_S64x10_1_0_0_1_n_n_wf : DotDims.WF S64x20 S20x10 S64x10 [1] [0] [0] [1] [] []
  dot_S64x10_S10x1_S64x1_1_0_0_1_n_n_wf : DotDims.WF S64x10 S10x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x100.size a ≤ S128x100.size a
  hwx0_3 : ∀ i : grid0.Coords, EltTy.bits .f32 = 32 ∨ (Rect.block (s := S128x100) S128x100.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x100.size a ≤ S128x100.size a
  hwx0_4 : ∀ i : grid0.Coords, EltTy.bits .f32 = 32 ∨ (Rect.block (s := S128x100) S128x100.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x100.size a ≤ S1x100.size a
  hwx0_5 : ∀ i : grid0.Coords, EltTy.bits .f32 = 32 ∨ (Rect.block (s := S1x100) S1x100.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x100.size a ≤ S100000x100.size a
  hwx0_6 : ∀ i : grid0.Coords, EltTy.bits .f32 = 32 ∨ (Rect.block (s := S100000x100) S4000x100.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x100.size a ≤ S100000x100.size a
  hwx1_0 : ∀ i : grid1.Coords, EltTy.bits .f32 = 32 ∨ (Rect.block (s := S100000x100) S4000x100.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x100.size a ≤ S100000x100.size a
  hwx1_1 : ∀ i : grid1.Coords, EltTy.bits .f32 = 32 ∨ (Rect.block (s := S100000x100) S4000x100.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S100x20.size a ≤ S100x20.size a
  hwx1_3 : ∀ i : grid1.Coords, EltTy.bits .f32 = 32 ∨ (Rect.block (s := S100x20) S100x20.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S100x20.size a ≤ S100x20.size a
  hwx1_4 : ∀ i : grid1.Coords, EltTy.bits .f32 = 32 ∨ (Rect.block (s := S100x20) S100x20.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x20.size a ≤ S1x20.size a
  hwx1_5 : ∀ i : grid1.Coords, EltTy.bits .f32 = 32 ∨ (Rect.block (s := S1x20) S1x20.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x20.size a ≤ S100000x20.size a
  hwx1_6 : ∀ i : grid1.Coords, EltTy.bits .f32 = 32 ∨ (Rect.block (s := S100000x20) S4000x20.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x20.size a ≤ S100000x20.size a
  hwx2_0 : ∀ i : grid2.Coords, EltTy.bits .f32 = 32 ∨ (Rect.block (s := S100000x20) S4000x20.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .i32 = 32 ∨ (Rect.block (s := S100000x1) S4000x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S20x10.size a ≤ S20x10.size a
  hwx2_2 : ∀ i : grid2.Coords, EltTy.bits .f32 = 32 ∨ (Rect.block (s := S20x10) S20x10.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x10.size a ≤ S1x10.size a
  hwx2_3 : ∀ i : grid2.Coords, EltTy.bits .f32 = 32 ∨ (Rect.block (s := S1x10) S1x10.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S10x1.size a ≤ S10x1.size a
  hwx2_4 : ∀ i : grid2.Coords, EltTy.bits .f32 = 32 ∨ (Rect.block (s := S10x1) S10x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1.size a ≤ S1x1.size a
  hwx2_5 : ∀ i : grid2.Coords, EltTy.bits .f32 = 32 ∨ (Rect.block (s := S1x1) S1x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x1.size a ≤ S64x1.size a
  hwx2_6 : ∀ i : grid2.Coords, EltTy.bits .f32 = 32 ∨ (Rect.block (s := S64x1) S64x1.size (cc2_transform_6 i) (hinb2_6 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S4000x128_S128x100_S4000x100_1_0_0_1_n_n : DotDims S4000x128 S128x100 S4000x100 where
  lhsContracting := [1]
  rhsContracting := [0]
  lhsNonContracting := [0]
  rhsNonContracting := [1]
  lhsBatch := []
  rhsBatch := []
  wf := dot_S4000x128_S128x100_S4000x100_1_0_0_1_n_n_wf
def gather_S100000x100_S600000x1_S600000x100_1_0_n_n_0_1_1100 : GatherDims S100000x100 S600000x1 S600000x100 where
  offsetDims := [1]
  collapsedSliceDims := [0]
  operandBatchingDims := []
  startIndicesBatchingDims := []
  startIndexMap := [0]
  indexVectorDim := 1
  sliceSizes := ![1, 100]
  wf := gather_S100000x100_S600000x1_S600000x100_1_0_n_n_0_1_1100_wf
def scatter_S100000x100_S600000x1_S600000x100_1_0_0_1 : ScatterDims S100000x100 S600000x1 S600000x100 where
  updateWindowDims := [1]
  insertedWindowDims := [0]
  scatterDimsToOperandDims := [0]
  indexVectorDim := 1
  wf := scatter_S100000x100_S600000x1_S600000x100_1_0_0_1_wf
def dot_S4000x100_S100x20_S4000x20_1_0_0_1_n_n : DotDims S4000x100 S100x20 S4000x20 where
  lhsContracting := [1]
  rhsContracting := [0]
  lhsNonContracting := [0]
  rhsNonContracting := [1]
  lhsBatch := []
  rhsBatch := []
  wf := dot_S4000x100_S100x20_S4000x20_1_0_0_1_n_n_wf
def dot_S64x4000_S4000x20_S64x20_1_0_0_1_n_n : DotDims S64x4000 S4000x20 S64x20 where
  lhsContracting := [1]
  rhsContracting := [0]
  lhsNonContracting := [0]
  rhsNonContracting := [1]
  lhsBatch := []
  rhsBatch := []
  wf := dot_S64x4000_S4000x20_S64x20_1_0_0_1_n_n_wf
def dot_S64x4000_S4000x1_S64x1_1_0_0_1_n_n : DotDims S64x4000 S4000x1 S64x1 where
  lhsContracting := [1]
  rhsContracting := [0]
  lhsNonContracting := [0]
  rhsNonContracting := [1]
  lhsBatch := []
  rhsBatch := []
  wf := dot_S64x4000_S4000x1_S64x1_1_0_0_1_n_n_wf
def dot_S64x20_S20x10_S64x10_1_0_0_1_n_n : DotDims S64x20 S20x10 S64x10 where
  lhsContracting := [1]
  rhsContracting := [0]
  lhsNonContracting := [0]
  rhsNonContracting := [1]
  lhsBatch := []
  rhsBatch := []
  wf := dot_S64x20_S20x10_S64x10_1_0_0_1_n_n_wf
def dot_S64x10_S10x1_S64x1_1_0_0_1_n_n : DotDims S64x10 S10x1 S64x1 where
  lhsContracting := [1]
  rhsContracting := [0]
  lhsNonContracting := [0]
  rhsNonContracting := [1]
  lhsBatch := []
  rhsBatch := []
  wf := dot_S64x10_S10x1_S64x1_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S128x100.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S128x100.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x100.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S4000x100.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v20) S4000x100.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S4000x100.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S100x20.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S100x20.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S1x20.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S4000x20.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v32) S4000x20.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S20x10.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v34) S1x10.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S10x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v35) S1x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v36) S64x1.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun _ => false | 6 => fun i => !(k2_cond2 i == 1#1) | ⟨_ + 7, h⟩ => absurd h (Nat.not_lt.2 (Nat.le_add_left _ _))

class Facts : Prop extends Facts₀ where

variable [Facts]
-- ==== ReferenceIdeal.lean ====
abbrev S100000x128 : Shape := ⟨2, ![100000, 128]⟩
abbrev S128x100 : Shape := ⟨2, ![128, 100]⟩
abbrev S100 : Shape := ⟨1, ![100]⟩
abbrev S100x20 : Shape := ⟨2, ![100, 20]⟩
abbrev S20 : Shape := ⟨1, ![20]⟩
abbrev S20x10 : Shape := ⟨2, ![20, 10]⟩
abbrev S10 : Shape := ⟨1, ![10]⟩
abbrev S10x1 : Shape := ⟨2, ![10, 1]⟩
abbrev S1 : Shape := ⟨1, ![1]⟩
abbrev S600000 : Shape := ⟨1, ![600000]⟩
abbrev S100000 : Shape := ⟨1, ![100000]⟩
abbrev S_ : Shape := ⟨0, ![]⟩
abbrev S600000x1 : Shape := ⟨2, ![600000, 1]⟩
abbrev S100000x1 : Shape := ⟨2, ![100000, 1]⟩
abbrev S600000x128 : Shape := ⟨2, ![600000, 128]⟩
abbrev S100000x100 : Shape := ⟨2, ![100000, 100]⟩
abbrev S1x100 : Shape := ⟨2, ![1, 100]⟩
abbrev S600000x100 : Shape := ⟨2, ![600000, 100]⟩
abbrev S100000x20 : Shape := ⟨2, ![100000, 20]⟩
abbrev S1x20 : Shape := ⟨2, ![1, 20]⟩
abbrev S64 : Shape := ⟨1, ![64]⟩
abbrev S64x20 : Shape := ⟨2, ![64, 20]⟩
abbrev S64x1 : Shape := ⟨2, ![64, 1]⟩
abbrev S64x10 : Shape := ⟨2, ![64, 10]⟩
abbrev S1x10 : Shape := ⟨2, ![1, 10]⟩
abbrev S1x1 : Shape := ⟨2, ![1, 1]⟩

abbrev nBuf : Space → Nat
  | .hbm => 102
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x100, .f32⟩
  | .hbm, ⟨2, _⟩ => ⟨S128x100, .f32⟩
  | .hbm, ⟨3, _⟩ => ⟨S100, .f32⟩
  | .hbm, ⟨4, _⟩ => ⟨S100x20, .f32⟩
  | .hbm, ⟨5, _⟩ => ⟨S100x20, .f32⟩
  | .hbm, ⟨6, _⟩ => ⟨S20, .f32⟩
  | .hbm, ⟨7, _⟩ => ⟨S20x10, .f32⟩
  | .hbm, ⟨8, _⟩ => ⟨S10, .f32⟩
  | .hbm, ⟨9, _⟩ => ⟨S10x1, .f32⟩
  | .hbm, ⟨10, _⟩ => ⟨S1, .f32⟩
  | .hbm, ⟨11, _⟩ => ⟨S600000, .i32⟩
  | .hbm, ⟨12, _⟩ => ⟨S600000, .i32⟩
  | .hbm, ⟨13, _⟩ => ⟨S100000, .i32⟩
  | .hbm, ⟨14, _⟩ => ⟨S_, .f32⟩
  | .hbm, ⟨15, _⟩ => ⟨S600000, .f32⟩
  | .hbm, ⟨16, _⟩ => ⟨S_, .f32⟩
  | .hbm, ⟨17, _⟩ => ⟨S100000, .f32⟩
  | .hbm, ⟨18, _⟩ => ⟨S600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S_, .i32⟩
  | .hbm, ⟨28, _⟩ => ⟨S600000, .i32⟩
  | .hbm, ⟨29, _⟩ => ⟨S600000, .i1⟩
  | .hbm, ⟨30, _⟩ => ⟨S_, .i32⟩
  | .hbm, ⟨31, _⟩ => ⟨S600000, .i32⟩
  | .hbm, ⟨32, _⟩ => ⟨S600000, .i32⟩
  | .hbm, ⟨33, _⟩ => ⟨S600000, .i32⟩
  | .hbm, ⟨34, _⟩ => ⟨S600000x1, .i32⟩
  | .hbm, ⟨35, _⟩ => ⟨S600000x128, .f32⟩
  | .hbm, ⟨36, _⟩ => ⟨S_, .f32⟩
  | .hbm, ⟨37, _⟩ => ⟨S100000x128, .f32⟩
  | .hbm, ⟨38, _⟩ => ⟨S600000x1, .i32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x100, .f32⟩
  | .hbm, ⟨43, _⟩ => ⟨S100000x100, .f32⟩
  | .hbm, ⟨44, _⟩ => ⟨S100000x100, .f32⟩
  | .hbm, ⟨45, _⟩ => ⟨S1x100, .f32⟩
  | .hbm, ⟨46, _⟩ => ⟨S100000x100, .f32⟩
  | .hbm, ⟨47, _⟩ => ⟨S100000x100, .f32⟩
  | .hbm, ⟨48, _⟩ => ⟨S_, .f32⟩
  | .hbm, ⟨49, _⟩ => ⟨S100000x100, .f32⟩
  | .hbm, ⟨50, _⟩ => ⟨S100000x100, .f32⟩
  | .hbm, ⟨51, _⟩ => ⟨S_, .i32⟩
  | .hbm, ⟨52, _⟩ => ⟨S600000, .i32⟩
  | .hbm, ⟨53, _⟩ => ⟨S600000, .i1⟩
  | .hbm, ⟨54, _⟩ => ⟨S_, .i32⟩
  | .hbm, ⟨55, _⟩ => ⟨S600000, .i32⟩
  | .hbm, ⟨56, _⟩ => ⟨S600000, .i32⟩
  | .hbm, ⟨57, _⟩ => ⟨S600000, .i32⟩
  | .hbm, ⟨58, _⟩ => ⟨S600000x1, .i32⟩
  | .hbm, ⟨59, _⟩ => ⟨S600000x100, .f32⟩
  | .hbm, ⟨60, _⟩ => ⟨S_, .f32⟩
  | .hbm, ⟨61, _⟩ => ⟨S100000x100, .f32⟩
  | .hbm, ⟨62, _⟩ => ⟨S600000x1, .i32⟩
  | .hbm, ⟨63, _⟩ => ⟨S100000x100, .f32⟩
  | .hbm, ⟨64, _⟩ => ⟨S100000x100, .f32⟩
  | .hbm, ⟨65, _⟩ => ⟨S100000x100, .f32⟩
  | .hbm, ⟨66, _⟩ => ⟨S100000x20, .f32⟩
  | .hbm, ⟨67, _⟩ => ⟨S100000x20, .f32⟩
  | .hbm, ⟨68, _⟩ => ⟨S100000x20, .f32⟩
  | .hbm, ⟨69, _⟩ => ⟨S1x20, .f32⟩
  | .hbm, ⟨70, _⟩ => ⟨S100000x20, .f32⟩
  | .hbm, ⟨71, _⟩ => ⟨S100000x20, .f32⟩
  | .hbm, ⟨72, _⟩ => ⟨S_, .f32⟩
  | .hbm, ⟨73, _⟩ => ⟨S100000x20, .f32⟩
  | .hbm, ⟨74, _⟩ => ⟨S100000x20, .f32⟩
  | .hbm, ⟨75, _⟩ => ⟨S_, .f32⟩
  | .hbm, ⟨76, _⟩ => ⟨S100000, .f32⟩
  | .hbm, ⟨77, _⟩ => ⟨S_, .f32⟩
  | .hbm, ⟨78, _⟩ => ⟨S64, .f32⟩
  | .hbm, ⟨79, _⟩ => ⟨S100000x1, .i32⟩
  | .hbm, ⟨80, _⟩ => ⟨S64, .f32⟩
  | .hbm, ⟨81, _⟩ => ⟨S_, .f32⟩
  | .hbm, ⟨82, _⟩ => ⟨S64x20, .f32⟩
  | .hbm, ⟨83, _⟩ => ⟨S100000x1, .i32⟩
  | .hbm, ⟨84, _⟩ => ⟨S64x20, .f32⟩
  | .hbm, ⟨85, _⟩ => ⟨S_, .f32⟩
  | .hbm, ⟨86, _⟩ => ⟨S64, .f32⟩
  | .hbm, ⟨87, _⟩ => ⟨S64, .f32⟩
  | .hbm, ⟨88, _⟩ => ⟨S64x1, .f32⟩
  | .hbm, ⟨89, _⟩ => ⟨S64x20, .f32⟩
  | .hbm, ⟨90, _⟩ => ⟨S64x20, .f32⟩
  | .hbm, ⟨91, _⟩ => ⟨S64x10, .f32⟩
  | .hbm, ⟨92, _⟩ => ⟨S1x10, .f32⟩
  | .hbm, ⟨93, _⟩ => ⟨S64x10, .f32⟩
  | .hbm, ⟨94, _⟩ => ⟨S64x10, .f32⟩
  | .hbm, ⟨95, _⟩ => ⟨S_, .f32⟩
  | .hbm, ⟨96, _⟩ => ⟨S64x10, .f32⟩
  | .hbm, ⟨97, _⟩ => ⟨S64x10, .f32⟩
  | .hbm, ⟨98, _⟩ => ⟨S64x1, .f32⟩
  | .hbm, ⟨99, _⟩ => ⟨S1x1, .f32⟩
  | .hbm, ⟨100, _⟩ => ⟨S64x1, .f32⟩
  | .hbm, ⟨101, _⟩ => ⟨S64x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_v4 : Ref sig .tc := ⟨.hbm, 21, rfl⟩
abbrev main_v5 : Ref sig .tc := ⟨.hbm, 22, rfl⟩
abbrev main_cst_2 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_c : Ref sig .tc := ⟨.hbm, 27, rfl⟩
abbrev main_v9 : Ref sig .tc := ⟨.hbm, 28, rfl⟩
abbrev main_v10 : Ref sig .tc := ⟨.hbm, 29, rfl⟩
abbrev main_c_3 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_4 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_call0_cst : Ref sig .tc := ⟨.hbm, 48, rfl⟩
abbrev main_call0_v0 : Ref sig .tc := ⟨.hbm, 49, rfl⟩
abbrev main_v27 : Ref sig .tc := ⟨.hbm, 50, rfl⟩
abbrev main_c_5 : Ref sig .tc := ⟨.hbm, 51, rfl⟩
abbrev main_v28 : Ref sig .tc := ⟨.hbm, 52, rfl⟩
abbrev main_v29 : Ref sig .tc := ⟨.hbm, 53, rfl⟩
abbrev main_c_6 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_7 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_call1_cst : Ref sig .tc := ⟨.hbm, 72, rfl⟩
abbrev main_call1_v0 : Ref sig .tc := ⟨.hbm, 73, rfl⟩
abbrev main_v46 : Ref sig .tc := ⟨.hbm, 74, rfl⟩
abbrev main_cst_8 : Ref sig .tc := ⟨.hbm, 75, rfl⟩
abbrev main_v47 : Ref sig .tc := ⟨.hbm, 76, rfl⟩
abbrev main_cst_9 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_10 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_11 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_call2_cst : Ref sig .tc := ⟨.hbm, 95, rfl⟩
abbrev main_call2_v0 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S100_S1x100_1 : S100.BroadcastsInDim S1x100 (![1] : Fin 1 → Fin S1x100.rank)
  bcast_S1x100_S100000x100_0_1 : S1x100.BroadcastsInDim S100000x100 (![0, 1] : Fin 2 → Fin S100000x100.rank)
  bcast_S_S100000x100 : S_.BroadcastsInDim S100000x100 (![] : Fin 0 → Fin S100000x100.rank)
  bcast_S100000x1_S100000x100_0_1 : S100000x1.BroadcastsInDim S100000x100 (![0, 1] : Fin 2 → Fin S100000x100.rank)
  bcast_S20_S1x20_1 : S20.BroadcastsInDim S1x20 (![1] : Fin 1 → Fin S1x20.rank)
  bcast_S1x20_S100000x20_0_1 : S1x20.BroadcastsInDim S100000x20 (![0, 1] : Fin 2 → Fin S100000x20.rank)
  bcast_S_S100000x20 : S_.BroadcastsInDim S100000x20 (![] : Fin 0 → Fin S100000x20.rank)
  bcast_S_S64 : S_.BroadcastsInDim S64 (![] : Fin 0 → Fin S64.rank)
  bcast_S_S64x20 : S_.BroadcastsInDim S64x20 (![] : Fin 0 → Fin S64x20.rank)
  bcast_S64_S64x1_0 : S64.BroadcastsInDim S64x1 (![0] : Fin 1 → Fin S64x1.rank)
  bcast_S64x1_S64x20_0_1 : S64x1.BroadcastsInDim S64x20 (![0, 1] : Fin 2 → Fin S64x20.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  bcast_S_S64x10 : S_.BroadcastsInDim S64x10 (![] : Fin 0 → Fin S64x10.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  scatter_S100000_S600000x1_S600000_n_0_0_1_wf : ScatterDims.WF S100000 S600000x1 S600000 [] [0] [0] 1
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x100_S100000x100_1_0_0_1_n_n_wf : DotDims.WF S100000x128 S128x100 S100000x100 [1] [0] [0] [1] [] []
  gather_S100000x100_S600000x1_S600000x100_1_0_n_n_0_1_1100_wf : GatherDims.WF S100000x100 S600000x1 S600000x100 [1] [0] [] [0] [] 1 ![1, 100]
  scatter_S100000x100_S600000x1_S600000x100_1_0_0_1_wf : ScatterDims.WF S100000x100 S600000x1 S600000x100 [1] [0] [0] 1
  dot_S100000x100_S100x20_S100000x20_1_0_0_1_n_n_wf : DotDims.WF S100000x100 S100x20 S100000x20 [1] [0] [0] [1] [] []
  scatter_S64_S100000x1_S100000_n_0_0_1_wf : ScatterDims.WF S64 S100000x1 S100000 [] [0] [0] 1
  scatter_S64x20_S100000x1_S100000x20_1_0_0_1_wf : ScatterDims.WF S64x20 S100000x1 S100000x20 [1] [0] [0] 1
  dot_S64x20_S20x10_S64x10_1_0_0_1_n_n_wf : DotDims.WF S64x20 S20x10 S64x10 [1] [0] [0] [1] [] []
  dot_S64x10_S10x1_S64x1_1_0_0_1_n_n_wf : DotDims.WF S64x10 S10x1 S64x1 [1] [0] [0] [1] [] []

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x100_S100000x100_1_0_0_1_n_n : DotDims S100000x128 S128x100 S100000x100 where
  lhsContracting := [1]
  rhsContracting := [0]
  lhsNonContracting := [0]
  rhsNonContracting := [1]
  lhsBatch := []
  rhsBatch := []
  wf := dot_S100000x128_S128x100_S100000x100_1_0_0_1_n_n_wf
def gather_S100000x100_S600000x1_S600000x100_1_0_n_n_0_1_1100 : GatherDims S100000x100 S600000x1 S600000x100 where
  offsetDims := [1]
  collapsedSliceDims := [0]
  operandBatchingDims := []
  startIndicesBatchingDims := []
  startIndexMap := [0]
  indexVectorDim := 1
  sliceSizes := ![1, 100]
  wf := gather_S100000x100_S600000x1_S600000x100_1_0_n_n_0_1_1100_wf
def scatter_S100000x100_S600000x1_S600000x100_1_0_0_1 : ScatterDims S100000x100 S600000x1 S600000x100 where
  updateWindowDims := [1]
  insertedWindowDims := [0]
  scatterDimsToOperandDims := [0]
  indexVectorDim := 1
  wf := scatter_S100000x100_S600000x1_S600000x100_1_0_0_1_wf
def dot_S100000x100_S100x20_S100000x20_1_0_0_1_n_n : DotDims S100000x100 S100x20 S100000x20 where
  lhsContracting := [1]
  rhsContracting := [0]
  lhsNonContracting := [0]
  rhsNonContracting := [1]
  lhsBatch := []
  rhsBatch := []
  wf := dot_S100000x100_S100x20_S100000x20_1_0_0_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x20_S100000x1_S100000x20_1_0_0_1 : ScatterDims S64x20 S100000x1 S100000x20 where
  updateWindowDims := [1]
  insertedWindowDims := [0]
  scatterDimsToOperandDims := [0]
  indexVectorDim := 1
  wf := scatter_S64x20_S100000x1_S100000x20_1_0_0_1_wf
def dot_S64x20_S20x10_S64x10_1_0_0_1_n_n : DotDims S64x20 S20x10 S64x10 where
  lhsContracting := [1]
  rhsContracting := [0]
  lhsNonContracting := [0]
  rhsNonContracting := [1]
  lhsBatch := []
  rhsBatch := []
  wf := dot_S64x20_S20x10_S64x10_1_0_0_1_n_n_wf
def dot_S64x10_S10x1_S64x1_1_0_0_1_n_n : DotDims S64x10 S10x1 S64x1 where
  lhsContracting := [1]
  rhsContracting := [0]
  lhsNonContracting := [0]
  rhsNonContracting := [1]
  lhsBatch := []
  rhsBatch := []
  wf := dot_S64x10_S10x1_S64x1_1_0_0_1_n_n_wf

class Facts : Prop extends Facts₀ where

variable [Facts]
-- ==== Proof.K.Sage0.lean ====
/-
  Region 0 of the program: the first SAGE layer's dense combine, one grid point per block of 4000 node rows.
  At a grid point the body reads the block of node features x (4000×128), the block of summed neighbour
  features agg (4000×128), the block of reciprocal in-degrees inv (4000×1) and the whole weights Wself, Wneigh
  (128×100) and bias b (1×100), and stores into its output block (4000×100) the single value
  max(x·Wself + (agg ⊙ inv)·Wneigh + b, 0), the payload `k0_pay1` of those six loads.
  Everything here is stated at a parameter `V`: the contents of the core's buffers when the region is entered.
  What is proved: the body's triple (inputs kept, the output buffer at `out0_6` of the inputs), the proof data
  of the pipeline (each input window's staging buffer at its block of the array, the output's at `out0_6` of
  the point's blocks, the invariant the scoped buffers and the generator register untouched), and the body
  obligation at every grid point.  Generic in the float instance.
-/
import proofs.«423883_j31576599560691_3_alg».proof.Proof.Gen.Kernel.Launch
import proofs.«423883_j31576599560691_3_alg».proof.Proof.Gen.Kernel.Skeleton
import proofs.«423883_j31576599560691_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: the rows `4000·t … 4000·t + 3999` of a row-blocked array (the whole
    array for the weights and the bias), read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block of the array at every grid point, whether the pipeline
    fetched it there or not (where it did not, the block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block of the array at every grid point, whether the pipeline
    fetched it there or not (where it did not, the block index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block of the array at every grid point, whether the pipeline
    fetched it there or not (where it did not, the block index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block of the array at every grid point, whether the pipeline
    fetched it there or not (where it did not, the block index has not moved). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block of the array at every grid point, whether the pipeline
    fetched it there or not (where it did not, the block index has not moved). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block of the array at every grid point, whether the pipeline
    fetched it there or not (where it did not, the block index has not moved). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take a whole staging buffer -/

abbrev r0_x : Rect S4000x128 := Rect.unit (s := S4000x128) ![0, 0] S4000x128.size inb_S4000x128_S4000x128_0_0
abbrev r0_inv : Rect S4000x1 := Rect.unit (s := S4000x1) ![0, 0] S4000x1.size inb_S4000x1_S4000x1_0_0
abbrev r0_w : Rect S128x100 := Rect.unit (s := S128x100) ![0, 0] S128x100.size inb_S128x100_S128x100_0_0
abbrev r0_b : Rect S1x100 := Rect.unit (s := S1x100) ![0, 0] S1x100.size inb_S1x100_S1x100_0_0
abbrev r0_o : Rect S4000x100 := Rect.unit (s := S4000x100) ![0, 0] S4000x100.size inb_S4000x100_S4000x100_0_0

/-! ## What the body leaves in the output window's buffer -/

/-- The output block after the body, from the six input blocks: its one store, of the payload of the six loads. -/
def out0_6 (x0 : Vec F S4000x128 .f32) (x1 : Vec F S4000x128 .f32) (x2 : Vec F S4000x1 .f32) (x3 : Vec F S128x100 .f32) (x4 : Vec F S128x100 .f32) (x5 : Vec F S1x100 .f32) : Vec F S4000x100 .f32 :=
  View.canon [⟨r0_o, k0_pay1 (View.ld x0 r0_x) (View.ld x1 r0_x) (View.ld x2 r0_inv) (View.ld x3 r0_w) (View.ld x4 r0_w) (View.ld x5 r0_b)⟩]

/-- The one store takes the whole block, so it covers it. -/
theorem cover0_6 (p0 : Vec F S4000x100 .f32) (y : S4000x100.Idx) :
    ∃ pc ∈ ([⟨r0_o, p0⟩] : List (View.Piece (Elt F) S4000x100 .f32)), y ∈ pc.1.set :=
  View.cover_of_tiled [⟨r0_o, p0⟩] S4000x100.size (by rfl) y

/-! ## The body's triple -/

set_option maxHeartbeats 4000000 in
/-- The body on whole staging buffers, the six inputs' at contents `x0 … x5` and the output's at anything, runs to its
    end holding the inputs' as they were and the output's at `out0_6` of the inputs'. -/
theorem sound_kernel0 (c : Dev nD) (E : Set ℕ) (i : grid0.Coords) (arg1 : Memref sig .tc .vmem S4000x128 .f32) (harg1 : arg1.IsWhole) (arg2 : Memref sig .tc .vmem S4000x128 .f32) (harg2 : arg2.IsWhole) (arg3 : Memref sig .tc .vmem S4000x1 .f32) (harg3 : arg3.IsWhole) (arg4 : Memref sig .tc .vmem S128x100 .f32) (harg4 : arg4.IsWhole) (arg5 : Memref sig .tc .vmem S128x100 .f32) (harg5 : arg5.IsWhole) (arg6 : Memref sig .tc .vmem S1x100 .f32) (harg6 : arg6.IsWhole) (arg7 : Memref sig .tc .vmem S4000x100 .f32) (harg7 : arg7.IsWhole)
    (x0 : Vec F S4000x128 .f32) (x1 : Vec F S4000x128 .f32) (x2 : Vec F S4000x1 .f32) (x3 : Vec F S128x100 .f32) (x4 : Vec F S128x100 .f32) (x5 : Vec F S1x100 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0__sage_kernel i arg1 harg1 arg2 harg2 arg3 harg3 arg4 harg4 arg5 harg5 arg6 harg6 arg7 harg7) K := by
  simp only [cc0__sage_kernel_eq_skeleton]; unfold cc0__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The proof data of pipeline 0 on core `c`: the arrays as the region finds them; after the body at point `t` each
    input's buffer at its block and the output's at `out0_6` of the point's six blocks; the invariant the scoped buffers
    no window stages and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t
    = out0_6 (iblk0 V c 0 t) (iblk0 V c 1 t) (iblk0 V c 2 t) (iblk0 V c 3 t) (iblk0 V c 4 t) (iblk0 V c 5 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Sage1.lean ====
/-
  Region 1 of the program: the second SAGE layer's dense combine, one grid point per block of 4000 node rows.
  At a grid point the body reads the block of node features x (4000×100), the block of summed neighbour
  features agg (4000×100), the block of reciprocal in-degrees inv (4000×1) and the whole weights Wself, Wneigh
  (100×20) and bias b (1×20), and stores into its output block (4000×20) the single value
  max(x·Wself + (agg ⊙ inv)·Wneigh + b, 0), the payload `k1_pay1` of those six loads.
  Everything here is stated at a parameter `V`: the contents of the core's buffers when the region is entered.
  What is proved: the body's triple (inputs kept, the output buffer at `out1_6` of the inputs), the proof data
  of the pipeline (each input window's staging buffer at its block of the array, the output's at `out1_6` of
  the point's blocks, the invariant the scoped buffers and the generator register untouched), and the body
  obligation at every grid point.  Generic in the float instance.
-/
import proofs.«423883_j31576599560691_3_alg».proof.Proof.Gen.Kernel.Launch
import proofs.«423883_j31576599560691_3_alg».proof.Proof.Gen.Kernel.Skeleton
import proofs.«423883_j31576599560691_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: the rows `4000·t … 4000·t + 3999` of a row-blocked array (the whole
    array for the weights and the bias), read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block of the array at every grid point, whether the pipeline
    fetched it there or not (where it did not, the block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block of the array at every grid point, whether the pipeline
    fetched it there or not (where it did not, the block index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block of the array at every grid point, whether the pipeline
    fetched it there or not (where it did not, the block index has not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block of the array at every grid point, whether the pipeline
    fetched it there or not (where it did not, the block index has not moved). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block of the array at every grid point, whether the pipeline
    fetched it there or not (where it did not, the block index has not moved). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block of the array at every grid point, whether the pipeline
    fetched it there or not (where it did not, the block index has not moved). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take a whole staging buffer -/

abbrev r1_x : Rect S4000x100 := Rect.unit (s := S4000x100) ![0, 0] S4000x100.size inb_S4000x100_S4000x100_0_0
abbrev r1_inv : Rect S4000x1 := Rect.unit (s := S4000x1) ![0, 0] S4000x1.size inb_S4000x1_S4000x1_0_0
abbrev r1_w : Rect S100x20 := Rect.unit (s := S100x20) ![0, 0] S100x20.size inb_S100x20_S100x20_0_0
abbrev r1_b : Rect S1x20 := Rect.unit (s := S1x20) ![0, 0] S1x20.size inb_S1x20_S1x20_0_0
abbrev r1_o : Rect S4000x20 := Rect.unit (s := S4000x20) ![0, 0] S4000x20.size inb_S4000x20_S4000x20_0_0

/-! ## What the body leaves in the output window's buffer -/

/-- The output block after the body, from the six input blocks: its one store, of the payload of the six loads. -/
def out1_6 (x0 : Vec F S4000x100 .f32) (x1 : Vec F S4000x100 .f32) (x2 : Vec F S4000x1 .f32) (x3 : Vec F S100x20 .f32) (x4 : Vec F S100x20 .f32) (x5 : Vec F S1x20 .f32) : Vec F S4000x20 .f32 :=
  View.canon [⟨r1_o, k1_pay1 (View.ld x0 r1_x) (View.ld x1 r1_x) (View.ld x2 r1_inv) (View.ld x3 r1_w) (View.ld x4 r1_w) (View.ld x5 r1_b)⟩]

/-- The one store takes the whole block, so it covers it. -/
theorem cover1_6 (p0 : Vec F S4000x20 .f32) (y : S4000x20.Idx) :
    ∃ pc ∈ ([⟨r1_o, p0⟩] : List (View.Piece (Elt F) S4000x20 .f32)), y ∈ pc.1.set :=
  View.cover_of_tiled [⟨r1_o, p0⟩] S4000x20.size (by rfl) y

/-! ## The body's triple -/

set_option maxHeartbeats 4000000 in
/-- The body on whole staging buffers, the six inputs' at contents `x0 … x5` and the output's at anything, runs to its
    end holding the inputs' as they were and the output's at `out1_6` of the inputs'. -/
theorem sound_kernel1 (c : Dev nD) (E : Set ℕ) (i : grid1.Coords) (arg1 : Memref sig .tc .vmem S4000x100 .f32) (harg1 : arg1.IsWhole) (arg2 : Memref sig .tc .vmem S4000x100 .f32) (harg2 : arg2.IsWhole) (arg3 : Memref sig .tc .vmem S4000x1 .f32) (harg3 : arg3.IsWhole) (arg4 : Memref sig .tc .vmem S100x20 .f32) (harg4 : arg4.IsWhole) (arg5 : Memref sig .tc .vmem S100x20 .f32) (harg5 : arg5.IsWhole) (arg6 : Memref sig .tc .vmem S1x20 .f32) (harg6 : arg6.IsWhole) (arg7 : Memref sig .tc .vmem S4000x20 .f32) (harg7 : arg7.IsWhole)
    (x0 : Vec F S4000x100 .f32) (x1 : Vec F S4000x100 .f32) (x2 : Vec F S4000x1 .f32) (x3 : Vec F S100x20 .f32) (x4 : Vec F S100x20 .f32) (x5 : Vec F S1x20 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__sage_kernel i arg1 harg1 arg2 harg2 arg3 harg3 arg4 harg4 arg5 harg5 arg6 harg6 arg7 harg7) K := by
  simp only [cc1__sage_kernel_eq_skeleton]; unfold cc1__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of pipeline 1 on core `c`: the arrays as the region finds them; after the body at point `t` each
    input's buffer at its block and the output's at `out1_6` of the point's six blocks; the invariant the scoped buffers
    no window stages and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Fold.lean ====
/-
  What each core's buffers hold at the boundaries between @main's items, as a fold from the launch memory: a stretch of
  host operations applies its operations in order; a pallas_call region leaves its input arrays as it found them and its
  output array at the pipeline's write-backs folded over the grid.  Here the boundaries up to region 2's entry
  (`W0 … W5`), with the facts the later modules need: each region's exit contents at its arrays and elsewhere.
  Generic in the float instance.
-/
import proofs.«423883_j31576599560691_3_alg».proof.Proof.K.Sage0
import proofs.«423883_j31576599560691_3_alg».proof.Proof.K.Sage1
import proofs.«423883_j31576599560691_3_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary between @main's items: a fold from the launch memory -/

/-- Core `c`'s buffers at launch. -/
abbrev W0 : Dev nD → Valuation τ sig (Elt F) := fun c b => (s₀ m ρ).mem ((c : Dev nD), b)
/-- After the first stretch of host operations (region 0's entry): the in-degrees' reciprocals, the gathered and summed
    neighbour features of layer 1, the bias as a row. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (the inputs as entered, the output with its write-backs
    folded in), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- Region 0 changes no buffer but its output array `main_v20`: an input window's array ends as it was entered. -/
theorem W2_keep (c : Dev nD) (r : Ref sig .tc) (hr : r ≠ main_v20) :
    W2 m ρ c (Proc.devRef .tc r) = W1 m ρ c (Proc.devRef .tc r) := by
  by_cases h : ∃ w : Fin cfg0.W, Pipeline.arrRef spec0 w = r
  · obtain ⟨w, rfl⟩ := h
    rw [W2_arr]
    match w, hr with
    | ⟨0, _⟩, _ => exact ((dat0 (V1 m ρ) c).arrAt_in 0 rfl _).trans (A_eq0 (V1 m ρ) c 0)
    | ⟨1, _⟩, _ => exact ((dat0 (V1 m ρ) c).arrAt_in 1 rfl _).trans (A_eq0 (V1 m ρ) c 1)
    | ⟨2, _⟩, _ => exact ((dat0 (V1 m ρ) c).arrAt_in 2 rfl _).trans (A_eq0 (V1 m ρ) c 2)
    | ⟨3, _⟩, _ => exact ((dat0 (V1 m ρ) c).arrAt_in 3 rfl _).trans (A_eq0 (V1 m ρ) c 3)
    | ⟨4, _⟩, _ => exact ((dat0 (V1 m ρ) c).arrAt_in 4 rfl _).trans (A_eq0 (V1 m ρ) c 4)
    | ⟨5, _⟩, _ => exact ((dat0 (V1 m ρ) c).arrAt_in 5 rfl _).trans (A_eq0 (V1 m ρ) c 5)
    | ⟨6, _⟩, hr => exact absurd rfl hr
  · exact W2_of_ne m ρ c r (fun w e => h ⟨w, e⟩)

/-- After the second stretch of host operations (region 1's entry): layer 2's gathered and summed neighbour features. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its arrays at what the pipeline leaves (the inputs as entered, the output with its write-backs
    folded in), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- Region 1 changes no buffer but its output array `main_v32`: an input window's array ends as it was entered. -/
theorem W4_keep (c : Dev nD) (r : Ref sig .tc) (hr : r ≠ main_v32) :
    W4 m ρ c (Proc.devRef .tc r) = W3 m ρ c (Proc.devRef .tc r) := by
  by_cases h : ∃ w : Fin cfg1.W, Pipeline.arrRef spec1 w = r
  · obtain ⟨w, rfl⟩ := h
    rw [W4_arr]
    match w, hr with
    | ⟨0, _⟩, _ => exact ((dat1 (V3 m ρ) c).arrAt_in 0 rfl _).trans (A_eq1 (V3 m ρ) c 0)
    | ⟨1, _⟩, _ => exact ((dat1 (V3 m ρ) c).arrAt_in 1 rfl _).trans (A_eq1 (V3 m ρ) c 1)
    | ⟨2, _⟩, _ => exact ((dat1 (V3 m ρ) c).arrAt_in 2 rfl _).trans (A_eq1 (V3 m ρ) c 2)
    | ⟨3, _⟩, _ => exact ((dat1 (V3 m ρ) c).arrAt_in 3 rfl _).trans (A_eq1 (V3 m ρ) c 3)
    | ⟨4, _⟩, _ => exact ((dat1 (V3 m ρ) c).arrAt_in 4 rfl _).trans (A_eq1 (V3 m ρ) c 4)
    | ⟨5, _⟩, _ => exact ((dat1 (V3 m ρ) c).arrAt_in 5 rfl _).trans (A_eq1 (V3 m ρ) c 5)
    | ⟨6, _⟩, hr => exact absurd rfl hr
  · exact W4_of_ne m ρ c r (fun w e => h ⟨w, e⟩)

/-- After the third stretch of host operations (region 2's entry): the graph ids as a column, the small biases as rows. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

end Cert.Kernel.Hand

end
-- ==== Proof.K.ReadoutRuns.lean ====
/-
  Region 2 of the program, the readout: one grid point per block of 4000 node rows, 25 points.
  Across the points the body accumulates, in two buffers it keeps between points, the per-graph sums of the node
  features (64×20) and the per-graph node counts (64×1): at the first point it zeroes both, at every point it adds
  (one-hot mask of the block's graph ids)·(block of features), resp. ·ones; at the last point it reads both sums
  back, forms the per-graph means, runs them through the two dense layers and stores the 64×1 result, the only
  point at which the output block is written and copied back.
  This module holds what the three control cases of the body share: the windows' blocks read off the arrays as the
  region finds them (a parameter `V`), the two branch conditions in closed form over the grid, where the output
  window is idle, the memrefs the body is called with, and the region's invariant with the two kept buffers
  singled out.  Generic in the float instance.
-/
import proofs.«423883_j31576599560691_3_alg».proof.Proof.Gen.Kernel.Launch
import proofs.«423883_j31576599560691_3_alg».proof.Proof.Gen.Kernel.Skeleton
import proofs.«423883_j31576599560691_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: rows `4000·t … 4000·t + 3999` of the features and of the graph ids, the
    whole array for the dense layers' weights and biases and for the result, read off the array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block of the array at every grid point, whether the pipeline
    fetched it there or not (where it did not, the block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block of the array at every grid point, whether the pipeline
    fetched it there or not (where it did not, the block index has not moved). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block of the array at every grid point, whether the pipeline
    fetched it there or not (where it did not, the block index has not moved). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block of the array at every grid point, whether the pipeline
    fetched it there or not (where it did not, the block index has not moved). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block of the array at every grid point, whether the pipeline
    fetched it there or not (where it did not, the block index has not moved). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block of the array at every grid point, whether the pipeline
    fetched it there or not (where it did not, the block index has not moved). -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's two branch conditions -/

/-- The first branch (zero both kept buffers) is taken where the grid coordinate is 0: the scalar chain the body computes. -/
abbrev cond2_0 (i : grid2.Coords) : Prop := (Scalar.cmpi .ne (Scalar.extui (Scalar.cmpi .eq (BitVec.ofNat 32 (i 0).val) 0#32)) 0#32) = 1#1
/-- Over the grid: at the first point only. -/
theorem hcond2_0 : ∀ t : Fin cfg2.N, cond2_0 (grid2.coords t) ↔ t.val % 25 = 0 :=
  (by decide +kernel : ∀ t : Fin grid2.N, cond2_0 (grid2.coords t) ↔ t.val % 25 = 0)

/-- The second branch (form the result and store it) is taken where the grid coordinate is 24. -/
abbrev cond2_1 (i : grid2.Coords) : Prop := k2_cond2 i = 1#1
/-- Over the grid: at the last point only. -/
theorem hcond2_1 : ∀ t : Fin cfg2.N, cond2_1 (grid2.coords t) ↔ t.val % 25 = 24 :=
  (by decide +kernel : ∀ t : Fin grid2.N, cond2_1 (grid2.coords t) ↔ t.val % 25 = 24)

/-! ## Where the windows are idle -/

/-- Window 0 is an input: never idle. -/
theorem liveAt2_0 : ∀ t : Fin cfg2.N, cfg2.idle 0 (grid2.coords t) = false := by decide +kernel
/-- Window 1 is an input: never idle. -/
theorem liveAt2_1 : ∀ t : Fin cfg2.N, cfg2.idle 1 (grid2.coords t) = false := by decide +kernel
/-- Window 2 is an input: never idle. -/
theorem liveAt2_2 : ∀ t : Fin cfg2.N, cfg2.idle 2 (grid2.coords t) = false := by decide +kernel
/-- Window 3 is an input: never idle. -/
theorem liveAt2_3 : ∀ t : Fin cfg2.N, cfg2.idle 3 (grid2.coords t) = false := by decide +kernel
/-- Window 4 is an input: never idle. -/
theorem liveAt2_4 : ∀ t : Fin cfg2.N, cfg2.idle 4 (grid2.coords t) = false := by decide +kernel
/-- Window 5 is an input: never idle. -/
theorem liveAt2_5 : ∀ t : Fin cfg2.N, cfg2.idle 5 (grid2.coords t) = false := by decide +kernel

/-- At the first point (first branch taken, second not) nothing is stored into the output block: the window is idle, -/
theorem idleAt2_6_A : ∀ t : Fin cfg2.N, cond2_0 (grid2.coords t) → ¬cond2_1 (grid2.coords t) → cfg2.idle 6 (grid2.coords t) = true := by decide +kernel
/-- and the block is not copied back there. -/
theorem noFlush2_6_A : ∀ t : Fin cfg2.N, cond2_0 (grid2.coords t) → ¬cond2_1 (grid2.coords t) → (cfg2.win 6).flush t = false := by decide +kernel
/-- At the points 1 … 23 (neither branch taken) likewise: idle, -/
theorem idleAt2_6_B : ∀ t : Fin cfg2.N, ¬cond2_0 (grid2.coords t) → ¬cond2_1 (grid2.coords t) → cfg2.idle 6 (grid2.coords t) = true := by decide +kernel
/-- and not copied back. -/
theorem noFlush2_6_B : ∀ t : Fin cfg2.N, ¬cond2_0 (grid2.coords t) → ¬cond2_1 (grid2.coords t) → (cfg2.win 6).flush t = false := by decide +kernel
/-- At the last point (second branch taken) the output block is stored: the window is live. -/
theorem liveAt2_6_C : ∀ t : Fin cfg2.N, ¬cond2_0 (grid2.coords t) → cond2_1 (grid2.coords t) → cfg2.idle 6 (grid2.coords t) = false := by decide +kernel

/-! ## The memrefs the body is called with -/

/-- Window 0's current staging buffer at point `t`, and that it is a whole buffer. -/
abbrev ms2_0 (t : Fin cfg2.N) : Memref sig .tc .vmem S4000x20 .f32 := win2_0.stage (cfg2.slots t 0)
abbrev hs2_0 (t : Fin cfg2.N) : (ms2_0 t).IsWhole := hstage2_0 ((cfg2.slots t 0).cast nbuf2_0)
/-- Window 1's current staging buffer at point `t`, and that it is a whole buffer. -/
abbrev ms2_1 (t : Fin cfg2.N) : Memref sig .tc .vmem S4000x1 .i32 := win2_1.stage (cfg2.slots t 1)
abbrev hs2_1 (t : Fin cfg2.N) : (ms2_1 t).IsWhole := hstage2_1 ((cfg2.slots t 1).cast nbuf2_1)
/-- Window 2's current staging buffer at point `t`, and that it is a whole buffer. -/
abbrev ms2_2 (t : Fin cfg2.N) : Memref sig .tc .vmem S20x10 .f32 := win2_2.stage (cfg2.slots t 2)
abbrev hs2_2 (t : Fin cfg2.N) : (ms2_2 t).IsWhole := hstage2_2 ((cfg2.slots t 2).cast nbuf2_2)
/-- Window 3's current staging buffer at point `t`, and that it is a whole buffer. -/
abbrev ms2_3 (t : Fin cfg2.N) : Memref sig .tc .vmem S1x10 .f32 := win2_3.stage (cfg2.slots t 3)
abbrev hs2_3 (t : Fin cfg2.N) : (ms2_3 t).IsWhole := hstage2_3 ((cfg2.slots t 3).cast nbuf2_3)
/-- Window 4's current staging buffer at point `t`, and that it is a whole buffer. -/
abbrev ms2_4 (t : Fin cfg2.N) : Memref sig .tc .vmem S10x1 .f32 := win2_4.stage (cfg2.slots t 4)
abbrev hs2_4 (t : Fin cfg2.N) : (ms2_4 t).IsWhole := hstage2_4 ((cfg2.slots t 4).cast nbuf2_4)
/-- Window 5's current staging buffer at point `t`, and that it is a whole buffer. -/
abbrev ms2_5 (t : Fin cfg2.N) : Memref sig .tc .vmem S1x1 .f32 := win2_5.stage (cfg2.slots t 5)
abbrev hs2_5 (t : Fin cfg2.N) : (ms2_5 t).IsWhole := hstage2_5 ((cfg2.slots t 5).cast nbuf2_5)
/-- Window 6's current staging buffer at point `t`, and that it is a whole buffer. -/
abbrev ms2_6 (t : Fin cfg2.N) : Memref sig .tc .vmem S64x1 .f32 := win2_6.stage (cfg2.slots t 6)
abbrev hs2_6 (t : Fin cfg2.N) : (ms2_6 t).IsWhole := hstage2_6 ((cfg2.slots t 6).cast nbuf2_6)

/-- The buffer of per-graph feature sums (64×20) the body keeps between points, -/
abbrev scM2_0 : Memref sig .tc .vmem S64x20 .f32 := Memref.whole cc2_scratch0
/-- and the buffer of per-graph node counts (64×1). -/
abbrev scM2_1 : Memref sig .tc .vmem S64x1 .f32 := Memref.whole cc2_scratch1
/-- Their views: what each holds is stated by reading written pieces back through them. -/
abbrev VS2_0 : View sig .tc .vmem S64x20 .f32 := scM2_0.view
abbrev VS2_1 : View sig .tc .vmem S64x1 .f32 := scM2_1.view
/-- The output window's one staging buffer, as a view. -/
abbrev VO2_6 : View sig .tc .vmem S64x1 .f32 := (Memref.whole cc2_stg6_0 : Memref sig .tc .vmem S64x1 .f32).view

/-! ## The region's invariant with the two kept buffers singled out -/

/-- The core's scoped buffers that region 2 neither stages nor keeps between points: the staging buffers of regions 0
    and 1, each at some contents.  The body never touches them; they pass through every point as one block. -/
def others2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f))

/-- The scoped buffers outside region 2's staging, with whatever stands for the two kept buffers last, is the block of
    the other 22 beside it: separating conjunction is associative. -/
theorem others2_split (c : Dev nD) (P : sProp 𝕄) :
    (iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ P) : sProp 𝕄) = iprop(others2 (F := F) c ∗ P) := by
  have h₁ : (iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ P) : sProp 𝕄) ⊢ iprop(others2 (F := F) c ∗ P) := by
    unfold others2
    iintro ⟨R0, R1, R2, R3, R4, R5, R6, R7, R8, R9, R10, R11, R12, R13, R14, R15, R16, R17, R18, R19, R20, R21, HP⟩
    isplitr [HP]
    swap; · iexact HP
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [R15]; · iexact R15
    isplitl [R16]; · iexact R16
    isplitl [R17]; · iexact R17
    isplitl [R18]; · iexact R18
    isplitl [R19]; · iexact R19
    isplitl [R20]; · iexact R20
    iexact R21
  have h₂ : (iprop(others2 (F := F) c ∗ P) : sProp 𝕄) ⊢ iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ P) := by
    unfold others2
    iintro ⟨⟨R0, R1, R2, R3, R4, R5, R6, R7, R8, R9, R10, R11, R12, R13, R14, R15, R16, R17, R18, R19, R20, R21⟩, HP⟩
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [R15]; · iexact R15
    isplitl [R16]; · iexact R16
    isplitl [R17]; · iexact R17
    isplitl [R18]; · iexact R18
    isplitl [R19]; · iexact R19
    isplitl [R20]; · iexact R20
    isplitl [R21]; · iexact R21
    iexact HP
  exact BI.equiv_iff.mp ⟨h₁, h₂⟩

/-- What the launch hands the region and takes back: the other 22 scoped buffers, the two kept buffers each owned at
    some contents, and the generator register at some state. -/
theorem PhiA2_eq (c : Dev nD) :
    (Pipeline.ΦA spec2 c : sProp 𝕄)
      = iprop(iprop(others2 (F := F) c ∗ (∃ d, owns (c : Thread nD τ) scM2_0 fullShare d) ∗ (∃ d, owns (c : Thread nD τ) scM2_1 fullShare d)) ∗ (∃ r, prngReg c r)) := by
  unfold Pipeline.ΦA; rw [scopedRest2_eq, others2_split]; simp only [scM2_0, scM2_1, owns_whole]; try rfl

end Cert.Kernel.Hand

end
-- ==== Proof.K.ReadoutRunA.lean ====
/-
  Region 2, the readout: the body run symbolically in control case A (the first grid point).
  What each written buffer ends with is found by the run itself, as the list of pieces stored into it.
-/
import proofs.«423883_j31576599560691_3_alg».proof.Proof.K.ReadoutRuns

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- THE FIRST POINT (first branch taken, second not).  On whole buffers — the six inputs' at contents `x0 … x5`, the output's
    at `xi6`, the two kept buffers at anything — the body runs to its end holding the inputs' and the output's as they
    were and each kept buffer with the pieces `LS0`, `LS1` written: the zeroing store, then the store of zero plus this
    block's masked sums.  The pieces are found by running the body symbolically; they do not depend on what the kept
    buffers held. -/
noncomputable def kernelRun2_A (c : Dev nD) (i : grid2.Coords) (arg1 : Memref sig .tc .vmem S4000x20 .f32) (harg1 : arg1.IsWhole) (arg2 : Memref sig .tc .vmem S4000x1 .i32) (harg2 : arg2.IsWhole) (arg3 : Memref sig .tc .vmem S20x10 .f32) (harg3 : arg3.IsWhole) (arg4 : Memref sig .tc .vmem S1x10 .f32) (harg4 : arg4.IsWhole) (arg5 : Memref sig .tc .vmem S10x1 .f32) (harg5 : arg5.IsWhole) (arg6 : Memref sig .tc .vmem S1x1 .f32) (harg6 : arg6.IsWhole) (arg7 : Memref sig .tc .vmem S64x1 .f32) (harg7 : arg7.IsWhole) (arg8 : Memref sig .tc .vmem S64x20 .f32) (harg8 : arg8.IsWhole) (arg9 : Memref sig .tc .vmem S64x1 .f32) (harg9 : arg9.IsWhole) (hc0 : cond2_0 i) (hc1 : ¬cond2_1 i)
    (x0 : Vec F S4000x20 .f32) (x1 : Vec F S4000x1 .i32) (x2 : Vec F S20x10 .f32) (x3 : Vec F S1x10 .f32) (x4 : Vec F S10x1 .f32) (x5 : Vec F S1x1 .f32) :
    Σ' (L6 : List (View.Piece (Elt F) S64x1 .f32)), Σ' (LS0 : List (View.Piece (Elt F) S64x20 .f32)), { LS1 : List (View.Piece (Elt F) S64x1 .f32) //
      ∀ (xi6 : Vec F S64x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc2__readout_kernel i arg1 harg1 arg2 harg2 arg3 harg3 arg4 harg4 arg5 harg5 arg6 harg6 arg7 harg7 arg8 harg8 arg9 harg9) K } := by
  refine ⟨[], ?_, ?_, fun xi6 E K => ?run⟩
  case run =>
    simp only [cc2__readout_kernel_eq_skeleton]; unfold cc2__readout_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.Kernel.Hand

end
-- ==== Proof.K.ReadoutRunB.lean ====
/-
  Region 2, the readout: the body run symbolically in control case B (grid points 1 … 23).
  What each written buffer ends with is found by the run itself, as the list of pieces stored into it.
-/
import proofs.«423883_j31576599560691_3_alg».proof.Proof.K.ReadoutRunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- THE MIDDLE POINTS 1 … 23 (neither branch taken).  On whole buffers — the six inputs' at contents `x0 … x5`, the output's
    at `xi6`, the two kept buffers at what the point before left, `xs0` and `xs1` — the body runs to its end holding
    the inputs' and the output's as they were and each kept buffer with the pieces `LS0`, `LS1` written: the one store
    of the old sums plus this block's masked sums. -/
noncomputable def kernelRun2_B (c : Dev nD) (i : grid2.Coords) (arg1 : Memref sig .tc .vmem S4000x20 .f32) (harg1 : arg1.IsWhole) (arg2 : Memref sig .tc .vmem S4000x1 .i32) (harg2 : arg2.IsWhole) (arg3 : Memref sig .tc .vmem S20x10 .f32) (harg3 : arg3.IsWhole) (arg4 : Memref sig .tc .vmem S1x10 .f32) (harg4 : arg4.IsWhole) (arg5 : Memref sig .tc .vmem S10x1 .f32) (harg5 : arg5.IsWhole) (arg6 : Memref sig .tc .vmem S1x1 .f32) (harg6 : arg6.IsWhole) (arg7 : Memref sig .tc .vmem S64x1 .f32) (harg7 : arg7.IsWhole) (arg8 : Memref sig .tc .vmem S64x20 .f32) (harg8 : arg8.IsWhole) (arg9 : Memref sig .tc .vmem S64x1 .f32) (harg9 : arg9.IsWhole) (hc0 : ¬cond2_0 i) (hc1 : ¬cond2_1 i)
    (x0 : Vec F S4000x20 .f32) (x1 : Vec F S4000x1 .i32) (x2 : Vec F S20x10 .f32) (x3 : Vec F S1x10 .f32) (x4 : Vec F S10x1 .f32) (x5 : Vec F S1x1 .f32) (xs0 : Vec F S64x20 .f32) (xs1 : Vec F S64x1 .f32) :
    Σ' (L6 : List (View.Piece (Elt F) S64x1 .f32)), Σ' (LS0 : List (View.Piece (Elt F) S64x20 .f32)), { LS1 : List (View.Piece (Elt F) S64x1 .f32) //
      ∀ (xi6 : Vec F S64x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc2__readout_kernel i arg1 harg1 arg2 harg2 arg3 harg3 arg4 harg4 arg5 harg5 arg6 harg6 arg7 harg7 arg8 harg8 arg9 harg9) K } := by
  refine ⟨[], ?_, ?_, fun xi6 E K => ?run⟩
  case run =>
    simp only [cc2__readout_kernel_eq_skeleton]; unfold cc2__readout_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.Kernel.Hand

end
-- ==== Proof.K.ReadoutRunC.lean ====
/-
  Region 2, the readout: the body run symbolically in control case C (the last grid point).
  What each written buffer ends with is found by the run itself, as the list of pieces stored into it.
-/
import proofs.«423883_j31576599560691_3_alg».proof.Proof.K.ReadoutRunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- THE LAST POINT (second branch taken, first not).  On whole buffers — the six inputs' at contents `x0 … x5`, the
    output's at anything, the two kept buffers at what the point before left, `xs0` and `xs1` — the body runs to its end
    holding the inputs' as they were, each kept buffer with the pieces `LS0`, `LS1` written (the old sums plus this
    block's masked sums) and the output's with the piece `L6` written: the two dense layers on the per-graph means, read
    back from the kept buffers after their stores. -/
noncomputable def kernelRun2_C (c : Dev nD) (i : grid2.Coords) (arg1 : Memref sig .tc .vmem S4000x20 .f32) (harg1 : arg1.IsWhole) (arg2 : Memref sig .tc .vmem S4000x1 .i32) (harg2 : arg2.IsWhole) (arg3 : Memref sig .tc .vmem S20x10 .f32) (harg3 : arg3.IsWhole) (arg4 : Memref sig .tc .vmem S1x10 .f32) (harg4 : arg4.IsWhole) (arg5 : Memref sig .tc .vmem S10x1 .f32) (harg5 : arg5.IsWhole) (arg6 : Memref sig .tc .vmem S1x1 .f32) (harg6 : arg6.IsWhole) (arg7 : Memref sig .tc .vmem S64x1 .f32) (harg7 : arg7.IsWhole) (arg8 : Memref sig .tc .vmem S64x20 .f32) (harg8 : arg8.IsWhole) (arg9 : Memref sig .tc .vmem S64x1 .f32) (harg9 : arg9.IsWhole) (hc0 : ¬cond2_0 i) (hc1 : cond2_1 i)
    (x0 : Vec F S4000x20 .f32) (x1 : Vec F S4000x1 .i32) (x2 : Vec F S20x10 .f32) (x3 : Vec F S1x10 .f32) (x4 : Vec F S10x1 .f32) (x5 : Vec F S1x1 .f32) (xs0 : Vec F S64x20 .f32) (xs1 : Vec F S64x1 .f32) :
    Σ' (L6 : List (View.Piece (Elt F) S64x1 .f32)), Σ' (LS0 : List (View.Piece (Elt F) S64x20 .f32)), { LS1 : List (View.Piece (Elt F) S64x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc2__readout_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc2__readout_kernel_eq_skeleton]; unfold cc2__readout_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HS0]; · iexists _; iexact HS0
    iexists _; iexact HS1

end Cert.Kernel.Hand

end
-- ==== Proof.K.Readout.lean ====
/-
  Region 2 of the program, the readout: what the three control cases leave in the written buffers, the contents of
  the output block and of the two buffers kept between grid points after each point (a recursion over the 25
  positions: the first point's case, then 23 times the middle case, then the last point's case, each later one run on
  the sums and counts the position before left), the region's invariant carrying those two buffers, the pipeline's
  proof data, and the body obligation at every grid point by cases.  Everything is stated at a parameter `V`: the
  contents of the core's buffers when the region is entered.  Generic in the float instance.
-/
import proofs.«423883_j31576599560691_3_alg».proof.Proof.K.ReadoutRunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each control case leaves in the written buffers -/

/-- At the first point nothing is stored into the output block (the window is idle there and not copied back): no pieces, a
    placeholder nothing reads. -/
def out2_A_6 (c : Dev nD) (i : grid2.Coords) (arg1 : Memref sig .tc .vmem S4000x20 .f32) (harg1 : arg1.IsWhole) (arg2 : Memref sig .tc .vmem S4000x1 .i32) (harg2 : arg2.IsWhole) (arg3 : Memref sig .tc .vmem S20x10 .f32) (harg3 : arg3.IsWhole) (arg4 : Memref sig .tc .vmem S1x10 .f32) (harg4 : arg4.IsWhole) (arg5 : Memref sig .tc .vmem S10x1 .f32) (harg5 : arg5.IsWhole) (arg6 : Memref sig .tc .vmem S1x1 .f32) (harg6 : arg6.IsWhole) (arg7 : Memref sig .tc .vmem S64x1 .f32) (harg7 : arg7.IsWhole) (arg8 : Memref sig .tc .vmem S64x20 .f32) (harg8 : arg8.IsWhole) (arg9 : Memref sig .tc .vmem S64x1 .f32) (harg9 : arg9.IsWhole) (hc0 : cond2_0 i) (hc1 : ¬cond2_1 i)
    (x0 : Vec F S4000x20 .f32) (x1 : Vec F S4000x1 .i32) (x2 : Vec F S20x10 .f32) (x3 : Vec F S1x10 .f32) (x4 : Vec F S10x1 .f32) (x5 : Vec F S1x1 .f32) : Vec F S64x1 .f32 :=
  VO2_6.read (Elt F) (VO2_6.writes (Elt F) VO2_6.junk (kernelRun2_A c i arg1 harg1 arg2 harg2 arg3 harg3 arg4 harg4 arg5 harg5 arg6 harg6 arg7 harg7 arg8 harg8 arg9 harg9 hc0 hc1 x0 x1 x2 x3 x4 x5).1)

/-- At the first point every store into the buffer of feature sums takes all 64×20 of it: the pieces cover it. -/
theorem scover2_A_0 (c : Dev nD) (i : grid2.Coords) (arg1 : Memref sig .tc .vmem S4000x20 .f32) (harg1 : arg1.IsWhole) (arg2 : Memref sig .tc .vmem S4000x1 .i32) (harg2 : arg2.IsWhole) (arg3 : Memref sig .tc .vmem S20x10 .f32) (harg3 : arg3.IsWhole) (arg4 : Memref sig .tc .vmem S1x10 .f32) (harg4 : arg4.IsWhole) (arg5 : Memref sig .tc .vmem S10x1 .f32) (harg5 : arg5.IsWhole) (arg6 : Memref sig .tc .vmem S1x1 .f32) (harg6 : arg6.IsWhole) (arg7 : Memref sig .tc .vmem S64x1 .f32) (harg7 : arg7.IsWhole) (arg8 : Memref sig .tc .vmem S64x20 .f32) (harg8 : arg8.IsWhole) (arg9 : Memref sig .tc .vmem S64x1 .f32) (harg9 : arg9.IsWhole) (hc0 : cond2_0 i) (hc1 : ¬cond2_1 i)
    (x0 : Vec F S4000x20 .f32) (x1 : Vec F S4000x1 .i32) (x2 : Vec F S20x10 .f32) (x3 : Vec F S1x10 .f32) (x4 : Vec F S10x1 .f32) (x5 : Vec F S1x1 .f32) (y : S64x20.Idx) :
    ∃ pc ∈ (kernelRun2_A c i arg1 harg1 arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun2_A c i arg1 harg1 arg2 harg2 arg3 harg3 arg4 harg4 arg5 harg5 arg6 harg6 arg7 harg7 arg8 harg8 arg9 harg9 hc0 hc1 x0 x1 x2 x3 x4 x5).2.1 S64x20.size (by sl_kernel_rfl) y

/-- What the first point leaves in the buffer of feature sums: its pieces read back. -/
def sout2_A_0 (c : Dev nD) (i : grid2.Coords) (arg1 : Memref sig .tc .vmem S4000x20 .f32) (harg1 : arg1.IsWhole) (arg2 : Memref sig .tc .vmem S4000x1 .i32) (harg2 : arg2.IsWhole) (arg3 : Memref sig .tc .vmem S20x10 .f32) (harg3 : arg3.IsWhole) (arg4 : Memref sig .tc .vmem S1x10 .f32) (harg4 : arg4.IsWhole) (arg5 : Memref sig .tc .vmem S10x1 .f32) (harg5 : arg5.IsWhole) (arg6 : Memref sig .tc .vmem S1x1 .f32) (harg6 : arg6.IsWhole) (arg7 : Memref sig .tc .vmem S64x1 .f32) (harg7 : arg7.IsWhole) (arg8 : Memref sig .tc .vmem S64x20 .f32) (harg8 : arg8.IsWhole) (arg9 : Memref sig .tc .vmem S64x1 .f32) (harg9 : arg9.IsWhole) (hc0 : cond2_0 i) (hc1 : ¬cond2_1 i)
    (x0 : Vec F S4000x20 .f32) (x1 : Vec F S4000x1 .i32) (x2 : Vec F S20x10 .f32) (x3 : Vec F S1x10 .f32) (x4 : Vec F S10x1 .f32) (x5 : Vec F S1x1 .f32) : Vec F S64x20 .f32 :=
  VS2_0.read (Elt F) (VS2_0.writes (Elt F) VS2_0.junk (kernelRun2_A c i arg1 harg1 arg2 harg2 arg3 harg3 arg4 harg4 arg5 harg5 arg6 harg6 arg7 harg7 arg8 harg8 arg9 harg9 hc0 hc1 x0 x1 x2 x3 x4 x5).2.1)

/-- Likewise every store into the buffer of node counts takes all 64×1 of it. -/
theorem scover2_A_1 (c : Dev nD) (i : grid2.Coords) (arg1 : Memref sig .tc .vmem S4000x20 .f32) (harg1 : arg1.IsWhole) (arg2 : Memref sig .tc .vmem S4000x1 .i32) (harg2 : arg2.IsWhole) (arg3 : Memref sig .tc .vmem S20x10 .f32) (harg3 : arg3.IsWhole) (arg4 : Memref sig .tc .vmem S1x10 .f32) (harg4 : arg4.IsWhole) (arg5 : Memref sig .tc .vmem S10x1 .f32) (harg5 : arg5.IsWhole) (arg6 : Memref sig .tc .vmem S1x1 .f32) (harg6 : arg6.IsWhole) (arg7 : Memref sig .tc .vmem S64x1 .f32) (harg7 : arg7.IsWhole) (arg8 : Memref sig .tc .vmem S64x20 .f32) (harg8 : arg8.IsWhole) (arg9 : Memref sig .tc .vmem S64x1 .f32) (harg9 : arg9.IsWhole) (hc0 : cond2_0 i) (hc1 : ¬cond2_1 i)
    (x0 : Vec F S4000x20 .f32) (x1 : Vec F S4000x1 .i32) (x2 : Vec F S20x10 .f32) (x3 : Vec F S1x10 .f32) (x4 : Vec F S10x1 .f32) (x5 : Vec F S1x1 .f32) (y : S64x1.Idx) :
    ∃ pc ∈ (kernelRun2_A c i arg1 harg1 arg2 harg2 arg3 harg3 arg4 harg4 arg5 harg5 arg6 harg6 arg7 harg7 arg8 harg8 arg9 harg9 hc0 hc1 x0 x1 x2 x3 x4 x5).2.2.1, y ∈ pc.1.set :=
  View.cover_of_tiledL (kernelRun2_A c i arg1 harg1 arg2 harg2 arg3 harg3 arg4 harg4 arg5 harg5 arg6 harg6 arg7 harg7 arg8 harg8 arg9 harg9 hc0 hc1 x0 x1 x2 x3 x4 x5).2.2.1 S64x1.size (by sl_kernel_rfl) y

/-- What the first point leaves in the buffer of node counts: its pieces read back. -/
def sout2_A_1 (c : Dev nD) (i : grid2.Coords) (arg1 : Memref sig .tc .vmem S4000x20 .f32) (harg1 : arg1.IsWhole) (arg2 : Memref sig .tc .vmem S4000x1 .i32) (harg2 : arg2.IsWhole) (arg3 : Memref sig .tc .vmem S20x10 .f32) (harg3 : arg3.IsWhole) (arg4 : Memref sig .tc .vmem S1x10 .f32) (harg4 : arg4.IsWhole) (arg5 : Memref sig .tc .vmem S10x1 .f32) (harg5 : arg5.IsWhole) (arg6 : Memref sig .tc .vmem S1x1 .f32) (harg6 : arg6.IsWhole) (arg7 : Memref sig .tc .vmem S64x1 .f32) (harg7 : arg7.IsWhole) (arg8 : Memref sig .tc .vmem S64x20 .f32) (harg8 : arg8.IsWhole) (arg9 : Memref sig .tc .vmem S64x1 .f32) (harg9 : arg9.IsWhole) (hc0 : cond2_0 i) (hc1 : ¬cond2_1 i)
    (x0 : Vec F S4000x20 .f32) (x1 : Vec F S4000x1 .i32) (x2 : Vec F S20x10 .f32) (x3 : Vec F S1x10 .f32) (x4 : Vec F S10x1 .f32) (x5 : Vec F S1x1 .f32) : Vec F S64x1 .f32 :=
  VS2_1.read (Elt F) (VS2_1.writes (Elt F) VS2_1.junk (kernelRun2_A c i arg1 harg1 arg2 harg2 arg3 harg3 arg4 harg4 arg5 harg5 arg6 harg6 arg7 harg7 arg8 harg8 arg9 harg9 hc0 hc1 x0 x1 x2 x3 x4 x5).2.2.1)

/-- At a middle point nothing is stored into the output block (the window is idle there and not copied back): no pieces, a
    placeholder nothing reads. -/
def out2_B_6 (c : Dev nD) (i : grid2.Coords) (arg1 : Memref sig .tc .vmem S4000x20 .f32) (harg1 : arg1.IsWhole) (arg2 : Memref sig .tc .vmem S4000x1 .i32) (harg2 : arg2.IsWhole) (arg3 : Memref sig .tc .vmem S20x10 .f32) (harg3 : arg3.IsWhole) (arg4 : Memref sig .tc .vmem S1x10 .f32) (harg4 : arg4.IsWhole) (arg5 : Memref sig .tc .vmem S10x1 .f32) (harg5 : arg5.IsWhole) (arg6 : Memref sig .tc .vmem S1x1 .f32) (harg6 : arg6.IsWhole) (arg7 : Memref sig .tc .vmem S64x1 .f32) (harg7 : arg7.IsWhole) (arg8 : Memref sig .tc .vmem S64x20 .f32) (harg8 : arg8.IsWhole) (arg9 : Memref sig .tc .vmem S64x1 .f32) (harg9 : arg9.IsWhole) (hc0 : ¬cond2_0 i) (hc1 : ¬cond2_1 i)
    (x0 : Vec F S4000x20 .f32) (x1 : Vec F S4000x1 .i32) (x2 : Vec F S20x10 .f32) (x3 : Vec F S1x10 .f32) (x4 : Vec F S10x1 .f32) (x5 : Vec F S1x1 .f32) (xs0 : Vec F S64x20 .f32) (xs1 : Vec F S64x1 .f32) : Vec F S64x1 .f32 :=
  VO2_6.read (Elt F) (VO2_6.writes (Elt F) VO2_6.junk (kernelRun2_B c i arg1 harg1 arg2 harg2 arg3 harg3 arg4 harg4 arg5 harg5 arg6 harg6 arg7 harg7 arg8 harg8 arg9 harg9 hc0 hc1 x0 x1 x2 x3 x4 x5 xs0 xs1).1)

/-- At a middle point every store into the buffer of feature sums takes all 64×20 of it: the pieces cover it. -/
theorem scover2_B_0 (c : Dev nD) (i : grid2.Coords) (arg1 : Memref sig .tc .vmem S4000x20 .f32) (harg1 : arg1.IsWhole) (arg2 : Memref sig .tc .vmem S4000x1 .i32) (harg2 : arg2.IsWhole) (arg3 : Memref sig .tc .vmem S20x10 .f32) (harg3 : arg3.IsWhole) (arg4 : Memref sig .tc .vmem S1x10 .f32) (harg4 : arg4.IsWhole) (arg5 : Memref sig .tc .vmem S10x1 .f32) (harg5 : arg5.IsWhole) (arg6 : Memref sig .tc .vmem S1x1 .f32) (harg6 : arg6.IsWhole) (arg7 : Memref sig .tc .vmem S64x1 .f32) (harg7 : arg7.IsWhole) (arg8 : Memref sig .tc .vmem S64x20 .f32) (harg8 : arg8.IsWhole) (arg9 : Memref sig .tc .vmem S64x1 .f32) (harg9 : arg9.IsWhole) (hc0 : ¬cond2_0 i) (hc1 : ¬cond2_1 i)
    (x0 : Vec F S4000x20 .f32) (x1 : Vec F S4000x1 .i32) (x2 : Vec F S20x10 .f32) (x3 : Vec F S1x10 .f32) (x4 : Vec F S10x1 .f32) (x5 : Vec F S1x1 .f32) (xs0 : Vec F S64x20 .f32) (xs1 : Vec F S64x1 .f32) (y : S64x20.Idx) :
    ∃ pc ∈ (kernelRun2_B c i arg1 harg1 arg2 harg2 arg3 harg3 arg4 harg4 arg5 harg5 arg6 harg6 arg7 harg7 arg8 harg8 arg9 harg9 hc0 hc1 x0 x1 x2 x3 x4 x5 xs0 xs1).2.1, y ∈ pc.1.set :=
  View.cover_of_tiledL (kernelRun2_B c i arg1 harg1 arg2 harg2 arg3 harg3 arg4 harg4 arg5 harg5 arg6 harg6 arg7 harg7 arg8 harg8 arg9 harg9 hc0 hc1 x0 x1 x2 x3 x4 x5 xs0 xs1).2.1 S64x20.size (by sl_kernel_rfl) y

/-- What a middle point leaves in the buffer of feature sums: its pieces read back. -/
def sout2_B_0 (c : Dev nD) (i : grid2.Coords) (arg1 : Memref sig .tc .vmem S4000x20 .f32) (harg1 : arg1.IsWhole) (arg2 : Memref sig .tc .vmem S4000x1 .i32) (harg2 : arg2.IsWhole) (arg3 : Memref sig .tc .vmem S20x10 .f32) (harg3 : arg3.IsWhole) (arg4 : Memref sig .tc .vmem S1x10 .f32) (harg4 : arg4.IsWhole) (arg5 : Memref sig .tc .vmem S10x1 .f32) (harg5 : arg5.IsWhole) (arg6 : Memref sig .tc .vmem S1x1 .f32) (harg6 : arg6.IsWhole) (arg7 : Memref sig .tc .vmem S64x1 .f32) (harg7 : arg7.IsWhole) (arg8 : Memref sig .tc .vmem S64x20 .f32) (harg8 : arg8.IsWhole) (arg9 : Memref sig .tc .vmem S64x1 .f32) (harg9 : arg9.IsWhole) (hc0 : ¬cond2_0 i) (hc1 : ¬cond2_1 i)
    (x0 : Vec F S4000x20 .f32) (x1 : Vec F S4000x1 .i32) (x2 : Vec F S20x10 .f32) (x3 : Vec F S1x10 .f32) (x4 : Vec F S10x1 .f32) (x5 : Vec F S1x1 .f32) (xs0 : Vec F S64x20 .f32) (xs1 : Vec F S64x1 .f32) : Vec F S64x20 .f32 :=
  VS2_0.read (Elt F) (VS2_0.writes (Elt F) VS2_0.junk (kernelRun2_B c i arg1 harg1 arg2 harg2 arg3 harg3 arg4 harg4 arg5 harg5 arg6 harg6 arg7 harg7 arg8 harg8 arg9 harg9 hc0 hc1 x0 x1 x2 x3 x4 x5 xs0 xs1).2.1)

/-- Likewise every store into the buffer of node counts takes all 64×1 of it. -/
theorem scover2_B_1 (c : Dev nD) (i : grid2.Coords) (arg1 : Memref sig .tc .vmem S4000x20 .f32) (harg1 : arg1.IsWhole) (arg2 : Memref sig .tc .vmem S4000x1 .i32) (harg2 : arg2.IsWhole) (arg3 : Memref sig .tc .vmem S20x10 .f32) (harg3 : arg3.IsWhole) (arg4 : Memref sig .tc .vmem S1x10 .f32) (harg4 : arg4.IsWhole) (arg5 : Memref sig .tc .vmem S10x1 .f32) (harg5 : arg5.IsWhole) (arg6 : Memref sig .tc .vmem S1x1 .f32) (harg6 : arg6.IsWhole) (arg7 : Memref sig .tc .vmem S64x1 .f32) (harg7 : arg7.IsWhole) (arg8 : Memref sig .tc .vmem S64x20 .f32) (harg8 : arg8.IsWhole) (arg9 : Memref sig .tc .vmem S64x1 .f32) (harg9 : arg9.IsWhole) (hc0 : ¬cond2_0 i) (hc1 : ¬cond2_1 i)
    (x0 : Vec F S4000x20 .f32) (x1 : Vec F S4000x1 .i32) (x2 : Vec F S20x10 .f32) (x3 : Vec F S1x10 .f32) (x4 : Vec F S10x1 .f32) (x5 : Vec F S1x1 .f32) (xs0 : Vec F S64x20 .f32) (xs1 : Vec F S64x1 .f32) (y : S64x1.Idx) :
    ∃ pc ∈ (kernelRun2_B c i arg1 harg1 arg2 harg2 arg3 harg3 arg4 harg4 arg5 harg5 arg6 harg6 arg7 harg7 arg8 harg8 arg9 harg9 hc0 hc1 x0 x1 x2 x3 x4 x5 xs0 xs1).2.2.1, y ∈ pc.1.set :=
  View.cover_of_tiledL (kernelRun2_B c i arg1 harg1 arg2 harg2 arg3 harg3 arg4 harg4 arg5 harg5 arg6 harg6 arg7 harg7 arg8 harg8 arg9 harg9 hc0 hc1 x0 x1 x2 x3 x4 x5 xs0 xs1).2.2.1 S64x1.size (by sl_kernel_rfl) y

/-- What a middle point leaves in the buffer of node counts: its pieces read back. -/
def sout2_B_1 (c : Dev nD) (i : grid2.Coords) (arg1 : Memref sig .tc .vmem S4000x20 .f32) (harg1 : arg1.IsWhole) (arg2 : Memref sig .tc .vmem S4000x1 .i32) (harg2 : arg2.IsWhole) (arg3 : Memref sig .tc .vmem S20x10 .f32) (harg3 : arg3.IsWhole) (arg4 : Memref sig .tc .vmem S1x10 .f32) (harg4 : arg4.IsWhole) (arg5 : Memref sig .tc .vmem S10x1 .f32) (harg5 : arg5.IsWhole) (arg6 : Memref sig .tc .vmem S1x1 .f32) (harg6 : arg6.IsWhole) (arg7 : Memref sig .tc .vmem S64x1 .f32) (harg7 : arg7.IsWhole) (arg8 : Memref sig .tc .vmem S64x20 .f32) (harg8 : arg8.IsWhole) (arg9 : Memref sig .tc .vmem S64x1 .f32) (harg9 : arg9.IsWhole) (hc0 : ¬cond2_0 i) (hc1 : ¬cond2_1 i)
    (x0 : Vec F S4000x20 .f32) (x1 : Vec F S4000x1 .i32) (x2 : Vec F S20x10 .f32) (x3 : Vec F S1x10 .f32) (x4 : Vec F S10x1 .f32) (x5 : Vec F S1x1 .f32) (xs0 : Vec F S64x20 .f32) (xs1 : Vec F S64x1 .f32) : Vec F S64x1 .f32 :=
  VS2_1.read (Elt F) (VS2_1.writes (Elt F) VS2_1.junk (kernelRun2_B c i arg1 harg1 arg2 harg2 arg3 harg3 arg4 harg4 arg5 harg5 arg6 harg6 arg7 harg7 arg8 harg8 arg9 harg9 hc0 hc1 x0 x1 x2 x3 x4 x5 xs0 xs1).2.2.1)

/-- At the last point the one store into the output block takes all of it: its piece covers the block. -/
theorem cover2_C_6 (c : Dev nD) (i : grid2.Coords) (arg1 : Memref sig .tc .vmem S4000x20 .f32) (harg1 : arg1.IsWhole) (arg2 : Memref sig .tc .vmem S4000x1 .i32) (harg2 : arg2.IsWhole) (arg3 : Memref sig .tc .vmem S20x10 .f32) (harg3 : arg3.IsWhole) (arg4 : Memref sig .tc .vmem S1x10 .f32) (harg4 : arg4.IsWhole) (arg5 : Memref sig .tc .vmem S10x1 .f32) (harg5 : arg5.IsWhole) (arg6 : Memref sig .tc .vmem S1x1 .f32) (harg6 : arg6.IsWhole) (arg7 : Memref sig .tc .vmem S64x1 .f32) (harg7 : arg7.IsWhole) (arg8 : Memref sig .tc .vmem S64x20 .f32) (harg8 : arg8.IsWhole) (arg9 : Memref sig .tc .vmem S64x1 .f32) (harg9 : arg9.IsWhole) (hc0 : ¬cond2_0 i) (hc1 : cond2_1 i)
    (x0 : Vec F S4000x20 .f32) (x1 : Vec F S4000x1 .i32) (x2 : Vec F S20x10 .f32) (x3 : Vec F S1x10 .f32) (x4 : Vec F S10x1 .f32) (x5 : Vec F S1x1 .f32) (xs0 : Vec F S64x20 .f32) (xs1 : Vec F S64x1 .f32) (y : S64x1.Idx) :
    ∃ pc ∈ (kernelRun2_C c i arg1 harg1 arg2 harg2 arg3 harg3 arg4 harg4 arg5 harg5 arg6 harg6 arg7 harg7 arg8 harg8 arg9 harg9 hc0 hc1 x0 x1 x2 x3 x4 x5 xs0 xs1).1, y ∈ pc.1.set :=
  View.cover_of_tiledL (kernelRun2_C c i arg1 harg1 arg2 harg2 arg3 harg3 arg4 harg4 arg5 harg5 arg6 harg6 arg7 harg7 arg8 harg8 arg9 harg9 hc0 hc1 x0 x1 x2 x3 x4 x5 xs0 xs1).1 S64x1.size (by sl_kernel_rfl) y

/-- What the last point leaves in the output block: its piece read back. -/
def out2_C_6 (c : Dev nD) (i : grid2.Coords) (arg1 : Memref sig .tc .vmem S4000x20 .f32) (harg1 : arg1.IsWhole) (arg2 : Memref sig .tc .vmem S4000x1 .i32) (harg2 : arg2.IsWhole) (arg3 : Memref sig .tc .vmem S20x10 .f32) (harg3 : arg3.IsWhole) (arg4 : Memref sig .tc .vmem S1x10 .f32) (harg4 : arg4.IsWhole) (arg5 : Memref sig .tc .vmem S10x1 .f32) (harg5 : arg5.IsWhole) (arg6 : Memref sig .tc .vmem S1x1 .f32) (harg6 : arg6.IsWhole) (arg7 : Memref sig .tc .vmem S64x1 .f32) (harg7 : arg7.IsWhole) (arg8 : Memref sig .tc .vmem S64x20 .f32) (harg8 : arg8.IsWhole) (arg9 : Memref sig .tc .vmem S64x1 .f32) (harg9 : arg9.IsWhole) (hc0 : ¬cond2_0 i) (hc1 : cond2_1 i)
    (x0 : Vec F S4000x20 .f32) (x1 : Vec F S4000x1 .i32) (x2 : Vec F S20x10 .f32) (x3 : Vec F S1x10 .f32) (x4 : Vec F S10x1 .f32) (x5 : Vec F S1x1 .f32) (xs0 : Vec F S64x20 .f32) (xs1 : Vec F S64x1 .f32) : Vec F S64x1 .f32 :=
  VO2_6.read (Elt F) (VO2_6.writes (Elt F) VO2_6.junk (kernelRun2_C c i arg1 harg1 arg2 harg2 arg3 harg3 arg4 harg4 arg5 harg5 arg6 harg6 arg7 harg7 arg8 harg8 arg9 harg9 hc0 hc1 x0 x1 x2 x3 x4 x5 xs0 xs1).1)

/-- At the last point every store into the buffer of feature sums takes all 64×20 of it: the pieces cover it. -/
theorem scover2_C_0 (c : Dev nD) (i : grid2.Coords) (arg1 : Memref sig .tc .vmem S4000x20 .f32) (harg1 : arg1.IsWhole) (arg2 : Memref sig .tc .vmem S4000x1 .i32) (harg2 : arg2.IsWhole) (arg3 : Memref sig .tc .vmem S20x10 .f32) (harg3 : arg3.IsWhole) (arg4 : Memref sig .tc .vmem S1x10 .f32) (harg4 : arg4.IsWhole) (arg5 : Memref sig .tc .vmem S10x1 .f32) (harg5 : arg5.IsWhole) (arg6 : Memref sig .tc .vmem S1x1 .f32) (harg6 : arg6.IsWhole) (arg7 : Memref sig .tc .vmem S64x1 .f32) (harg7 : arg7.IsWhole) (arg8 : Memref sig .tc .vmem S64x20 .f32) (harg8 : arg8.IsWhole) (arg9 : Memref sig .tc .vmem S64x1 .f32) (harg9 : arg9.IsWhole) (hc0 : ¬cond2_0 i) (hc1 : cond2_1 i)
    (x0 : Vec F S4000x20 .f32) (x1 : Vec F S4000x1 .i32) (x2 : Vec F S20x10 .f32) (x3 : Vec F S1x10 .f32) (x4 : Vec F S10x1 .f32) (x5 : Vec F S1x1 .f32) (xs0 : Vec F S64x20 .f32) (xs1 : Vec F S64x1 .f32) (y : S64x20.Idx) :
    ∃ pc ∈ (kernelRun2_C c i arg1 harg1 arg2 harg2 arg3 harg3 arg4 harg4 arg5 harg5 arg6 harg6 arg7 harg7 arg8 harg8 arg9 harg9 hc0 hc1 x0 x1 x2 x3 x4 x5 xs0 xs1).2.1, y ∈ pc.1.set :=
  View.cover_of_tiledL (kernelRun2_C c i arg1 harg1 arg2 harg2 arg3 harg3 arg4 harg4 arg5 harg5 arg6 harg6 arg7 harg7 arg8 harg8 arg9 harg9 hc0 hc1 x0 x1 x2 x3 x4 x5 xs0 xs1).2.1 S64x20.size (by sl_kernel_rfl) y

/-- What the last point leaves in the buffer of feature sums: its pieces read back. -/
def sout2_C_0 (c : Dev nD) (i : grid2.Coords) (arg1 : Memref sig .tc .vmem S4000x20 .f32) (harg1 : arg1.IsWhole) (arg2 : Memref sig .tc .vmem S4000x1 .i32) (harg2 : arg2.IsWhole) (arg3 : Memref sig .tc .vmem S20x10 .f32) (harg3 : arg3.IsWhole) (arg4 : Memref sig .tc .vmem S1x10 .f32) (harg4 : arg4.IsWhole) (arg5 : Memref sig .tc .vmem S10x1 .f32) (harg5 : arg5.IsWhole) (arg6 : Memref sig .tc .vmem S1x1 .f32) (harg6 : arg6.IsWhole) (arg7 : Memref sig .tc .vmem S64x1 .f32) (harg7 : arg7.IsWhole) (arg8 : Memref sig .tc .vmem S64x20 .f32) (harg8 : arg8.IsWhole) (arg9 : Memref sig .tc .vmem S64x1 .f32) (harg9 : arg9.IsWhole) (hc0 : ¬cond2_0 i) (hc1 : cond2_1 i)
    (x0 : Vec F S4000x20 .f32) (x1 : Vec F S4000x1 .i32) (x2 : Vec F S20x10 .f32) (x3 : Vec F S1x10 .f32) (x4 : Vec F S10x1 .f32) (x5 : Vec F S1x1 .f32) (xs0 : Vec F S64x20 .f32) (xs1 : Vec F S64x1 .f32) : Vec F S64x20 .f32 :=
  VS2_0.read (Elt F) (VS2_0.writes (Elt F) VS2_0.junk (kernelRun2_C c i arg1 harg1 arg2 harg2 arg3 harg3 arg4 harg4 arg5 harg5 arg6 harg6 arg7 harg7 arg8 harg8 arg9 harg9 hc0 hc1 x0 x1 x2 x3 x4 x5 xs0 xs1).2.1)

/-- Likewise every store into the buffer of node counts takes all 64×1 of it. -/
theorem scover2_C_1 (c : Dev nD) (i : grid2.Coords) (arg1 : Memref sig .tc .vmem S4000x20 .f32) (harg1 : arg1.IsWhole) (arg2 : Memref sig .tc .vmem S4000x1 .i32) (harg2 : arg2.IsWhole) (arg3 : Memref sig .tc .vmem S20x10 .f32) (harg3 : arg3.IsWhole) (arg4 : Memref sig .tc .vmem S1x10 .f32) (harg4 : arg4.IsWhole) (arg5 : Memref sig .tc .vmem S10x1 .f32) (harg5 : arg5.IsWhole) (arg6 : Memref sig .tc .vmem S1x1 .f32) (harg6 : arg6.IsWhole) (arg7 : Memref sig .tc .vmem S64x1 .f32) (harg7 : arg7.IsWhole) (arg8 : Memref sig .tc .vmem S64x20 .f32) (harg8 : arg8.IsWhole) (arg9 : Memref sig .tc .vmem S64x1 .f32) (harg9 : arg9.IsWhole) (hc0 : ¬cond2_0 i) (hc1 : cond2_1 i)
    (x0 : Vec F S4000x20 .f32) (x1 : Vec F S4000x1 .i32) (x2 : Vec F S20x10 .f32) (x3 : Vec F S1x10 .f32) (x4 : Vec F S10x1 .f32) (x5 : Vec F S1x1 .f32) (xs0 : Vec F S64x20 .f32) (xs1 : Vec F S64x1 .f32) (y : S64x1.Idx) :
    ∃ pc ∈ (kernelRun2_C c i arg1 harg1 arg2 harg2 arg3 harg3 arg4 harg4 arg5 harg5 arg6 harg6 arg7 harg7 arg8 harg8 arg9 harg9 hc0 hc1 x0 x1 x2 x3 x4 x5 xs0 xs1).2.2.1, y ∈ pc.1.set :=
  View.cover_of_tiledL (kernelRun2_C c i arg1 harg1 arg2 harg2 arg3 harg3 arg4 harg4 arg5 harg5 arg6 harg6 arg7 harg7 arg8 harg8 arg9 harg9 hc0 hc1 x0 x1 x2 x3 x4 x5 xs0 xs1).2.2.1 S64x1.size (by sl_kernel_rfl) y

/-- What the last point leaves in the buffer of node counts: its pieces read back. -/
def sout2_C_1 (c : Dev nD) (i : grid2.Coords) (arg1 : Memref sig .tc .vmem S4000x20 .f32) (harg1 : arg1.IsWhole) (arg2 : Memref sig .tc .vmem S4000x1 .i32) (harg2 : arg2.IsWhole) (arg3 : Memref sig .tc .vmem S20x10 .f32) (harg3 : arg3.IsWhole) (arg4 : Memref sig .tc .vmem S1x10 .f32) (harg4 : arg4.IsWhole) (arg5 : Memref sig .tc .vmem S10x1 .f32) (harg5 : arg5.IsWhole) (arg6 : Memref sig .tc .vmem S1x1 .f32) (harg6 : arg6.IsWhole) (arg7 : Memref sig .tc .vmem S64x1 .f32) (harg7 : arg7.IsWhole) (arg8 : Memref sig .tc .vmem S64x20 .f32) (harg8 : arg8.IsWhole) (arg9 : Memref sig .tc .vmem S64x1 .f32) (harg9 : arg9.IsWhole) (hc0 : ¬cond2_0 i) (hc1 : cond2_1 i)
    (x0 : Vec F S4000x20 .f32) (x1 : Vec F S4000x1 .i32) (x2 : Vec F S20x10 .f32) (x3 : Vec F S1x10 .f32) (x4 : Vec F S10x1 .f32) (x5 : Vec F S1x1 .f32) (xs0 : Vec F S64x20 .f32) (xs1 : Vec F S64x1 .f32) : Vec F S64x1 .f32 :=
  VS2_1.read (Elt F) (VS2_1.writes (Elt F) VS2_1.junk (kernelRun2_C c i arg1 harg1 arg2 harg2 arg3 harg3 arg4 harg4 arg5 harg5 arg6 harg6 arg7 harg7 arg8 harg8 arg9 harg9 hc0 hc1 x0 x1 x2 x3 x4 x5 xs0 xs1).2.2.1)

/-! ## What the output block and the two kept buffers hold after each point -/

/-- THE ACCUMULATION.  After the body at position `n`: (the output block, the feature sums, the node counts).  Position 0
    is the first point's case, run on the point's input blocks; a later position is the middle case, or at position 24
    the last case, run on the point's input blocks and on the sums and counts the position before left.  (No position is
    both first and last.) -/
def outsAt2 (c : Dev nD) : (n : ℕ) → n < cfg2.N → Vec F S64x1 .f32 × Vec F S64x20 .f32 × Vec F S64x1 .f32
  | 0, hn => (out2_A_6 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩))
  | n + 1, hn =>
    if h0 : (n + 1) % 25 = 0 then
      if h1 : (n + 1) % 25 = 24 then
        False.elim (by omega)
      else
        (out2_A_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩), sout2_A_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩))
    else
      if h1 : (n + 1) % 25 = 24 then
        (out2_C_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.1 (outsAt2 c n (Nat.lt_of_succ_lt hn)).2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.1 (outsAt2 c n (Nat.lt_of_succ_lt hn)).2.2, sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.1 (outsAt2 c n (Nat.lt_of_succ_lt hn)).2.2)
      else
        (out2_B_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.1 (outsAt2 c n (Nat.lt_of_succ_lt hn)).2.2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.1 (outsAt2 c n (Nat.lt_of_succ_lt hn)).2.2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.1 (outsAt2 c n (Nat.lt_of_succ_lt hn)).2.2)

/-- `outsAt2` at the first point: that case's contents. -/
theorem outsAt2_A (c : Dev nD) (t : Fin cfg2.N) (h0 : t.val % 25 = 0) (h1 : ¬t.val % 25 = 24) :
    outsAt2 V c t.val t.isLt = (out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t), sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t)) := by
  obtain ⟨n, hn⟩ := t
  cases n with
  | zero => exact rfl
  | succ n => exact (dif_pos h0).trans ((dif_neg h1).trans rfl)

/-- `outsAt2` at a middle point: that case's contents, over the sums and counts the point before left. -/
theorem outsAt2_B (c : Dev nD) (t : Fin cfg2.N) (h0 : ¬t.val % 25 = 0) (h1 : ¬t.val % 25 = 24) :
    outsAt2 V c t.val t.isLt = (out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2, sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt2` at the last point: that case's contents, over the sums and counts the point before left. -/
theorem outsAt2_C (c : Dev nD) (t : Fin cfg2.N) (h0 : ¬t.val % 25 = 0) (h1 : t.val % 25 = 24) :
    outsAt2 V c t.val t.isLt = (out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2, sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: before the first point what the launch hands over (both kept buffers at anything); afterwards
    the other 22 scoped buffers untouched, the feature sums and the node counts at what the point before left, and the
    generator register at some state. -/
def PhiS2 (c : Dev nD) : (n : ℕ) → n ≤ cfg2.N → sProp 𝕄
  | 0, _ => Pipeline.ΦA spec2 c
  | n + 1, hn => iprop(iprop(others2 (F := F) c ∗ owns (c : Thread nD τ) scM2_0 fullShare ((outsAt2 V c n hn).2.1) ∗ owns (c : Thread nD τ) scM2_1 fullShare ((outsAt2 V c n hn).2.2)) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(others2 (F := F) c ∗ owns (c : Thread nD τ) scM2_0 fullShare ((outsAt2 V c n hn).2.1) ∗ owns (c : Thread nD τ) scM2_1 fullShare ((outsAt2 V c n hn).2.2)) ∗ (∃ r, prngReg c r)) := rfl

theorem PhiS2_pos (c : Dev nD) (n : ℕ) (h : n ≤ cfg2.N) (hz : n ≠ 0) :
    PhiS2 V c n h = iprop(iprop(others2 (F := F) c ∗ owns (c : Thread nD τ) scM2_0 fullShare ((outsAt2 V c (n - 1) (by omega)).2.1) ∗ owns (c : Thread nD τ) scM2_1 fullShare ((outsAt2 V c (n - 1) (by omega)).2.2)) ∗ (∃ r, prngReg c r)) := by
  cases n with
  | zero => exact absurd rfl hz
  | succ n => rfl

/-! ## The pipeline's proof data -/

/-- The proof data of pipeline 2 on core `c`: the arrays as the region finds them; after the body at point `t` each
    input's buffer at its block and the output's at `outsAt2`'s first component; the invariant `PhiS2`; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 8000000 in
/-- The body at any point.  The inputs' buffers hold their blocks; the closed forms of the two conditions say which of the
    three cases the point is in; the invariant hands the body the two kept buffers (at anything at the first point, at
    what the point before left afterwards) and takes them back at this point's contents, every store into them taking
    all of the buffer; the output block is handed back as found at the first 24 points and at the last holds the one
    piece stored; the other scoped buffers, the generator register and the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  have hN : t.val < 25 := lt_of_lt_of_eq t.isLt (show cfg2.N = 25 from N_2)
  by_cases h0 : t.val % 25 = 0
  · by_cases h1 : t.val % 25 = 24
    · exfalso; omega
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [Dat.leavesExact_idle (dat2 V c) 6 t (idleAt2_6_A t ((hcond2_0 t).mpr h0) (fun h => h1 ((hcond2_1 t).mp h))) (noFlush2_6_A t ((hcond2_0 t).mpr h0) (fun h => h1 ((hcond2_1 t).mp h)))]
      rw [outsAt2_A V c t h0 h1]
      unfold sout2_A_0 sout2_A_1; (try dsimp only)
      by_cases hz : t.val = 0
      · rw [PhiS2_castSucc V c t, PhiS2_zero V c _ _ hz, PhiA2_eq]
        iintro ⟨⟨⟨HR, HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun2_A c (grid2.coords t) _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        iintro ⟨H0, H1, H2, H3, H4, H5, H6, ⟨%es0, HS0⟩, ⟨%es1, HS1⟩⟩
        isplitl [HR HS0 HS1 Hg]
        · isplitr [Hg]
          swap; · iexact Hg
          isplitl [HR]; · iexact HR
          isplitl [HS0]
          · unfold owns; iexists _; isplitr
            swap; · iexact HS0
            ipureintro; exact View.read_writes_of_cover _ _ _ _ _ (scover2_A_0 c _ _ _ _ _ _ _ _ _ _ _ _ _ _ _ _ _ _ _ _ _ _ _ _ _ _ _)
          unfold owns; iexists _; isplitr
          swap; · iexact HS1
          ipureintro; exact View.read_writes_of_cover _ _ _ _ _ (scover2_A_1 c _ _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS2_castSucc V c t, PhiS2_pos V c _ _ hz]
        iintro ⟨⟨⟨HR, HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun2_A c (grid2.coords t) _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        iintro ⟨H0, H1, H2, H3, H4, H5, H6, ⟨%es0, HS0⟩, ⟨%es1, HS1⟩⟩
        isplitl [HR HS0 HS1 Hg]
        · isplitr [Hg]
          swap; · iexact Hg
          isplitl [HR]; · iexact HR
          isplitl [HS0]
          · unfold owns; iexists _; isplitr
            swap; · iexact HS0
            ipureintro; exact View.read_writes_of_cover _ _ _ _ _ (scover2_A_0 c _ _ _ _ _ _ _ _ _ _ _ _ _ _ _ _ _ _ _ _ _ _ _ _ _ _ _)
          unfold owns; iexists _; isplitr
          swap; · iexact HS1
          ipureintro; exact View.read_writes_of_cover _ _ _ _ _ (scover2_A_1 c _ _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · by_cases h1 : t.val % 25 = 24
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [show (dat2 V c).leavesExact 6 t = owns (c : Thread nD τ) (ms2_6 t) fullShare ((dat2 V c).after 6 t) from by
        unfold Dat.leavesExact; rw [liveAt2_6_C t (fun h => h0 ((hcond2_0 t).mp h)) ((hcond2_1 t).mpr h1)], after2_6]
      rw [outsAt2_C V c t h0 h1]
      unfold out2_C_6 sout2_C_0 sout2_C_1; (try dsimp only)
      by_cases hz : t.val = 0
      · exfalso; omega
      · rw [PhiS2_castSucc V c t, PhiS2_pos V c _ _ hz]
        iintro ⟨⟨⟨HR, HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun2_C c (grid2.coords t) _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) _ _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        isplitl [HS1]; · iexact HS1
        iintro ⟨H0, H1, H2, H3, H4, H5, ⟨%e6, H6⟩, ⟨%es0, HS0⟩, ⟨%es1, HS1⟩⟩
        isplitl [HR HS0 HS1 Hg]
        · isplitr [Hg]
          swap; · iexact Hg
          isplitl [HR]; · iexact HR
          isplitl [HS0]
          · unfold owns; iexists _; isplitr
            swap; · iexact HS0
            ipureintro; exact View.read_writes_of_cover _ _ _ _ _ (scover2_C_0 c _ _ _ _ _ _ _ _ _ _ _ _ _ _ _ _ _ _ _ _ _ _ _ _ _ _ _ _ _)
          unfold owns; iexists _; isplitr
          swap; · iexact HS1
          ipureintro; exact View.read_writes_of_cover _ _ _ _ _ (scover2_C_1 c _ _ _ _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover2_C_6 c _ _ _ _ _ _ _ _ _ _ _ _ _ _ _ _ _ _ _ _ _ _ _ _ _ _ _ _ _)
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [Dat.leavesExact_idle (dat2 V c) 6 t (idleAt2_6_B t (fun h => h0 ((hcond2_0 t).mp h)) (fun h => h1 ((hcond2_1 t).mp h))) (noFlush2_6_B t (fun h => h0 ((hcond2_0 t).mp h)) (fun h => h1 ((hcond2_1 t).mp h)))]
      rw [outsAt2_B V c t h0 h1]
      unfold sout2_B_0 sout2_B_1; (try dsimp only)
      by_cases hz : t.val = 0
      · exfalso; omega
      · rw [PhiS2_castSucc V c t, PhiS2_pos V c _ _ hz]
        iintro ⟨⟨⟨HR, HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun2_B c (grid2.coords t) _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) _ _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        iintro ⟨H0, H1, H2, H3, H4, H5, H6, ⟨%es0, HS0⟩, ⟨%es1, HS1⟩⟩
        isplitl [HR HS0 HS1 Hg]
        · isplitr [Hg]
          swap; · iexact Hg
          isplitl [HR]; · iexact HR
          isplitl [HS0]
          · unfold owns; iexists _; isplitr
            swap; · iexact HS0
            ipureintro; exact View.read_writes_of_cover _ _ _ _ _ (scover2_B_0 c _ _ _ _ _ _ _ _ _ _ _ _ _ _ _ _ _ _ _ _ _ _ _ _ _ _ _ _ _)
          unfold owns; iexists _; isplitr
          swap; · iexact HS1
          ipureintro; exact View.read_writes_of_cover _ _ _ _ _ (scover2_B_1 c _ _ _ _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives back what the launch handed over: what the two kept buffers hold is forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HR, HS0, HS1⟩, Hg⟩
  isplitr [Hg]
  swap; · iexact Hg
  isplitl [HR]; · iexact HR
  isplitl [HS0]; · iexists _; iexact HS0
  iexists _; iexact HS1

/-- The same after the last point. -/
theorem hout2 (c : Dev nD) : (dat2 V c).Φ (Fin.last cfg2.N) ⊢ Pipeline.ΦA spec2 c :=
  Phi_out2 V c _ (by rw [Fin.val_last]; have : cfg2.N = 25 := N_2; omega)

end Cert.Kernel.Hand

end
-- ==== Proof.K.Run.lean ====
/-
  The launch of the three-region program.  Region 2's exit contents `W6`; the proof data of the three pipelines, each at its
  region's entry contents; each region as a segment of @main around the thread state "every unscoped buffer of the core at the
  boundary's contents, the generator register at some state, nothing owed" (its arrays split out of the unscoped buffers at
  entry and put back at exit, the register lent to the region's invariant); @main as its six segments; and the launch: every
  weakly fair execution terminates, nothing faulting, with every unscoped buffer at `W6`.  From it: the frame (no argument
  array is ever written), and the run with the result array named (region 2's output after its last write-back).
  Generic in the float instance.
-/
import proofs.«423883_j31576599560691_3_alg».proof.Proof.K.Fold
import proofs.«423883_j31576599560691_3_alg».proof.Proof.K.Readout
import proofs.«423883_j31576599560691_3_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At region 2's exit: its arrays at what the pipeline leaves (the inputs as entered, the output with its write-backs
    folded in), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- Region 2 changes no buffer but its output array `main_v36`: an input window's array ends as it was entered. -/
theorem W6_keep (c : Dev nD) (r : Ref sig .tc) (hr : r ≠ main_v36) :
    W6 m ρ c (Proc.devRef .tc r) = W5 m ρ c (Proc.devRef .tc r) := by
  by_cases h : ∃ w : Fin cfg2.W, Pipeline.arrRef spec2 w = r
  · obtain ⟨w, rfl⟩ := h
    rw [W6_arr]
    match w, hr with
    | ⟨0, _⟩, _ => exact ((dat2 (V5 m ρ) c).arrAt_in 0 rfl _).trans (A_eq2 (V5 m ρ) c 0)
    | ⟨1, _⟩, _ => exact ((dat2 (V5 m ρ) c).arrAt_in 1 rfl _).trans (A_eq2 (V5 m ρ) c 1)
    | ⟨2, _⟩, _ => exact ((dat2 (V5 m ρ) c).arrAt_in 2 rfl _).trans (A_eq2 (V5 m ρ) c 2)
    | ⟨3, _⟩, _ => exact ((dat2 (V5 m ρ) c).arrAt_in 3 rfl _).trans (A_eq2 (V5 m ρ) c 3)
    | ⟨4, _⟩, _ => exact ((dat2 (V5 m ρ) c).arrAt_in 4 rfl _).trans (A_eq2 (V5 m ρ) c 4)
    | ⟨5, _⟩, _ => exact ((dat2 (V5 m ρ) c).arrAt_in 5 rfl _).trans (A_eq2 (V5 m ρ) c 5)
    | ⟨6, _⟩, hr => exact absurd rfl hr
  · exact W6_of_ne m ρ c r (fun w e => h ⟨w, e⟩)

/-- A buffer that no host operation writes and that is no region's output array ends the program as it was launched. -/
theorem W6_kept (c : Dev nD) (r : Ref sig .tc) (h0 : r ∉ hostOps0_W) (h1 : r ∉ hostOps1_W) (h2 : r ∉ hostOps2_W)
    (ho : r ∉ ([main_v20, main_v32, main_v36] : List (Ref sig .tc))) :
    W6 m ρ c (Proc.devRef .tc r) = m ((c : Thread nD τ).loc r) :=
  calc W6 m ρ c (Proc.devRef .tc r)
    _ = W5 m ρ c (Proc.devRef .tc r) := W6_keep m ρ c r (fun e => ho (by simp [e]))
    _ = W4 m ρ c (Proc.devRef .tc r) := StableHlo.after_of_writes_sub hostOps2 _ hostOps2_writes h2
    _ = W3 m ρ c (Proc.devRef .tc r) := W4_keep m ρ c r (fun e => ho (by simp [e]))
    _ = W2 m ρ c (Proc.devRef .tc r) := StableHlo.after_of_writes_sub hostOps1 _ hostOps1_writes h1
    _ = W1 m ρ c (Proc.devRef .tc r) := W2_keep m ρ c r (fun e => ho (by simp [e]))
    _ = W0 m ρ c (Proc.devRef .tc r) := StableHlo.after_of_writes_sub hostOps0 _ hostOps0_writes h0
    _ = m ((c : Thread nD τ).loc r) := rfl

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A stretch of host operations as a segment of @main over the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register
    at some state. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered from every unscoped buffer at `W1`, left at `W2`. Its arrays are split
    out of the unscoped buffers and put back at the exit contents; the generator register goes into the region's invariant and
    comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split
    out of the unscoped buffers and put back at the exit contents; the generator register goes into the region's invariant and
    comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split
    out of the unscoped buffers and put back at the exit contents; the generator register goes into the region's invariant and
    comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (V5 m ρ) c)
    unfold Pipeline.ΦA
    iintro ⟨Hp, -, Hr⟩
    isplitl [Hr]; · iexact Hr
    iexact Hp
  hout c := by
    refine (hout2 (V5 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's six items in order: three stretches of host operations, each followed by a pallas_call region. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
/-- @main is the run of these segments. -/
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, and
    every final state holds every unscoped buffer of every core at the last boundary's contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_arg0 (by decide))).trans (W6_kept m ρ c main_arg0 (by decide) (by decide) (by decide) (by decide)),
    (h c _ (mem_uc main_arg1 (by decide))).trans (W6_kept m ρ c main_arg1 (by decide) (by decide) (by decide) (by decide)),
    (h c _ (mem_uc main_arg2 (by decide))).trans (W6_kept m ρ c main_arg2 (by decide) (by decide) (by decide) (by decide)),
    (h c _ (mem_uc main_arg3 (by decide))).trans (W6_kept m ρ c main_arg3 (by decide) (by decide) (by decide) (by decide)),
    (h c _ (mem_uc main_arg4 (by decide))).trans (W6_kept m ρ c main_arg4 (by decide) (by decide) (by decide) (by decide)),
    (h c _ (mem_uc main_arg5 (by decide))).trans (W6_kept m ρ c main_arg5 (by decide) (by decide) (by decide) (by decide)),
    (h c _ (mem_uc main_arg6 (by decide))).trans (W6_kept m ρ c main_arg6 (by decide) (by decide) (by decide) (by decide)),
    (h c _ (mem_uc main_arg7 (by decide))).trans (W6_kept m ρ c main_arg7 (by decide) (by decide) (by decide) (by decide)),
    (h c _ (mem_uc main_arg8 (by decide))).trans (W6_kept m ρ c main_arg8 (by decide) (by decide) (by decide) (by decide)),
    (h c _ (mem_uc main_arg9 (by decide))).trans (W6_kept m ρ c main_arg9 (by decide) (by decide) (by decide) (by decide)),
    (h c _ (mem_uc main_arg10 (by decide))).trans (W6_kept m ρ c main_arg10 (by decide) (by decide) (by decide) (by decide)),
    (h c _ (mem_uc main_arg11 (by decide))).trans (W6_kept m ρ c main_arg11 (by decide) (by decide) (by decide) (by decide)),
    (h c _ (mem_uc main_arg12 (by decide))).trans (W6_kept m ρ c main_arg12 (by decide) (by decide) (by decide) (by decide)),
    (h c _ (mem_uc main_arg13 (by decide))).trans (W6_kept m ρ c main_arg13 (by decide) (by decide) (by decide) (by decide))⟩) (run_all m ρ)

/-- THE RUN WITH ITS RESULT NAMED: the result array ends at region 2's final contents, every argument as launched. -/
theorem run_result : θ_run defs (onTc (τ := τ) (main (F := F))) ⟨m, fun _ => 0, ρ⟩ (fun r => ∀ c : Dev nD,
      r.2.mem ((c.tc : Thread nD τ).loc main_v36) = (dat2 (V5 m ρ) c).arrAt 6 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_v36 (by decide))).trans (W6_arr m ρ c 6),
    (h c _ (mem_uc main_arg0 (by decide))).trans (W6_kept m ρ c main_arg0 (by decide) (by decide) (by decide) (by decide)),
    (h c _ (mem_uc main_arg1 (by decide))).trans (W6_kept m ρ c main_arg1 (by decide) (by decide) (by decide) (by decide)),
    (h c _ (mem_uc main_arg2 (by decide))).trans (W6_kept m ρ c main_arg2 (by decide) (by decide) (by decide) (by decide)),
    (h c _ (mem_uc main_arg3 (by decide))).trans (W6_kept m ρ c main_arg3 (by decide) (by decide) (by decide) (by decide)),
    (h c _ (mem_uc main_arg4 (by decide))).trans (W6_kept m ρ c main_arg4 (by decide) (by decide) (by decide) (by decide)),
    (h c _ (mem_uc main_arg5 (by decide))).trans (W6_kept m ρ c main_arg5 (by decide) (by decide) (by decide) (by decide)),
    (h c _ (mem_uc main_arg6 (by decide))).trans (W6_kept m ρ c main_arg6 (by decide) (by decide) (by decide) (by decide)),
    (h c _ (mem_uc main_arg7 (by decide))).trans (W6_kept m ρ c main_arg7 (by decide) (by decide) (by decide) (by decide)),
    (h c _ (mem_uc main_arg8 (by decide))).trans (W6_kept m ρ c main_arg8 (by decide) (by decide) (by decide) (by decide)),
    (h c _ (mem_uc main_arg9 (by decide))).trans (W6_kept m ρ c main_arg9 (by decide) (by decide) (by decide) (by decide)),
    (h c _ (mem_uc main_arg10 (by decide))).trans (W6_kept m ρ c main_arg10 (by decide) (by decide) (by decide) (by decide)),
    (h c _ (mem_uc main_arg11 (by decide))).trans (W6_kept m ρ c main_arg11 (by decide) (by decide) (by decide) (by decide)),
    (h c _ (mem_uc main_arg12 (by decide))).trans (W6_kept m ρ c main_arg12 (by decide) (by decide) (by decide) (by decide)),
    (h c _ (mem_uc main_arg13 (by decide))).trans (W6_kept m ρ c main_arg13 (by decide) (by decide) (by decide) (by decide))⟩) (run_all m ρ)

end Cert.Kernel.Hand

end
-- ==== Proof.KI.Sage0.lean ====
/-
  Region 0 of the program: the first SAGE layer's dense combine, one grid point per block of 4000 node rows.
  At a grid point the body reads the block of node features x (4000×128), the block of summed neighbour
  features agg (4000×128), the block of reciprocal in-degrees inv (4000×1) and the whole weights Wself, Wneigh
  (128×100) and bias b (1×100), and stores into its output block (4000×100) the single value
  max(x·Wself + (agg ⊙ inv)·Wneigh + b, 0), the payload `k0_pay1` of those six loads.
  Everything here is stated at a parameter `V`: the contents of the core's buffers when the region is entered.
  What is proved: the body's triple (inputs kept, the output buffer at `out0_6` of the inputs), the proof data
  of the pipeline (each input window's staging buffer at its block of the array, the output's at `out0_6` of
  the point's blocks, the invariant the scoped buffers and the generator register untouched), and the body
  obligation at every grid point.  Generic in the float instance.
-/
import proofs.«423883_j31576599560691_3_alg».proof.Proof.Gen.KernelIdeal.Launch
import proofs.«423883_j31576599560691_3_alg».proof.Proof.Gen.KernelIdeal.Skeleton
import proofs.«423883_j31576599560691_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: the rows `4000·t … 4000·t + 3999` of a row-blocked array (the whole
    array for the weights and the bias), read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block of the array at every grid point, whether the pipeline
    fetched it there or not (where it did not, the block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block of the array at every grid point, whether the pipeline
    fetched it there or not (where it did not, the block index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block of the array at every grid point, whether the pipeline
    fetched it there or not (where it did not, the block index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block of the array at every grid point, whether the pipeline
    fetched it there or not (where it did not, the block index has not moved). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block of the array at every grid point, whether the pipeline
    fetched it there or not (where it did not, the block index has not moved). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block of the array at every grid point, whether the pipeline
    fetched it there or not (where it did not, the block index has not moved). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take a whole staging buffer -/

abbrev r0_x : Rect S4000x128 := Rect.unit (s := S4000x128) ![0, 0] S4000x128.size inb_S4000x128_S4000x128_0_0
abbrev r0_inv : Rect S4000x1 := Rect.unit (s := S4000x1) ![0, 0] S4000x1.size inb_S4000x1_S4000x1_0_0
abbrev r0_w : Rect S128x100 := Rect.unit (s := S128x100) ![0, 0] S128x100.size inb_S128x100_S128x100_0_0
abbrev r0_b : Rect S1x100 := Rect.unit (s := S1x100) ![0, 0] S1x100.size inb_S1x100_S1x100_0_0
abbrev r0_o : Rect S4000x100 := Rect.unit (s := S4000x100) ![0, 0] S4000x100.size inb_S4000x100_S4000x100_0_0

/-! ## What the body leaves in the output window's buffer -/

/-- The output block after the body, from the six input blocks: its one store, of the payload of the six loads. -/
def out0_6 (x0 : Vec F S4000x128 .f32) (x1 : Vec F S4000x128 .f32) (x2 : Vec F S4000x1 .f32) (x3 : Vec F S128x100 .f32) (x4 : Vec F S128x100 .f32) (x5 : Vec F S1x100 .f32) : Vec F S4000x100 .f32 :=
  View.canon [⟨r0_o, k0_pay1 (View.ld x0 r0_x) (View.ld x1 r0_x) (View.ld x2 r0_inv) (View.ld x3 r0_w) (View.ld x4 r0_w) (View.ld x5 r0_b)⟩]

/-- The one store takes the whole block, so it covers it. -/
theorem cover0_6 (p0 : Vec F S4000x100 .f32) (y : S4000x100.Idx) :
    ∃ pc ∈ ([⟨r0_o, p0⟩] : List (View.Piece (Elt F) S4000x100 .f32)), y ∈ pc.1.set :=
  View.cover_of_tiled [⟨r0_o, p0⟩] S4000x100.size (by rfl) y

/-! ## The body's triple -/

set_option maxHeartbeats 4000000 in
/-- The body on whole staging buffers, the six inputs' at contents `x0 … x5` and the output's at anything, runs to its
    end holding the inputs' as they were and the output's at `out0_6` of the inputs'. -/
theorem sound_kernel0 (c : Dev nD) (E : Set ℕ) (i : grid0.Coords) (arg1 : Memref sig .tc .vmem S4000x128 .f32) (harg1 : arg1.IsWhole) (arg2 : Memref sig .tc .vmem S4000x128 .f32) (harg2 : arg2.IsWhole) (arg3 : Memref sig .tc .vmem S4000x1 .f32) (harg3 : arg3.IsWhole) (arg4 : Memref sig .tc .vmem S128x100 .f32) (harg4 : arg4.IsWhole) (arg5 : Memref sig .tc .vmem S128x100 .f32) (harg5 : arg5.IsWhole) (arg6 : Memref sig .tc .vmem S1x100 .f32) (harg6 : arg6.IsWhole) (arg7 : Memref sig .tc .vmem S4000x100 .f32) (harg7 : arg7.IsWhole)
    (x0 : Vec F S4000x128 .f32) (x1 : Vec F S4000x128 .f32) (x2 : Vec F S4000x1 .f32) (x3 : Vec F S128x100 .f32) (x4 : Vec F S128x100 .f32) (x5 : Vec F S1x100 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0__sage_kernel i arg1 harg1 arg2 harg2 arg3 harg3 arg4 harg4 arg5 harg5 arg6 harg6 arg7 harg7) K := by
  simp only [cc0__sage_kernel_eq_skeleton]; unfold cc0__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The proof data of pipeline 0 on core `c`: the arrays as the region finds them; after the body at point `t` each
    input's buffer at its block and the output's at `out0_6` of the point's six blocks; the invariant the scoped buffers
    no window stages and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t
    = out0_6 (iblk0 V c 0 t) (iblk0 V c 1 t) (iblk0 V c 2 t) (iblk0 V c 3 t) (iblk0 V c 4 t) (iblk0 V c 5 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Sage1.lean ====
/-
  Region 1 of the program: the second SAGE layer's dense combine, one grid point per block of 4000 node rows.
  At a grid point the body reads the block of node features x (4000×100), the block of summed neighbour
  features agg (4000×100), the block of reciprocal in-degrees inv (4000×1) and the whole weights Wself, Wneigh
  (100×20) and bias b (1×20), and stores into its output block (4000×20) the single value
  max(x·Wself + (agg ⊙ inv)·Wneigh + b, 0), the payload `k1_pay1` of those six loads.
  Everything here is stated at a parameter `V`: the contents of the core's buffers when the region is entered.
  What is proved: the body's triple (inputs kept, the output buffer at `out1_6` of the inputs), the proof data
  of the pipeline (each input window's staging buffer at its block of the array, the output's at `out1_6` of
  the point's blocks, the invariant the scoped buffers and the generator register untouched), and the body
  obligation at every grid point.  Generic in the float instance.
-/
import proofs.«423883_j31576599560691_3_alg».proof.Proof.Gen.KernelIdeal.Launch
import proofs.«423883_j31576599560691_3_alg».proof.Proof.Gen.KernelIdeal.Skeleton
import proofs.«423883_j31576599560691_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: the rows `4000·t … 4000·t + 3999` of a row-blocked array (the whole
    array for the weights and the bias), read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block of the array at every grid point, whether the pipeline
    fetched it there or not (where it did not, the block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block of the array at every grid point, whether the pipeline
    fetched it there or not (where it did not, the block index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block of the array at every grid point, whether the pipeline
    fetched it there or not (where it did not, the block index has not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block of the array at every grid point, whether the pipeline
    fetched it there or not (where it did not, the block index has not moved). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block of the array at every grid point, whether the pipeline
    fetched it there or not (where it did not, the block index has not moved). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block of the array at every grid point, whether the pipeline
    fetched it there or not (where it did not, the block index has not moved). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take a whole staging buffer -/

abbrev r1_x : Rect S4000x100 := Rect.unit (s := S4000x100) ![0, 0] S4000x100.size inb_S4000x100_S4000x100_0_0
abbrev r1_inv : Rect S4000x1 := Rect.unit (s := S4000x1) ![0, 0] S4000x1.size inb_S4000x1_S4000x1_0_0
abbrev r1_w : Rect S100x20 := Rect.unit (s := S100x20) ![0, 0] S100x20.size inb_S100x20_S100x20_0_0
abbrev r1_b : Rect S1x20 := Rect.unit (s := S1x20) ![0, 0] S1x20.size inb_S1x20_S1x20_0_0
abbrev r1_o : Rect S4000x20 := Rect.unit (s := S4000x20) ![0, 0] S4000x20.size inb_S4000x20_S4000x20_0_0

/-! ## What the body leaves in the output window's buffer -/

/-- The output block after the body, from the six input blocks: its one store, of the payload of the six loads. -/
def out1_6 (x0 : Vec F S4000x100 .f32) (x1 : Vec F S4000x100 .f32) (x2 : Vec F S4000x1 .f32) (x3 : Vec F S100x20 .f32) (x4 : Vec F S100x20 .f32) (x5 : Vec F S1x20 .f32) : Vec F S4000x20 .f32 :=
  View.canon [⟨r1_o, k1_pay1 (View.ld x0 r1_x) (View.ld x1 r1_x) (View.ld x2 r1_inv) (View.ld x3 r1_w) (View.ld x4 r1_w) (View.ld x5 r1_b)⟩]

/-- The one store takes the whole block, so it covers it. -/
theorem cover1_6 (p0 : Vec F S4000x20 .f32) (y : S4000x20.Idx) :
    ∃ pc ∈ ([⟨r1_o, p0⟩] : List (View.Piece (Elt F) S4000x20 .f32)), y ∈ pc.1.set :=
  View.cover_of_tiled [⟨r1_o, p0⟩] S4000x20.size (by rfl) y

/-! ## The body's triple -/

set_option maxHeartbeats 4000000 in
/-- The body on whole staging buffers, the six inputs' at contents `x0 … x5` and the output's at anything, runs to its
    end holding the inputs' as they were and the output's at `out1_6` of the inputs'. -/
theorem sound_kernel1 (c : Dev nD) (E : Set ℕ) (i : grid1.Coords) (arg1 : Memref sig .tc .vmem S4000x100 .f32) (harg1 : arg1.IsWhole) (arg2 : Memref sig .tc .vmem S4000x100 .f32) (harg2 : arg2.IsWhole) (arg3 : Memref sig .tc .vmem S4000x1 .f32) (harg3 : arg3.IsWhole) (arg4 : Memref sig .tc .vmem S100x20 .f32) (harg4 : arg4.IsWhole) (arg5 : Memref sig .tc .vmem S100x20 .f32) (harg5 : arg5.IsWhole) (arg6 : Memref sig .tc .vmem S1x20 .f32) (harg6 : arg6.IsWhole) (arg7 : Memref sig .tc .vmem S4000x20 .f32) (harg7 : arg7.IsWhole)
    (x0 : Vec F S4000x100 .f32) (x1 : Vec F S4000x100 .f32) (x2 : Vec F S4000x1 .f32) (x3 : Vec F S100x20 .f32) (x4 : Vec F S100x20 .f32) (x5 : Vec F S1x20 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__sage_kernel i arg1 harg1 arg2 harg2 arg3 harg3 arg4 harg4 arg5 harg5 arg6 harg6 arg7 harg7) K := by
  simp only [cc1__sage_kernel_eq_skeleton]; unfold cc1__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of pipeline 1 on core `c`: the arrays as the region finds them; after the body at point `t` each
    input's buffer at its block and the output's at `out1_6` of the point's six blocks; the invariant the scoped buffers
    no window stages and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Fold.lean ====
/-
  What each core's buffers hold at the boundaries between @main's items, as a fold from the launch memory: a stretch of
  host operations applies its operations in order; a pallas_call region leaves its input arrays as it found them and its
  output array at the pipeline's write-backs folded over the grid.  Here the boundaries up to region 2's entry
  (`W0 … W5`), with the facts the later modules need: each region's exit contents at its arrays and elsewhere.
  Generic in the float instance.
-/
import proofs.«423883_j31576599560691_3_alg».proof.Proof.KI.Sage0
import proofs.«423883_j31576599560691_3_alg».proof.Proof.KI.Sage1
import proofs.«423883_j31576599560691_3_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary between @main's items: a fold from the launch memory -/

/-- Core `c`'s buffers at launch. -/
abbrev W0 : Dev nD → Valuation τ sig (Elt F) := fun c b => (s₀ m ρ).mem ((c : Dev nD), b)
/-- After the first stretch of host operations (region 0's entry): the in-degrees' reciprocals, the gathered and summed
    neighbour features of layer 1, the bias as a row. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (the inputs as entered, the output with its write-backs
    folded in), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- Region 0 changes no buffer but its output array `main_v20`: an input window's array ends as it was entered. -/
theorem W2_keep (c : Dev nD) (r : Ref sig .tc) (hr : r ≠ main_v20) :
    W2 m ρ c (Proc.devRef .tc r) = W1 m ρ c (Proc.devRef .tc r) := by
  by_cases h : ∃ w : Fin cfg0.W, Pipeline.arrRef spec0 w = r
  · obtain ⟨w, rfl⟩ := h
    rw [W2_arr]
    match w, hr with
    | ⟨0, _⟩, _ => exact ((dat0 (V1 m ρ) c).arrAt_in 0 rfl _).trans (A_eq0 (V1 m ρ) c 0)
    | ⟨1, _⟩, _ => exact ((dat0 (V1 m ρ) c).arrAt_in 1 rfl _).trans (A_eq0 (V1 m ρ) c 1)
    | ⟨2, _⟩, _ => exact ((dat0 (V1 m ρ) c).arrAt_in 2 rfl _).trans (A_eq0 (V1 m ρ) c 2)
    | ⟨3, _⟩, _ => exact ((dat0 (V1 m ρ) c).arrAt_in 3 rfl _).trans (A_eq0 (V1 m ρ) c 3)
    | ⟨4, _⟩, _ => exact ((dat0 (V1 m ρ) c).arrAt_in 4 rfl _).trans (A_eq0 (V1 m ρ) c 4)
    | ⟨5, _⟩, _ => exact ((dat0 (V1 m ρ) c).arrAt_in 5 rfl _).trans (A_eq0 (V1 m ρ) c 5)
    | ⟨6, _⟩, hr => exact absurd rfl hr
  · exact W2_of_ne m ρ c r (fun w e => h ⟨w, e⟩)

/-- After the second stretch of host operations (region 1's entry): layer 2's gathered and summed neighbour features. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its arrays at what the pipeline leaves (the inputs as entered, the output with its write-backs
    folded in), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- Region 1 changes no buffer but its output array `main_v32`: an input window's array ends as it was entered. -/
theorem W4_keep (c : Dev nD) (r : Ref sig .tc) (hr : r ≠ main_v32) :
    W4 m ρ c (Proc.devRef .tc r) = W3 m ρ c (Proc.devRef .tc r) := by
  by_cases h : ∃ w : Fin cfg1.W, Pipeline.arrRef spec1 w = r
  · obtain ⟨w, rfl⟩ := h
    rw [W4_arr]
    match w, hr with
    | ⟨0, _⟩, _ => exact ((dat1 (V3 m ρ) c).arrAt_in 0 rfl _).trans (A_eq1 (V3 m ρ) c 0)
    | ⟨1, _⟩, _ => exact ((dat1 (V3 m ρ) c).arrAt_in 1 rfl _).trans (A_eq1 (V3 m ρ) c 1)
    | ⟨2, _⟩, _ => exact ((dat1 (V3 m ρ) c).arrAt_in 2 rfl _).trans (A_eq1 (V3 m ρ) c 2)
    | ⟨3, _⟩, _ => exact ((dat1 (V3 m ρ) c).arrAt_in 3 rfl _).trans (A_eq1 (V3 m ρ) c 3)
    | ⟨4, _⟩, _ => exact ((dat1 (V3 m ρ) c).arrAt_in 4 rfl _).trans (A_eq1 (V3 m ρ) c 4)
    | ⟨5, _⟩, _ => exact ((dat1 (V3 m ρ) c).arrAt_in 5 rfl _).trans (A_eq1 (V3 m ρ) c 5)
    | ⟨6, _⟩, hr => exact absurd rfl hr
  · exact W4_of_ne m ρ c r (fun w e => h ⟨w, e⟩)

/-- After the third stretch of host operations (region 2's entry): the graph ids as a column, the small biases as rows. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

end Cert.KernelIdeal.Hand

end
-- ==== Proof.KI.ReadoutRuns.lean ====
/-
  Region 2 of the program, the readout: one grid point per block of 4000 node rows, 25 points.
  Across the points the body accumulates, in two buffers it keeps between points, the per-graph sums of the node
  features (64×20) and the per-graph node counts (64×1): at the first point it zeroes both, at every point it adds
  (one-hot mask of the block's graph ids)·(block of features), resp. ·ones; at the last point it reads both sums
  back, forms the per-graph means, runs them through the two dense layers and stores the 64×1 result, the only
  point at which the output block is written and copied back.
  This module holds what the three control cases of the body share: the windows' blocks read off the arrays as the
  region finds them (a parameter `V`), the two branch conditions in closed form over the grid, where the output
  window is idle, the memrefs the body is called with, and the region's invariant with the two kept buffers
  singled out.  Generic in the float instance.
-/
import proofs.«423883_j31576599560691_3_alg».proof.Proof.Gen.KernelIdeal.Launch
import proofs.«423883_j31576599560691_3_alg».proof.Proof.Gen.KernelIdeal.Skeleton
import proofs.«423883_j31576599560691_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: rows `4000·t … 4000·t + 3999` of the features and of the graph ids, the
    whole array for the dense layers' weights and biases and for the result, read off the array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block of the array at every grid point, whether the pipeline
    fetched it there or not (where it did not, the block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block of the array at every grid point, whether the pipeline
    fetched it there or not (where it did not, the block index has not moved). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block of the array at every grid point, whether the pipeline
    fetched it there or not (where it did not, the block index has not moved). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block of the array at every grid point, whether the pipeline
    fetched it there or not (where it did not, the block index has not moved). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block of the array at every grid point, whether the pipeline
    fetched it there or not (where it did not, the block index has not moved). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block of the array at every grid point, whether the pipeline
    fetched it there or not (where it did not, the block index has not moved). -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's two branch conditions -/

/-- The first branch (zero both kept buffers) is taken where the grid coordinate is 0: the scalar chain the body computes. -/
abbrev cond2_0 (i : grid2.Coords) : Prop := (Scalar.cmpi .ne (Scalar.extui (Scalar.cmpi .eq (BitVec.ofNat 32 (i 0).val) 0#32)) 0#32) = 1#1
/-- Over the grid: at the first point only. -/
theorem hcond2_0 : ∀ t : Fin cfg2.N, cond2_0 (grid2.coords t) ↔ t.val % 25 = 0 :=
  (by decide +kernel : ∀ t : Fin grid2.N, cond2_0 (grid2.coords t) ↔ t.val % 25 = 0)

/-- The second branch (form the result and store it) is taken where the grid coordinate is 24. -/
abbrev cond2_1 (i : grid2.Coords) : Prop := k2_cond2 i = 1#1
/-- Over the grid: at the last point only. -/
theorem hcond2_1 : ∀ t : Fin cfg2.N, cond2_1 (grid2.coords t) ↔ t.val % 25 = 24 :=
  (by decide +kernel : ∀ t : Fin grid2.N, cond2_1 (grid2.coords t) ↔ t.val % 25 = 24)

/-! ## Where the windows are idle -/

/-- Window 0 is an input: never idle. -/
theorem liveAt2_0 : ∀ t : Fin cfg2.N, cfg2.idle 0 (grid2.coords t) = false := by decide +kernel
/-- Window 1 is an input: never idle. -/
theorem liveAt2_1 : ∀ t : Fin cfg2.N, cfg2.idle 1 (grid2.coords t) = false := by decide +kernel
/-- Window 2 is an input: never idle. -/
theorem liveAt2_2 : ∀ t : Fin cfg2.N, cfg2.idle 2 (grid2.coords t) = false := by decide +kernel
/-- Window 3 is an input: never idle. -/
theorem liveAt2_3 : ∀ t : Fin cfg2.N, cfg2.idle 3 (grid2.coords t) = false := by decide +kernel
/-- Window 4 is an input: never idle. -/
theorem liveAt2_4 : ∀ t : Fin cfg2.N, cfg2.idle 4 (grid2.coords t) = false := by decide +kernel
/-- Window 5 is an input: never idle. -/
theorem liveAt2_5 : ∀ t : Fin cfg2.N, cfg2.idle 5 (grid2.coords t) = false := by decide +kernel

/-- At the first point (first branch taken, second not) nothing is stored into the output block: the window is idle, -/
theorem idleAt2_6_A : ∀ t : Fin cfg2.N, cond2_0 (grid2.coords t) → ¬cond2_1 (grid2.coords t) → cfg2.idle 6 (grid2.coords t) = true := by decide +kernel
/-- and the block is not copied back there. -/
theorem noFlush2_6_A : ∀ t : Fin cfg2.N, cond2_0 (grid2.coords t) → ¬cond2_1 (grid2.coords t) → (cfg2.win 6).flush t = false := by decide +kernel
/-- At the points 1 … 23 (neither branch taken) likewise: idle, -/
theorem idleAt2_6_B : ∀ t : Fin cfg2.N, ¬cond2_0 (grid2.coords t) → ¬cond2_1 (grid2.coords t) → cfg2.idle 6 (grid2.coords t) = true := by decide +kernel
/-- and not copied back. -/
theorem noFlush2_6_B : ∀ t : Fin cfg2.N, ¬cond2_0 (grid2.coords t) → ¬cond2_1 (grid2.coords t) → (cfg2.win 6).flush t = false := by decide +kernel
/-- At the last point (second branch taken) the output block is stored: the window is live. -/
theorem liveAt2_6_C : ∀ t : Fin cfg2.N, ¬cond2_0 (grid2.coords t) → cond2_1 (grid2.coords t) → cfg2.idle 6 (grid2.coords t) = false := by decide +kernel

/-! ## The memrefs the body is called with -/

/-- Window 0's current staging buffer at point `t`, and that it is a whole buffer. -/
abbrev ms2_0 (t : Fin cfg2.N) : Memref sig .tc .vmem S4000x20 .f32 := win2_0.stage (cfg2.slots t 0)
abbrev hs2_0 (t : Fin cfg2.N) : (ms2_0 t).IsWhole := hstage2_0 ((cfg2.slots t 0).cast nbuf2_0)
/-- Window 1's current staging buffer at point `t`, and that it is a whole buffer. -/
abbrev ms2_1 (t : Fin cfg2.N) : Memref sig .tc .vmem S4000x1 .i32 := win2_1.stage (cfg2.slots t 1)
abbrev hs2_1 (t : Fin cfg2.N) : (ms2_1 t).IsWhole := hstage2_1 ((cfg2.slots t 1).cast nbuf2_1)
/-- Window 2's current staging buffer at point `t`, and that it is a whole buffer. -/
abbrev ms2_2 (t : Fin cfg2.N) : Memref sig .tc .vmem S20x10 .f32 := win2_2.stage (cfg2.slots t 2)
abbrev hs2_2 (t : Fin cfg2.N) : (ms2_2 t).IsWhole := hstage2_2 ((cfg2.slots t 2).cast nbuf2_2)
/-- Window 3's current staging buffer at point `t`, and that it is a whole buffer. -/
abbrev ms2_3 (t : Fin cfg2.N) : Memref sig .tc .vmem S1x10 .f32 := win2_3.stage (cfg2.slots t 3)
abbrev hs2_3 (t : Fin cfg2.N) : (ms2_3 t).IsWhole := hstage2_3 ((cfg2.slots t 3).cast nbuf2_3)
/-- Window 4's current staging buffer at point `t`, and that it is a whole buffer. -/
abbrev ms2_4 (t : Fin cfg2.N) : Memref sig .tc .vmem S10x1 .f32 := win2_4.stage (cfg2.slots t 4)
abbrev hs2_4 (t : Fin cfg2.N) : (ms2_4 t).IsWhole := hstage2_4 ((cfg2.slots t 4).cast nbuf2_4)
/-- Window 5's current staging buffer at point `t`, and that it is a whole buffer. -/
abbrev ms2_5 (t : Fin cfg2.N) : Memref sig .tc .vmem S1x1 .f32 := win2_5.stage (cfg2.slots t 5)
abbrev hs2_5 (t : Fin cfg2.N) : (ms2_5 t).IsWhole := hstage2_5 ((cfg2.slots t 5).cast nbuf2_5)
/-- Window 6's current staging buffer at point `t`, and that it is a whole buffer. -/
abbrev ms2_6 (t : Fin cfg2.N) : Memref sig .tc .vmem S64x1 .f32 := win2_6.stage (cfg2.slots t 6)
abbrev hs2_6 (t : Fin cfg2.N) : (ms2_6 t).IsWhole := hstage2_6 ((cfg2.slots t 6).cast nbuf2_6)

/-- The buffer of per-graph feature sums (64×20) the body keeps between points, -/
abbrev scM2_0 : Memref sig .tc .vmem S64x20 .f32 := Memref.whole cc2_scratch0
/-- and the buffer of per-graph node counts (64×1). -/
abbrev scM2_1 : Memref sig .tc .vmem S64x1 .f32 := Memref.whole cc2_scratch1
/-- Their views: what each holds is stated by reading written pieces back through them. -/
abbrev VS2_0 : View sig .tc .vmem S64x20 .f32 := scM2_0.view
abbrev VS2_1 : View sig .tc .vmem S64x1 .f32 := scM2_1.view
/-- The output window's one staging buffer, as a view. -/
abbrev VO2_6 : View sig .tc .vmem S64x1 .f32 := (Memref.whole cc2_stg6_0 : Memref sig .tc .vmem S64x1 .f32).view

/-! ## The region's invariant with the two kept buffers singled out -/

/-- The core's scoped buffers that region 2 neither stages nor keeps between points: the staging buffers of regions 0
    and 1, each at some contents.  The body never touches them; they pass through every point as one block. -/
def others2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f))

/-- The scoped buffers outside region 2's staging, with whatever stands for the two kept buffers last, is the block of
    the other 22 beside it: separating conjunction is associative. -/
theorem others2_split (c : Dev nD) (P : sProp 𝕄) :
    (iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ P) : sProp 𝕄) = iprop(others2 (F := F) c ∗ P) := by
  have h₁ : (iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ P) : sProp 𝕄) ⊢ iprop(others2 (F := F) c ∗ P) := by
    unfold others2
    iintro ⟨R0, R1, R2, R3, R4, R5, R6, R7, R8, R9, R10, R11, R12, R13, R14, R15, R16, R17, R18, R19, R20, R21, HP⟩
    isplitr [HP]
    swap; · iexact HP
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [R15]; · iexact R15
    isplitl [R16]; · iexact R16
    isplitl [R17]; · iexact R17
    isplitl [R18]; · iexact R18
    isplitl [R19]; · iexact R19
    isplitl [R20]; · iexact R20
    iexact R21
  have h₂ : (iprop(others2 (F := F) c ∗ P) : sProp 𝕄) ⊢ iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ P) := by
    unfold others2
    iintro ⟨⟨R0, R1, R2, R3, R4, R5, R6, R7, R8, R9, R10, R11, R12, R13, R14, R15, R16, R17, R18, R19, R20, R21⟩, HP⟩
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [R15]; · iexact R15
    isplitl [R16]; · iexact R16
    isplitl [R17]; · iexact R17
    isplitl [R18]; · iexact R18
    isplitl [R19]; · iexact R19
    isplitl [R20]; · iexact R20
    isplitl [R21]; · iexact R21
    iexact HP
  exact BI.equiv_iff.mp ⟨h₁, h₂⟩

/-- What the launch hands the region and takes back: the other 22 scoped buffers, the two kept buffers each owned at
    some contents, and the generator register at some state. -/
theorem PhiA2_eq (c : Dev nD) :
    (Pipeline.ΦA spec2 c : sProp 𝕄)
      = iprop(iprop(others2 (F := F) c ∗ (∃ d, owns (c : Thread nD τ) scM2_0 fullShare d) ∗ (∃ d, owns (c : Thread nD τ) scM2_1 fullShare d)) ∗ (∃ r, prngReg c r)) := by
  unfold Pipeline.ΦA; rw [scopedRest2_eq, others2_split]; simp only [scM2_0, scM2_1, owns_whole]; try rfl

end Cert.KernelIdeal.Hand

end
-- ==== Proof.KI.ReadoutRunA.lean ====
/-
  Region 2, the readout: the body run symbolically in control case A (the first grid point).
  What each written buffer ends with is found by the run itself, as the list of pieces stored into it.
-/
import proofs.«423883_j31576599560691_3_alg».proof.Proof.KI.ReadoutRuns

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- THE FIRST POINT (first branch taken, second not).  On whole buffers — the six inputs' at contents `x0 … x5`, the output's
    at `xi6`, the two kept buffers at anything — the body runs to its end holding the inputs' and the output's as they
    were and each kept buffer with the pieces `LS0`, `LS1` written: the zeroing store, then the store of zero plus this
    block's masked sums.  The pieces are found by running the body symbolically; they do not depend on what the kept
    buffers held. -/
noncomputable def kernelRun2_A (c : Dev nD) (i : grid2.Coords) (arg1 : Memref sig .tc .vmem S4000x20 .f32) (harg1 : arg1.IsWhole) (arg2 : Memref sig .tc .vmem S4000x1 .i32) (harg2 : arg2.IsWhole) (arg3 : Memref sig .tc .vmem S20x10 .f32) (harg3 : arg3.IsWhole) (arg4 : Memref sig .tc .vmem S1x10 .f32) (harg4 : arg4.IsWhole) (arg5 : Memref sig .tc .vmem S10x1 .f32) (harg5 : arg5.IsWhole) (arg6 : Memref sig .tc .vmem S1x1 .f32) (harg6 : arg6.IsWhole) (arg7 : Memref sig .tc .vmem S64x1 .f32) (harg7 : arg7.IsWhole) (arg8 : Memref sig .tc .vmem S64x20 .f32) (harg8 : arg8.IsWhole) (arg9 : Memref sig .tc .vmem S64x1 .f32) (harg9 : arg9.IsWhole) (hc0 : cond2_0 i) (hc1 : ¬cond2_1 i)
    (x0 : Vec F S4000x20 .f32) (x1 : Vec F S4000x1 .i32) (x2 : Vec F S20x10 .f32) (x3 : Vec F S1x10 .f32) (x4 : Vec F S10x1 .f32) (x5 : Vec F S1x1 .f32) :
    Σ' (L6 : List (View.Piece (Elt F) S64x1 .f32)), Σ' (LS0 : List (View.Piece (Elt F) S64x20 .f32)), { LS1 : List (View.Piece (Elt F) S64x1 .f32) //
      ∀ (xi6 : Vec F S64x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc2__readout_kernel i arg1 harg1 arg2 harg2 arg3 harg3 arg4 harg4 arg5 harg5 arg6 harg6 arg7 harg7 arg8 harg8 arg9 harg9) K } := by
  refine ⟨[], ?_, ?_, fun xi6 E K => ?run⟩
  case run =>
    simp only [cc2__readout_kernel_eq_skeleton]; unfold cc2__readout_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.KernelIdeal.Hand

end
-- ==== Proof.KI.ReadoutRunB.lean ====
/-
  Region 2, the readout: the body run symbolically in control case B (grid points 1 … 23).
  What each written buffer ends with is found by the run itself, as the list of pieces stored into it.
-/
import proofs.«423883_j31576599560691_3_alg».proof.Proof.KI.ReadoutRunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- THE MIDDLE POINTS 1 … 23 (neither branch taken).  On whole buffers — the six inputs' at contents `x0 … x5`, the output's
    at `xi6`, the two kept buffers at what the point before left, `xs0` and `xs1` — the body runs to its end holding
    the inputs' and the output's as they were and each kept buffer with the pieces `LS0`, `LS1` written: the one store
    of the old sums plus this block's masked sums. -/
noncomputable def kernelRun2_B (c : Dev nD) (i : grid2.Coords) (arg1 : Memref sig .tc .vmem S4000x20 .f32) (harg1 : arg1.IsWhole) (arg2 : Memref sig .tc .vmem S4000x1 .i32) (harg2 : arg2.IsWhole) (arg3 : Memref sig .tc .vmem S20x10 .f32) (harg3 : arg3.IsWhole) (arg4 : Memref sig .tc .vmem S1x10 .f32) (harg4 : arg4.IsWhole) (arg5 : Memref sig .tc .vmem S10x1 .f32) (harg5 : arg5.IsWhole) (arg6 : Memref sig .tc .vmem S1x1 .f32) (harg6 : arg6.IsWhole) (arg7 : Memref sig .tc .vmem S64x1 .f32) (harg7 : arg7.IsWhole) (arg8 : Memref sig .tc .vmem S64x20 .f32) (harg8 : arg8.IsWhole) (arg9 : Memref sig .tc .vmem S64x1 .f32) (harg9 : arg9.IsWhole) (hc0 : ¬cond2_0 i) (hc1 : ¬cond2_1 i)
    (x0 : Vec F S4000x20 .f32) (x1 : Vec F S4000x1 .i32) (x2 : Vec F S20x10 .f32) (x3 : Vec F S1x10 .f32) (x4 : Vec F S10x1 .f32) (x5 : Vec F S1x1 .f32) (xs0 : Vec F S64x20 .f32) (xs1 : Vec F S64x1 .f32) :
    Σ' (L6 : List (View.Piece (Elt F) S64x1 .f32)), Σ' (LS0 : List (View.Piece (Elt F) S64x20 .f32)), { LS1 : List (View.Piece (Elt F) S64x1 .f32) //
      ∀ (xi6 : Vec F S64x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc2__readout_kernel i arg1 harg1 arg2 harg2 arg3 harg3 arg4 harg4 arg5 harg5 arg6 harg6 arg7 harg7 arg8 harg8 arg9 harg9) K } := by
  refine ⟨[], ?_, ?_, fun xi6 E K => ?run⟩
  case run =>
    simp only [cc2__readout_kernel_eq_skeleton]; unfold cc2__readout_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.KernelIdeal.Hand

end
-- ==== Proof.KI.ReadoutRunC.lean ====
/-
  Region 2, the readout: the body run symbolically in control case C (the last grid point).
  What each written buffer ends with is found by the run itself, as the list of pieces stored into it.
-/
import proofs.«423883_j31576599560691_3_alg».proof.Proof.KI.ReadoutRunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- THE LAST POINT (second branch taken, first not).  On whole buffers — the six inputs' at contents `x0 … x5`, the
    output's at anything, the two kept buffers at what the point before left, `xs0` and `xs1` — the body runs to its end
    holding the inputs' as they were, each kept buffer with the pieces `LS0`, `LS1` written (the old sums plus this
    block's masked sums) and the output's with the piece `L6` written: the two dense layers on the per-graph means, read
    back from the kept buffers after their stores. -/
noncomputable def kernelRun2_C (c : Dev nD) (i : grid2.Coords) (arg1 : Memref sig .tc .vmem S4000x20 .f32) (harg1 : arg1.IsWhole) (arg2 : Memref sig .tc .vmem S4000x1 .i32) (harg2 : arg2.IsWhole) (arg3 : Memref sig .tc .vmem S20x10 .f32) (harg3 : arg3.IsWhole) (arg4 : Memref sig .tc .vmem S1x10 .f32) (harg4 : arg4.IsWhole) (arg5 : Memref sig .tc .vmem S10x1 .f32) (harg5 : arg5.IsWhole) (arg6 : Memref sig .tc .vmem S1x1 .f32) (harg6 : arg6.IsWhole) (arg7 : Memref sig .tc .vmem S64x1 .f32) (harg7 : arg7.IsWhole) (arg8 : Memref sig .tc .vmem S64x20 .f32) (harg8 : arg8.IsWhole) (arg9 : Memref sig .tc .vmem S64x1 .f32) (harg9 : arg9.IsWhole) (hc0 : ¬cond2_0 i) (hc1 : cond2_1 i)
    (x0 : Vec F S4000x20 .f32) (x1 : Vec F S4000x1 .i32) (x2 : Vec F S20x10 .f32) (x3 : Vec F S1x10 .f32) (x4 : Vec F S10x1 .f32) (x5 : Vec F S1x1 .f32) (xs0 : Vec F S64x20 .f32) (xs1 : Vec F S64x1 .f32) :
    Σ' (L6 : List (View.Piece (Elt F) S64x1 .f32)), Σ' (LS0 : List (View.Piece (Elt F) S64x20 .f32)), { LS1 : List (View.Piece (Elt F) S64x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc2__readout_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc2__readout_kernel_eq_skeleton]; unfold cc2__readout_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HS0]; · iexists _; iexact HS0
    iexists _; iexact HS1

end Cert.KernelIdeal.Hand

end
-- ==== Proof.KI.Readout.lean ====
/-
  Region 2 of the program, the readout: what the three control cases leave in the written buffers, the contents of
  the output block and of the two buffers kept between grid points after each point (a recursion over the 25
  positions: the first point's case, then 23 times the middle case, then the last point's case, each later one run on
  the sums and counts the position before left), the region's invariant carrying those two buffers, the pipeline's
  proof data, and the body obligation at every grid point by cases.  Everything is stated at a parameter `V`: the
  contents of the core's buffers when the region is entered.  Generic in the float instance.
-/
import proofs.«423883_j31576599560691_3_alg».proof.Proof.KI.ReadoutRunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each control case leaves in the written buffers -/

/-- At the first point nothing is stored into the output block (the window is idle there and not copied back): no pieces, a
    placeholder nothing reads. -/
def out2_A_6 (c : Dev nD) (i : grid2.Coords) (arg1 : Memref sig .tc .vmem S4000x20 .f32) (harg1 : arg1.IsWhole) (arg2 : Memref sig .tc .vmem S4000x1 .i32) (harg2 : arg2.IsWhole) (arg3 : Memref sig .tc .vmem S20x10 .f32) (harg3 : arg3.IsWhole) (arg4 : Memref sig .tc .vmem S1x10 .f32) (harg4 : arg4.IsWhole) (arg5 : Memref sig .tc .vmem S10x1 .f32) (harg5 : arg5.IsWhole) (arg6 : Memref sig .tc .vmem S1x1 .f32) (harg6 : arg6.IsWhole) (arg7 : Memref sig .tc .vmem S64x1 .f32) (harg7 : arg7.IsWhole) (arg8 : Memref sig .tc .vmem S64x20 .f32) (harg8 : arg8.IsWhole) (arg9 : Memref sig .tc .vmem S64x1 .f32) (harg9 : arg9.IsWhole) (hc0 : cond2_0 i) (hc1 : ¬cond2_1 i)
    (x0 : Vec F S4000x20 .f32) (x1 : Vec F S4000x1 .i32) (x2 : Vec F S20x10 .f32) (x3 : Vec F S1x10 .f32) (x4 : Vec F S10x1 .f32) (x5 : Vec F S1x1 .f32) : Vec F S64x1 .f32 :=
  VO2_6.read (Elt F) (VO2_6.writes (Elt F) VO2_6.junk (kernelRun2_A c i arg1 harg1 arg2 harg2 arg3 harg3 arg4 harg4 arg5 harg5 arg6 harg6 arg7 harg7 arg8 harg8 arg9 harg9 hc0 hc1 x0 x1 x2 x3 x4 x5).1)

/-- At the first point every store into the buffer of feature sums takes all 64×20 of it: the pieces cover it. -/
theorem scover2_A_0 (c : Dev nD) (i : grid2.Coords) (arg1 : Memref sig .tc .vmem S4000x20 .f32) (harg1 : arg1.IsWhole) (arg2 : Memref sig .tc .vmem S4000x1 .i32) (harg2 : arg2.IsWhole) (arg3 : Memref sig .tc .vmem S20x10 .f32) (harg3 : arg3.IsWhole) (arg4 : Memref sig .tc .vmem S1x10 .f32) (harg4 : arg4.IsWhole) (arg5 : Memref sig .tc .vmem S10x1 .f32) (harg5 : arg5.IsWhole) (arg6 : Memref sig .tc .vmem S1x1 .f32) (harg6 : arg6.IsWhole) (arg7 : Memref sig .tc .vmem S64x1 .f32) (harg7 : arg7.IsWhole) (arg8 : Memref sig .tc .vmem S64x20 .f32) (harg8 : arg8.IsWhole) (arg9 : Memref sig .tc .vmem S64x1 .f32) (harg9 : arg9.IsWhole) (hc0 : cond2_0 i) (hc1 : ¬cond2_1 i)
    (x0 : Vec F S4000x20 .f32) (x1 : Vec F S4000x1 .i32) (x2 : Vec F S20x10 .f32) (x3 : Vec F S1x10 .f32) (x4 : Vec F S10x1 .f32) (x5 : Vec F S1x1 .f32) (y : S64x20.Idx) :
    ∃ pc ∈ (kernelRun2_A c i arg1 harg1 arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun2_A c i arg1 harg1 arg2 harg2 arg3 harg3 arg4 harg4 arg5 harg5 arg6 harg6 arg7 harg7 arg8 harg8 arg9 harg9 hc0 hc1 x0 x1 x2 x3 x4 x5).2.1 S64x20.size (by sl_kernel_rfl) y

/-- What the first point leaves in the buffer of feature sums: its pieces read back. -/
def sout2_A_0 (c : Dev nD) (i : grid2.Coords) (arg1 : Memref sig .tc .vmem S4000x20 .f32) (harg1 : arg1.IsWhole) (arg2 : Memref sig .tc .vmem S4000x1 .i32) (harg2 : arg2.IsWhole) (arg3 : Memref sig .tc .vmem S20x10 .f32) (harg3 : arg3.IsWhole) (arg4 : Memref sig .tc .vmem S1x10 .f32) (harg4 : arg4.IsWhole) (arg5 : Memref sig .tc .vmem S10x1 .f32) (harg5 : arg5.IsWhole) (arg6 : Memref sig .tc .vmem S1x1 .f32) (harg6 : arg6.IsWhole) (arg7 : Memref sig .tc .vmem S64x1 .f32) (harg7 : arg7.IsWhole) (arg8 : Memref sig .tc .vmem S64x20 .f32) (harg8 : arg8.IsWhole) (arg9 : Memref sig .tc .vmem S64x1 .f32) (harg9 : arg9.IsWhole) (hc0 : cond2_0 i) (hc1 : ¬cond2_1 i)
    (x0 : Vec F S4000x20 .f32) (x1 : Vec F S4000x1 .i32) (x2 : Vec F S20x10 .f32) (x3 : Vec F S1x10 .f32) (x4 : Vec F S10x1 .f32) (x5 : Vec F S1x1 .f32) : Vec F S64x20 .f32 :=
  VS2_0.read (Elt F) (VS2_0.writes (Elt F) VS2_0.junk (kernelRun2_A c i arg1 harg1 arg2 harg2 arg3 harg3 arg4 harg4 arg5 harg5 arg6 harg6 arg7 harg7 arg8 harg8 arg9 harg9 hc0 hc1 x0 x1 x2 x3 x4 x5).2.1)

/-- Likewise every store into the buffer of node counts takes all 64×1 of it. -/
theorem scover2_A_1 (c : Dev nD) (i : grid2.Coords) (arg1 : Memref sig .tc .vmem S4000x20 .f32) (harg1 : arg1.IsWhole) (arg2 : Memref sig .tc .vmem S4000x1 .i32) (harg2 : arg2.IsWhole) (arg3 : Memref sig .tc .vmem S20x10 .f32) (harg3 : arg3.IsWhole) (arg4 : Memref sig .tc .vmem S1x10 .f32) (harg4 : arg4.IsWhole) (arg5 : Memref sig .tc .vmem S10x1 .f32) (harg5 : arg5.IsWhole) (arg6 : Memref sig .tc .vmem S1x1 .f32) (harg6 : arg6.IsWhole) (arg7 : Memref sig .tc .vmem S64x1 .f32) (harg7 : arg7.IsWhole) (arg8 : Memref sig .tc .vmem S64x20 .f32) (harg8 : arg8.IsWhole) (arg9 : Memref sig .tc .vmem S64x1 .f32) (harg9 : arg9.IsWhole) (hc0 : cond2_0 i) (hc1 : ¬cond2_1 i)
    (x0 : Vec F S4000x20 .f32) (x1 : Vec F S4000x1 .i32) (x2 : Vec F S20x10 .f32) (x3 : Vec F S1x10 .f32) (x4 : Vec F S10x1 .f32) (x5 : Vec F S1x1 .f32) (y : S64x1.Idx) :
    ∃ pc ∈ (kernelRun2_A c i arg1 harg1 arg2 harg2 arg3 harg3 arg4 harg4 arg5 harg5 arg6 harg6 arg7 harg7 arg8 harg8 arg9 harg9 hc0 hc1 x0 x1 x2 x3 x4 x5).2.2.1, y ∈ pc.1.set :=
  View.cover_of_tiledL (kernelRun2_A c i arg1 harg1 arg2 harg2 arg3 harg3 arg4 harg4 arg5 harg5 arg6 harg6 arg7 harg7 arg8 harg8 arg9 harg9 hc0 hc1 x0 x1 x2 x3 x4 x5).2.2.1 S64x1.size (by sl_kernel_rfl) y

/-- What the first point leaves in the buffer of node counts: its pieces read back. -/
def sout2_A_1 (c : Dev nD) (i : grid2.Coords) (arg1 : Memref sig .tc .vmem S4000x20 .f32) (harg1 : arg1.IsWhole) (arg2 : Memref sig .tc .vmem S4000x1 .i32) (harg2 : arg2.IsWhole) (arg3 : Memref sig .tc .vmem S20x10 .f32) (harg3 : arg3.IsWhole) (arg4 : Memref sig .tc .vmem S1x10 .f32) (harg4 : arg4.IsWhole) (arg5 : Memref sig .tc .vmem S10x1 .f32) (harg5 : arg5.IsWhole) (arg6 : Memref sig .tc .vmem S1x1 .f32) (harg6 : arg6.IsWhole) (arg7 : Memref sig .tc .vmem S64x1 .f32) (harg7 : arg7.IsWhole) (arg8 : Memref sig .tc .vmem S64x20 .f32) (harg8 : arg8.IsWhole) (arg9 : Memref sig .tc .vmem S64x1 .f32) (harg9 : arg9.IsWhole) (hc0 : cond2_0 i) (hc1 : ¬cond2_1 i)
    (x0 : Vec F S4000x20 .f32) (x1 : Vec F S4000x1 .i32) (x2 : Vec F S20x10 .f32) (x3 : Vec F S1x10 .f32) (x4 : Vec F S10x1 .f32) (x5 : Vec F S1x1 .f32) : Vec F S64x1 .f32 :=
  VS2_1.read (Elt F) (VS2_1.writes (Elt F) VS2_1.junk (kernelRun2_A c i arg1 harg1 arg2 harg2 arg3 harg3 arg4 harg4 arg5 harg5 arg6 harg6 arg7 harg7 arg8 harg8 arg9 harg9 hc0 hc1 x0 x1 x2 x3 x4 x5).2.2.1)

/-- At a middle point nothing is stored into the output block (the window is idle there and not copied back): no pieces, a
    placeholder nothing reads. -/
def out2_B_6 (c : Dev nD) (i : grid2.Coords) (arg1 : Memref sig .tc .vmem S4000x20 .f32) (harg1 : arg1.IsWhole) (arg2 : Memref sig .tc .vmem S4000x1 .i32) (harg2 : arg2.IsWhole) (arg3 : Memref sig .tc .vmem S20x10 .f32) (harg3 : arg3.IsWhole) (arg4 : Memref sig .tc .vmem S1x10 .f32) (harg4 : arg4.IsWhole) (arg5 : Memref sig .tc .vmem S10x1 .f32) (harg5 : arg5.IsWhole) (arg6 : Memref sig .tc .vmem S1x1 .f32) (harg6 : arg6.IsWhole) (arg7 : Memref sig .tc .vmem S64x1 .f32) (harg7 : arg7.IsWhole) (arg8 : Memref sig .tc .vmem S64x20 .f32) (harg8 : arg8.IsWhole) (arg9 : Memref sig .tc .vmem S64x1 .f32) (harg9 : arg9.IsWhole) (hc0 : ¬cond2_0 i) (hc1 : ¬cond2_1 i)
    (x0 : Vec F S4000x20 .f32) (x1 : Vec F S4000x1 .i32) (x2 : Vec F S20x10 .f32) (x3 : Vec F S1x10 .f32) (x4 : Vec F S10x1 .f32) (x5 : Vec F S1x1 .f32) (xs0 : Vec F S64x20 .f32) (xs1 : Vec F S64x1 .f32) : Vec F S64x1 .f32 :=
  VO2_6.read (Elt F) (VO2_6.writes (Elt F) VO2_6.junk (kernelRun2_B c i arg1 harg1 arg2 harg2 arg3 harg3 arg4 harg4 arg5 harg5 arg6 harg6 arg7 harg7 arg8 harg8 arg9 harg9 hc0 hc1 x0 x1 x2 x3 x4 x5 xs0 xs1).1)

/-- At a middle point every store into the buffer of feature sums takes all 64×20 of it: the pieces cover it. -/
theorem scover2_B_0 (c : Dev nD) (i : grid2.Coords) (arg1 : Memref sig .tc .vmem S4000x20 .f32) (harg1 : arg1.IsWhole) (arg2 : Memref sig .tc .vmem S4000x1 .i32) (harg2 : arg2.IsWhole) (arg3 : Memref sig .tc .vmem S20x10 .f32) (harg3 : arg3.IsWhole) (arg4 : Memref sig .tc .vmem S1x10 .f32) (harg4 : arg4.IsWhole) (arg5 : Memref sig .tc .vmem S10x1 .f32) (harg5 : arg5.IsWhole) (arg6 : Memref sig .tc .vmem S1x1 .f32) (harg6 : arg6.IsWhole) (arg7 : Memref sig .tc .vmem S64x1 .f32) (harg7 : arg7.IsWhole) (arg8 : Memref sig .tc .vmem S64x20 .f32) (harg8 : arg8.IsWhole) (arg9 : Memref sig .tc .vmem S64x1 .f32) (harg9 : arg9.IsWhole) (hc0 : ¬cond2_0 i) (hc1 : ¬cond2_1 i)
    (x0 : Vec F S4000x20 .f32) (x1 : Vec F S4000x1 .i32) (x2 : Vec F S20x10 .f32) (x3 : Vec F S1x10 .f32) (x4 : Vec F S10x1 .f32) (x5 : Vec F S1x1 .f32) (xs0 : Vec F S64x20 .f32) (xs1 : Vec F S64x1 .f32) (y : S64x20.Idx) :
    ∃ pc ∈ (kernelRun2_B c i arg1 harg1 arg2 harg2 arg3 harg3 arg4 harg4 arg5 harg5 arg6 harg6 arg7 harg7 arg8 harg8 arg9 harg9 hc0 hc1 x0 x1 x2 x3 x4 x5 xs0 xs1).2.1, y ∈ pc.1.set :=
  View.cover_of_tiledL (kernelRun2_B c i arg1 harg1 arg2 harg2 arg3 harg3 arg4 harg4 arg5 harg5 arg6 harg6 arg7 harg7 arg8 harg8 arg9 harg9 hc0 hc1 x0 x1 x2 x3 x4 x5 xs0 xs1).2.1 S64x20.size (by sl_kernel_rfl) y

/-- What a middle point leaves in the buffer of feature sums: its pieces read back. -/
def sout2_B_0 (c : Dev nD) (i : grid2.Coords) (arg1 : Memref sig .tc .vmem S4000x20 .f32) (harg1 : arg1.IsWhole) (arg2 : Memref sig .tc .vmem S4000x1 .i32) (harg2 : arg2.IsWhole) (arg3 : Memref sig .tc .vmem S20x10 .f32) (harg3 : arg3.IsWhole) (arg4 : Memref sig .tc .vmem S1x10 .f32) (harg4 : arg4.IsWhole) (arg5 : Memref sig .tc .vmem S10x1 .f32) (harg5 : arg5.IsWhole) (arg6 : Memref sig .tc .vmem S1x1 .f32) (harg6 : arg6.IsWhole) (arg7 : Memref sig .tc .vmem S64x1 .f32) (harg7 : arg7.IsWhole) (arg8 : Memref sig .tc .vmem S64x20 .f32) (harg8 : arg8.IsWhole) (arg9 : Memref sig .tc .vmem S64x1 .f32) (harg9 : arg9.IsWhole) (hc0 : ¬cond2_0 i) (hc1 : ¬cond2_1 i)
    (x0 : Vec F S4000x20 .f32) (x1 : Vec F S4000x1 .i32) (x2 : Vec F S20x10 .f32) (x3 : Vec F S1x10 .f32) (x4 : Vec F S10x1 .f32) (x5 : Vec F S1x1 .f32) (xs0 : Vec F S64x20 .f32) (xs1 : Vec F S64x1 .f32) : Vec F S64x20 .f32 :=
  VS2_0.read (Elt F) (VS2_0.writes (Elt F) VS2_0.junk (kernelRun2_B c i arg1 harg1 arg2 harg2 arg3 harg3 arg4 harg4 arg5 harg5 arg6 harg6 arg7 harg7 arg8 harg8 arg9 harg9 hc0 hc1 x0 x1 x2 x3 x4 x5 xs0 xs1).2.1)

/-- Likewise every store into the buffer of node counts takes all 64×1 of it. -/
theorem scover2_B_1 (c : Dev nD) (i : grid2.Coords) (arg1 : Memref sig .tc .vmem S4000x20 .f32) (harg1 : arg1.IsWhole) (arg2 : Memref sig .tc .vmem S4000x1 .i32) (harg2 : arg2.IsWhole) (arg3 : Memref sig .tc .vmem S20x10 .f32) (harg3 : arg3.IsWhole) (arg4 : Memref sig .tc .vmem S1x10 .f32) (harg4 : arg4.IsWhole) (arg5 : Memref sig .tc .vmem S10x1 .f32) (harg5 : arg5.IsWhole) (arg6 : Memref sig .tc .vmem S1x1 .f32) (harg6 : arg6.IsWhole) (arg7 : Memref sig .tc .vmem S64x1 .f32) (harg7 : arg7.IsWhole) (arg8 : Memref sig .tc .vmem S64x20 .f32) (harg8 : arg8.IsWhole) (arg9 : Memref sig .tc .vmem S64x1 .f32) (harg9 : arg9.IsWhole) (hc0 : ¬cond2_0 i) (hc1 : ¬cond2_1 i)
    (x0 : Vec F S4000x20 .f32) (x1 : Vec F S4000x1 .i32) (x2 : Vec F S20x10 .f32) (x3 : Vec F S1x10 .f32) (x4 : Vec F S10x1 .f32) (x5 : Vec F S1x1 .f32) (xs0 : Vec F S64x20 .f32) (xs1 : Vec F S64x1 .f32) (y : S64x1.Idx) :
    ∃ pc ∈ (kernelRun2_B c i arg1 harg1 arg2 harg2 arg3 harg3 arg4 harg4 arg5 harg5 arg6 harg6 arg7 harg7 arg8 harg8 arg9 harg9 hc0 hc1 x0 x1 x2 x3 x4 x5 xs0 xs1).2.2.1, y ∈ pc.1.set :=
  View.cover_of_tiledL (kernelRun2_B c i arg1 harg1 arg2 harg2 arg3 harg3 arg4 harg4 arg5 harg5 arg6 harg6 arg7 harg7 arg8 harg8 arg9 harg9 hc0 hc1 x0 x1 x2 x3 x4 x5 xs0 xs1).2.2.1 S64x1.size (by sl_kernel_rfl) y

/-- What a middle point leaves in the buffer of node counts: its pieces read back. -/
def sout2_B_1 (c : Dev nD) (i : grid2.Coords) (arg1 : Memref sig .tc .vmem S4000x20 .f32) (harg1 : arg1.IsWhole) (arg2 : Memref sig .tc .vmem S4000x1 .i32) (harg2 : arg2.IsWhole) (arg3 : Memref sig .tc .vmem S20x10 .f32) (harg3 : arg3.IsWhole) (arg4 : Memref sig .tc .vmem S1x10 .f32) (harg4 : arg4.IsWhole) (arg5 : Memref sig .tc .vmem S10x1 .f32) (harg5 : arg5.IsWhole) (arg6 : Memref sig .tc .vmem S1x1 .f32) (harg6 : arg6.IsWhole) (arg7 : Memref sig .tc .vmem S64x1 .f32) (harg7 : arg7.IsWhole) (arg8 : Memref sig .tc .vmem S64x20 .f32) (harg8 : arg8.IsWhole) (arg9 : Memref sig .tc .vmem S64x1 .f32) (harg9 : arg9.IsWhole) (hc0 : ¬cond2_0 i) (hc1 : ¬cond2_1 i)
    (x0 : Vec F S4000x20 .f32) (x1 : Vec F S4000x1 .i32) (x2 : Vec F S20x10 .f32) (x3 : Vec F S1x10 .f32) (x4 : Vec F S10x1 .f32) (x5 : Vec F S1x1 .f32) (xs0 : Vec F S64x20 .f32) (xs1 : Vec F S64x1 .f32) : Vec F S64x1 .f32 :=
  VS2_1.read (Elt F) (VS2_1.writes (Elt F) VS2_1.junk (kernelRun2_B c i arg1 harg1 arg2 harg2 arg3 harg3 arg4 harg4 arg5 harg5 arg6 harg6 arg7 harg7 arg8 harg8 arg9 harg9 hc0 hc1 x0 x1 x2 x3 x4 x5 xs0 xs1).2.2.1)

/-- At the last point the one store into the output block takes all of it: its piece covers the block. -/
theorem cover2_C_6 (c : Dev nD) (i : grid2.Coords) (arg1 : Memref sig .tc .vmem S4000x20 .f32) (harg1 : arg1.IsWhole) (arg2 : Memref sig .tc .vmem S4000x1 .i32) (harg2 : arg2.IsWhole) (arg3 : Memref sig .tc .vmem S20x10 .f32) (harg3 : arg3.IsWhole) (arg4 : Memref sig .tc .vmem S1x10 .f32) (harg4 : arg4.IsWhole) (arg5 : Memref sig .tc .vmem S10x1 .f32) (harg5 : arg5.IsWhole) (arg6 : Memref sig .tc .vmem S1x1 .f32) (harg6 : arg6.IsWhole) (arg7 : Memref sig .tc .vmem S64x1 .f32) (harg7 : arg7.IsWhole) (arg8 : Memref sig .tc .vmem S64x20 .f32) (harg8 : arg8.IsWhole) (arg9 : Memref sig .tc .vmem S64x1 .f32) (harg9 : arg9.IsWhole) (hc0 : ¬cond2_0 i) (hc1 : cond2_1 i)
    (x0 : Vec F S4000x20 .f32) (x1 : Vec F S4000x1 .i32) (x2 : Vec F S20x10 .f32) (x3 : Vec F S1x10 .f32) (x4 : Vec F S10x1 .f32) (x5 : Vec F S1x1 .f32) (xs0 : Vec F S64x20 .f32) (xs1 : Vec F S64x1 .f32) (y : S64x1.Idx) :
    ∃ pc ∈ (kernelRun2_C c i arg1 harg1 arg2 harg2 arg3 harg3 arg4 harg4 arg5 harg5 arg6 harg6 arg7 harg7 arg8 harg8 arg9 harg9 hc0 hc1 x0 x1 x2 x3 x4 x5 xs0 xs1).1, y ∈ pc.1.set :=
  View.cover_of_tiledL (kernelRun2_C c i arg1 harg1 arg2 harg2 arg3 harg3 arg4 harg4 arg5 harg5 arg6 harg6 arg7 harg7 arg8 harg8 arg9 harg9 hc0 hc1 x0 x1 x2 x3 x4 x5 xs0 xs1).1 S64x1.size (by sl_kernel_rfl) y

/-- What the last point leaves in the output block: its piece read back. -/
def out2_C_6 (c : Dev nD) (i : grid2.Coords) (arg1 : Memref sig .tc .vmem S4000x20 .f32) (harg1 : arg1.IsWhole) (arg2 : Memref sig .tc .vmem S4000x1 .i32) (harg2 : arg2.IsWhole) (arg3 : Memref sig .tc .vmem S20x10 .f32) (harg3 : arg3.IsWhole) (arg4 : Memref sig .tc .vmem S1x10 .f32) (harg4 : arg4.IsWhole) (arg5 : Memref sig .tc .vmem S10x1 .f32) (harg5 : arg5.IsWhole) (arg6 : Memref sig .tc .vmem S1x1 .f32) (harg6 : arg6.IsWhole) (arg7 : Memref sig .tc .vmem S64x1 .f32) (harg7 : arg7.IsWhole) (arg8 : Memref sig .tc .vmem S64x20 .f32) (harg8 : arg8.IsWhole) (arg9 : Memref sig .tc .vmem S64x1 .f32) (harg9 : arg9.IsWhole) (hc0 : ¬cond2_0 i) (hc1 : cond2_1 i)
    (x0 : Vec F S4000x20 .f32) (x1 : Vec F S4000x1 .i32) (x2 : Vec F S20x10 .f32) (x3 : Vec F S1x10 .f32) (x4 : Vec F S10x1 .f32) (x5 : Vec F S1x1 .f32) (xs0 : Vec F S64x20 .f32) (xs1 : Vec F S64x1 .f32) : Vec F S64x1 .f32 :=
  VO2_6.read (Elt F) (VO2_6.writes (Elt F) VO2_6.junk (kernelRun2_C c i arg1 harg1 arg2 harg2 arg3 harg3 arg4 harg4 arg5 harg5 arg6 harg6 arg7 harg7 arg8 harg8 arg9 harg9 hc0 hc1 x0 x1 x2 x3 x4 x5 xs0 xs1).1)

/-- At the last point every store into the buffer of feature sums takes all 64×20 of it: the pieces cover it. -/
theorem scover2_C_0 (c : Dev nD) (i : grid2.Coords) (arg1 : Memref sig .tc .vmem S4000x20 .f32) (harg1 : arg1.IsWhole) (arg2 : Memref sig .tc .vmem S4000x1 .i32) (harg2 : arg2.IsWhole) (arg3 : Memref sig .tc .vmem S20x10 .f32) (harg3 : arg3.IsWhole) (arg4 : Memref sig .tc .vmem S1x10 .f32) (harg4 : arg4.IsWhole) (arg5 : Memref sig .tc .vmem S10x1 .f32) (harg5 : arg5.IsWhole) (arg6 : Memref sig .tc .vmem S1x1 .f32) (harg6 : arg6.IsWhole) (arg7 : Memref sig .tc .vmem S64x1 .f32) (harg7 : arg7.IsWhole) (arg8 : Memref sig .tc .vmem S64x20 .f32) (harg8 : arg8.IsWhole) (arg9 : Memref sig .tc .vmem S64x1 .f32) (harg9 : arg9.IsWhole) (hc0 : ¬cond2_0 i) (hc1 : cond2_1 i)
    (x0 : Vec F S4000x20 .f32) (x1 : Vec F S4000x1 .i32) (x2 : Vec F S20x10 .f32) (x3 : Vec F S1x10 .f32) (x4 : Vec F S10x1 .f32) (x5 : Vec F S1x1 .f32) (xs0 : Vec F S64x20 .f32) (xs1 : Vec F S64x1 .f32) (y : S64x20.Idx) :
    ∃ pc ∈ (kernelRun2_C c i arg1 harg1 arg2 harg2 arg3 harg3 arg4 harg4 arg5 harg5 arg6 harg6 arg7 harg7 arg8 harg8 arg9 harg9 hc0 hc1 x0 x1 x2 x3 x4 x5 xs0 xs1).2.1, y ∈ pc.1.set :=
  View.cover_of_tiledL (kernelRun2_C c i arg1 harg1 arg2 harg2 arg3 harg3 arg4 harg4 arg5 harg5 arg6 harg6 arg7 harg7 arg8 harg8 arg9 harg9 hc0 hc1 x0 x1 x2 x3 x4 x5 xs0 xs1).2.1 S64x20.size (by sl_kernel_rfl) y

/-- What the last point leaves in the buffer of feature sums: its pieces read back. -/
def sout2_C_0 (c : Dev nD) (i : grid2.Coords) (arg1 : Memref sig .tc .vmem S4000x20 .f32) (harg1 : arg1.IsWhole) (arg2 : Memref sig .tc .vmem S4000x1 .i32) (harg2 : arg2.IsWhole) (arg3 : Memref sig .tc .vmem S20x10 .f32) (harg3 : arg3.IsWhole) (arg4 : Memref sig .tc .vmem S1x10 .f32) (harg4 : arg4.IsWhole) (arg5 : Memref sig .tc .vmem S10x1 .f32) (harg5 : arg5.IsWhole) (arg6 : Memref sig .tc .vmem S1x1 .f32) (harg6 : arg6.IsWhole) (arg7 : Memref sig .tc .vmem S64x1 .f32) (harg7 : arg7.IsWhole) (arg8 : Memref sig .tc .vmem S64x20 .f32) (harg8 : arg8.IsWhole) (arg9 : Memref sig .tc .vmem S64x1 .f32) (harg9 : arg9.IsWhole) (hc0 : ¬cond2_0 i) (hc1 : cond2_1 i)
    (x0 : Vec F S4000x20 .f32) (x1 : Vec F S4000x1 .i32) (x2 : Vec F S20x10 .f32) (x3 : Vec F S1x10 .f32) (x4 : Vec F S10x1 .f32) (x5 : Vec F S1x1 .f32) (xs0 : Vec F S64x20 .f32) (xs1 : Vec F S64x1 .f32) : Vec F S64x20 .f32 :=
  VS2_0.read (Elt F) (VS2_0.writes (Elt F) VS2_0.junk (kernelRun2_C c i arg1 harg1 arg2 harg2 arg3 harg3 arg4 harg4 arg5 harg5 arg6 harg6 arg7 harg7 arg8 harg8 arg9 harg9 hc0 hc1 x0 x1 x2 x3 x4 x5 xs0 xs1).2.1)

/-- Likewise every store into the buffer of node counts takes all 64×1 of it. -/
theorem scover2_C_1 (c : Dev nD) (i : grid2.Coords) (arg1 : Memref sig .tc .vmem S4000x20 .f32) (harg1 : arg1.IsWhole) (arg2 : Memref sig .tc .vmem S4000x1 .i32) (harg2 : arg2.IsWhole) (arg3 : Memref sig .tc .vmem S20x10 .f32) (harg3 : arg3.IsWhole) (arg4 : Memref sig .tc .vmem S1x10 .f32) (harg4 : arg4.IsWhole) (arg5 : Memref sig .tc .vmem S10x1 .f32) (harg5 : arg5.IsWhole) (arg6 : Memref sig .tc .vmem S1x1 .f32) (harg6 : arg6.IsWhole) (arg7 : Memref sig .tc .vmem S64x1 .f32) (harg7 : arg7.IsWhole) (arg8 : Memref sig .tc .vmem S64x20 .f32) (harg8 : arg8.IsWhole) (arg9 : Memref sig .tc .vmem S64x1 .f32) (harg9 : arg9.IsWhole) (hc0 : ¬cond2_0 i) (hc1 : cond2_1 i)
    (x0 : Vec F S4000x20 .f32) (x1 : Vec F S4000x1 .i32) (x2 : Vec F S20x10 .f32) (x3 : Vec F S1x10 .f32) (x4 : Vec F S10x1 .f32) (x5 : Vec F S1x1 .f32) (xs0 : Vec F S64x20 .f32) (xs1 : Vec F S64x1 .f32) (y : S64x1.Idx) :
    ∃ pc ∈ (kernelRun2_C c i arg1 harg1 arg2 harg2 arg3 harg3 arg4 harg4 arg5 harg5 arg6 harg6 arg7 harg7 arg8 harg8 arg9 harg9 hc0 hc1 x0 x1 x2 x3 x4 x5 xs0 xs1).2.2.1, y ∈ pc.1.set :=
  View.cover_of_tiledL (kernelRun2_C c i arg1 harg1 arg2 harg2 arg3 harg3 arg4 harg4 arg5 harg5 arg6 harg6 arg7 harg7 arg8 harg8 arg9 harg9 hc0 hc1 x0 x1 x2 x3 x4 x5 xs0 xs1).2.2.1 S64x1.size (by sl_kernel_rfl) y

/-- What the last point leaves in the buffer of node counts: its pieces read back. -/
def sout2_C_1 (c : Dev nD) (i : grid2.Coords) (arg1 : Memref sig .tc .vmem S4000x20 .f32) (harg1 : arg1.IsWhole) (arg2 : Memref sig .tc .vmem S4000x1 .i32) (harg2 : arg2.IsWhole) (arg3 : Memref sig .tc .vmem S20x10 .f32) (harg3 : arg3.IsWhole) (arg4 : Memref sig .tc .vmem S1x10 .f32) (harg4 : arg4.IsWhole) (arg5 : Memref sig .tc .vmem S10x1 .f32) (harg5 : arg5.IsWhole) (arg6 : Memref sig .tc .vmem S1x1 .f32) (harg6 : arg6.IsWhole) (arg7 : Memref sig .tc .vmem S64x1 .f32) (harg7 : arg7.IsWhole) (arg8 : Memref sig .tc .vmem S64x20 .f32) (harg8 : arg8.IsWhole) (arg9 : Memref sig .tc .vmem S64x1 .f32) (harg9 : arg9.IsWhole) (hc0 : ¬cond2_0 i) (hc1 : cond2_1 i)
    (x0 : Vec F S4000x20 .f32) (x1 : Vec F S4000x1 .i32) (x2 : Vec F S20x10 .f32) (x3 : Vec F S1x10 .f32) (x4 : Vec F S10x1 .f32) (x5 : Vec F S1x1 .f32) (xs0 : Vec F S64x20 .f32) (xs1 : Vec F S64x1 .f32) : Vec F S64x1 .f32 :=
  VS2_1.read (Elt F) (VS2_1.writes (Elt F) VS2_1.junk (kernelRun2_C c i arg1 harg1 arg2 harg2 arg3 harg3 arg4 harg4 arg5 harg5 arg6 harg6 arg7 harg7 arg8 harg8 arg9 harg9 hc0 hc1 x0 x1 x2 x3 x4 x5 xs0 xs1).2.2.1)

/-! ## What the output block and the two kept buffers hold after each point -/

/-- THE ACCUMULATION.  After the body at position `n`: (the output block, the feature sums, the node counts).  Position 0
    is the first point's case, run on the point's input blocks; a later position is the middle case, or at position 24
    the last case, run on the point's input blocks and on the sums and counts the position before left.  (No position is
    both first and last.) -/
def outsAt2 (c : Dev nD) : (n : ℕ) → n < cfg2.N → Vec F S64x1 .f32 × Vec F S64x20 .f32 × Vec F S64x1 .f32
  | 0, hn => (out2_A_6 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩))
  | n + 1, hn =>
    if h0 : (n + 1) % 25 = 0 then
      if h1 : (n + 1) % 25 = 24 then
        False.elim (by omega)
      else
        (out2_A_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩), sout2_A_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩))
    else
      if h1 : (n + 1) % 25 = 24 then
        (out2_C_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.1 (outsAt2 c n (Nat.lt_of_succ_lt hn)).2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.1 (outsAt2 c n (Nat.lt_of_succ_lt hn)).2.2, sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.1 (outsAt2 c n (Nat.lt_of_succ_lt hn)).2.2)
      else
        (out2_B_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.1 (outsAt2 c n (Nat.lt_of_succ_lt hn)).2.2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.1 (outsAt2 c n (Nat.lt_of_succ_lt hn)).2.2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.1 (outsAt2 c n (Nat.lt_of_succ_lt hn)).2.2)

/-- `outsAt2` at the first point: that case's contents. -/
theorem outsAt2_A (c : Dev nD) (t : Fin cfg2.N) (h0 : t.val % 25 = 0) (h1 : ¬t.val % 25 = 24) :
    outsAt2 V c t.val t.isLt = (out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t), sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t)) := by
  obtain ⟨n, hn⟩ := t
  cases n with
  | zero => exact rfl
  | succ n => exact (dif_pos h0).trans ((dif_neg h1).trans rfl)

/-- `outsAt2` at a middle point: that case's contents, over the sums and counts the point before left. -/
theorem outsAt2_B (c : Dev nD) (t : Fin cfg2.N) (h0 : ¬t.val % 25 = 0) (h1 : ¬t.val % 25 = 24) :
    outsAt2 V c t.val t.isLt = (out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2, sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt2` at the last point: that case's contents, over the sums and counts the point before left. -/
theorem outsAt2_C (c : Dev nD) (t : Fin cfg2.N) (h0 : ¬t.val % 25 = 0) (h1 : t.val % 25 = 24) :
    outsAt2 V c t.val t.isLt = (out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2, sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: before the first point what the launch hands over (both kept buffers at anything); afterwards
    the other 22 scoped buffers untouched, the feature sums and the node counts at what the point before left, and the
    generator register at some state. -/
def PhiS2 (c : Dev nD) : (n : ℕ) → n ≤ cfg2.N → sProp 𝕄
  | 0, _ => Pipeline.ΦA spec2 c
  | n + 1, hn => iprop(iprop(others2 (F := F) c ∗ owns (c : Thread nD τ) scM2_0 fullShare ((outsAt2 V c n hn).2.1) ∗ owns (c : Thread nD τ) scM2_1 fullShare ((outsAt2 V c n hn).2.2)) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(others2 (F := F) c ∗ owns (c : Thread nD τ) scM2_0 fullShare ((outsAt2 V c n hn).2.1) ∗ owns (c : Thread nD τ) scM2_1 fullShare ((outsAt2 V c n hn).2.2)) ∗ (∃ r, prngReg c r)) := rfl

theorem PhiS2_pos (c : Dev nD) (n : ℕ) (h : n ≤ cfg2.N) (hz : n ≠ 0) :
    PhiS2 V c n h = iprop(iprop(others2 (F := F) c ∗ owns (c : Thread nD τ) scM2_0 fullShare ((outsAt2 V c (n - 1) (by omega)).2.1) ∗ owns (c : Thread nD τ) scM2_1 fullShare ((outsAt2 V c (n - 1) (by omega)).2.2)) ∗ (∃ r, prngReg c r)) := by
  cases n with
  | zero => exact absurd rfl hz
  | succ n => rfl

/-! ## The pipeline's proof data -/

/-- The proof data of pipeline 2 on core `c`: the arrays as the region finds them; after the body at point `t` each
    input's buffer at its block and the output's at `outsAt2`'s first component; the invariant `PhiS2`; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 8000000 in
/-- The body at any point.  The inputs' buffers hold their blocks; the closed forms of the two conditions say which of the
    three cases the point is in; the invariant hands the body the two kept buffers (at anything at the first point, at
    what the point before left afterwards) and takes them back at this point's contents, every store into them taking
    all of the buffer; the output block is handed back as found at the first 24 points and at the last holds the one
    piece stored; the other scoped buffers, the generator register and the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  have hN : t.val < 25 := lt_of_lt_of_eq t.isLt (show cfg2.N = 25 from N_2)
  by_cases h0 : t.val % 25 = 0
  · by_cases h1 : t.val % 25 = 24
    · exfalso; omega
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [Dat.leavesExact_idle (dat2 V c) 6 t (idleAt2_6_A t ((hcond2_0 t).mpr h0) (fun h => h1 ((hcond2_1 t).mp h))) (noFlush2_6_A t ((hcond2_0 t).mpr h0) (fun h => h1 ((hcond2_1 t).mp h)))]
      rw [outsAt2_A V c t h0 h1]
      unfold sout2_A_0 sout2_A_1; (try dsimp only)
      by_cases hz : t.val = 0
      · rw [PhiS2_castSucc V c t, PhiS2_zero V c _ _ hz, PhiA2_eq]
        iintro ⟨⟨⟨HR, HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun2_A c (grid2.coords t) _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        iintro ⟨H0, H1, H2, H3, H4, H5, H6, ⟨%es0, HS0⟩, ⟨%es1, HS1⟩⟩
        isplitl [HR HS0 HS1 Hg]
        · isplitr [Hg]
          swap; · iexact Hg
          isplitl [HR]; · iexact HR
          isplitl [HS0]
          · unfold owns; iexists _; isplitr
            swap; · iexact HS0
            ipureintro; exact View.read_writes_of_cover _ _ _ _ _ (scover2_A_0 c _ _ _ _ _ _ _ _ _ _ _ _ _ _ _ _ _ _ _ _ _ _ _ _ _ _ _)
          unfold owns; iexists _; isplitr
          swap; · iexact HS1
          ipureintro; exact View.read_writes_of_cover _ _ _ _ _ (scover2_A_1 c _ _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS2_castSucc V c t, PhiS2_pos V c _ _ hz]
        iintro ⟨⟨⟨HR, HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun2_A c (grid2.coords t) _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        iintro ⟨H0, H1, H2, H3, H4, H5, H6, ⟨%es0, HS0⟩, ⟨%es1, HS1⟩⟩
        isplitl [HR HS0 HS1 Hg]
        · isplitr [Hg]
          swap; · iexact Hg
          isplitl [HR]; · iexact HR
          isplitl [HS0]
          · unfold owns; iexists _; isplitr
            swap; · iexact HS0
            ipureintro; exact View.read_writes_of_cover _ _ _ _ _ (scover2_A_0 c _ _ _ _ _ _ _ _ _ _ _ _ _ _ _ _ _ _ _ _ _ _ _ _ _ _ _)
          unfold owns; iexists _; isplitr
          swap; · iexact HS1
          ipureintro; exact View.read_writes_of_cover _ _ _ _ _ (scover2_A_1 c _ _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · by_cases h1 : t.val % 25 = 24
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [show (dat2 V c).leavesExact 6 t = owns (c : Thread nD τ) (ms2_6 t) fullShare ((dat2 V c).after 6 t) from by
        unfold Dat.leavesExact; rw [liveAt2_6_C t (fun h => h0 ((hcond2_0 t).mp h)) ((hcond2_1 t).mpr h1)], after2_6]
      rw [outsAt2_C V c t h0 h1]
      unfold out2_C_6 sout2_C_0 sout2_C_1; (try dsimp only)
      by_cases hz : t.val = 0
      · exfalso; omega
      · rw [PhiS2_castSucc V c t, PhiS2_pos V c _ _ hz]
        iintro ⟨⟨⟨HR, HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun2_C c (grid2.coords t) _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) _ _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        isplitl [HS1]; · iexact HS1
        iintro ⟨H0, H1, H2, H3, H4, H5, ⟨%e6, H6⟩, ⟨%es0, HS0⟩, ⟨%es1, HS1⟩⟩
        isplitl [HR HS0 HS1 Hg]
        · isplitr [Hg]
          swap; · iexact Hg
          isplitl [HR]; · iexact HR
          isplitl [HS0]
          · unfold owns; iexists _; isplitr
            swap; · iexact HS0
            ipureintro; exact View.read_writes_of_cover _ _ _ _ _ (scover2_C_0 c _ _ _ _ _ _ _ _ _ _ _ _ _ _ _ _ _ _ _ _ _ _ _ _ _ _ _ _ _)
          unfold owns; iexists _; isplitr
          swap; · iexact HS1
          ipureintro; exact View.read_writes_of_cover _ _ _ _ _ (scover2_C_1 c _ _ _ _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover2_C_6 c _ _ _ _ _ _ _ _ _ _ _ _ _ _ _ _ _ _ _ _ _ _ _ _ _ _ _ _ _)
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [Dat.leavesExact_idle (dat2 V c) 6 t (idleAt2_6_B t (fun h => h0 ((hcond2_0 t).mp h)) (fun h => h1 ((hcond2_1 t).mp h))) (noFlush2_6_B t (fun h => h0 ((hcond2_0 t).mp h)) (fun h => h1 ((hcond2_1 t).mp h)))]
      rw [outsAt2_B V c t h0 h1]
      unfold sout2_B_0 sout2_B_1; (try dsimp only)
      by_cases hz : t.val = 0
      · exfalso; omega
      · rw [PhiS2_castSucc V c t, PhiS2_pos V c _ _ hz]
        iintro ⟨⟨⟨HR, HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun2_B c (grid2.coords t) _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) _ _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        iintro ⟨H0, H1, H2, H3, H4, H5, H6, ⟨%es0, HS0⟩, ⟨%es1, HS1⟩⟩
        isplitl [HR HS0 HS1 Hg]
        · isplitr [Hg]
          swap; · iexact Hg
          isplitl [HR]; · iexact HR
          isplitl [HS0]
          · unfold owns; iexists _; isplitr
            swap; · iexact HS0
            ipureintro; exact View.read_writes_of_cover _ _ _ _ _ (scover2_B_0 c _ _ _ _ _ _ _ _ _ _ _ _ _ _ _ _ _ _ _ _ _ _ _ _ _ _ _ _ _)
          unfold owns; iexists _; isplitr
          swap; · iexact HS1
          ipureintro; exact View.read_writes_of_cover _ _ _ _ _ (scover2_B_1 c _ _ _ _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives back what the launch handed over: what the two kept buffers hold is forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HR, HS0, HS1⟩, Hg⟩
  isplitr [Hg]
  swap; · iexact Hg
  isplitl [HR]; · iexact HR
  isplitl [HS0]; · iexists _; iexact HS0
  iexists _; iexact HS1

/-- The same after the last point. -/
theorem hout2 (c : Dev nD) : (dat2 V c).Φ (Fin.last cfg2.N) ⊢ Pipeline.ΦA spec2 c :=
  Phi_out2 V c _ (by rw [Fin.val_last]; have : cfg2.N = 25 := N_2; omega)

end Cert.KernelIdeal.Hand

end
-- ==== Proof.KI.Run.lean ====
/-
  The launch of the three-region program.  Region 2's exit contents `W6`; the proof data of the three pipelines, each at its
  region's entry contents; each region as a segment of @main around the thread state "every unscoped buffer of the core at the
  boundary's contents, the generator register at some state, nothing owed" (its arrays split out of the unscoped buffers at
  entry and put back at exit, the register lent to the region's invariant); @main as its six segments; and the launch: every
  weakly fair execution terminates, nothing faulting, with every unscoped buffer at `W6`.  From it: the frame (no argument
  array is ever written), and the run with the result array named (region 2's output after its last write-back).
  Generic in the float instance.
-/
import proofs.«423883_j31576599560691_3_alg».proof.Proof.KI.Fold
import proofs.«423883_j31576599560691_3_alg».proof.Proof.KI.Readout
import proofs.«423883_j31576599560691_3_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At region 2's exit: its arrays at what the pipeline leaves (the inputs as entered, the output with its write-backs
    folded in), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- Region 2 changes no buffer but its output array `main_v36`: an input window's array ends as it was entered. -/
theorem W6_keep (c : Dev nD) (r : Ref sig .tc) (hr : r ≠ main_v36) :
    W6 m ρ c (Proc.devRef .tc r) = W5 m ρ c (Proc.devRef .tc r) := by
  by_cases h : ∃ w : Fin cfg2.W, Pipeline.arrRef spec2 w = r
  · obtain ⟨w, rfl⟩ := h
    rw [W6_arr]
    match w, hr with
    | ⟨0, _⟩, _ => exact ((dat2 (V5 m ρ) c).arrAt_in 0 rfl _).trans (A_eq2 (V5 m ρ) c 0)
    | ⟨1, _⟩, _ => exact ((dat2 (V5 m ρ) c).arrAt_in 1 rfl _).trans (A_eq2 (V5 m ρ) c 1)
    | ⟨2, _⟩, _ => exact ((dat2 (V5 m ρ) c).arrAt_in 2 rfl _).trans (A_eq2 (V5 m ρ) c 2)
    | ⟨3, _⟩, _ => exact ((dat2 (V5 m ρ) c).arrAt_in 3 rfl _).trans (A_eq2 (V5 m ρ) c 3)
    | ⟨4, _⟩, _ => exact ((dat2 (V5 m ρ) c).arrAt_in 4 rfl _).trans (A_eq2 (V5 m ρ) c 4)
    | ⟨5, _⟩, _ => exact ((dat2 (V5 m ρ) c).arrAt_in 5 rfl _).trans (A_eq2 (V5 m ρ) c 5)
    | ⟨6, _⟩, hr => exact absurd rfl hr
  · exact W6_of_ne m ρ c r (fun w e => h ⟨w, e⟩)

/-- A buffer that no host operation writes and that is no region's output array ends the program as it was launched. -/
theorem W6_kept (c : Dev nD) (r : Ref sig .tc) (h0 : r ∉ hostOps0_W) (h1 : r ∉ hostOps1_W) (h2 : r ∉ hostOps2_W)
    (ho : r ∉ ([main_v20, main_v32, main_v36] : List (Ref sig .tc))) :
    W6 m ρ c (Proc.devRef .tc r) = m ((c : Thread nD τ).loc r) :=
  calc W6 m ρ c (Proc.devRef .tc r)
    _ = W5 m ρ c (Proc.devRef .tc r) := W6_keep m ρ c r (fun e => ho (by simp [e]))
    _ = W4 m ρ c (Proc.devRef .tc r) := StableHlo.after_of_writes_sub hostOps2 _ hostOps2_writes h2
    _ = W3 m ρ c (Proc.devRef .tc r) := W4_keep m ρ c r (fun e => ho (by simp [e]))
    _ = W2 m ρ c (Proc.devRef .tc r) := StableHlo.after_of_writes_sub hostOps1 _ hostOps1_writes h1
    _ = W1 m ρ c (Proc.devRef .tc r) := W2_keep m ρ c r (fun e => ho (by simp [e]))
    _ = W0 m ρ c (Proc.devRef .tc r) := StableHlo.after_of_writes_sub hostOps0 _ hostOps0_writes h0
    _ = m ((c : Thread nD τ).loc r) := rfl

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A stretch of host operations as a segment of @main over the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register
    at some state. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered from every unscoped buffer at `W1`, left at `W2`. Its arrays are split
    out of the unscoped buffers and put back at the exit contents; the generator register goes into the region's invariant and
    comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split
    out of the unscoped buffers and put back at the exit contents; the generator register goes into the region's invariant and
    comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split
    out of the unscoped buffers and put back at the exit contents; the generator register goes into the region's invariant and
    comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (V5 m ρ) c)
    unfold Pipeline.ΦA
    iintro ⟨Hp, -, Hr⟩
    isplitl [Hr]; · iexact Hr
    iexact Hp
  hout c := by
    refine (hout2 (V5 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's six items in order: three stretches of host operations, each followed by a pallas_call region. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
/-- @main is the run of these segments. -/
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, and
    every final state holds every unscoped buffer of every core at the last boundary's contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_arg0 (by decide))).trans (W6_kept m ρ c main_arg0 (by decide) (by decide) (by decide) (by decide)),
    (h c _ (mem_uc main_arg1 (by decide))).trans (W6_kept m ρ c main_arg1 (by decide) (by decide) (by decide) (by decide)),
    (h c _ (mem_uc main_arg2 (by decide))).trans (W6_kept m ρ c main_arg2 (by decide) (by decide) (by decide) (by decide)),
    (h c _ (mem_uc main_arg3 (by decide))).trans (W6_kept m ρ c main_arg3 (by decide) (by decide) (by decide) (by decide)),
    (h c _ (mem_uc main_arg4 (by decide))).trans (W6_kept m ρ c main_arg4 (by decide) (by decide) (by decide) (by decide)),
    (h c _ (mem_uc main_arg5 (by decide))).trans (W6_kept m ρ c main_arg5 (by decide) (by decide) (by decide) (by decide)),
    (h c _ (mem_uc main_arg6 (by decide))).trans (W6_kept m ρ c main_arg6 (by decide) (by decide) (by decide) (by decide)),
    (h c _ (mem_uc main_arg7 (by decide))).trans (W6_kept m ρ c main_arg7 (by decide) (by decide) (by decide) (by decide)),
    (h c _ (mem_uc main_arg8 (by decide))).trans (W6_kept m ρ c main_arg8 (by decide) (by decide) (by decide) (by decide)),
    (h c _ (mem_uc main_arg9 (by decide))).trans (W6_kept m ρ c main_arg9 (by decide) (by decide) (by decide) (by decide)),
    (h c _ (mem_uc main_arg10 (by decide))).trans (W6_kept m ρ c main_arg10 (by decide) (by decide) (by decide) (by decide)),
    (h c _ (mem_uc main_arg11 (by decide))).trans (W6_kept m ρ c main_arg11 (by decide) (by decide) (by decide) (by decide)),
    (h c _ (mem_uc main_arg12 (by decide))).trans (W6_kept m ρ c main_arg12 (by decide) (by decide) (by decide) (by decide)),
    (h c _ (mem_uc main_arg13 (by decide))).trans (W6_kept m ρ c main_arg13 (by decide) (by decide) (by decide) (by decide))⟩) (run_all m ρ)

/-- THE RUN WITH ITS RESULT NAMED: the result array ends at region 2's final contents, every argument as launched. -/
theorem run_result : θ_run defs (onTc (τ := τ) (main (F := F))) ⟨m, fun _ => 0, ρ⟩ (fun r => ∀ c : Dev nD,
      r.2.mem ((c.tc : Thread nD τ).loc main_v36) = (dat2 (V5 m ρ) c).arrAt 6 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_v36 (by decide))).trans (W6_arr m ρ c 6),
    (h c _ (mem_uc main_arg0 (by decide))).trans (W6_kept m ρ c main_arg0 (by decide) (by decide) (by decide) (by decide)),
    (h c _ (mem_uc main_arg1 (by decide))).trans (W6_kept m ρ c main_arg1 (by decide) (by decide) (by decide) (by decide)),
    (h c _ (mem_uc main_arg2 (by decide))).trans (W6_kept m ρ c main_arg2 (by decide) (by decide) (by decide) (by decide)),
    (h c _ (mem_uc main_arg3 (by decide))).trans (W6_kept m ρ c main_arg3 (by decide) (by decide) (by decide) (by decide)),
    (h c _ (mem_uc main_arg4 (by decide))).trans (W6_kept m ρ c main_arg4 (by decide) (by decide) (by decide) (by decide)),
    (h c _ (mem_uc main_arg5 (by decide))).trans (W6_kept m ρ c main_arg5 (by decide) (by decide) (by decide) (by decide)),
    (h c _ (mem_uc main_arg6 (by decide))).trans (W6_kept m ρ c main_arg6 (by decide) (by decide) (by decide) (by decide)),
    (h c _ (mem_uc main_arg7 (by decide))).trans (W6_kept m ρ c main_arg7 (by decide) (by decide) (by decide) (by decide)),
    (h c _ (mem_uc main_arg8 (by decide))).trans (W6_kept m ρ c main_arg8 (by decide) (by decide) (by decide) (by decide)),
    (h c _ (mem_uc main_arg9 (by decide))).trans (W6_kept m ρ c main_arg9 (by decide) (by decide) (by decide) (by decide)),
    (h c _ (mem_uc main_arg10 (by decide))).trans (W6_kept m ρ c main_arg10 (by decide) (by decide) (by decide) (by decide)),
    (h c _ (mem_uc main_arg11 (by decide))).trans (W6_kept m ρ c main_arg11 (by decide) (by decide) (by decide) (by decide)),
    (h c _ (mem_uc main_arg12 (by decide))).trans (W6_kept m ρ c main_arg12 (by decide) (by decide) (by decide) (by decide)),
    (h c _ (mem_uc main_arg13 (by decide))).trans (W6_kept m ρ c main_arg13 (by decide) (by decide) (by decide) (by decide))⟩) (run_all m ρ)

end Cert.KernelIdeal.Hand

end
-- ==== Proof.Spec.lean ====
/-
  The mathematics both programs compute, index by index over the extended reals.

  * One SAGE layer on `N` node rows: entry (n, j) is
      max( Σ_k x[n,k]·Ws[k,j] + Σ_k (agg[n,k]·inv[n,0])·Wn[k,j] + b[j], 0 ),
    the self term, the neighbour term (the summed neighbour features scaled by the reciprocal in-degree) and the bias,
    clipped below at zero.
  * Pooling per graph: `pool` adds the rows of the nodes whose graph id is `g`, `cnt` counts them; a node whose id is
    no graph's contributes to neither.
  * The readout: the pooled sum divided by the count (at least one), through the two-layer perceptron
      ( Σ_j max( Σ_d mean[g,d]·W1[d,j] + b1[j], 0 )·W2[j,0] ) + b2[0].
  The two float literals are kept as their words (zero and one of f32); nothing here evaluates them.
-/
import Idealize.ShloMosaic.PureOps.Ideal
import Idealize.ShloMosaic.Lib.ValueIdx

noncomputable section

namespace Cert.Spec

open Idealize.ShloMosaic Idealize.ShloMosaic.ValueIdx

/-- The f32 word of zero, read at the extended reals. -/
abbrev zeroF : EReal := Ideal.ofBits .f32 0x00000000#32
/-- The f32 word of one, read at the extended reals. -/
abbrev oneF : EReal := Ideal.ofBits .f32 0x3F800000#32

/-- One SAGE layer: self term plus scaled neighbour term plus bias, clipped below at zero. -/
def sage (N Din Dout : Nat) (x agg : (⟨2, ![N, Din]⟩ : Shape).Idx → EReal) (inv : (⟨2, ![N, 1]⟩ : Shape).Idx → EReal)
    (Ws Wn : (⟨2, ![Din, Dout]⟩ : Shape).Idx → EReal) (b : (⟨1, ![Dout]⟩ : Shape).Idx → EReal) :
    (⟨2, ![N, Dout]⟩ : Shape).Idx → EReal :=
  fun i => max (((∑ k : Fin Din, x (ix2 (i 0 : Fin N) k) * Ws (ix2 k (i 1 : Fin Dout)))
      + (∑ k : Fin Din, (agg (ix2 (i 0 : Fin N) k) * inv (ix2 (i 0 : Fin N) (0 : Fin 1))) * Wn (ix2 k (i 1 : Fin Dout))))
      + b (ix1 (i 1 : Fin Dout))) zeroF

/-- The sum of column `d` over the nodes of graph `g`. -/
def pool (N G D : Nat) (gid : (⟨1, ![N]⟩ : Shape).Idx → BitVec 32) (h : (⟨2, ![N, D]⟩ : Shape).Idx → EReal)
    (g : Fin G) (d : Fin D) : EReal :=
  ∑ n : Fin N, if gid (ix1 n) = BitVec.ofNat 32 g.val then h (ix2 n d) else 0

/-- The number of nodes of graph `g`. -/
def cnt (N G : Nat) (gid : (⟨1, ![N]⟩ : Shape).Idx → BitVec 32) (g : Fin G) : EReal :=
  ∑ n : Fin N, if gid (ix1 n) = BitVec.ofNat 32 g.val then (1 : EReal) else 0

/-- The readout: per-graph mean, then the two-layer perceptron. -/
def readout (N G D H : Nat) (gid : (⟨1, ![N]⟩ : Shape).Idx → BitVec 32) (h : (⟨2, ![N, D]⟩ : Shape).Idx → EReal)
    (W1 : (⟨2, ![D, H]⟩ : Shape).Idx → EReal) (b1 : (⟨1, ![H]⟩ : Shape).Idx → EReal)
    (W2 : (⟨2, ![H, 1]⟩ : Shape).Idx → EReal) (b2 : (⟨1, ![1]⟩ : Shape).Idx → EReal) :
    (⟨2, ![G, 1]⟩ : Shape).Idx → EReal :=
  fun i => (∑ j : Fin H,
      max ((∑ d : Fin D, Ideal.div (pool N G D gid h (i 0 : Fin G) d) (max (cnt N G gid (i 0 : Fin G)) oneF) * W1 (ix2 d j))
        + b1 (ix1 j)) zeroF * W2 (ix2 j (0 : Fin 1)))
    + b2 (ix1 (0 : Fin 1))

end Cert.Spec

end
-- ==== Proof.Val.ReadoutMath.lean ====
/-
  The arithmetic of the readout region's body, read index by index at the extended reals.

  At every grid point the body adds, to a 64×20 sum and a 64×1 count, the products of a 64×4000 mask with the
  block of node features (4000×20) and with a column of ones (4000×1).  The mask's entry (g, k) is one where node k of
  the block carries graph id g and zero elsewhere, so the two products are the per-graph sums of the block's rows and
  the per-graph node counts of the block.  At the last point the sum is divided by the count (at least one) and sent
  through the two-layer perceptron.  Each payload is read here at an index as the plain formula it computes; all
  float operations are exact at the extended reals, and the two narrowing conversions are the identity there.
-/
import proofs.«423883_j31576599560691_3_alg».proof.Proof.Gen.KernelIdeal.Skeleton
import proofs.«423883_j31576599560691_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.HandVal

open Idealize.ShloMosaic Idealize.ShloMosaic.ValueIdx Idealize.SL.Sem
open Cert.KernelIdeal Cert.KernelIdeal.Gen

/-! ## Layout operations of the body, read at an index -/

/-- An n×1 column cast to a 1×n row reads, at (u, k), the column at (k, 0): both sit at row-major position k. -/
theorem shapeCast_a1_1a_apply {α : Type} {n : ℕ} (x : (⟨2, ![n, 1]⟩ : Shape).Idx → α)
    (h : (⟨2, ![n, 1]⟩ : Shape).ShapeCasts ⟨2, ![1, n]⟩) (u : Fin 1) (k : Fin n) :
    shapeCast ⟨2, ![1, n]⟩ x h (ix2 u k) = x (ix2 k (0 : Fin 1)) :=
  shapeCast_apply x h _ _ (by
    have hu : u.val = 0 := by omega
    rw [Shape.rowMajor_val_two, Shape.rowMajor_val_two]
    show k.val * 1 + 0 = u.val * n + k.val
    rw [hu, Nat.zero_mul, Nat.zero_add, Nat.mul_one, Nat.add_zero])

/-- An a×1 column broadcast to a×b reads, at (p, c), the column at (p, 0). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The mask -/

/-- The word the comparison of two ids leaves, widened and read as a number: one where they agree, zero elsewhere. -/
theorem maskWord (a b : BitVec 32) :
    ((((IntOp.cmpi .eq a b).setWidth 32).toInt : ℝ) : EReal) = if b = a then 1 else 0 := by
  by_cases h : b = a
  · subst h
    rw [if_pos rfl]
    show ((((BitVec.ofBool (b == b)).setWidth 32).toInt : ℝ) : EReal) = 1
    rw [beq_self_eq_true]
    have e : ((BitVec.ofBool true).setWidth 32).toInt = 1 := by decide
    rw [e]; simp
  · rw [if_neg h]
    have hne : (a == b) = false := by
      rw [beq_eq_false_iff_ne]; exact fun e => h e.symm
    show ((((BitVec.ofBool (a == b)).setWidth 32).toInt : ℝ) : EReal) = 0
    rw [hne]
    have e : ((BitVec.ofBool false).setWidth 32).toInt = 0 := by decide
    rw [e]; simp

/-- The mask's entry (g, k): one where node k of the block carries graph id g, zero elsewhere. -/
theorem mask_apply (gidb : Vec Ideal S4000x1 .i32) (g : Fin 64) (k : Fin 4000) :
    k2_pay3 (F := Ideal) gidb (ix2 g k)
      = if gidb (ix2 k (0 : Fin 1)) = BitVec.ofNat 32 g.val then (1 : EReal) else 0 := by
  unfold Gen.k2_pay3
  show ((((IntOp.cmpi .eq (iota .tc S64x4000 32 [0] Facts₀.iota_S64x4000_d0_w32 (ix2 g k))
      (broadcastTo S64x4000 (shapeCast S1x4000 (shapeCast S4000x1 gidb Facts₀.shapeCasts_S4000x1_S4000x1)
        Facts₀.shapeCasts_S4000x1_S1x4000) Facts₀.broadcasts_S1x4000_S64x4000 (ix2 g k))).setWidth 32).toInt : ℝ) : EReal) = _
  rw [iota_single_apply, broadcastTo_1b_ab_apply, shapeCast_a1_1a_apply, shapeCast_self]
  exact maskWord _ _

/-! ## The four products, read at an index

Each product contracts the left operand's axis 1 with the right operand's axis 0; its contraction index has one
coordinate, which the sum is re-indexed by. -/

theorem lhs_mmS_0 (i : S64x20.Idx) (q : dot_S64x4000_S4000x20_S64x20_1_0_0_1_n_n.contr.Idx) :
    (dot_S64x4000_S4000x20_S64x20_1_0_0_1_n_n.lhsIdx i q 0).val = (i 0).val := by
  unfold DotDims.lhsIdx
  rw [dif_neg (show ¬(0 : Fin S64x4000.rank) ∈ dot_S64x4000_S4000x20_S64x20_1_0_0_1_n_n.lhsBatch by decide), dif_pos (show (0 : Fin S64x4000.rank) ∈ dot_S64x4000_S4000x20_S64x20_1_0_0_1_n_n.lhsNonContracting by decide)]
  rfl
theorem lhs_mmS_1 (i : S64x20.Idx) (q : dot_S64x4000_S4000x20_S64x20_1_0_0_1_n_n.contr.Idx) :
    (dot_S64x4000_S4000x20_S64x20_1_0_0_1_n_n.lhsIdx i q 1).val = (q ⟨0, by decide⟩).val :=
  dot_S64x4000_S4000x20_S64x20_1_0_0_1_n_n.lhsIdx_val_of_single rfl i q
theorem rhs_mmS_0 (i : S64x20.Idx) (q : dot_S64x4000_S4000x20_S64x20_1_0_0_1_n_n.contr.Idx) :
    (dot_S64x4000_S4000x20_S64x20_1_0_0_1_n_n.rhsIdx i q 0).val = (q ⟨0, by decide⟩).val :=
  dot_S64x4000_S4000x20_S64x20_1_0_0_1_n_n.rhsIdx_val_of_single rfl i q
theorem rhs_mmS_1 (i : S64x20.Idx) (q : dot_S64x4000_S4000x20_S64x20_1_0_0_1_n_n.contr.Idx) :
    (dot_S64x4000_S4000x20_S64x20_1_0_0_1_n_n.rhsIdx i q 1).val = (i 1).val := by
  unfold DotDims.rhsIdx
  rw [dif_neg (show ¬(1 : Fin S4000x20.rank) ∈ dot_S64x4000_S4000x20_S64x20_1_0_0_1_n_n.rhsBatch by decide), dif_pos (show (1 : Fin S4000x20.rank) ∈ dot_S64x4000_S4000x20_S64x20_1_0_0_1_n_n.rhsNonContracting by decide)]
  rfl

/-- Mask (64×4000) times features (4000×20), into zero, at (p, c): the sum over the block's 4000 rows. -/
theorem mmS_apply {φ₁ φ₂ : FTy} (A : FVec Ideal S64x4000 φ₁) (B : FVec Ideal S4000x20 φ₂) (p : Fin 64) (c : Fin 20) :
    matmul dot_S64x4000_S4000x20_S64x20_1_0_0_1_n_n none A B (constant (F := Ideal) S64x20 .f32 0x00000000#32) (ix2 p c)
      = ∑ k : Fin 4000, A (ix2 p k) * B (ix2 k c) := by
  simp only [matmul]
  rw [Ideal.matmul_constant_zero_apply, ← Equiv.sum_comp (ValueIdx.contrEquiv1 dot_S64x4000_S4000x20_S64x20_1_0_0_1_n_n 4000 rfl rfl).symm]
  refine Finset.sum_congr rfl fun k _ => ?_
  have hk := ValueIdx.contrEquiv1_symm_val dot_S64x4000_S4000x20_S64x20_1_0_0_1_n_n 4000 rfl rfl k
  have el : dot_S64x4000_S4000x20_S64x20_1_0_0_1_n_n.lhsIdx (ix2 p c) ((ValueIdx.contrEquiv1 dot_S64x4000_S4000x20_S64x20_1_0_0_1_n_n 4000 rfl rfl).symm k) = ix2 p k := funext fun a => Fin.ext (by
    match a with
    | ⟨0, _⟩ => exact lhs_mmS_0 _ _
    | ⟨1, _⟩ => exact (lhs_mmS_1 _ _).trans hk)
  have er : dot_S64x4000_S4000x20_S64x20_1_0_0_1_n_n.rhsIdx (ix2 p c) ((ValueIdx.contrEquiv1 dot_S64x4000_S4000x20_S64x20_1_0_0_1_n_n 4000 rfl rfl).symm k) = ix2 k c := funext fun a => Fin.ext (by
    match a with
    | ⟨0, _⟩ => exact (rhs_mmS_0 _ _).trans hk
    | ⟨1, _⟩ => exact rhs_mmS_1 _ _)
  rw [el, er]

theorem lhs_mmC_0 (i : S64x1.Idx) (q : dot_S64x4000_S4000x1_S64x1_1_0_0_1_n_n.contr.Idx) :
    (dot_S64x4000_S4000x1_S64x1_1_0_0_1_n_n.lhsIdx i q 0).val = (i 0).val := by
  unfold DotDims.lhsIdx
  rw [dif_neg (show ¬(0 : Fin S64x4000.rank) ∈ dot_S64x4000_S4000x1_S64x1_1_0_0_1_n_n.lhsBatch by decide), dif_pos (show (0 : Fin S64x4000.rank) ∈ dot_S64x4000_S4000x1_S64x1_1_0_0_1_n_n.lhsNonContracting by decide)]
  rfl
theorem lhs_mmC_1 (i : S64x1.Idx) (q : dot_S64x4000_S4000x1_S64x1_1_0_0_1_n_n.contr.Idx) :
    (dot_S64x4000_S4000x1_S64x1_1_0_0_1_n_n.lhsIdx i q 1).val = (q ⟨0, by decide⟩).val :=
  dot_S64x4000_S4000x1_S64x1_1_0_0_1_n_n.lhsIdx_val_of_single rfl i q
theorem rhs_mmC_0 (i : S64x1.Idx) (q : dot_S64x4000_S4000x1_S64x1_1_0_0_1_n_n.contr.Idx) :
    (dot_S64x4000_S4000x1_S64x1_1_0_0_1_n_n.rhsIdx i q 0).val = (q ⟨0, by decide⟩).val :=
  dot_S64x4000_S4000x1_S64x1_1_0_0_1_n_n.rhsIdx_val_of_single rfl i q
theorem rhs_mmC_1 (i : S64x1.Idx) (q : dot_S64x4000_S4000x1_S64x1_1_0_0_1_n_n.contr.Idx) :
    (dot_S64x4000_S4000x1_S64x1_1_0_0_1_n_n.rhsIdx i q 1).val = (i 1).val := by
  unfold DotDims.rhsIdx
  rw [dif_neg (show ¬(1 : Fin S4000x1.rank) ∈ dot_S64x4000_S4000x1_S64x1_1_0_0_1_n_n.rhsBatch by decide), dif_pos (show (1 : Fin S4000x1.rank) ∈ dot_S64x4000_S4000x1_S64x1_1_0_0_1_n_n.rhsNonContracting by decide)]
  rfl

/-- Mask (64×4000) times a column (4000×1), into zero, at (p, c): the sum over the block's 4000 rows. -/
theorem mmC_apply {φ₁ φ₂ : FTy} (A : FVec Ideal S64x4000 φ₁) (B : FVec Ideal S4000x1 φ₂) (p : Fin 64) (c : Fin 1) :
    matmul dot_S64x4000_S4000x1_S64x1_1_0_0_1_n_n none A B (constant (F := Ideal) S64x1 .f32 0x00000000#32) (ix2 p c)
      = ∑ k : Fin 4000, A (ix2 p k) * B (ix2 k c) := by
  simp only [matmul]
  rw [Ideal.matmul_constant_zero_apply, ← Equiv.sum_comp (ValueIdx.contrEquiv1 dot_S64x4000_S4000x1_S64x1_1_0_0_1_n_n 4000 rfl rfl).symm]
  refine Finset.sum_congr rfl fun k _ => ?_
  have hk := ValueIdx.contrEquiv1_symm_val dot_S64x4000_S4000x1_S64x1_1_0_0_1_n_n 4000 rfl rfl k
  have el : dot_S64x4000_S4000x1_S64x1_1_0_0_1_n_n.lhsIdx (ix2 p c) ((ValueIdx.contrEquiv1 dot_S64x4000_S4000x1_S64x1_1_0_0_1_n_n 4000 rfl rfl).symm k) = ix2 p k := funext fun a => Fin.ext (by
    match a with
    | ⟨0, _⟩ => exact lhs_mmC_0 _ _
    | ⟨1, _⟩ => exact (lhs_mmC_1 _ _).trans hk)
  have er : dot_S64x4000_S4000x1_S64x1_1_0_0_1_n_n.rhsIdx (ix2 p c) ((ValueIdx.contrEquiv1 dot_S64x4000_S4000x1_S64x1_1_0_0_1_n_n 4000 rfl rfl).symm k) = ix2 k c := funext fun a => Fin.ext (by
    match a with
    | ⟨0, _⟩ => exact (rhs_mmC_0 _ _).trans hk
    | ⟨1, _⟩ => exact rhs_mmC_1 _ _)
  rw [el, er]

theorem lhs_mmW1_0 (i : S64x10.Idx) (q : dot_S64x20_S20x10_S64x10_1_0_0_1_n_n.contr.Idx) :
    (dot_S64x20_S20x10_S64x10_1_0_0_1_n_n.lhsIdx i q 0).val = (i 0).val := by
  unfold DotDims.lhsIdx
  rw [dif_neg (show ¬(0 : Fin S64x20.rank) ∈ dot_S64x20_S20x10_S64x10_1_0_0_1_n_n.lhsBatch by decide), dif_pos (show (0 : Fin S64x20.rank) ∈ dot_S64x20_S20x10_S64x10_1_0_0_1_n_n.lhsNonContracting by decide)]
  rfl
theorem lhs_mmW1_1 (i : S64x10.Idx) (q : dot_S64x20_S20x10_S64x10_1_0_0_1_n_n.contr.Idx) :
    (dot_S64x20_S20x10_S64x10_1_0_0_1_n_n.lhsIdx i q 1).val = (q ⟨0, by decide⟩).val :=
  dot_S64x20_S20x10_S64x10_1_0_0_1_n_n.lhsIdx_val_of_single rfl i q
theorem rhs_mmW1_0 (i : S64x10.Idx) (q : dot_S64x20_S20x10_S64x10_1_0_0_1_n_n.contr.Idx) :
    (dot_S64x20_S20x10_S64x10_1_0_0_1_n_n.rhsIdx i q 0).val = (q ⟨0, by decide⟩).val :=
  dot_S64x20_S20x10_S64x10_1_0_0_1_n_n.rhsIdx_val_of_single rfl i q
theorem rhs_mmW1_1 (i : S64x10.Idx) (q : dot_S64x20_S20x10_S64x10_1_0_0_1_n_n.contr.Idx) :
    (dot_S64x20_S20x10_S64x10_1_0_0_1_n_n.rhsIdx i q 1).val = (i 1).val := by
  unfold DotDims.rhsIdx
  rw [dif_neg (show ¬(1 : Fin S20x10.rank) ∈ dot_S64x20_S20x10_S64x10_1_0_0_1_n_n.rhsBatch by decide), dif_pos (show (1 : Fin S20x10.rank) ∈ dot_S64x20_S20x10_S64x10_1_0_0_1_n_n.rhsNonContracting by decide)]
  rfl

/-- Means (64×20) times the first weights (20×10), into zero, at (p, c): the sum over the 20 columns. -/
theorem mmW1_apply {φ₁ φ₂ : FTy} (A : FVec Ideal S64x20 φ₁) (B : FVec Ideal S20x10 φ₂) (p : Fin 64) (c : Fin 10) :
    matmul dot_S64x20_S20x10_S64x10_1_0_0_1_n_n none A B (constant (F := Ideal) S64x10 .f32 0x00000000#32) (ix2 p c)
      = ∑ k : Fin 20, A (ix2 p k) * B (ix2 k c) := by
  simp only [matmul]
  rw [Ideal.matmul_constant_zero_apply, ← Equiv.sum_comp (ValueIdx.contrEquiv1 dot_S64x20_S20x10_S64x10_1_0_0_1_n_n 20 rfl rfl).symm]
  refine Finset.sum_congr rfl fun k _ => ?_
  have hk := ValueIdx.contrEquiv1_symm_val dot_S64x20_S20x10_S64x10_1_0_0_1_n_n 20 rfl rfl k
  have el : dot_S64x20_S20x10_S64x10_1_0_0_1_n_n.lhsIdx (ix2 p c) ((ValueIdx.contrEquiv1 dot_S64x20_S20x10_S64x10_1_0_0_1_n_n 20 rfl rfl).symm k) = ix2 p k := funext fun a => Fin.ext (by
    match a with
    | ⟨0, _⟩ => exact lhs_mmW1_0 _ _
    | ⟨1, _⟩ => exact (lhs_mmW1_1 _ _).trans hk)
  have er : dot_S64x20_S20x10_S64x10_1_0_0_1_n_n.rhsIdx (ix2 p c) ((ValueIdx.contrEquiv1 dot_S64x20_S20x10_S64x10_1_0_0_1_n_n 20 rfl rfl).symm k) = ix2 k c := funext fun a => Fin.ext (by
    match a with
    | ⟨0, _⟩ => exact (rhs_mmW1_0 _ _).trans hk
    | ⟨1, _⟩ => exact rhs_mmW1_1 _ _)
  rw [el, er]

theorem lhs_mmW2_0 (i : S64x1.Idx) (q : dot_S64x10_S10x1_S64x1_1_0_0_1_n_n.contr.Idx) :
    (dot_S64x10_S10x1_S64x1_1_0_0_1_n_n.lhsIdx i q 0).val = (i 0).val := by
  unfold DotDims.lhsIdx
  rw [dif_neg (show ¬(0 : Fin S64x10.rank) ∈ dot_S64x10_S10x1_S64x1_1_0_0_1_n_n.lhsBatch by decide), dif_pos (show (0 : Fin S64x10.rank) ∈ dot_S64x10_S10x1_S64x1_1_0_0_1_n_n.lhsNonContracting by decide)]
  rfl
theorem lhs_mmW2_1 (i : S64x1.Idx) (q : dot_S64x10_S10x1_S64x1_1_0_0_1_n_n.contr.Idx) :
    (dot_S64x10_S10x1_S64x1_1_0_0_1_n_n.lhsIdx i q 1).val = (q ⟨0, by decide⟩).val :=
  dot_S64x10_S10x1_S64x1_1_0_0_1_n_n.lhsIdx_val_of_single rfl i q
theorem rhs_mmW2_0 (i : S64x1.Idx) (q : dot_S64x10_S10x1_S64x1_1_0_0_1_n_n.contr.Idx) :
    (dot_S64x10_S10x1_S64x1_1_0_0_1_n_n.rhsIdx i q 0).val = (q ⟨0, by decide⟩).val :=
  dot_S64x10_S10x1_S64x1_1_0_0_1_n_n.rhsIdx_val_of_single rfl i q
theorem rhs_mmW2_1 (i : S64x1.Idx) (q : dot_S64x10_S10x1_S64x1_1_0_0_1_n_n.contr.Idx) :
    (dot_S64x10_S10x1_S64x1_1_0_0_1_n_n.rhsIdx i q 1).val = (i 1).val := by
  unfold DotDims.rhsIdx
  rw [dif_neg (show ¬(1 : Fin S10x1.rank) ∈ dot_S64x10_S10x1_S64x1_1_0_0_1_n_n.rhsBatch by decide), dif_pos (show (1 : Fin S10x1.rank) ∈ dot_S64x10_S10x1_S64x1_1_0_0_1_n_n.rhsNonContracting by decide)]
  rfl

/-- Hidden layer (64×10) times the second weights (10×1), into zero, at (p, c): the sum over the 10 units. -/
theorem mmW2_apply {φ₁ φ₂ : FTy} (A : FVec Ideal S64x10 φ₁) (B : FVec Ideal S10x1 φ₂) (p : Fin 64) (c : Fin 1) :
    matmul dot_S64x10_S10x1_S64x1_1_0_0_1_n_n none A B (constant (F := Ideal) S64x1 .f32 0x00000000#32) (ix2 p c)
      = ∑ k : Fin 10, A (ix2 p k) * B (ix2 k c) := by
  simp only [matmul]
  rw [Ideal.matmul_constant_zero_apply, ← Equiv.sum_comp (ValueIdx.contrEquiv1 dot_S64x10_S10x1_S64x1_1_0_0_1_n_n 10 rfl rfl).symm]
  refine Finset.sum_congr rfl fun k _ => ?_
  have hk := ValueIdx.contrEquiv1_symm_val dot_S64x10_S10x1_S64x1_1_0_0_1_n_n 10 rfl rfl k
  have el : dot_S64x10_S10x1_S64x1_1_0_0_1_n_n.lhsIdx (ix2 p c) ((ValueIdx.contrEquiv1 dot_S64x10_S10x1_S64x1_1_0_0_1_n_n 10 rfl rfl).symm k) = ix2 p k := funext fun a => Fin.ext (by
    match a with
    | ⟨0, _⟩ => exact lhs_mmW2_0 _ _
    | ⟨1, _⟩ => exact (lhs_mmW2_1 _ _).trans hk)
  have er : dot_S64x10_S10x1_S64x1_1_0_0_1_n_n.rhsIdx (ix2 p c) ((ValueIdx.contrEquiv1 dot_S64x10_S10x1_S64x1_1_0_0_1_n_n 10 rfl rfl).symm k) = ix2 k c := funext fun a => Fin.ext (by
    match a with
    | ⟨0, _⟩ => exact (rhs_mmW2_0 _ _).trans hk
    | ⟨1, _⟩ => exact rhs_mmW2_1 _ _)
  rw [el, er]

/-! ## The payloads -/

/-- The word of one in bf16 (sign 0, exponent 127, fraction 0) is the number one. -/
theorem ofBits_one_bf16 : Ideal.ofBits .bf16 0x3F80#16 = 1 := by
  simp [Ideal.ofBits, Ideal.ieee]
  first
    | (norm_num; done)
    | (rw [← EReal.coe_mul, ← EReal.coe_one]; norm_num; done)
    | (rw [← EReal.coe_mul]; norm_num; done)
    | (norm_cast; norm_num; done)
    | (exact_mod_cast (by norm_num : (128:ℝ) * ((2:ℝ)^7)⁻¹ = 1))

/-- The sum accumulator's reset value: zero everywhere. -/
theorem pay1_apply (i : S64x20.Idx) : k2_pay1 (F := Ideal) i = 0 := by
  unfold Gen.k2_pay1
  show shapeCast S64x20 (broadcast S64x20 (Ideal.ofBits .f32 0x00000000#32)) Facts₀.shapeCasts_S64x20_S64x20 i = 0
  rw [shapeCast_self, broadcast_apply, Ideal.ofBits_zero_f32]

/-- The count accumulator's reset value: zero everywhere. -/
theorem pay2_apply (i : S64x1.Idx) : k2_pay2 (F := Ideal) i = 0 := by
  unfold Gen.k2_pay2
  show shapeCast S64x1 (broadcast S64x1 (Ideal.ofBits .f32 0x00000000#32)) Facts₀.shapeCasts_S64x1_S64x1 i = 0
  rw [shapeCast_self, broadcast_apply, Ideal.ofBits_zero_f32]

/-- The sum accumulator after a point: its previous value plus, for graph g and column d, the sum of column d over
    the block's rows whose id is g (a row's mask entry is one or zero, and 1·x = x, 0·x = 0). -/
theorem pay4_apply (gidb : Vec Ideal S4000x1 .i32) (hb : Vec Ideal S4000x20 .f32) (prev : Vec Ideal S64x20 .f32)
    (g : Fin 64) (d : Fin 20) :
    k2_pay4 (F := Ideal) gidb hb prev (ix2 g d)
      = prev (ix2 g d) + ∑ k : Fin 4000, if gidb (ix2 k (0 : Fin 1)) = BitVec.ofNat 32 g.val then hb (ix2 k d) else 0 := by
  unfold Gen.k2_pay4
  show shapeCast S64x20 (addf prev (matmul dot_S64x4000_S4000x20_S64x20_1_0_0_1_n_n none (k2_pay3 (F := Ideal) gidb)
      (truncf .bf16 (shapeCast S4000x20 hb Facts₀.shapeCasts_S4000x20_S4000x20) Facts₀.bitsLt_bf16_f32)
      (constant (F := Ideal) S64x20 .f32 0x00000000#32))) Facts₀.shapeCasts_S64x20_S64x20 (ix2 g d) = _
  rw [shapeCast_self, addf_apply, mmS_apply]
  refine congrArg (prev (ix2 g d) + ·) (Finset.sum_congr rfl fun k _ => ?_)
  rw [mask_apply, truncf_apply, shapeCast_self]
  split
  · exact one_mul _
  · exact zero_mul _

/-- The count accumulator after a point: its previous value plus, for graph g, the number of the block's rows whose
    id is g. -/
theorem pay5_apply (gidb : Vec Ideal S4000x1 .i32) (prev : Vec Ideal S64x1 .f32) (g : Fin 64) :
    k2_pay5 (F := Ideal) gidb prev (ix2 g (0 : Fin 1))
      = prev (ix2 g (0 : Fin 1)) + ∑ k : Fin 4000, if gidb (ix2 k (0 : Fin 1)) = BitVec.ofNat 32 g.val then (1 : EReal) else 0 := by
  unfold Gen.k2_pay5
  show shapeCast S64x1 (addf prev (matmul dot_S64x4000_S4000x1_S64x1_1_0_0_1_n_n none (k2_pay3 (F := Ideal) gidb)
      (broadcast S4000x1 (Ideal.ofBits .bf16 0x3F80#16))
      (constant (F := Ideal) S64x1 .f32 0x00000000#32))) Facts₀.shapeCasts_S64x1_S64x1 (ix2 g (0 : Fin 1)) = _
  rw [shapeCast_self, addf_apply, mmC_apply]
  refine congrArg (prev (ix2 g (0 : Fin 1)) + ·) (Finset.sum_congr rfl fun k _ => ?_)
  rw [mask_apply, broadcast_apply, ofBits_one_bf16, mul_one]

/-- The finalisation: the per-graph mean (the sum over the count, the count at least one) through the two-layer
    perceptron, for graph g. -/
theorem pay6_apply (s : Vec Ideal S64x20 .f32) (cn : Vec Ideal S64x1 .f32) (W1 : Vec Ideal S20x10 .f32)
    (b1 : Vec Ideal S1x10 .f32) (W2 : Vec Ideal S10x1 .f32) (b2 : Vec Ideal S1x1 .f32) (g : Fin 64) :
    k2_pay6 (F := Ideal) s cn W1 b1 W2 b2 (ix2 g (0 : Fin 1))
      = (∑ j : Fin 10, max ((∑ d : Fin 20, Ideal.div (s (ix2 g d)) (max (cn (ix2 g (0 : Fin 1))) Cert.Spec.oneF) * W1 (ix2 d j))
          + b1 (ix2 (0 : Fin 1) j)) Cert.Spec.zeroF * W2 (ix2 j (0 : Fin 1)))
        + b2 (ix2 (0 : Fin 1) (0 : Fin 1)) := by
  unfold Gen.k2_pay6
  show addf (matmul dot_S64x10_S10x1_S64x1_1_0_0_1_n_n none
      (truncf .bf16 (maximumf (addf (matmul dot_S64x20_S20x10_S64x10_1_0_0_1_n_n none
          (truncf .bf16 (divf s (broadcastTo S64x20 (maximumf cn (broadcast S64x1 (Ideal.ofBits .f32 0x3F800000#32)))
            Facts₀.broadcasts_S64x1_S64x20)) Facts₀.bitsLt_bf16_f32)
          (truncf .bf16 W1 Facts₀.bitsLt_bf16_f32) (constant (F := Ideal) S64x10 .f32 0x00000000#32))
        (broadcastTo S64x10 (shapeCast S1x10 b1 Facts₀.shapeCasts_S1x10_S1x10) Facts₀.broadcasts_S1x10_S64x10))
        (broadcast S64x10 (Ideal.ofBits .f32 0x00000000#32))) Facts₀.bitsLt_bf16_f32)
      (truncf .bf16 W2 Facts₀.bitsLt_bf16_f32) (constant (F := Ideal) S64x1 .f32 0x00000000#32))
    (broadcastTo S64x1 (shapeCast S1x1 b2 Facts₀.shapeCasts_S1x1_S1x1) Facts₀.broadcasts_S1x1_S64x1) (ix2 g (0 : Fin 1)) = _
  rw [addf_apply, mmW2_apply, broadcastTo_1b_ab_apply, shapeCast_self b2]
  refine congrArg (· + b2 (ix2 (0 : Fin 1) (0 : Fin 1))) (Finset.sum_congr rfl fun j _ => ?_)
  rw [truncf_apply, truncf_apply, maximumf_apply, addf_apply, mmW1_apply, broadcastTo_1b_ab_apply, shapeCast_self b1,
    broadcast_apply]
  refine congrArg (fun x => max (x + b1 (ix2 (0 : Fin 1) j)) Cert.Spec.zeroF * W2 (ix2 j (0 : Fin 1)))
    (Finset.sum_congr rfl fun d _ => ?_)
  rw [truncf_apply, truncf_apply, divf_apply, broadcastTo_a1_ab_apply, maximumf_apply, broadcast_apply]

end Cert.KernelIdeal.HandVal
-- ==== Proof.Val.ReadoutFold.lean ====
/-
  The accumulation over the 25 blocks.

  The region visits the 100000 node rows in 25 consecutive blocks of 4000.  The running value after point n is the
  value after point n − 1 plus the block's own sum, and the first point starts from zero.  A sum over all rows splits
  into the sums over the consecutive blocks (addition of extended reals is commutative and associative, so no
  finiteness enters), hence the value after the last point is the sum over all rows: the pooled sum and the node
  count of the specification.
-/
import proofs.«423883_j31576599560691_3_alg».proof.Proof.Spec
import Mathlib.Algebra.BigOperators.Fin
import Mathlib.Algebra.BigOperators.Group.Finset.Basic

noncomputable section

namespace Cert.KernelIdeal.HandVal

open Idealize.ShloMosaic Idealize.ShloMosaic.ValueIdx

section Blocks
variable {M : Type*} [AddCommMonoid M]

/-- The sum of a sequence over block t: positions 4000·t, …, 4000·t + 3999. -/
def blockSum (f : ℕ → M) (t : ℕ) : M := ∑ k : Fin 4000, f (4000 * t + k.val)

/-- The running value after point n: zero plus block 0 at the first point, the previous value plus block n + 1 after. -/
def runAcc (f : ℕ → M) : ℕ → M
  | 0 => 0 + blockSum f 0
  | n + 1 => runAcc f n + blockSum f (n + 1)

theorem runAcc_zero (f : ℕ → M) : runAcc f 0 = 0 + blockSum f 0 := rfl
theorem runAcc_succ (f : ℕ → M) (n : ℕ) : runAcc f (n + 1) = runAcc f n + blockSum f (n + 1) := rfl

/-- A block's sum is the sum over the 4000 offsets. -/
theorem blockSum_eq_range (f : ℕ → M) (t : ℕ) : blockSum f t = ∑ x ∈ Finset.range 4000, f (4000 * t + x) :=
  Fin.sum_univ_eq_sum_range (fun x => f (4000 * t + x)) 4000

/-- After point n the running value is the sum over the first 4000·(n + 1) positions. -/
theorem runAcc_eq_range (f : ℕ → M) (n : ℕ) : runAcc f n = ∑ i ∈ Finset.range (4000 * (n + 1)), f i := by
  induction n with
  | zero =>
    rw [runAcc_zero, zero_add, blockSum_eq_range]
    refine Finset.sum_congr rfl fun x _ => ?_
    rw [Nat.mul_zero, Nat.zero_add]
  | succ n ih =>
    rw [runAcc_succ, ih, blockSum_eq_range, show 4000 * (n + 1 + 1) = 4000 * (n + 1) + 4000 from by ring,
      Finset.sum_range_add]

/-- After the last of the 25 points: the sum over all 100000 positions. -/
theorem runAcc_last (f : ℕ → M) : runAcc f 24 = ∑ i : Fin 100000, f i.val := by
  rw [runAcc_eq_range, Fin.sum_univ_eq_sum_range f 100000]

end Blocks

/-! ## The two sequences the region accumulates -/

/-- Row k of block t, as a row of the whole array. -/
def blkRow (t : Fin 25) (k : Fin 4000) : Fin 100000 := ⟨4000 * t.val + k.val, by omega⟩

/-- Row i's contribution to the pooled sum of graph g, column d (zero past the array's end). -/
def poolTerm (gid : (⟨1, ![100000]⟩ : Shape).Idx → BitVec 32) (h : (⟨2, ![100000, 20]⟩ : Shape).Idx → EReal)
    (g : Fin 64) (d : Fin 20) (i : ℕ) : EReal :=
  if hi : i < 100000 then (if gid (ix1 (⟨i, hi⟩ : Fin 100000)) = BitVec.ofNat 32 g.val then h (ix2 (⟨i, hi⟩ : Fin 100000) d) else 0) else 0

/-- Row i's contribution to the node count of graph g (zero past the array's end). -/
def cntTerm (gid : (⟨1, ![100000]⟩ : Shape).Idx → BitVec 32) (g : Fin 64) (i : ℕ) : EReal :=
  if hi : i < 100000 then (if gid (ix1 (⟨i, hi⟩ : Fin 100000)) = BitVec.ofNat 32 g.val then (1 : EReal) else 0) else 0

theorem poolTerm_blk (gid : (⟨1, ![100000]⟩ : Shape).Idx → BitVec 32) (h : (⟨2, ![100000, 20]⟩ : Shape).Idx → EReal)
    (g : Fin 64) (d : Fin 20) (t : Fin 25) (k : Fin 4000) :
    poolTerm gid h g d (4000 * t.val + k.val)
      = if gid (ix1 (blkRow t k)) = BitVec.ofNat 32 g.val then h (ix2 (blkRow t k) d) else 0 :=
  dif_pos (blkRow t k).isLt

theorem cntTerm_blk (gid : (⟨1, ![100000]⟩ : Shape).Idx → BitVec 32) (g : Fin 64) (t : Fin 25) (k : Fin 4000) :
    cntTerm gid g (4000 * t.val + k.val)
      = if gid (ix1 (blkRow t k)) = BitVec.ofNat 32 g.val then (1 : EReal) else 0 :=
  dif_pos (blkRow t k).isLt

/-- Block t's share of the pooled sum, row by row of the block. -/
theorem blockSum_poolTerm (gid : (⟨1, ![100000]⟩ : Shape).Idx → BitVec 32) (h : (⟨2, ![100000, 20]⟩ : Shape).Idx → EReal)
    (g : Fin 64) (d : Fin 20) (t : Fin 25) :
    blockSum (poolTerm gid h g d) t.val
      = ∑ k : Fin 4000, if gid (ix1 (blkRow t k)) = BitVec.ofNat 32 g.val then h (ix2 (blkRow t k) d) else 0 :=
  Finset.sum_congr rfl fun k _ => poolTerm_blk gid h g d t k

/-- Block t's share of the node count, row by row of the block. -/
theorem blockSum_cntTerm (gid : (⟨1, ![100000]⟩ : Shape).Idx → BitVec 32) (g : Fin 64) (t : Fin 25) :
    blockSum (cntTerm gid g) t.val
      = ∑ k : Fin 4000, if gid (ix1 (blkRow t k)) = BitVec.ofNat 32 g.val then (1 : EReal) else 0 :=
  Finset.sum_congr rfl fun k _ => cntTerm_blk gid g t k

/-- The running pooled sum after point n. -/
def accS (gid : (⟨1, ![100000]⟩ : Shape).Idx → BitVec 32) (h : (⟨2, ![100000, 20]⟩ : Shape).Idx → EReal)
    (n : ℕ) (g : Fin 64) (d : Fin 20) : EReal := runAcc (poolTerm gid h g d) n

/-- The running node count after point n. -/
def accC (gid : (⟨1, ![100000]⟩ : Shape).Idx → BitVec 32) (n : ℕ) (g : Fin 64) : EReal := runAcc (cntTerm gid g) n

theorem accS_zero (gid : (⟨1, ![100000]⟩ : Shape).Idx → BitVec 32) (h : (⟨2, ![100000, 20]⟩ : Shape).Idx → EReal)
    (g : Fin 64) (d : Fin 20) : accS gid h 0 g d = 0 + blockSum (poolTerm gid h g d) 0 := rfl
theorem accS_succ (gid : (⟨1, ![100000]⟩ : Shape).Idx → BitVec 32) (h : (⟨2, ![100000, 20]⟩ : Shape).Idx → EReal)
    (n : ℕ) (g : Fin 64) (d : Fin 20) : accS gid h (n + 1) g d = accS gid h n g d + blockSum (poolTerm gid h g d) (n + 1) := rfl
theorem accC_zero (gid : (⟨1, ![100000]⟩ : Shape).Idx → BitVec 32) (g : Fin 64) :
    accC gid 0 g = 0 + blockSum (cntTerm gid g) 0 := rfl
theorem accC_succ (gid : (⟨1, ![100000]⟩ : Shape).Idx → BitVec 32) (n : ℕ) (g : Fin 64) :
    accC gid (n + 1) g = accC gid n g + blockSum (cntTerm gid g) (n + 1) := rfl

/-- After the last point the running sum is the specification's pooled sum. -/
theorem accS_last (gid : (⟨1, ![100000]⟩ : Shape).Idx → BitVec 32) (h : (⟨2, ![100000, 20]⟩ : Shape).Idx → EReal)
    (g : Fin 64) (d : Fin 20) : accS gid h 24 g d = Cert.Spec.pool 100000 64 20 gid h g d := by
  unfold accS Cert.Spec.pool
  rw [runAcc_last]
  exact Finset.sum_congr rfl fun n _ => dif_pos n.isLt

/-- After the last point the running count is the specification's node count. -/
theorem accC_last (gid : (⟨1, ![100000]⟩ : Shape).Idx → BitVec 32) (g : Fin 64) :
    accC gid 24 g = Cert.Spec.cnt 100000 64 gid g := by
  unfold accC Cert.Spec.cnt
  rw [runAcc_last]
  exact Finset.sum_congr rfl fun n _ => dif_pos n.isLt

end Cert.KernelIdeal.HandVal
-- ==== Proof.Val.ReadoutVal.lean ====
/-
  The readout region, read as a value.  After the 25 grid points the region's output array (64×1) is the
  specification's readout of the arrays the region finds: per graph, the mean of the node features over the graph's
  nodes (the pooled sum over the node count, the count at least one), through the two-layer perceptron.
  Four steps.  (1) What each control case of the body leaves in the two kept buffers and in the output block, as the
  payloads of the point's input blocks: the first point leaves the reset values updated by block 0, every later point
  the previous contents updated by its block, the last point also the finalisation of the two buffers as it leaves
  them.  (2) Row k of a block at point t is row 4000·t + k of its array; the weights and biases are whole.  (3) By
  induction on the point the two kept buffers hold the running pooled sums and node counts; after the last point
  these are the sums over all 100000 rows.  (4) Only the last point writes the output back, and its one block is the
  whole array.
-/
import proofs.«423883_j31576599560691_3_alg».proof.Proof.KI.Readout
import proofs.«423883_j31576599560691_3_alg».proof.Proof.Val.ReadoutMath
import proofs.«423883_j31576599560691_3_alg».proof.Proof.Val.ReadoutFold
import Idealize.ShloMosaic.Lib.Pipeline.Value
import Idealize.ShloMosaic.Lib.ValueIdx

set_option maxRecDepth 16384

noncomputable section

namespace Cert.KernelIdeal.HandVal

open Idealize.ShloMosaic Idealize.ShloMosaic.ValueIdx Idealize.ShloMosaic.TcCoe Idealize.ShloMosaic.Tactic Idealize.SL.Sem
open Idealize.ShloMosaic.Pipeline (Dat)
open Cert.KernelIdeal Cert.KernelIdeal.Gen

/-! ## What each control case leaves, as payloads of the blocks -/

section Pieces
variable {F : FTy → Type} [FloatOps F]

/-- The zero offsets of a whole-buffer access, as a constant function. -/
theorem hz2 : (![0, 0] : Fin 2 → Nat) = fun _ => 0 := funext fun a => by fin_cases a <;> rfl

/-- The first point leaves in the buffer of sums: the reset value plus the block's masked sums (the later of its two
    stores takes the whole buffer; the value it adds to is the reset store read back). -/
theorem sout_A_0 (c : Dev nD) (i : grid2.Coords) (arg1 : Memref sig .tc .vmem S4000x20 .f32) (harg1 : arg1.IsWhole) (arg2 : Memref sig .tc .vmem S4000x1 .i32) (harg2 : arg2.IsWhole) (arg3 : Memref sig .tc .vmem S20x10 .f32) (harg3 : arg3.IsWhole) (arg4 : Memref sig .tc .vmem S1x10 .f32) (harg4 : arg4.IsWhole) (arg5 : Memref sig .tc .vmem S10x1 .f32) (harg5 : arg5.IsWhole) (arg6 : Memref sig .tc .vmem S1x1 .f32) (harg6 : arg6.IsWhole) (arg7 : Memref sig .tc .vmem S64x1 .f32) (harg7 : arg7.IsWhole) (arg8 : Memref sig .tc .vmem S64x20 .f32) (harg8 : arg8.IsWhole) (arg9 : Memref sig .tc .vmem S64x1 .f32) (harg9 : arg9.IsWhole) (hc0 : Hand.cond2_0 i) (hc1 : ¬Hand.cond2_1 i) (x0 : Vec F S4000x20 .f32) (x1 : Vec F S4000x1 .i32) (x2 : Vec F S20x10 .f32) (x3 : Vec F S1x10 .f32) (x4 : Vec F S10x1 .f32) (x5 : Vec F S1x1 .f32) :
    Hand.sout2_A_0 c i arg1 harg1 arg2 harg2 arg3 harg3 arg4 harg4 arg5 harg5 arg6 harg6 arg7 harg7 arg8 harg8 arg9 harg9 hc0 hc1 x0 x1 x2 x3 x4 x5 = k2_pay4 x1 x0 (k2_pay1 (F := F)) := by
  unfold Hand.sout2_A_0
  rw [View.read_writes_junk_eq_canon]
  unfold Hand.kernelRun2_A
  dsimp only
  sl_unfold_words
  rw [View.canon_cons_unit_zero (S := S64x20) hz2]
  simp only [View.readAt_eq_ld, harg1.read_unread, harg2.read_unread, harg3.read_unread, harg4.read_unread, harg5.read_unread, harg6.read_unread, harg8.read_unread, harg9.read_unread,
    View.ld_unit_zero (S := S4000x20) hz2, View.ld_unit_zero (S := S4000x1) hz2, View.ld_unit_zero (S := S20x10) hz2, View.ld_unit_zero (S := S1x10) hz2, View.ld_unit_zero (S := S10x1) hz2, View.ld_unit_zero (S := S1x1) hz2, View.ld_unit_zero (S := S64x20) hz2, View.ld_unit_zero (S := S64x1) hz2,
    View.readCov_unit_zero (S := S64x20) _ hz2, View.readCov_unit_zero (S := S64x1) _ hz2]

/-- The first point leaves in the buffer of counts: the reset value plus the block's masked counts. -/
theorem sout_A_1 (c : Dev nD) (i : grid2.Coords) (arg1 : Memref sig .tc .vmem S4000x20 .f32) (harg1 : arg1.IsWhole) (arg2 : Memref sig .tc .vmem S4000x1 .i32) (harg2 : arg2.IsWhole) (arg3 : Memref sig .tc .vmem S20x10 .f32) (harg3 : arg3.IsWhole) (arg4 : Memref sig .tc .vmem S1x10 .f32) (harg4 : arg4.IsWhole) (arg5 : Memref sig .tc .vmem S10x1 .f32) (harg5 : arg5.IsWhole) (arg6 : Memref sig .tc .vmem S1x1 .f32) (harg6 : arg6.IsWhole) (arg7 : Memref sig .tc .vmem S64x1 .f32) (harg7 : arg7.IsWhole) (arg8 : Memref sig .tc .vmem S64x20 .f32) (harg8 : arg8.IsWhole) (arg9 : Memref sig .tc .vmem S64x1 .f32) (harg9 : arg9.IsWhole) (hc0 : Hand.cond2_0 i) (hc1 : ¬Hand.cond2_1 i) (x0 : Vec F S4000x20 .f32) (x1 : Vec F S4000x1 .i32) (x2 : Vec F S20x10 .f32) (x3 : Vec F S1x10 .f32) (x4 : Vec F S10x1 .f32) (x5 : Vec F S1x1 .f32) :
    Hand.sout2_A_1 c i arg1 harg1 arg2 harg2 arg3 harg3 arg4 harg4 arg5 harg5 arg6 harg6 arg7 harg7 arg8 harg8 arg9 harg9 hc0 hc1 x0 x1 x2 x3 x4 x5 = k2_pay5 x1 (k2_pay2 (F := F)) := by
  unfold Hand.sout2_A_1
  rw [View.read_writes_junk_eq_canon]
  unfold Hand.kernelRun2_A
  dsimp only
  sl_unfold_words
  rw [View.canon_cons_unit_zero (S := S64x1) hz2]
  simp only [View.readAt_eq_ld, harg1.read_unread, harg2.read_unread, harg3.read_unread, harg4.read_unread, harg5.read_unread, harg6.read_unread, harg8.read_unread, harg9.read_unread,
    View.ld_unit_zero (S := S4000x20) hz2, View.ld_unit_zero (S := S4000x1) hz2, View.ld_unit_zero (S := S20x10) hz2, View.ld_unit_zero (S := S1x10) hz2, View.ld_unit_zero (S := S10x1) hz2, View.ld_unit_zero (S := S1x1) hz2, View.ld_unit_zero (S := S64x20) hz2, View.ld_unit_zero (S := S64x1) hz2,
    View.readCov_unit_zero (S := S64x20) _ hz2, View.readCov_unit_zero (S := S64x1) _ hz2]

/-- A middle point leaves in the buffer of sums: what it found plus the block's masked sums. -/
theorem sout_B_0 (c : Dev nD) (i : grid2.Coords) (arg1 : Memref sig .tc .vmem S4000x20 .f32) (harg1 : arg1.IsWhole) (arg2 : Memref sig .tc .vmem S4000x1 .i32) (harg2 : arg2.IsWhole) (arg3 : Memref sig .tc .vmem S20x10 .f32) (harg3 : arg3.IsWhole) (arg4 : Memref sig .tc .vmem S1x10 .f32) (harg4 : arg4.IsWhole) (arg5 : Memref sig .tc .vmem S10x1 .f32) (harg5 : arg5.IsWhole) (arg6 : Memref sig .tc .vmem S1x1 .f32) (harg6 : arg6.IsWhole) (arg7 : Memref sig .tc .vmem S64x1 .f32) (harg7 : arg7.IsWhole) (arg8 : Memref sig .tc .vmem S64x20 .f32) (harg8 : arg8.IsWhole) (arg9 : Memref sig .tc .vmem S64x1 .f32) (harg9 : arg9.IsWhole) (hc0 : ¬Hand.cond2_0 i) (hc1 : ¬Hand.cond2_1 i) (x0 : Vec F S4000x20 .f32) (x1 : Vec F S4000x1 .i32) (x2 : Vec F S20x10 .f32) (x3 : Vec F S1x10 .f32) (x4 : Vec F S10x1 .f32) (x5 : Vec F S1x1 .f32) (xs0 : Vec F S64x20 .f32) (xs1 : Vec F S64x1 .f32) :
    Hand.sout2_B_0 c i arg1 harg1 arg2 harg2 arg3 harg3 arg4 harg4 arg5 harg5 arg6 harg6 arg7 harg7 arg8 harg8 arg9 harg9 hc0 hc1 x0 x1 x2 x3 x4 x5 xs0 xs1 = k2_pay4 x1 x0 xs0 := by
  unfold Hand.sout2_B_0
  rw [View.read_writes_junk_eq_canon]
  unfold Hand.kernelRun2_B
  dsimp only
  sl_unfold_words
  rw [View.canon_unit_zero (S := S64x20) hz2]
  simp only [View.readAt_eq_ld, harg1.read_unread, harg2.read_unread, harg3.read_unread, harg4.read_unread, harg5.read_unread, harg6.read_unread, harg8.read_unread, harg9.read_unread,
    View.ld_unit_zero (S := S4000x20) hz2, View.ld_unit_zero (S := S4000x1) hz2, View.ld_unit_zero (S := S20x10) hz2, View.ld_unit_zero (S := S1x10) hz2, View.ld_unit_zero (S := S10x1) hz2, View.ld_unit_zero (S := S1x1) hz2, View.ld_unit_zero (S := S64x20) hz2, View.ld_unit_zero (S := S64x1) hz2,
    View.readCov_unit_zero (S := S64x20) _ hz2, View.readCov_unit_zero (S := S64x1) _ hz2]

/-- A middle point leaves in the buffer of counts: what it found plus the block's masked counts. -/
theorem sout_B_1 (c : Dev nD) (i : grid2.Coords) (arg1 : Memref sig .tc .vmem S4000x20 .f32) (harg1 : arg1.IsWhole) (arg2 : Memref sig .tc .vmem S4000x1 .i32) (harg2 : arg2.IsWhole) (arg3 : Memref sig .tc .vmem S20x10 .f32) (harg3 : arg3.IsWhole) (arg4 : Memref sig .tc .vmem S1x10 .f32) (harg4 : arg4.IsWhole) (arg5 : Memref sig .tc .vmem S10x1 .f32) (harg5 : arg5.IsWhole) (arg6 : Memref sig .tc .vmem S1x1 .f32) (harg6 : arg6.IsWhole) (arg7 : Memref sig .tc .vmem S64x1 .f32) (harg7 : arg7.IsWhole) (arg8 : Memref sig .tc .vmem S64x20 .f32) (harg8 : arg8.IsWhole) (arg9 : Memref sig .tc .vmem S64x1 .f32) (harg9 : arg9.IsWhole) (hc0 : ¬Hand.cond2_0 i) (hc1 : ¬Hand.cond2_1 i) (x0 : Vec F S4000x20 .f32) (x1 : Vec F S4000x1 .i32) (x2 : Vec F S20x10 .f32) (x3 : Vec F S1x10 .f32) (x4 : Vec F S10x1 .f32) (x5 : Vec F S1x1 .f32) (xs0 : Vec F S64x20 .f32) (xs1 : Vec F S64x1 .f32) :
    Hand.sout2_B_1 c i arg1 harg1 arg2 harg2 arg3 harg3 arg4 harg4 arg5 harg5 arg6 harg6 arg7 harg7 arg8 harg8 arg9 harg9 hc0 hc1 x0 x1 x2 x3 x4 x5 xs0 xs1 = k2_pay5 x1 xs1 := by
  unfold Hand.sout2_B_1
  rw [View.read_writes_junk_eq_canon]
  unfold Hand.kernelRun2_B
  dsimp only
  sl_unfold_words
  rw [View.canon_unit_zero (S := S64x1) hz2]
  simp only [View.readAt_eq_ld, harg1.read_unread, harg2.read_unread, harg3.read_unread, harg4.read_unread, harg5.read_unread, harg6.read_unread, harg8.read_unread, harg9.read_unread,
    View.ld_unit_zero (S := S4000x20) hz2, View.ld_unit_zero (S := S4000x1) hz2, View.ld_unit_zero (S := S20x10) hz2, View.ld_unit_zero (S := S1x10) hz2, View.ld_unit_zero (S := S10x1) hz2, View.ld_unit_zero (S := S1x1) hz2, View.ld_unit_zero (S := S64x20) hz2, View.ld_unit_zero (S := S64x1) hz2,
    View.readCov_unit_zero (S := S64x20) _ hz2, View.readCov_unit_zero (S := S64x1) _ hz2]

/-- The last point leaves in the buffer of sums: what it found plus the block's masked sums. -/
theorem sout_C_0 (c : Dev nD) (i : grid2.Coords) (arg1 : Memref sig .tc .vmem S4000x20 .f32) (harg1 : arg1.IsWhole) (arg2 : Memref sig .tc .vmem S4000x1 .i32) (harg2 : arg2.IsWhole) (arg3 : Memref sig .tc .vmem S20x10 .f32) (harg3 : arg3.IsWhole) (arg4 : Memref sig .tc .vmem S1x10 .f32) (harg4 : arg4.IsWhole) (arg5 : Memref sig .tc .vmem S10x1 .f32) (harg5 : arg5.IsWhole) (arg6 : Memref sig .tc .vmem S1x1 .f32) (harg6 : arg6.IsWhole) (arg7 : Memref sig .tc .vmem S64x1 .f32) (harg7 : arg7.IsWhole) (arg8 : Memref sig .tc .vmem S64x20 .f32) (harg8 : arg8.IsWhole) (arg9 : Memref sig .tc .vmem S64x1 .f32) (harg9 : arg9.IsWhole) (hc0 : ¬Hand.cond2_0 i) (hc1 : Hand.cond2_1 i) (x0 : Vec F S4000x20 .f32) (x1 : Vec F S4000x1 .i32) (x2 : Vec F S20x10 .f32) (x3 : Vec F S1x10 .f32) (x4 : Vec F S10x1 .f32) (x5 : Vec F S1x1 .f32) (xs0 : Vec F S64x20 .f32) (xs1 : Vec F S64x1 .f32) :
    Hand.sout2_C_0 c i arg1 harg1 arg2 harg2 arg3 harg3 arg4 harg4 arg5 harg5 arg6 harg6 arg7 harg7 arg8 harg8 arg9 harg9 hc0 hc1 x0 x1 x2 x3 x4 x5 xs0 xs1 = k2_pay4 x1 x0 xs0 := by
  unfold Hand.sout2_C_0
  rw [View.read_writes_junk_eq_canon]
  unfold Hand.kernelRun2_C
  dsimp only
  sl_unfold_words
  rw [View.canon_unit_zero (S := S64x20) hz2]
  simp only [View.readAt_eq_ld, harg1.read_unread, harg2.read_unread, harg3.read_unread, harg4.read_unread, harg5.read_unread, harg6.read_unread, harg8.read_unread, harg9.read_unread,
    View.ld_unit_zero (S := S4000x20) hz2, View.ld_unit_zero (S := S4000x1) hz2, View.ld_unit_zero (S := S20x10) hz2, View.ld_unit_zero (S := S1x10) hz2, View.ld_unit_zero (S := S10x1) hz2, View.ld_unit_zero (S := S1x1) hz2, View.ld_unit_zero (S := S64x20) hz2, View.ld_unit_zero (S := S64x1) hz2,
    View.readCov_unit_zero (S := S64x20) _ hz2, View.readCov_unit_zero (S := S64x1) _ hz2]

/-- The last point leaves in the buffer of counts: what it found plus the block's masked counts. -/
theorem sout_C_1 (c : Dev nD) (i : grid2.Coords) (arg1 : Memref sig .tc .vmem S4000x20 .f32) (harg1 : arg1.IsWhole) (arg2 : Memref sig .tc .vmem S4000x1 .i32) (harg2 : arg2.IsWhole) (arg3 : Memref sig .tc .vmem S20x10 .f32) (harg3 : arg3.IsWhole) (arg4 : Memref sig .tc .vmem S1x10 .f32) (harg4 : arg4.IsWhole) (arg5 : Memref sig .tc .vmem S10x1 .f32) (harg5 : arg5.IsWhole) (arg6 : Memref sig .tc .vmem S1x1 .f32) (harg6 : arg6.IsWhole) (arg7 : Memref sig .tc .vmem S64x1 .f32) (harg7 : arg7.IsWhole) (arg8 : Memref sig .tc .vmem S64x20 .f32) (harg8 : arg8.IsWhole) (arg9 : Memref sig .tc .vmem S64x1 .f32) (harg9 : arg9.IsWhole) (hc0 : ¬Hand.cond2_0 i) (hc1 : Hand.cond2_1 i) (x0 : Vec F S4000x20 .f32) (x1 : Vec F S4000x1 .i32) (x2 : Vec F S20x10 .f32) (x3 : Vec F S1x10 .f32) (x4 : Vec F S10x1 .f32) (x5 : Vec F S1x1 .f32) (xs0 : Vec F S64x20 .f32) (xs1 : Vec F S64x1 .f32) :
    Hand.sout2_C_1 c i arg1 harg1 arg2 harg2 arg3 harg3 arg4 harg4 arg5 harg5 arg6 harg6 arg7 harg7 arg8 harg8 arg9 harg9 hc0 hc1 x0 x1 x2 x3 x4 x5 xs0 xs1 = k2_pay5 x1 xs1 := by
  unfold Hand.sout2_C_1
  rw [View.read_writes_junk_eq_canon]
  unfold Hand.kernelRun2_C
  dsimp only
  sl_unfold_words
  rw [View.canon_unit_zero (S := S64x1) hz2]
  simp only [View.readAt_eq_ld, harg1.read_unread, harg2.read_unread, harg3.read_unread, harg4.read_unread, harg5.read_unread, harg6.read_unread, harg8.read_unread, harg9.read_unread,
    View.ld_unit_zero (S := S4000x20) hz2, View.ld_unit_zero (S := S4000x1) hz2, View.ld_unit_zero (S := S20x10) hz2, View.ld_unit_zero (S := S1x10) hz2, View.ld_unit_zero (S := S10x1) hz2, View.ld_unit_zero (S := S1x1) hz2, View.ld_unit_zero (S := S64x20) hz2, View.ld_unit_zero (S := S64x1) hz2,
    View.readCov_unit_zero (S := S64x20) _ hz2, View.readCov_unit_zero (S := S64x1) _ hz2]

/-- The last point leaves in the output block: the finalisation of the two kept buffers as this point leaves them
    (each read back after its store), with the weights and biases. -/
theorem out_C_6 (c : Dev nD) (i : grid2.Coords) (arg1 : Memref sig .tc .vmem S4000x20 .f32) (harg1 : arg1.IsWhole) (arg2 : Memref sig .tc .vmem S4000x1 .i32) (harg2 : arg2.IsWhole) (arg3 : Memref sig .tc .vmem S20x10 .f32) (harg3 : arg3.IsWhole) (arg4 : Memref sig .tc .vmem S1x10 .f32) (harg4 : arg4.IsWhole) (arg5 : Memref sig .tc .vmem S10x1 .f32) (harg5 : arg5.IsWhole) (arg6 : Memref sig .tc .vmem S1x1 .f32) (harg6 : arg6.IsWhole) (arg7 : Memref sig .tc .vmem S64x1 .f32) (harg7 : arg7.IsWhole) (arg8 : Memref sig .tc .vmem S64x20 .f32) (harg8 : arg8.IsWhole) (arg9 : Memref sig .tc .vmem S64x1 .f32) (harg9 : arg9.IsWhole) (hc0 : ¬Hand.cond2_0 i) (hc1 : Hand.cond2_1 i) (x0 : Vec F S4000x20 .f32) (x1 : Vec F S4000x1 .i32) (x2 : Vec F S20x10 .f32) (x3 : Vec F S1x10 .f32) (x4 : Vec F S10x1 .f32) (x5 : Vec F S1x1 .f32) (xs0 : Vec F S64x20 .f32) (xs1 : Vec F S64x1 .f32) :
    Hand.out2_C_6 c i arg1 harg1 arg2 harg2 arg3 harg3 arg4 harg4 arg5 harg5 arg6 harg6 arg7 harg7 arg8 harg8 arg9 harg9 hc0 hc1 x0 x1 x2 x3 x4 x5 xs0 xs1 = k2_pay6 (k2_pay4 x1 x0 xs0) (k2_pay5 x1 xs1) x2 x3 x4 x5 := by
  unfold Hand.out2_C_6
  rw [View.read_writes_junk_eq_canon]
  unfold Hand.kernelRun2_C
  dsimp only
  sl_unfold_words
  rw [View.canon_unit_zero (S := S64x1) hz2]
  simp only [View.readAt_eq_ld, harg1.read_unread, harg2.read_unread, harg3.read_unread, harg4.read_unread, harg5.read_unread, harg6.read_unread, harg8.read_unread, harg9.read_unread,
    View.ld_unit_zero (S := S4000x20) hz2, View.ld_unit_zero (S := S4000x1) hz2, View.ld_unit_zero (S := S20x10) hz2, View.ld_unit_zero (S := S1x10) hz2, View.ld_unit_zero (S := S10x1) hz2, View.ld_unit_zero (S := S1x1) hz2, View.ld_unit_zero (S := S64x20) hz2, View.ld_unit_zero (S := S64x1) hz2,
    View.readCov_unit_zero (S := S64x20) _ hz2, View.readCov_unit_zero (S := S64x1) _ hz2]

end Pieces

/-! ## The blocks of the inputs -/

variable (V : (c : Dev nD) → (b : Ref sig .tc) → Buf (Elt Ideal) ((c : Thread nD τ).loc b))

/-- The block indices over the grid: at point t the features and the graph ids are at block row t, the weights, the
    biases and the result at block (0, 0). -/
theorem block_index2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

/-- The blocks of the six inputs at point t, each at its literal type. -/
abbrev hblk (c : Dev nD) (t : Fin cfg2.N) : Vec Ideal S4000x20 .f32 := Hand.iblk2 V c 0 t
abbrev gblk (c : Dev nD) (t : Fin cfg2.N) : Vec Ideal S4000x1 .i32 := Hand.iblk2 V c 1 t
abbrev w1blk (c : Dev nD) (t : Fin cfg2.N) : Vec Ideal S20x10 .f32 := Hand.iblk2 V c 2 t
abbrev b1blk (c : Dev nD) (t : Fin cfg2.N) : Vec Ideal S1x10 .f32 := Hand.iblk2 V c 3 t
abbrev w2blk (c : Dev nD) (t : Fin cfg2.N) : Vec Ideal S10x1 .f32 := Hand.iblk2 V c 4 t
abbrev b2blk (c : Dev nD) (t : Fin cfg2.N) : Vec Ideal S1x1 .f32 := Hand.iblk2 V c 5 t

/-- Row k of the features' block at point t is row 4000·t + k of the array. -/
theorem hblk_apply (c : Dev nD) (t : Fin cfg2.N) (k : Fin 4000) (d : Fin 20) (r : Fin 100000)
    (hr : r.val = 4000 * t.val + k.val) : hblk V c t (ix2 k d) = V c main_v32 (ix2 r d) := by
  obtain ⟨a00, a01, -⟩ := block_index2 t
  show V c main_v32 (((cfg2.win 0).blk t).view.emb (ix2 k d)) = V c main_v32 (ix2 r d)
  refine congrArg _ (funext fun a => Fin.ext ?_)
  match a with
  | ⟨0, _⟩ => show win2_0.index t (0 : Fin 2) * 4000 + 1 * k.val = r.val; omega
  | ⟨1, _⟩ => show win2_0.index t (1 : Fin 2) * 20 + 1 * d.val = d.val; omega

/-- Row k of the ids' block at point t is row 4000·t + k of the array. -/
theorem gblk_apply (c : Dev nD) (t : Fin cfg2.N) (k : Fin 4000) (r : Fin 100000)
    (hr : r.val = 4000 * t.val + k.val) : gblk V c t (ix2 k (0 : Fin 1)) = V c main_v33 (ix2 r (0 : Fin 1)) := by
  obtain ⟨-, -, a10, a11, -⟩ := block_index2 t
  show V c main_v33 (((cfg2.win 1).blk t).view.emb (ix2 k (0 : Fin 1))) = V c main_v33 (ix2 r (0 : Fin 1))
  refine congrArg _ (funext fun a => Fin.ext ?_)
  match a with
  | ⟨0, _⟩ => show win2_1.index t (0 : Fin 2) * 4000 + 1 * k.val = r.val; omega
  | ⟨1, _⟩ => show win2_1.index t (1 : Fin 2) * 1 + 1 * 0 = 0; omega

/-- The weights and the biases are whole at every point. -/
theorem w1blk_eq (c : Dev nD) (t : Fin cfg2.N) : w1blk V c t = V c main_arg7 := by
  obtain ⟨-, -, -, -, a20, a21, -⟩ := block_index2 t
  funext y
  show V c main_arg7 (((cfg2.win 2).blk t).view.emb y) = V c main_arg7 y
  refine congrArg _ (funext fun a => Fin.ext ?_)
  match a with
  | ⟨0, _⟩ => show win2_2.index t (0 : Fin 2) * 20 + 1 * (y 0).val = (y 0).val; omega
  | ⟨1, _⟩ => show win2_2.index t (1 : Fin 2) * 10 + 1 * (y 1).val = (y 1).val; omega
theorem b1blk_eq (c : Dev nD) (t : Fin cfg2.N) : b1blk V c t = V c main_v34 := by
  obtain ⟨-, -, -, -, -, -, a30, a31, -⟩ := block_index2 t
  funext y
  show V c main_v34 (((cfg2.win 3).blk t).view.emb y) = V c main_v34 y
  refine congrArg _ (funext fun a => Fin.ext ?_)
  match a with
  | ⟨0, _⟩ => show win2_3.index t (0 : Fin 2) * 1 + 1 * (y 0).val = (y 0).val; omega
  | ⟨1, _⟩ => show win2_3.index t (1 : Fin 2) * 10 + 1 * (y 1).val = (y 1).val; omega
theorem w2blk_eq (c : Dev nD) (t : Fin cfg2.N) : w2blk V c t = V c main_arg9 := by
  obtain ⟨-, -, -, -, -, -, -, -, a40, a41, -⟩ := block_index2 t
  funext y
  show V c main_arg9 (((cfg2.win 4).blk t).view.emb y) = V c main_arg9 y
  refine congrArg _ (funext fun a => Fin.ext ?_)
  match a with
  | ⟨0, _⟩ => show win2_4.index t (0 : Fin 2) * 10 + 1 * (y 0).val = (y 0).val; omega
  | ⟨1, _⟩ => show win2_4.index t (1 : Fin 2) * 1 + 1 * (y 1).val = (y 1).val; omega
theorem b2blk_eq (c : Dev nD) (t : Fin cfg2.N) : b2blk V c t = V c main_v35 := by
  obtain ⟨-, -, -, -, -, -, -, -, -, -, a50, a51, -⟩ := block_index2 t
  funext y
  show V c main_v35 (((cfg2.win 5).blk t).view.emb y) = V c main_v35 y
  refine congrArg _ (funext fun a => Fin.ext ?_)
  match a with
  | ⟨0, _⟩ => show win2_5.index t (0 : Fin 2) * 1 + 1 * (y 0).val = (y 0).val; omega
  | ⟨1, _⟩ => show win2_5.index t (1 : Fin 2) * 1 + 1 * (y 1).val = (y 1).val; omega

/-- The result's one block is the whole 64×1 array, and the last point writes it back. -/
theorem cover2 (i : S64x1.Idx) :
    ∃ t : Fin cfg2.N, (cfg2.win 6).flush t = true ∧ i ∈ ((cfg2.win 6).blk t).view.set := by
  have hi0 : (i 0).val < 64 := (i 0).isLt
  have hi1 : (i 1).val < 1 := (i 1).isLt
  obtain ⟨t, htv⟩ : ∃ t : Fin cfg2.N, t.val = 24 := ⟨⟨24, by show 24 < 25; omega⟩, rfl⟩
  obtain ⟨-, -, -, -, -, -, -, -, -, -, -, -, a60, a61⟩ := block_index2 t
  refine ⟨t, (flush2_6 t).mpr (by omega), ?_⟩
  show i ∈ ((View.whole main_v36).slice (win2_6.rect t)).set
  rw [View.set_slice_whole, Rect.mem_set_unit]
  intro a
  match a with
  | ⟨0, _⟩ => show win2_6.index t (0 : Fin 2) * 64 ≤ (i 0).val ∧ (i 0).val < win2_6.index t (0 : Fin 2) * 64 + 64; omega
  | ⟨1, _⟩ => show win2_6.index t (1 : Fin 2) * 1 ≤ (i 1).val ∧ (i 1).val < win2_6.index t (1 : Fin 2) * 1 + 1; omega

/-! ## A point's update of the two kept buffers, over the arrays -/

/-- The graph ids as a vector of 100000 words: the ids' array is a 100000×1 column. -/
abbrev gid1 (c : Dev nD) : (⟨1, ![100000]⟩ : Shape).Idx → BitVec 32 := fun j => V c main_v33 (ix2 (j 0) (0 : Fin 1))

/-- A grid point as one of the 25 positions. -/
abbrev pt (t : Fin cfg2.N) : Fin 25 := ⟨t.val, lt_of_lt_of_eq t.isLt N_2⟩

/-- At point t the update of the sums adds block t's share of the pooled sum. -/
theorem pay4_block (c : Dev nD) (t : Fin cfg2.N) (prev : Vec Ideal S64x20 .f32) (g : Fin 64) (d : Fin 20) :
    k2_pay4 (F := Ideal) (gblk V c t) (hblk V c t) prev (ix2 g d)
      = prev (ix2 g d) + blockSum (poolTerm (gid1 V c) (V c main_v32) g d) t.val := by
  refine (pay4_apply (gblk V c t) (hblk V c t) prev g d).trans ?_
  refine congrArg (prev (ix2 g d) + ·) ?_
  refine Eq.trans ?_ (blockSum_poolTerm (gid1 V c) (V c main_v32) g d (pt t)).symm
  refine Finset.sum_congr rfl fun k _ => ?_
  rw [gblk_apply V c t k (blkRow (pt t) k) rfl, hblk_apply V c t k d (blkRow (pt t) k) rfl]

/-- At point t the update of the counts adds block t's share of the node count. -/
theorem pay5_block (c : Dev nD) (t : Fin cfg2.N) (prev : Vec Ideal S64x1 .f32) (g : Fin 64) :
    k2_pay5 (F := Ideal) (gblk V c t) prev (ix2 g (0 : Fin 1))
      = prev (ix2 g (0 : Fin 1)) + blockSum (cntTerm (gid1 V c) g) t.val := by
  refine (pay5_apply (gblk V c t) prev g).trans ?_
  refine congrArg (prev (ix2 g (0 : Fin 1)) + ·) ?_
  refine Eq.trans ?_ (blockSum_cntTerm (gid1 V c) g (pt t)).symm
  refine Finset.sum_congr rfl fun k _ => ?_
  rw [gblk_apply V c t k (blkRow (pt t) k) rfl]

/-! ## The two kept buffers after each point -/

/-- The recursion's value depends on the position only. -/
theorem outsAt2_congr (c : Dev nD) (a b : ℕ) (ha : a < cfg2.N) (hb : b < cfg2.N) (e : a = b) :
    Hand.outsAt2 V c a ha = Hand.outsAt2 V c b hb := by
  subst e; rfl

/-- After point n the buffer of sums holds the running pooled sums and the buffer of counts the running node counts:
    by induction on the point, the first point from the reset values, every later one from the point before. -/
theorem scratch_inv (c : Dev nD) : ∀ (n : ℕ) (t : Fin cfg2.N), t.val = n →
    (∀ (g : Fin 64) (d : Fin 20), (Hand.outsAt2 V c t.val t.isLt).2.1 (ix2 g d) = accS (gid1 V c) (V c main_v32) n g d)
    ∧ (∀ g : Fin 64, (Hand.outsAt2 V c t.val t.isLt).2.2 (ix2 g (0 : Fin 1)) = accC (gid1 V c) n g) := by
  intro n
  induction n with
  | zero =>
    intro t ht
    have h0 : t.val % 25 = 0 := by omega
    have h1 : ¬t.val % 25 = 24 := by omega
    rw [Hand.outsAt2_A V c t h0 h1]
    dsimp only
    constructor
    · intro g d
      refine (congrFun (sout_A_0 (F := Ideal) c (grid2.coords t) (Hand.ms2_0 t) (Hand.hs2_0 t) (Hand.ms2_1 t) (Hand.hs2_1 t) (Hand.ms2_2 t) (Hand.hs2_2 t) (Hand.ms2_3 t) (Hand.hs2_3 t) (Hand.ms2_4 t) (Hand.hs2_4 t) (Hand.ms2_5 t) (Hand.hs2_5 t) (Hand.ms2_6 t) (Hand.hs2_6 t) Hand.scM2_0 (Memref.isWhole_whole cc2_scratch0) Hand.scM2_1 (Memref.isWhole_whole cc2_scratch1) ((Hand.hcond2_0 t).mpr h0) (fun h => h1 ((Hand.hcond2_1 t).mp h)) (hblk V c t) (gblk V c t) (w1blk V c t) (b1blk V c t) (w2blk V c t) (b2blk V c t)) (ix2 g d)).trans ?_
      refine (pay4_block V c t (k2_pay1 (F := Ideal)) g d).trans ?_
      rw [pay1_apply, accS_zero, ht]
    · intro g
      refine (congrFun (sout_A_1 (F := Ideal) c (grid2.coords t) (Hand.ms2_0 t) (Hand.hs2_0 t) (Hand.ms2_1 t) (Hand.hs2_1 t) (Hand.ms2_2 t) (Hand.hs2_2 t) (Hand.ms2_3 t) (Hand.hs2_3 t) (Hand.ms2_4 t) (Hand.hs2_4 t) (Hand.ms2_5 t) (Hand.hs2_5 t) (Hand.ms2_6 t) (Hand.hs2_6 t) Hand.scM2_0 (Memref.isWhole_whole cc2_scratch0) Hand.scM2_1 (Memref.isWhole_whole cc2_scratch1) ((Hand.hcond2_0 t).mpr h0) (fun h => h1 ((Hand.hcond2_1 t).mp h)) (hblk V c t) (gblk V c t) (w1blk V c t) (b1blk V c t) (w2blk V c t) (b2blk V c t)) (ix2 g (0 : Fin 1))).trans ?_
      refine (pay5_block V c t (k2_pay2 (F := Ideal)) g).trans ?_
      rw [pay2_apply, accC_zero, ht]
  | succ n ih =>
    intro t ht
    have hN : cfg2.N = 25 := N_2
    have hlt : t.val < cfg2.N := t.isLt
    have hn : n < cfg2.N := by omega
    have h0 : ¬t.val % 25 = 0 := by omega
    obtain ⟨ihS, ihC⟩ := ih ⟨n, hn⟩ rfl
    have hprev : (Hand.outsAt2 V c (t.val - 1) (Nat.lt_of_le_of_lt (Nat.sub_le _ _) t.isLt)) = Hand.outsAt2 V c n hn :=
      outsAt2_congr V c _ _ _ _ (by omega)
    by_cases h1 : t.val % 25 = 24
    · rw [Hand.outsAt2_C V c t h0 h1]
      dsimp only
      constructor
      · intro g d
        refine (congrFun (sout_C_0 (F := Ideal) c (grid2.coords t) (Hand.ms2_0 t) (Hand.hs2_0 t) (Hand.ms2_1 t) (Hand.hs2_1 t) (Hand.ms2_2 t) (Hand.hs2_2 t) (Hand.ms2_3 t) (Hand.hs2_3 t) (Hand.ms2_4 t) (Hand.hs2_4 t) (Hand.ms2_5 t) (Hand.hs2_5 t) (Hand.ms2_6 t) (Hand.hs2_6 t) Hand.scM2_0 (Memref.isWhole_whole cc2_scratch0) Hand.scM2_1 (Memref.isWhole_whole cc2_scratch1) (fun h => h0 ((Hand.hcond2_0 t).mp h)) ((Hand.hcond2_1 t).mpr h1) (hblk V c t) (gblk V c t) (w1blk V c t) (b1blk V c t) (w2blk V c t) (b2blk V c t) (Hand.outsAt2 V c (t.val - 1) (Nat.lt_of_le_of_lt (Nat.sub_le _ _) t.isLt)).2.1 (Hand.outsAt2 V c (t.val - 1) (Nat.lt_of_le_of_lt (Nat.sub_le _ _) t.isLt)).2.2) (ix2 g d)).trans ?_
        refine (pay4_block V c t _ g d).trans ?_
        rw [hprev, accS_succ, ht]
        exact congrArg (· + _) (ihS g d)
      · intro g
        refine (congrFun (sout_C_1 (F := Ideal) c (grid2.coords t) (Hand.ms2_0 t) (Hand.hs2_0 t) (Hand.ms2_1 t) (Hand.hs2_1 t) (Hand.ms2_2 t) (Hand.hs2_2 t) (Hand.ms2_3 t) (Hand.hs2_3 t) (Hand.ms2_4 t) (Hand.hs2_4 t) (Hand.ms2_5 t) (Hand.hs2_5 t) (Hand.ms2_6 t) (Hand.hs2_6 t) Hand.scM2_0 (Memref.isWhole_whole cc2_scratch0) Hand.scM2_1 (Memref.isWhole_whole cc2_scratch1) (fun h => h0 ((Hand.hcond2_0 t).mp h)) ((Hand.hcond2_1 t).mpr h1) (hblk V c t) (gblk V c t) (w1blk V c t) (b1blk V c t) (w2blk V c t) (b2blk V c t) (Hand.outsAt2 V c (t.val - 1) (Nat.lt_of_le_of_lt (Nat.sub_le _ _) t.isLt)).2.1 (Hand.outsAt2 V c (t.val - 1) (Nat.lt_of_le_of_lt (Nat.sub_le _ _) t.isLt)).2.2) (ix2 g (0 : Fin 1))).trans ?_
        refine (pay5_block V c t _ g).trans ?_
        rw [hprev, accC_succ, ht]
        exact congrArg (· + _) (ihC g)
    · rw [Hand.outsAt2_B V c t h0 h1]
      dsimp only
      constructor
      · intro g d
        refine (congrFun (sout_B_0 (F := Ideal) c (grid2.coords t) (Hand.ms2_0 t) (Hand.hs2_0 t) (Hand.ms2_1 t) (Hand.hs2_1 t) (Hand.ms2_2 t) (Hand.hs2_2 t) (Hand.ms2_3 t) (Hand.hs2_3 t) (Hand.ms2_4 t) (Hand.hs2_4 t) (Hand.ms2_5 t) (Hand.hs2_5 t) (Hand.ms2_6 t) (Hand.hs2_6 t) Hand.scM2_0 (Memref.isWhole_whole cc2_scratch0) Hand.scM2_1 (Memref.isWhole_whole cc2_scratch1) (fun h => h0 ((Hand.hcond2_0 t).mp h)) (fun h => h1 ((Hand.hcond2_1 t).mp h)) (hblk V c t) (gblk V c t) (w1blk V c t) (b1blk V c t) (w2blk V c t) (b2blk V c t) (Hand.outsAt2 V c (t.val - 1) (Nat.lt_of_le_of_lt (Nat.sub_le _ _) t.isLt)).2.1 (Hand.outsAt2 V c (t.val - 1) (Nat.lt_of_le_of_lt (Nat.sub_le _ _) t.isLt)).2.2) (ix2 g d)).trans ?_
        refine (pay4_block V c t _ g d).trans ?_
        rw [hprev, accS_succ, ht]
        exact congrArg (· + _) (ihS g d)
      · intro g
        refine (congrFun (sout_B_1 (F := Ideal) c (grid2.coords t) (Hand.ms2_0 t) (Hand.hs2_0 t) (Hand.ms2_1 t) (Hand.hs2_1 t) (Hand.ms2_2 t) (Hand.hs2_2 t) (Hand.ms2_3 t) (Hand.hs2_3 t) (Hand.ms2_4 t) (Hand.hs2_4 t) (Hand.ms2_5 t) (Hand.hs2_5 t) (Hand.ms2_6 t) (Hand.hs2_6 t) Hand.scM2_0 (Memref.isWhole_whole cc2_scratch0) Hand.scM2_1 (Memref.isWhole_whole cc2_scratch1) (fun h => h0 ((Hand.hcond2_0 t).mp h)) (fun h => h1 ((Hand.hcond2_1 t).mp h)) (hblk V c t) (gblk V c t) (w1blk V c t) (b1blk V c t) (w2blk V c t) (b2blk V c t) (Hand.outsAt2 V c (t.val - 1) (Nat.lt_of_le_of_lt (Nat.sub_le _ _) t.isLt)).2.1 (Hand.outsAt2 V c (t.val - 1) (Nat.lt_of_le_of_lt (Nat.sub_le _ _) t.isLt)).2.2) (ix2 g (0 : Fin 1))).trans ?_
        refine (pay5_block V c t _ g).trans ?_
        rw [hprev, accC_succ, ht]
        exact congrArg (· + _) (ihC g)

/-! ## The output array after the region -/

/-- The readout of the arrays the region finds. -/
abbrev G2 (c : Dev nD) : S64x1.Idx → EReal :=
  Cert.Spec.readout 100000 64 20 10 (gid1 V c) (V c main_v32) (V c main_arg7)
    (fun j => V c main_v34 (ix2 (0 : Fin 1) (j 0))) (V c main_arg9) (fun j => V c main_v35 (ix2 (0 : Fin 1) (j 0)))

/-- What the last point writes back is the readout: the two kept buffers as that point leaves them are the pooled sums
    and the node counts over all 100000 rows, and the finalisation is the specification's formula of them. -/
theorem flushed2_eq (c : Dev nD) (t : Fin cfg2.N) (hf : (cfg2.win 6).flush t = true) :
    (Hand.dat2 (F := Ideal) V c).flushed 6 t = ((cfg2.win 6).blk t).view.read (Elt Ideal) (G2 V c) := by
  have hN : cfg2.N = 25 := N_2
  have hlt : t.val < cfg2.N := t.isLt
  have h1 : t.val % 25 = 24 := (flush2_6 t).mp hf
  have h0 : ¬t.val % 25 = 0 := by omega
  have h24 : t.val = 24 := by omega
  obtain ⟨invS, invC⟩ := scratch_inv V c 24 t h24
  rw [Hand.outsAt2_C V c t h0 h1] at invS invC
  dsimp only at invS invC
  rw [sout_C_0 (F := Ideal) c (grid2.coords t) (Hand.ms2_0 t) (Hand.hs2_0 t) (Hand.ms2_1 t) (Hand.hs2_1 t) (Hand.ms2_2 t) (Hand.hs2_2 t) (Hand.ms2_3 t) (Hand.hs2_3 t) (Hand.ms2_4 t) (Hand.hs2_4 t) (Hand.ms2_5 t) (Hand.hs2_5 t) (Hand.ms2_6 t) (Hand.hs2_6 t) Hand.scM2_0 (Memref.isWhole_whole cc2_scratch0) Hand.scM2_1 (Memref.isWhole_whole cc2_scratch1) (fun h => h0 ((Hand.hcond2_0 t).mp h)) ((Hand.hcond2_1 t).mpr h1) (hblk V c t) (gblk V c t) (w1blk V c t) (b1blk V c t) (w2blk V c t) (b2blk V c t) (Hand.outsAt2 V c (t.val - 1) (Nat.lt_of_le_of_lt (Nat.sub_le _ _) t.isLt)).2.1 (Hand.outsAt2 V c (t.val - 1) (Nat.lt_of_le_of_lt (Nat.sub_le _ _) t.isLt)).2.2] at invS
  rw [sout_C_1 (F := Ideal) c (grid2.coords t) (Hand.ms2_0 t) (Hand.hs2_0 t) (Hand.ms2_1 t) (Hand.hs2_1 t) (Hand.ms2_2 t) (Hand.hs2_2 t) (Hand.ms2_3 t) (Hand.hs2_3 t) (Hand.ms2_4 t) (Hand.hs2_4 t) (Hand.ms2_5 t) (Hand.hs2_5 t) (Hand.ms2_6 t) (Hand.hs2_6 t) Hand.scM2_0 (Memref.isWhole_whole cc2_scratch0) Hand.scM2_1 (Memref.isWhole_whole cc2_scratch1) (fun h => h0 ((Hand.hcond2_0 t).mp h)) ((Hand.hcond2_1 t).mpr h1) (hblk V c t) (gblk V c t) (w1blk V c t) (b1blk V c t) (w2blk V c t) (b2blk V c t) (Hand.outsAt2 V c (t.val - 1) (Nat.lt_of_le_of_lt (Nat.sub_le _ _) t.isLt)).2.1 (Hand.outsAt2 V c (t.val - 1) (Nat.lt_of_le_of_lt (Nat.sub_le _ _) t.isLt)).2.2] at invC
  show (cfg2.win 6).cut (grid2.coords t) ((Hand.dat2 (F := Ideal) V c).after 6 t) = _
  rw [Hand.after2_6, Hand.outsAt2_C V c t h0 h1]
  dsimp only
  rw [out_C_6 (F := Ideal) c (grid2.coords t) (Hand.ms2_0 t) (Hand.hs2_0 t) (Hand.ms2_1 t) (Hand.hs2_1 t) (Hand.ms2_2 t) (Hand.hs2_2 t) (Hand.ms2_3 t) (Hand.hs2_3 t) (Hand.ms2_4 t) (Hand.hs2_4 t) (Hand.ms2_5 t) (Hand.hs2_5 t) (Hand.ms2_6 t) (Hand.hs2_6 t) Hand.scM2_0 (Memref.isWhole_whole cc2_scratch0) Hand.scM2_1 (Memref.isWhole_whole cc2_scratch1) (fun h => h0 ((Hand.hcond2_0 t).mp h)) ((Hand.hcond2_1 t).mpr h1) (hblk V c t) (gblk V c t) (w1blk V c t) (b1blk V c t) (w2blk V c t) (b2blk V c t) (Hand.outsAt2 V c (t.val - 1) (Nat.lt_of_le_of_lt (Nat.sub_le _ _) t.isLt)).2.1 (Hand.outsAt2 V c (t.val - 1) (Nat.lt_of_le_of_lt (Nat.sub_le _ _) t.isLt)).2.2]
  obtain ⟨-, -, -, -, -, -, -, -, -, -, -, -, a60, a61⟩ := block_index2 t
  funext j
  obtain ⟨g, u, rfl⟩ : ∃ (g : Fin 64) (u : Fin 1), j = ix2 g u := ⟨j 0, j 1, eq_ix2 j⟩
  obtain rfl : u = 0 := Subsingleton.elim _ _
  have hemb : ((cfg2.win 6).blk t).view.emb (ix2 g (0 : Fin 1)) = (ix2 g (0 : Fin 1) : S64x1.Idx) := funext fun a => Fin.ext (by
    match a with
    | ⟨0, _⟩ => show win2_6.index t (0 : Fin 2) * 64 + 1 * g.val = g.val; omega
    | ⟨1, _⟩ => show win2_6.index t (1 : Fin 2) * 1 + 1 * 0 = 0; omega)
  show k2_pay6 (F := Ideal) (k2_pay4 (F := Ideal) (gblk V c t) (hblk V c t) (Hand.outsAt2 V c (t.val - 1) (Nat.lt_of_le_of_lt (Nat.sub_le _ _) t.isLt)).2.1)
      (k2_pay5 (F := Ideal) (gblk V c t) (Hand.outsAt2 V c (t.val - 1) (Nat.lt_of_le_of_lt (Nat.sub_le _ _) t.isLt)).2.2) (w1blk V c t) (b1blk V c t) (w2blk V c t) (b2blk V c t) (ix2 g (0 : Fin 1))
    = G2 V c (((cfg2.win 6).blk t).view.emb (ix2 g (0 : Fin 1)))
  rw [hemb, pay6_apply, w1blk_eq, b1blk_eq, w2blk_eq, b2blk_eq, invC g]
  simp only [invS g]
  rw [accC_last]
  simp only [accS_last]
  rfl

/-- After the run the output array is the readout of the arrays the region finds. -/
theorem readout_final (V : (c : Dev nD) → (b : Ref sig .tc) → Buf (Elt Ideal) ((c : Thread nD τ).loc b)) (c : Dev nD) :
    (Hand.dat2 (F := Ideal) V c).arrAt 6 cfg2.N
      = Cert.Spec.readout 100000 64 20 10 (fun j => V c main_v33 (ValueIdx.ix2 (j 0) (0 : Fin 1))) (V c main_v32) (V c main_arg7)
          (fun j => V c main_v34 (ValueIdx.ix2 (0 : Fin 1) (j 0))) (V c main_arg9) (fun j => V c main_v35 (ValueIdx.ix2 (0 : Fin 1) (j 0))) :=
  (Hand.dat2 (F := Ideal) V c).arrAt_eq_of_cover 6 (G2 V c) (fun t hf => flushed2_eq V c t hf) cover2

end Cert.KernelIdeal.HandVal
-- ==== Proof.LibScatterRows.lean ====
import Mathlib.Algebra.BigOperators.Group.Finset.Basic
import Idealize.ShloMosaic.PureOps.Ideal
import Idealize.ShloMosaic.Lib.ValueIdx

/-!
# A segment sum's scatter, read row by row

A sum of rows by segment (each update row is added into the operand row its index names) is a
scatter with an adding body. Its value at an operand element is the element plus the sum of
the update elements whose result index is that element. For the two shapes of a segment sum
over axis 0 — rows of width `D`, and scalars — this file rewrites that sum, which ranges over
all update indices and filters by the result index, as a sum over the update ROWS `n` with a
condition on the row's index word alone: the word is the 32-bit encoding of the operand row.
-/

noncomputable section

open scoped BigOperators

namespace Idealize.ShloMosaic.ScatterRows

open Idealize.ShloMosaic Idealize.ShloMosaic.ValueIdx

/-! ## General facts: the result index, a 32-bit word read signed, a rank-1 sum -/

/-- An update index lands at operand index `i` exactly when, on every operand axis, the signed
    start plus the window coordinate is `i`'s coordinate: being inside the operand is then
    automatic, and outside it no `i` is reached. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hf a
      rw [← hf]
      exact (Int.toNat_of_nonneg (h a).1).symm
    · intro H
      funext a
      refine Fin.ext ?_
      show (d.start j idx a + (d.window j a : Int)).toNat = (i a).val
      rw [H a, Int.toNat_natCast]
  · rename_i h
    constructor
    · intro hh; cases hh
    · intro H
      exfalso
      apply h
      intro a
      rw [H a]
      exact ⟨Int.natCast_nonneg _, by exact_mod_cast (i a).isLt⟩

/-- A 32-bit word reads, signed, as the natural number `g < 2^31` exactly when it is `g`'s
    encoding: the signed reading is injective, and a number below `2^31` encodes to a word
    with the sign bit clear. -/
theorem toInt_eq_natCast_iff (v : BitVec 32) (g : Nat) (hg : g < 2 ^ 31) :
    v.toInt = (g : Int) ↔ v = BitVec.ofNat 32 g := by
  constructor
  · intro h
    have h1 : BitVec.ofInt 32 v.toInt = v := BitVec.ofInt_toInt
    rw [h] at h1
    rw [← h1]
    exact BitVec.ofInt_natCast 32 g
  · rintro rfl
    rw [BitVec.toInt_eq_toNat_cond, BitVec.toNat_ofNat]
    have hm : g % 2 ^ 32 = g := Nat.mod_eq_of_lt (by omega)
    rw [hm, if_pos (by omega)]

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Rows: operand `G×D`, scatter indices `N×1`, updates `N×D` -/

/-- The dimension numbers of a segment sum's scatter of rows: operand `G×D`, scatter indices
    `N×1`, updates `N×D`; the updates' axis 1 is the window axis, operand axis 0 is inserted and
    is the axis the index names, the index vector is axis 1 of the indices. -/
def rowsDims (G N D : Nat) (wf : ScatterDims.WF ⟨2, ![G, D]⟩ ⟨2, ![N, 1]⟩ ⟨2, ![N, D]⟩ [1] [0] [0] 1) :
    ScatterDims ⟨2, ![G, D]⟩ ⟨2, ![N, 1]⟩ ⟨2, ![N, D]⟩ :=
  { updateWindowDims := [1], insertedWindowDims := [0], scatterDimsToOperandDims := [0], indexVectorDim := 1, wf := wf }

section Rows
variable {G N D : Nat} (wf : ScatterDims.WF ⟨2, ![G, D]⟩ ⟨2, ![N, 1]⟩ ⟨2, ![N, D]⟩ [1] [0] [0] 1)

/-- On operand axis 0 the window of update `(n, k')` starts at row `n`'s index word, read signed:
    axis 0 is the one axis the index vector names, and its one component sits at `(n, 0)`. -/
theorem rows_start_zero (j : (⟨2, ![N, D]⟩ : Shape).Idx) (idx : IVec ⟨2, ![N, 1]⟩ 32) :
    (rowsDims G N D wf).start j idx 0 = (idx (ix2 (j 0) (0 : Fin 1))).toInt := by
  unfold ScatterDims.start
  rw [dif_pos (show (0 : Fin 2) ∈ (rowsDims G N D wf).scatterDimsToOperandDims from List.mem_singleton.mpr rfl)]
  congr 2
  funext b; refine Fin.ext ?_
  match b with
  | ⟨0, _⟩ => rfl
  | ⟨1, _⟩ => rfl

/-- On operand axis 1, which the index vector does not name, the window starts at `0`. -/
theorem rows_start_one (j : (⟨2, ![N, D]⟩ : Shape).Idx) (idx : IVec ⟨2, ![N, 1]⟩ 32) :
    (rowsDims G N D wf).start j idx 1 = 0 := by
  unfold ScatterDims.start
  have h : ¬ ((1 : Fin 2) ∈ (rowsDims G N D wf).scatterDimsToOperandDims) := by
    show ¬ ((1 : Fin 2) ∈ ([0] : List (Fin 2))); decide
  rw [dif_neg h]

/-- Operand axis 0 is inserted: the window has no extent along it. -/
theorem rows_window_zero (j : (⟨2, ![N, D]⟩ : Shape).Idx) :
    (rowsDims G N D wf).window j 0 = 0 := by
  unfold ScatterDims.window
  have h : ¬ ((0 : Fin 2) ∈ (rowsDims G N D wf).sKept) := by
    show ¬ ((0 : Fin 2) ∈ (List.finRange 2).filter (· ∉ ([0] : List (Fin 2)))); decide
  rw [dif_neg h]

/-- Operand axis 1 is the one kept axis: the window coordinate along it is the update's column. -/
theorem rows_window_one (j : (⟨2, ![N, D]⟩ : Shape).Idx) :
    (rowsDims G N D wf).window j 1 = (j 1).val := by
  unfold ScatterDims.window
  have h : (1 : Fin 2) ∈ (rowsDims G N D wf).sKept := by
    show ((1 : Fin 2) ∈ (List.finRange 2).filter (· ∉ ([0] : List (Fin 2)))); decide
  rw [dif_pos h]
  rfl

/-- Update `(n, k')` lands at operand element `(g, k)` exactly when it is in column `k` and row
    `n`'s index word encodes `g`. -/
theorem rows_resultIdx?_eq_some_iff (hG : G ≤ 2 ^ 31) (idx : IVec ⟨2, ![N, 1]⟩ 32) (n : Fin N) (k' : Fin D)
    (g : Fin G) (k : Fin D) :
    (rowsDims G N D wf).resultIdx? (ix2 n k') idx = some (ix2 g k)
      ↔ k' = k ∧ idx (ix2 n (0 : Fin 1)) = BitVec.ofNat 32 g.val := by
  rw [resultIdx?_eq_some_iff, Fin.forall_fin_two, rows_start_zero, rows_start_one, rows_window_zero, rows_window_one]
  show (idx (ix2 n (0 : Fin 1))).toInt + ((0 : Nat) : Int) = (g.val : Int) ∧ (0 : Int) + (k'.val : Int) = (k.val : Int) ↔ _
  rw [Nat.cast_zero, add_zero, zero_add, toInt_eq_natCast_iff _ _ (by have := g.isLt; omega), Nat.cast_inj, Fin.val_inj]
  exact and_comm

/-- THE SCATTER OF ROWS READ AT `(g, k)`: the operand element plus the sum, over the update rows
    `n` whose index word encodes `g`, of the row's element in column `k`. (A row whose word reads
    negative or at least `G` encodes no `g < G` and is dropped.) -/
theorem hostScatterAdd_rows_apply (hG : G ≤ 2 ^ 31)
    (x : (⟨2, ![G, D]⟩ : Shape).Idx → EReal) (idx : IVec ⟨2, ![N, 1]⟩ 32) (upd : (⟨2, ![N, D]⟩ : Shape).Idx → EReal)
    (g : Fin G) (k : Fin D) :
    Ideal.hostScatterAdd (rowsDims G N D wf) x idx upd (ix2 g k)
      = x (ix2 g k) + ∑ n : Fin N, if idx (ix2 n (0 : Fin 1)) = BitVec.ofNat 32 g.val then upd (ix2 n k) else 0 := by
  unfold Ideal.hostScatterAdd
  congr 1
  rw [Finset.sum_filter, sum_idx2]
  refine Finset.sum_congr rfl fun n _ => ?_
  simp only [rows_resultIdx?_eq_some_iff wf hG]
  by_cases hn : idx (ix2 n (0 : Fin 1)) = BitVec.ofNat 32 g.val
  · simp only [hn, and_true, if_true]
    exact Finset.sum_ite_eq' Finset.univ k (fun k' => upd (ix2 n k')) |>.trans (if_pos (Finset.mem_univ k))
  · simp only [hn, and_false, if_false]
    exact Finset.sum_const_zero

end Rows

/-! ## Scalars: operand `G`, scatter indices `N×1`, updates `N` -/

/-- The same for a vector of updates: operand `G`, scatter indices `N×1`, updates `N` (no window
    axis); operand axis 0 is inserted and is the axis the index names, the index vector is axis 1
    of the indices. -/
def vecDims (G N : Nat) (wf : ScatterDims.WF ⟨1, ![G]⟩ ⟨2, ![N, 1]⟩ ⟨1, ![N]⟩ [] [0] [0] 1) :
    ScatterDims ⟨1, ![G]⟩ ⟨2, ![N, 1]⟩ ⟨1, ![N]⟩ :=
  { updateWindowDims := [], insertedWindowDims := [0], scatterDimsToOperandDims := [0], indexVectorDim := 1, wf := wf }

section Vec
variable {G N : Nat} (wf : ScatterDims.WF ⟨1, ![G]⟩ ⟨2, ![N, 1]⟩ ⟨1, ![N]⟩ [] [0] [0] 1)

/-- On the operand's one axis the window of update `n` starts at its index word, read signed. -/
theorem vec_start_zero (j : (⟨1, ![N]⟩ : Shape).Idx) (idx : IVec ⟨2, ![N, 1]⟩ 32) :
    (vecDims G N wf).start j idx 0 = (idx (ix2 (j 0) (0 : Fin 1))).toInt := by
  unfold ScatterDims.start
  rw [dif_pos (show (0 : Fin 1) ∈ (vecDims G N wf).scatterDimsToOperandDims from List.mem_singleton.mpr rfl)]
  congr 2
  funext b; refine Fin.ext ?_
  match b with
  | ⟨0, _⟩ => rfl
  | ⟨1, _⟩ => rfl

/-- The operand's one axis is inserted: the window has no extent along it. -/
theorem vec_window_zero (j : (⟨1, ![N]⟩ : Shape).Idx) :
    (vecDims G N wf).window j 0 = 0 := by
  unfold ScatterDims.window
  have h : ¬ ((0 : Fin 1) ∈ (vecDims G N wf).sKept) := by
    show ¬ ((0 : Fin 1) ∈ (List.finRange 1).filter (· ∉ ([0] : List (Fin 1)))); decide
  rw [dif_neg h]

/-- Update `n` lands at operand element `g` exactly when its index word encodes `g`. -/
theorem vec_resultIdx?_eq_some_iff (hG : G ≤ 2 ^ 31) (idx : IVec ⟨2, ![N, 1]⟩ 32) (n : Fin N) (g : Fin G) :
    (vecDims G N wf).resultIdx? (ix1 n) idx = some (ix1 g)
      ↔ idx (ix2 n (0 : Fin 1)) = BitVec.ofNat 32 g.val := by
  rw [resultIdx?_eq_some_iff, Fin.forall_fin_one, vec_start_zero, vec_window_zero]
  show (idx (ix2 n (0 : Fin 1))).toInt + ((0 : Nat) : Int) = (g.val : Int) ↔ _
  rw [Nat.cast_zero, add_zero, toInt_eq_natCast_iff _ _ (by have := g.isLt; omega)]

/-- THE SCATTER OF SCALARS READ AT `g`: the operand element plus the sum of the updates whose
    index word encodes `g`. -/
theorem hostScatterAdd_vec_apply (hG : G ≤ 2 ^ 31)
    (x : (⟨1, ![G]⟩ : Shape).Idx → EReal) (idx : IVec ⟨2, ![N, 1]⟩ 32) (upd : (⟨1, ![N]⟩ : Shape).Idx → EReal)
    (g : Fin G) :
    Ideal.hostScatterAdd (vecDims G N wf) x idx upd (ix1 g)
      = x (ix1 g) + ∑ n : Fin N, if idx (ix2 n (0 : Fin 1)) = BitVec.ofNat 32 g.val then upd (ix1 n) else 0 := by
  unfold Ideal.hostScatterAdd
  congr 1
  rw [Finset.sum_filter, sum_idx1]
  refine Finset.sum_congr rfl fun n _ => ?_
  simp only [vec_resultIdx?_eq_some_iff wf hG]

end Vec

end Idealize.ShloMosaic.ScatterRows

end
-- ==== Proof.RefValue.lean ====
/-
  The reference program's stages, read index by index at the extended reals, are the specification's functions:
  each SAGE layer's output is the self term plus the neighbour term (the summed neighbour rows scaled by the
  reciprocal in-degree) plus the bias, clipped below at zero; the result is the per-graph mean of the second
  layer's rows passed through the two-layer perceptron.
-/
import proofs.«423883_j31576599560691_3_alg».proof.Defs
import proofs.«423883_j31576599560691_3_alg».proof.Proof.Gen.ReferenceIdeal.Run
import proofs.«423883_j31576599560691_3_alg».proof.Proof.Gen.ReferenceIdeal.Read
import proofs.«423883_j31576599560691_3_alg».proof.Proof.Spec
import proofs.«423883_j31576599560691_3_alg».proof.Proof.LibScatterRows
import Idealize.ShloMosaic.PureOps.Ideal.Laws

noncomputable section

namespace Cert.ReferenceIdeal.RefValue

open Cert.ReferenceIdeal Cert.ReferenceIdeal.Read
open Idealize.ShloMosaic Idealize.ShloMosaic.ValueIdx

/-- Layer 1: entry (p, q) of the clipped sum reads the feature row p against column q of the self weights, the
    summed neighbour row p scaled by the reciprocal in-degree of p against column q of the neighbour weights,
    and entry q of the bias. -/
theorem ref_h1 (x0 : (⟨S100000x128, .f32⟩ : BufTy).Contents (Elt Ideal))
    (x1 x2 : (⟨S128x100, .f32⟩ : BufTy).Contents (Elt Ideal)) (x3 : (⟨S100, .f32⟩ : BufTy).Contents (Elt Ideal))
    (x11 x12 : (⟨S600000, .i32⟩ : BufTy).Contents (Elt Ideal)) :
    val_main_v27 (F := Ideal) x0 x1 x2 x3 x11 x12
      = Cert.Spec.sage 100000 128 100 x0 (val_main_v18 (F := Ideal) x0 x11 x12) (val_main_v8 (F := Ideal) x12) x1 x2 x3 := by
  funext i
  obtain ⟨p, q, rfl⟩ : ∃ (p : Fin 100000) (q : Fin 100), i = ix2 p q := ⟨i 0, i 1, eq_ix2 i⟩
  rw [val_main_v27_apply, val_main_v26_apply, val_main_v23_apply, val_main_v21_apply, val_main_v22_apply,
    val_main_v25_apply, val_main_v24_apply, val_main_call0_v0_apply, val_main_call0_cst_apply]
  simp only [val_main_v20_apply, val_main_v19_apply]
  -- the composed index maps are the coordinate constructors
  have el1 : ∀ k : Fin 128, lidx_main_v21 (ix2 p q) k = ix2 p k := fun k => funext fun a => Fin.ext (by
    match a with | ⟨0, _⟩ => rfl | ⟨1, _⟩ => rfl)
  have er1 : ∀ k : Fin 128, ridx_main_v21 (ix2 p q) k = ix2 k q := fun k => funext fun a => Fin.ext (by
    match a with | ⟨0, _⟩ => rfl | ⟨1, _⟩ => rfl)
  have el2 : ∀ k : Fin 128, lidx_main_v22 (ix2 p q) k = ix2 p k := fun k => funext fun a => Fin.ext (by
    match a with | ⟨0, _⟩ => rfl | ⟨1, _⟩ => rfl)
  have er2 : ∀ k : Fin 128, ridx_main_v22 (ix2 p q) k = ix2 k q := fun k => funext fun a => Fin.ext (by
    match a with | ⟨0, _⟩ => rfl | ⟨1, _⟩ => rfl)
  have ec : ∀ k : Fin 128, idx_main_v19 (ix2 p k) = ix2 p (0 : Fin 1) := fun k => funext fun a => Fin.ext (by
    match a with | ⟨0, _⟩ => rfl | ⟨1, _⟩ => rfl)
  have eb : idx_main_v24 (idx_main_v25 (ix2 p q)) = ix1 q := funext fun a => Fin.ext (by
    match a with | ⟨0, _⟩ => rfl)
  simp only [el1, er1, el2, er2, ec, eb, Ideal.addf_def, Ideal.mulf_def, Ideal.maximumf_def, Ideal.ofBits_def]
  rfl

/-- Layer 2: the same reading one layer up — the rows are layer 1's output, the neighbour rows their scattered
    sums, the reciprocal in-degree column is shared with layer 1. -/
theorem ref_h2 (x0 : (⟨S100000x128, .f32⟩ : BufTy).Contents (Elt Ideal))
    (x1 x2 : (⟨S128x100, .f32⟩ : BufTy).Contents (Elt Ideal)) (x3 : (⟨S100, .f32⟩ : BufTy).Contents (Elt Ideal))
    (x4 x5 : (⟨S100x20, .f32⟩ : BufTy).Contents (Elt Ideal)) (x6 : (⟨S20, .f32⟩ : BufTy).Contents (Elt Ideal))
    (x11 x12 : (⟨S600000, .i32⟩ : BufTy).Contents (Elt Ideal)) :
    val_main_v46 (F := Ideal) x0 x1 x2 x3 x4 x5 x6 x11 x12
      = Cert.Spec.sage 100000 100 20 (val_main_v27 (F := Ideal) x0 x1 x2 x3 x11 x12)
          (val_main_v37 (F := Ideal) x0 x1 x2 x3 x11 x12) (val_main_v8 (F := Ideal) x12) x4 x5 x6 := by
  funext i
  obtain ⟨p, q, rfl⟩ : ∃ (p : Fin 100000) (q : Fin 20), i = ix2 p q := ⟨i 0, i 1, eq_ix2 i⟩
  rw [val_main_v46_apply, val_main_v45_apply, val_main_v42_apply, val_main_v40_apply, val_main_v41_apply,
    val_main_v44_apply, val_main_v43_apply, val_main_call1_v0_apply, val_main_call1_cst_apply]
  simp only [val_main_v39_apply, val_main_v38_apply]
  -- the composed index maps are the coordinate constructors
  have el1 : ∀ k : Fin 100, lidx_main_v40 (ix2 p q) k = ix2 p k := fun k => funext fun a => Fin.ext (by
    match a with | ⟨0, _⟩ => rfl | ⟨1, _⟩ => rfl)
  have er1 : ∀ k : Fin 100, ridx_main_v40 (ix2 p q) k = ix2 k q := fun k => funext fun a => Fin.ext (by
    match a with | ⟨0, _⟩ => rfl | ⟨1, _⟩ => rfl)
  have el2 : ∀ k : Fin 100, lidx_main_v41 (ix2 p q) k = ix2 p k := fun k => funext fun a => Fin.ext (by
    match a with | ⟨0, _⟩ => rfl | ⟨1, _⟩ => rfl)
  have er2 : ∀ k : Fin 100, ridx_main_v41 (ix2 p q) k = ix2 k q := fun k => funext fun a => Fin.ext (by
    match a with | ⟨0, _⟩ => rfl | ⟨1, _⟩ => rfl)
  have ec : ∀ k : Fin 100, idx_main_v38 (ix2 p k) = ix2 p (0 : Fin 1) := fun k => funext fun a => Fin.ext (by
    match a with | ⟨0, _⟩ => rfl | ⟨1, _⟩ => rfl)
  have eb : idx_main_v43 (idx_main_v44 (ix2 p q)) = ix1 q := funext fun a => Fin.ext (by
    match a with | ⟨0, _⟩ => rfl)
  simp only [el1, er1, el2, er2, ec, eb, Ideal.addf_def, Ideal.mulf_def, Ideal.maximumf_def, Ideal.ofBits_def]
  rfl

/-- The f32 word of one is the extended real one: sign clear, biased exponent 127, significand zero. -/
theorem ofBits_one_f32 : Ideal.ofBits .f32 0x3F800000#32 = 1 := by
  simp [Ideal.ofBits, Ideal.ieee]
  rw [← EReal.coe_mul, ← EReal.coe_one]
  congr 1
  norm_num

/-- The per-graph sums of layer 2's rows: the scatter into a zero operand adds, at (g, d), the rows whose
    graph id encodes g. -/
theorem v53_apply (x0 : (⟨S100000x128, .f32⟩ : BufTy).Contents (Elt Ideal))
    (x1 x2 : (⟨S128x100, .f32⟩ : BufTy).Contents (Elt Ideal)) (x3 : (⟨S100, .f32⟩ : BufTy).Contents (Elt Ideal))
    (x4 x5 : (⟨S100x20, .f32⟩ : BufTy).Contents (Elt Ideal)) (x6 : (⟨S20, .f32⟩ : BufTy).Contents (Elt Ideal))
    (x11 x12 : (⟨S600000, .i32⟩ : BufTy).Contents (Elt Ideal)) (x13 : (⟨S100000, .i32⟩ : BufTy).Contents (Elt Ideal))
    (g : Fin 64) (d : Fin 20) :
    val_main_v53 (F := Ideal) x0 x1 x2 x3 x4 x5 x6 x11 x12 x13 (ix2 g d)
      = Cert.Spec.pool 100000 64 20 x13 (val_main_v46 (F := Ideal) x0 x1 x2 x3 x4 x5 x6 x11 x12) g d := by
  refine (ScatterRows.hostScatterAdd_rows_apply (G := 64) (N := 100000) (D := 20)
    Facts₀.scatter_S64x20_S100000x1_S100000x20_1_0_0_1_wf (by norm_num) (val_main_v51 (F := Ideal))
    (val_main_v52 (F := Ideal) x13) (val_main_v46 (F := Ideal) x0 x1 x2 x3 x4 x5 x6 x11 x12) g d).trans ?_
  rw [val_main_v51_apply, val_main_cst_10_apply, Ideal.ofBits_def, Ideal.ofBits_zero_f32, zero_add]
  unfold Cert.Spec.pool
  refine Finset.sum_congr rfl fun n _ => ?_
  have e : idx_main_v52 (ix2 n (0 : Fin 1)) = ix1 n := funext fun a => Fin.ext (by
    match a with | ⟨0, _⟩ => rfl)
  rw [val_main_v52_apply, e]

/-- The per-graph node counts: the scatter of ones into a zero operand counts, at g, the nodes whose graph id
    encodes g. -/
theorem v50_apply (x13 : (⟨S100000, .i32⟩ : BufTy).Contents (Elt Ideal)) (g : Fin 64) :
    val_main_v50 (F := Ideal) x13 (ix1 g) = Cert.Spec.cnt 100000 64 x13 g := by
  refine (ScatterRows.hostScatterAdd_vec_apply (G := 64) (N := 100000)
    Facts₀.scatter_S64_S100000x1_S100000_n_0_0_1_wf (by norm_num) (val_main_v48 (F := Ideal))
    (val_main_v49 (F := Ideal) x13) (val_main_v47 (F := Ideal)) g).trans ?_
  rw [val_main_v48_apply, val_main_cst_9_apply, Ideal.ofBits_def, Ideal.ofBits_zero_f32, zero_add]
  unfold Cert.Spec.cnt
  refine Finset.sum_congr rfl fun n _ => ?_
  have e : idx_main_v49 (ix2 n (0 : Fin 1)) = ix1 n := funext fun a => Fin.ext (by
    match a with | ⟨0, _⟩ => rfl)
  rw [val_main_v49_apply, e, val_main_v47_apply, val_main_cst_8_apply, Ideal.ofBits_def, ofBits_one_f32]

/-- The result: entry (g, 0) is the perceptron of graph g's mean row — each pooled sum divided by the node
    count clipped below at one, through the first layer's weights and bias, clipped below at zero, through
    the second layer's weights and bias. -/
theorem ref_out (x0 : (⟨S100000x128, .f32⟩ : BufTy).Contents (Elt Ideal))
    (x1 x2 : (⟨S128x100, .f32⟩ : BufTy).Contents (Elt Ideal)) (x3 : (⟨S100, .f32⟩ : BufTy).Contents (Elt Ideal))
    (x4 x5 : (⟨S100x20, .f32⟩ : BufTy).Contents (Elt Ideal)) (x6 : (⟨S20, .f32⟩ : BufTy).Contents (Elt Ideal))
    (x7 : (⟨S20x10, .f32⟩ : BufTy).Contents (Elt Ideal)) (x8 : (⟨S10, .f32⟩ : BufTy).Contents (Elt Ideal))
    (x9 : (⟨S10x1, .f32⟩ : BufTy).Contents (Elt Ideal)) (x10 : (⟨S1, .f32⟩ : BufTy).Contents (Elt Ideal))
    (x11 x12 : (⟨S600000, .i32⟩ : BufTy).Contents (Elt Ideal)) (x13 : (⟨S100000, .i32⟩ : BufTy).Contents (Elt Ideal)) :
    val_main_v67 (F := Ideal) x0 x1 x2 x3 x4 x5 x6 x7 x8 x9 x10 x11 x12 x13
      = Cert.Spec.readout 100000 64 20 10 x13 (val_main_v46 (F := Ideal) x0 x1 x2 x3 x4 x5 x6 x11 x12) x7 x8 x9 x10 := by
  funext i
  obtain ⟨g, z, rfl⟩ : ∃ (g : Fin 64) (z : Fin 1), i = ix2 g z := ⟨i 0, i 1, eq_ix2 i⟩
  obtain rfl : z = 0 := Subsingleton.elim _ _
  rw [val_main_v67_apply, val_main_v64_apply, val_main_v66_apply, val_main_v65_apply]
  -- the composed index maps are the coordinate constructors
  have el64 : ∀ k : Fin 10, lidx_main_v64 (ix2 g (0 : Fin 1)) k = ix2 g k := fun k => funext fun a => Fin.ext (by
    match a with | ⟨0, _⟩ => rfl | ⟨1, _⟩ => rfl)
  have er64 : ∀ k : Fin 10, ridx_main_v64 (ix2 g (0 : Fin 1)) k = ix2 k (0 : Fin 1) := fun k => funext fun a => Fin.ext (by
    match a with | ⟨0, _⟩ => rfl | ⟨1, _⟩ => rfl)
  have eb2 : idx_main_v65 (idx_main_v66 (ix2 g (0 : Fin 1))) = ix1 (0 : Fin 1) := funext fun a => Fin.ext (by
    match a with | ⟨0, _⟩ => rfl)
  have el59 : ∀ (k : Fin 10) (d : Fin 20), lidx_main_v59 (ix2 g k) d = ix2 g d := fun k d => funext fun a => Fin.ext (by
    match a with | ⟨0, _⟩ => rfl | ⟨1, _⟩ => rfl)
  have er59 : ∀ (k : Fin 10) (d : Fin 20), ridx_main_v59 (ix2 g k) d = ix2 d k := fun k d => funext fun a => Fin.ext (by
    match a with | ⟨0, _⟩ => rfl | ⟨1, _⟩ => rfl)
  have eb1 : ∀ k : Fin 10, idx_main_v60 (idx_main_v61 (ix2 g k)) = ix1 k := fun k => funext fun a => Fin.ext (by
    match a with | ⟨0, _⟩ => rfl)
  have ecn : ∀ d : Fin 20, idx_main_v56 (idx_main_v57 (ix2 g d)) = ix1 g := fun d => funext fun a => Fin.ext (by
    match a with | ⟨0, _⟩ => rfl)
  simp only [el64, er64, eb2, val_main_v63_apply, val_main_v62_apply, val_main_v59_apply, val_main_v61_apply,
    val_main_v60_apply, val_main_call2_v0_apply, val_main_call2_cst_apply, el59, er59, eb1, val_main_v58_apply,
    val_main_v57_apply, val_main_v56_apply, ecn, val_main_v55_apply, val_main_v54_apply, val_main_cst_11_apply,
    v53_apply, v50_apply, Ideal.addf_def, Ideal.mulf_def, Ideal.maximumf_def, Ideal.hostDivf_def, Ideal.ofBits_def]
  rfl

end Cert.ReferenceIdeal.RefValue

end
-- ==== Proof.Val.SageVal0.lean ====
/-
  The first SAGE layer's dense combine, read as a value.  The region's output array, after all 25 block write-backs,
  is the layer's formula of the arrays the region finds: at node row r and output column q,
  max(∑ₖ x[r,k]·Wself[k,q] + ∑ₖ (agg[r,k]·inv[r,0])·Wneigh[k,q] + b[0,q], 0).
  Three steps.  (1) The body's payload at an index (p, q) of its 4000×100 block: the two products into a zero
  accumulator are sums over the 128 contraction indices, the column of reciprocal degrees is repeated along the
  lanes, the bias row along the rows, the casts between float widths are the identity at the extended reals.
  (2) What grid point t writes back is block t of the formula: row p of block t is row 4000·t + p of the arrays,
  the weights and the bias are whole at every point.  (3) Row r lies in block r / 4000, so the blocks cover the array.
-/
import proofs.«423883_j31576599560691_3_alg».proof.Proof.KI.Sage0
import proofs.«423883_j31576599560691_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandVal

open Idealize.ShloMosaic Idealize.ShloMosaic.ValueIdx Idealize.ShloMosaic.TcCoe
open Idealize.ShloMosaic.Pipeline (Dat)
open Cert.KernelIdeal Cert.KernelIdeal.Gen

/-! ## The 4000×128 by 128×100 product at an index -/

/-- The left operand's row is the output's row. -/
theorem lhs_dot0_0 (i : S4000x100.Idx) (q : dot_S4000x128_S128x100_S4000x100_1_0_0_1_n_n.contr.Idx) :
    (dot_S4000x128_S128x100_S4000x100_1_0_0_1_n_n.lhsIdx i q 0).val = (i 0).val := by
  unfold DotDims.lhsIdx
  rw [dif_neg (show ¬(0 : Fin S4000x128.rank) ∈ dot_S4000x128_S128x100_S4000x100_1_0_0_1_n_n.lhsBatch by decide), dif_pos (show (0 : Fin S4000x128.rank) ∈ dot_S4000x128_S128x100_S4000x100_1_0_0_1_n_n.lhsNonContracting by decide)]
  rfl
/-- The left operand's column is the contraction index. -/
theorem lhs_dot0_1 (i : S4000x100.Idx) (q : dot_S4000x128_S128x100_S4000x100_1_0_0_1_n_n.contr.Idx) :
    (dot_S4000x128_S128x100_S4000x100_1_0_0_1_n_n.lhsIdx i q 1).val = (q ⟨0, by decide⟩).val :=
  dot_S4000x128_S128x100_S4000x100_1_0_0_1_n_n.lhsIdx_val_of_single rfl i q
/-- The right operand's row is the contraction index. -/
theorem rhs_dot0_0 (i : S4000x100.Idx) (q : dot_S4000x128_S128x100_S4000x100_1_0_0_1_n_n.contr.Idx) :
    (dot_S4000x128_S128x100_S4000x100_1_0_0_1_n_n.rhsIdx i q 0).val = (q ⟨0, by decide⟩).val :=
  dot_S4000x128_S128x100_S4000x100_1_0_0_1_n_n.rhsIdx_val_of_single rfl i q
/-- The right operand's column is the output's column. -/
theorem rhs_dot0_1 (i : S4000x100.Idx) (q : dot_S4000x128_S128x100_S4000x100_1_0_0_1_n_n.contr.Idx) :
    (dot_S4000x128_S128x100_S4000x100_1_0_0_1_n_n.rhsIdx i q 1).val = (i 1).val := by
  unfold DotDims.rhsIdx
  rw [dif_neg (show ¬(1 : Fin S128x100.rank) ∈ dot_S4000x128_S128x100_S4000x100_1_0_0_1_n_n.rhsBatch by decide), dif_pos (show (1 : Fin S128x100.rank) ∈ dot_S4000x128_S128x100_S4000x100_1_0_0_1_n_n.rhsNonContracting by decide)]
  rfl

/-- The product into the zero accumulator, at row p and column q: the sum over the 128 contraction indices of the
    left operand's row p times the right operand's column q. -/
theorem matmul0_apply {φ₁ φ₂ : FTy} (a : FVec Ideal S4000x128 φ₁) (b : FVec Ideal S128x100 φ₂) (p : Fin 4000) (q : Fin 100) :
    FloatOps.matmul dot_S4000x128_S128x100_S4000x100_1_0_0_1_n_n none a b (constant (F := Ideal) S4000x100 .f32 0x00000000#32) (ix2 p q)
      = ∑ k : Fin 128, a (ix2 p k) * b (ix2 k q) := by
  rw [Ideal.matmul_constant_zero_apply, ← Equiv.sum_comp (ValueIdx.contrEquiv1 dot_S4000x128_S128x100_S4000x100_1_0_0_1_n_n 128 rfl rfl).symm]
  refine Finset.sum_congr rfl fun k _ => ?_
  have hk := ValueIdx.contrEquiv1_symm_val dot_S4000x128_S128x100_S4000x100_1_0_0_1_n_n 128 rfl rfl k
  have el : dot_S4000x128_S128x100_S4000x100_1_0_0_1_n_n.lhsIdx (ix2 p q) ((ValueIdx.contrEquiv1 dot_S4000x128_S128x100_S4000x100_1_0_0_1_n_n 128 rfl rfl).symm k) = ix2 p k := funext fun a => Fin.ext (by
    match a with
    | ⟨0, _⟩ => exact lhs_dot0_0 _ _
    | ⟨1, _⟩ => exact (lhs_dot0_1 _ _).trans hk)
  have er : dot_S4000x128_S128x100_S4000x100_1_0_0_1_n_n.rhsIdx (ix2 p q) ((ValueIdx.contrEquiv1 dot_S4000x128_S128x100_S4000x100_1_0_0_1_n_n 128 rfl rfl).symm k) = ix2 k q := funext fun a => Fin.ext (by
    match a with
    | ⟨0, _⟩ => exact (rhs_dot0_0 _ _).trans hk
    | ⟨1, _⟩ => exact rhs_dot0_1 _ _)
  rw [el, er]

/-! ## The two repeats -/

/-- The column of reciprocal degrees repeated along the 128 lanes: at (p, k) it is the column's entry of row p. -/
theorem bcast_col0_apply (v : S4000x1.Idx → EReal) (p : Fin 4000) (k : Fin 128) :
    broadcastTo S4000x128 v broadcasts_S4000x1_S4000x128 (ix2 p k) = v (ix2 p 0) :=
  broadcastTo_apply v broadcasts_S4000x1_S4000x128 (ix2 p k) (ix2 p 0) (fun a => match a with
    | ⟨0, _⟩ => by show p.val = if (4000 : Nat) = 1 then 0 else p.val; rw [if_neg (by decide)]
    | ⟨1, _⟩ => by show 0 = if (1 : Nat) = 1 then 0 else k.val; rw [if_pos rfl])

/-- The bias row repeated along the 4000 rows: at (p, q) it is the row's entry of column q. -/
theorem bcast_row0_apply (v : S1x100.Idx → EReal) (p : Fin 4000) (q : Fin 100) :
    broadcastTo S4000x100 v broadcasts_S1x100_S4000x100 (ix2 p q) = v (ix2 0 q) :=
  broadcastTo_apply v broadcasts_S1x100_S4000x100 (ix2 p q) (ix2 0 q) (fun a => match a with
    | ⟨0, _⟩ => by show 0 = if (1 : Nat) = 1 then 0 else p.val; rw [if_pos rfl]
    | ⟨1, _⟩ => by show q.val = if (100 : Nat) = 1 then 0 else q.val; rw [if_neg (by decide)])

/-! ## The payload at an index -/

/-- The body's payload at row p and column q of its block: the self term plus the scaled neighbour term plus the bias,
    clipped below at zero. -/
theorem pay0_apply (x0 x1 : Vec Ideal S4000x128 .f32) (x2 : Vec Ideal S4000x1 .f32) (x3 x4 : Vec Ideal S128x100 .f32)
    (x5 : Vec Ideal S1x100 .f32) (p : Fin 4000) (q : Fin 100) :
    k0_pay1 (F := Ideal) x0 x1 x2 x3 x4 x5 (ix2 p q)
      = max (((∑ k : Fin 128, x0 (ix2 p k) * x3 (ix2 k q)) + (∑ k : Fin 128, (x1 (ix2 p k) * x2 (ix2 p 0)) * x4 (ix2 k q)))
          + x5 (ix2 0 q)) Spec.zeroF := by
  unfold k0_pay1
  simp only [shapeCast_self]
  rw [maximumf_apply, addf_apply, addf_apply, bcast_row0_apply]
  show max ((FloatOps.matmul _ none _ _ _ _ + FloatOps.matmul _ none _ _ _ _) + _) _ = _
  rw [matmul0_apply, matmul0_apply]
  simp only [truncf_apply, mulf_apply, bcast_col0_apply]
  rfl

/-! ## A block of the layer -/

/-- When the six loaded blocks are the rows 4000·T … 4000·T + 3999 of x, agg and inv and the whole of the two weights
    and the bias, the payload at (p, q) is the layer's formula at row 4000·T + p and column q. -/
theorem pay0_block (A0 A1 : S100000x128.Idx → EReal) (A2 : S100000x1.Idx → EReal) (A3 A4 : S128x100.Idx → EReal)
    (A5 : S1x100.Idx → EReal) (x0 x1 : Vec Ideal S4000x128 .f32) (x2 : Vec Ideal S4000x1 .f32)
    (x3 x4 : Vec Ideal S128x100 .f32) (x5 : Vec Ideal S1x100 .f32) (T : Nat)
    (h0 : ∀ (y : S4000x128.Idx) (z : S100000x128.Idx), (z 0).val = T * 4000 + (y 0).val → (z 1).val = (y 1).val → x0 y = A0 z)
    (h1 : ∀ (y : S4000x128.Idx) (z : S100000x128.Idx), (z 0).val = T * 4000 + (y 0).val → (z 1).val = (y 1).val → x1 y = A1 z)
    (h2 : ∀ (y : S4000x1.Idx) (z : S100000x1.Idx), (z 0).val = T * 4000 + (y 0).val → x2 y = A2 z)
    (h3 : x3 = A3) (h4 : x4 = A4) (h5 : x5 = A5)
    (j : S4000x100.Idx) (i : S100000x100.Idx) (hi0 : (i 0).val = T * 4000 + (j 0).val) (hi1 : (i 1).val = (j 1).val) :
    k0_pay1 (F := Ideal) x0 x1 x2 x3 x4 x5 j
      = Spec.sage 100000 128 100 A0 A1 A2 A3 A4 (fun j => A5 (ix2 (0 : Fin 1) (j 0))) i := by
  obtain ⟨p, q, rfl⟩ : ∃ (p : Fin 4000) (q : Fin 100), j = ix2 p q := ⟨j 0, j 1, eq_ix2 j⟩
  obtain ⟨r, q', rfl⟩ : ∃ (r : Fin 100000) (q' : Fin 100), i = ix2 r q' := ⟨i 0, i 1, eq_ix2 i⟩
  have hr : r.val = T * 4000 + p.val := hi0
  have hq : q' = q := Fin.ext hi1
  rw [hq, pay0_apply]
  show _ = max (((∑ k : Fin 128, A0 (ix2 r k) * A3 (ix2 k q)) + (∑ k : Fin 128, (A1 (ix2 r k) * A2 (ix2 r 0)) * A4 (ix2 k q)))
      + A5 (ix2 0 q)) Spec.zeroF
  have e0 : ∀ k : Fin 128, x0 (ix2 p k) = A0 (ix2 r k) := fun k => h0 (ix2 p k) (ix2 r k) hr rfl
  have e1 : ∀ k : Fin 128, x1 (ix2 p k) = A1 (ix2 r k) := fun k => h1 (ix2 p k) (ix2 r k) hr rfl
  have e2 : x2 (ix2 p 0) = A2 (ix2 r 0) := h2 (ix2 p 0) (ix2 r 0) hr
  simp only [e0, e1, e2, h3, h4, h5]

/-! ## What a grid point writes back -/

variable (V : (c : Dev nD) → (b : Ref sig .tc) → Buf (Elt Ideal) ((c : Thread nD τ).loc b))

/-- The layer's formula of the arrays the region finds. -/
abbrev G0 (c : Dev nD) : S100000x100.Idx → EReal :=
  Spec.sage 100000 128 100 (V c main_arg0) (V c main_v18) (V c main_v8) (V c main_arg1) (V c main_arg2)
    (fun j => V c main_v19 (ix2 (0 : Fin 1) (j 0)))

/-- The zero offsets of a whole-buffer access, as a constant function. -/
theorem zero_off0 : (![0, 0] : Fin 2 → Nat) = fun _ => 0 := funext fun a => by fin_cases a <;> rfl

/-- The block indices over the grid: at point t the three row-blocked inputs and the output are at block row t,
    the weights and the bias at block (0, 0). -/
theorem block_index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- What point t writes back is block t of the layer's formula: row p of each row-blocked input's block is row
    4000·t + p of its array, and so is row p of the output's block. -/
theorem flushed0_eq (c : Dev nD) (t : Fin cfg0.N) :
    (Hand.dat0 (F := Ideal) V c).flushed 6 t = ((cfg0.win 6).blk t).view.read (Elt Ideal) (G0 V c) := by
  show (cfg0.win 6).cut (grid0.coords t) ((Hand.dat0 (F := Ideal) V c).after 6 t) = _
  rw [Hand.after0_6]
  unfold Hand.out0_6
  rw [View.canon_unit_zero zero_off0]
  simp only [View.ld_unit_zero (S := S4000x128) zero_off0, View.ld_unit_zero (S := S4000x1) zero_off0,
    View.ld_unit_zero (S := S128x100) zero_off0, View.ld_unit_zero (S := S1x100) zero_off0]
  obtain ⟨a00, a01, a10, a11, a20, a21, a30, a31, a40, a41, a50, a51, a60, a61⟩ := block_index0 t
  funext j
  show k0_pay1 (F := Ideal) (Hand.iblk0 V c 0 t) (Hand.iblk0 V c 1 t) (Hand.iblk0 V c 2 t) (Hand.iblk0 V c 3 t)
      (Hand.iblk0 V c 4 t) (Hand.iblk0 V c 5 t) j = G0 V c (((cfg0.win 6).blk t).view.emb j)
  refine pay0_block (V c main_arg0) (V c main_v18) (V c main_v8) (V c main_arg1) (V c main_arg2) (V c main_v19)
    _ _ _ _ _ _ t.val ?_ ?_ ?_ ?_ ?_ ?_ j _ ?_ ?_
  · intro y z hz0 hz1
    show V c main_arg0 (((cfg0.win 0).blk t).view.emb y) = V c main_arg0 z
    refine congrArg _ (funext fun a => Fin.ext ?_)
    match a with
    | ⟨0, _⟩ => show win0_0.index t (0 : Fin 2) * 4000 + 1 * (y 0).val = (z 0).val; omega
    | ⟨1, _⟩ => show win0_0.index t (1 : Fin 2) * 128 + 1 * (y 1).val = (z 1).val; omega
  · intro y z hz0 hz1
    show V c main_v18 (((cfg0.win 1).blk t).view.emb y) = V c main_v18 z
    refine congrArg _ (funext fun a => Fin.ext ?_)
    match a with
    | ⟨0, _⟩ => show win0_1.index t (0 : Fin 2) * 4000 + 1 * (y 0).val = (z 0).val; omega
    | ⟨1, _⟩ => show win0_1.index t (1 : Fin 2) * 128 + 1 * (y 1).val = (z 1).val; omega
  · intro y z hz0
    have hy1 : (y 1).val < 1 := (y 1).isLt
    have hz1 : (z 1).val < 1 := (z 1).isLt
    show V c main_v8 (((cfg0.win 2).blk t).view.emb y) = V c main_v8 z
    refine congrArg _ (funext fun a => Fin.ext ?_)
    match a with
    | ⟨0, _⟩ => show win0_2.index t (0 : Fin 2) * 4000 + 1 * (y 0).val = (z 0).val; omega
    | ⟨1, _⟩ => show win0_2.index t (1 : Fin 2) * 1 + 1 * (y 1).val = (z 1).val; omega
  · funext y
    show V c main_arg1 (((cfg0.win 3).blk t).view.emb y) = V c main_arg1 y
    refine congrArg _ (funext fun a => Fin.ext ?_)
    match a with
    | ⟨0, _⟩ => show win0_3.index t (0 : Fin 2) * 128 + 1 * (y 0).val = (y 0).val; omega
    | ⟨1, _⟩ => show win0_3.index t (1 : Fin 2) * 100 + 1 * (y 1).val = (y 1).val; omega
  · funext y
    show V c main_arg2 (((cfg0.win 4).blk t).view.emb y) = V c main_arg2 y
    refine congrArg _ (funext fun a => Fin.ext ?_)
    match a with
    | ⟨0, _⟩ => show win0_4.index t (0 : Fin 2) * 128 + 1 * (y 0).val = (y 0).val; omega
    | ⟨1, _⟩ => show win0_4.index t (1 : Fin 2) * 100 + 1 * (y 1).val = (y 1).val; omega
  · funext y
    show V c main_v19 (((cfg0.win 5).blk t).view.emb y) = V c main_v19 y
    refine congrArg _ (funext fun a => Fin.ext ?_)
    match a with
    | ⟨0, _⟩ => show win0_5.index t (0 : Fin 2) * 1 + 1 * (y 0).val = (y 0).val; omega
    | ⟨1, _⟩ => show win0_5.index t (1 : Fin 2) * 100 + 1 * (y 1).val = (y 1).val; omega
  · show win0_6.index t (0 : Fin 2) * 4000 + 1 * (j 0).val = t.val * 4000 + (j 0).val; omega
  · show win0_6.index t (1 : Fin 2) * 100 + 1 * (j 1).val = (j 1).val; omega

/-! ## The blocks cover the array -/

/-- Row r of the output lies in the block of point r / 4000. -/
theorem cover0 (i : S100000x100.Idx) :
    ∃ t : Fin cfg0.N, (cfg0.win 6).flush t = true ∧ i ∈ ((cfg0.win 6).blk t).view.set := by
  have hi0 : (i 0).val < 100000 := (i 0).isLt
  have hi1 : (i 1).val < 100 := (i 1).isLt
  have ht : (i 0).val / 4000 < cfg0.N := by show _ < 25; omega
  obtain ⟨t, htv⟩ : ∃ t : Fin cfg0.N, t.val = (i 0).val / 4000 := ⟨⟨_, ht⟩, rfl⟩
  obtain ⟨-, -, -, -, -, -, -, -, -, -, -, -, a60, a61⟩ := block_index0 t
  refine ⟨t, flush0_6 t, ?_⟩
  show i ∈ ((View.whole main_v20).slice (win0_6.rect t)).set
  rw [View.set_slice_whole, Rect.mem_set_unit]
  intro a
  match a with
  | ⟨0, _⟩ => show win0_6.index t (0 : Fin 2) * 4000 ≤ (i 0).val ∧ (i 0).val < win0_6.index t (0 : Fin 2) * 4000 + 4000; omega
  | ⟨1, _⟩ => show win0_6.index t (1 : Fin 2) * 100 ≤ (i 1).val ∧ (i 1).val < win0_6.index t (1 : Fin 2) * 100 + 100; omega

/-! ## The output array after the region -/

/-- After all 25 write-backs the output array is the layer's formula of the arrays the region finds. -/
theorem sage0_final (c : Dev nD) :
    (Hand.dat0 (F := Ideal) V c).arrAt 6 cfg0.N
      = Cert.Spec.sage 100000 128 100 (V c main_arg0) (V c main_v18) (V c main_v8) (V c main_arg1) (V c main_arg2)
          (fun j => V c main_v19 (ValueIdx.ix2 (0 : Fin 1) (j 0))) :=
  (Hand.dat0 (F := Ideal) V c).arrAt_eq_of_cover 6 (G0 V c) (fun t _ => flushed0_eq V c t) (cover0)

end Cert.KernelIdeal.HandVal

end
-- ==== Proof.Val.SageVal1.lean ====
/-
  The second SAGE layer's dense combine, read as a value.  The region's output array, after all 25 block write-backs,
  is the layer's formula of the arrays the region finds: at node row r and output column q,
  max(∑ₖ x[r,k]·Wself[k,q] + ∑ₖ (agg[r,k]·inv[r,0])·Wneigh[k,q] + b[0,q], 0).
  Three steps.  (1) The body's payload at an index (p, q) of its 4000×20 block: the two products into a zero
  accumulator are sums over the 100 contraction indices, the column of reciprocal degrees is repeated along the
  lanes, the bias row along the rows, the casts between float widths are the identity at the extended reals.
  (2) What grid point t writes back is block t of the formula: row p of block t is row 4000·t + p of the arrays,
  the weights and the bias are whole at every point.  (3) Row r lies in block r / 4000, so the blocks cover the array.
-/
import proofs.«423883_j31576599560691_3_alg».proof.Proof.KI.Sage1
import proofs.«423883_j31576599560691_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandVal

open Idealize.ShloMosaic Idealize.ShloMosaic.ValueIdx Idealize.ShloMosaic.TcCoe
open Idealize.ShloMosaic.Pipeline (Dat)
open Cert.KernelIdeal Cert.KernelIdeal.Gen

/-! ## The 4000×100 by 100×20 product at an index -/

/-- The left operand's row is the output's row. -/
theorem lhs_dot1_0 (i : S4000x20.Idx) (q : dot_S4000x100_S100x20_S4000x20_1_0_0_1_n_n.contr.Idx) :
    (dot_S4000x100_S100x20_S4000x20_1_0_0_1_n_n.lhsIdx i q 0).val = (i 0).val := by
  unfold DotDims.lhsIdx
  rw [dif_neg (show ¬(0 : Fin S4000x100.rank) ∈ dot_S4000x100_S100x20_S4000x20_1_0_0_1_n_n.lhsBatch by decide), dif_pos (show (0 : Fin S4000x100.rank) ∈ dot_S4000x100_S100x20_S4000x20_1_0_0_1_n_n.lhsNonContracting by decide)]
  rfl
/-- The left operand's column is the contraction index. -/
theorem lhs_dot1_1 (i : S4000x20.Idx) (q : dot_S4000x100_S100x20_S4000x20_1_0_0_1_n_n.contr.Idx) :
    (dot_S4000x100_S100x20_S4000x20_1_0_0_1_n_n.lhsIdx i q 1).val = (q ⟨0, by decide⟩).val :=
  dot_S4000x100_S100x20_S4000x20_1_0_0_1_n_n.lhsIdx_val_of_single rfl i q
/-- The right operand's row is the contraction index. -/
theorem rhs_dot1_0 (i : S4000x20.Idx) (q : dot_S4000x100_S100x20_S4000x20_1_0_0_1_n_n.contr.Idx) :
    (dot_S4000x100_S100x20_S4000x20_1_0_0_1_n_n.rhsIdx i q 0).val = (q ⟨0, by decide⟩).val :=
  dot_S4000x100_S100x20_S4000x20_1_0_0_1_n_n.rhsIdx_val_of_single rfl i q
/-- The right operand's column is the output's column. -/
theorem rhs_dot1_1 (i : S4000x20.Idx) (q : dot_S4000x100_S100x20_S4000x20_1_0_0_1_n_n.contr.Idx) :
    (dot_S4000x100_S100x20_S4000x20_1_0_0_1_n_n.rhsIdx i q 1).val = (i 1).val := by
  unfold DotDims.rhsIdx
  rw [dif_neg (show ¬(1 : Fin S100x20.rank) ∈ dot_S4000x100_S100x20_S4000x20_1_0_0_1_n_n.rhsBatch by decide), dif_pos (show (1 : Fin S100x20.rank) ∈ dot_S4000x100_S100x20_S4000x20_1_0_0_1_n_n.rhsNonContracting by decide)]
  rfl

/-- The product into the zero accumulator, at row p and column q: the sum over the 100 contraction indices of the
    left operand's row p times the right operand's column q. -/
theorem matmul1_apply {φ₁ φ₂ : FTy} (a : FVec Ideal S4000x100 φ₁) (b : FVec Ideal S100x20 φ₂) (p : Fin 4000) (q : Fin 20) :
    FloatOps.matmul dot_S4000x100_S100x20_S4000x20_1_0_0_1_n_n none a b (constant (F := Ideal) S4000x20 .f32 0x00000000#32) (ix2 p q)
      = ∑ k : Fin 100, a (ix2 p k) * b (ix2 k q) := by
  rw [Ideal.matmul_constant_zero_apply, ← Equiv.sum_comp (ValueIdx.contrEquiv1 dot_S4000x100_S100x20_S4000x20_1_0_0_1_n_n 100 rfl rfl).symm]
  refine Finset.sum_congr rfl fun k _ => ?_
  have hk := ValueIdx.contrEquiv1_symm_val dot_S4000x100_S100x20_S4000x20_1_0_0_1_n_n 100 rfl rfl k
  have el : dot_S4000x100_S100x20_S4000x20_1_0_0_1_n_n.lhsIdx (ix2 p q) ((ValueIdx.contrEquiv1 dot_S4000x100_S100x20_S4000x20_1_0_0_1_n_n 100 rfl rfl).symm k) = ix2 p k := funext fun a => Fin.ext (by
    match a with
    | ⟨0, _⟩ => exact lhs_dot1_0 _ _
    | ⟨1, _⟩ => exact (lhs_dot1_1 _ _).trans hk)
  have er : dot_S4000x100_S100x20_S4000x20_1_0_0_1_n_n.rhsIdx (ix2 p q) ((ValueIdx.contrEquiv1 dot_S4000x100_S100x20_S4000x20_1_0_0_1_n_n 100 rfl rfl).symm k) = ix2 k q := funext fun a => Fin.ext (by
    match a with
    | ⟨0, _⟩ => exact (rhs_dot1_0 _ _).trans hk
    | ⟨1, _⟩ => exact rhs_dot1_1 _ _)
  rw [el, er]

/-! ## The two repeats -/

/-- The column of reciprocal degrees repeated along the 100 lanes: at (p, k) it is the column's entry of row p. -/
theorem bcast_col1_apply (v : S4000x1.Idx → EReal) (p : Fin 4000) (k : Fin 100) :
    broadcastTo S4000x100 v broadcasts_S4000x1_S4000x100 (ix2 p k) = v (ix2 p 0) :=
  broadcastTo_apply v broadcasts_S4000x1_S4000x100 (ix2 p k) (ix2 p 0) (fun a => match a with
    | ⟨0, _⟩ => by show p.val = if (4000 : Nat) = 1 then 0 else p.val; rw [if_neg (by decide)]
    | ⟨1, _⟩ => by show 0 = if (1 : Nat) = 1 then 0 else k.val; rw [if_pos rfl])

/-- The bias row repeated along the 4000 rows: at (p, q) it is the row's entry of column q. -/
theorem bcast_row1_apply (v : S1x20.Idx → EReal) (p : Fin 4000) (q : Fin 20) :
    broadcastTo S4000x20 v broadcasts_S1x20_S4000x20 (ix2 p q) = v (ix2 0 q) :=
  broadcastTo_apply v broadcasts_S1x20_S4000x20 (ix2 p q) (ix2 0 q) (fun a => match a with
    | ⟨0, _⟩ => by show 0 = if (1 : Nat) = 1 then 0 else p.val; rw [if_pos rfl]
    | ⟨1, _⟩ => by show q.val = if (20 : Nat) = 1 then 0 else q.val; rw [if_neg (by decide)])

/-! ## The payload at an index -/

/-- The body's payload at row p and column q of its block: the self term plus the scaled neighbour term plus the bias,
    clipped below at zero. -/
theorem sage1_pay_apply (x0 x1 : Vec Ideal S4000x100 .f32) (x2 : Vec Ideal S4000x1 .f32) (x3 x4 : Vec Ideal S100x20 .f32)
    (x5 : Vec Ideal S1x20 .f32) (p : Fin 4000) (q : Fin 20) :
    k1_pay1 (F := Ideal) x0 x1 x2 x3 x4 x5 (ix2 p q)
      = max (((∑ k : Fin 100, x0 (ix2 p k) * x3 (ix2 k q)) + (∑ k : Fin 100, (x1 (ix2 p k) * x2 (ix2 p 0)) * x4 (ix2 k q)))
          + x5 (ix2 0 q)) Spec.zeroF := by
  unfold k1_pay1
  simp only [shapeCast_self]
  rw [maximumf_apply, addf_apply, addf_apply, bcast_row1_apply]
  show max ((FloatOps.matmul _ none _ _ _ _ + FloatOps.matmul _ none _ _ _ _) + _) _ = _
  rw [matmul1_apply, matmul1_apply]
  simp only [truncf_apply, mulf_apply, bcast_col1_apply]
  rfl

/-! ## A block of the layer -/

/-- When the six loaded blocks are the rows 4000·T … 4000·T + 3999 of x, agg and inv and the whole of the two weights
    and the bias, the payload at (p, q) is the layer's formula at row 4000·T + p and column q. -/
theorem sage1_pay_block (A0 A1 : S100000x100.Idx → EReal) (A2 : S100000x1.Idx → EReal) (A3 A4 : S100x20.Idx → EReal)
    (A5 : S1x20.Idx → EReal) (x0 x1 : Vec Ideal S4000x100 .f32) (x2 : Vec Ideal S4000x1 .f32)
    (x3 x4 : Vec Ideal S100x20 .f32) (x5 : Vec Ideal S1x20 .f32) (T : Nat)
    (h0 : ∀ (y : S4000x100.Idx) (z : S100000x100.Idx), (z 0).val = T * 4000 + (y 0).val → (z 1).val = (y 1).val → x0 y = A0 z)
    (h1 : ∀ (y : S4000x100.Idx) (z : S100000x100.Idx), (z 0).val = T * 4000 + (y 0).val → (z 1).val = (y 1).val → x1 y = A1 z)
    (h2 : ∀ (y : S4000x1.Idx) (z : S100000x1.Idx), (z 0).val = T * 4000 + (y 0).val → x2 y = A2 z)
    (h3 : x3 = A3) (h4 : x4 = A4) (h5 : x5 = A5)
    (j : S4000x20.Idx) (i : S100000x20.Idx) (hi0 : (i 0).val = T * 4000 + (j 0).val) (hi1 : (i 1).val = (j 1).val) :
    k1_pay1 (F := Ideal) x0 x1 x2 x3 x4 x5 j
      = Spec.sage 100000 100 20 A0 A1 A2 A3 A4 (fun j => A5 (ix2 (0 : Fin 1) (j 0))) i := by
  obtain ⟨p, q, rfl⟩ : ∃ (p : Fin 4000) (q : Fin 20), j = ix2 p q := ⟨j 0, j 1, eq_ix2 j⟩
  obtain ⟨r, q', rfl⟩ : ∃ (r : Fin 100000) (q' : Fin 20), i = ix2 r q' := ⟨i 0, i 1, eq_ix2 i⟩
  have hr : r.val = T * 4000 + p.val := hi0
  have hq : q' = q := Fin.ext hi1
  rw [hq, sage1_pay_apply]
  show _ = max (((∑ k : Fin 100, A0 (ix2 r k) * A3 (ix2 k q)) + (∑ k : Fin 100, (A1 (ix2 r k) * A2 (ix2 r 0)) * A4 (ix2 k q)))
      + A5 (ix2 0 q)) Spec.zeroF
  have e0 : ∀ k : Fin 100, x0 (ix2 p k) = A0 (ix2 r k) := fun k => h0 (ix2 p k) (ix2 r k) hr rfl
  have e1 : ∀ k : Fin 100, x1 (ix2 p k) = A1 (ix2 r k) := fun k => h1 (ix2 p k) (ix2 r k) hr rfl
  have e2 : x2 (ix2 p 0) = A2 (ix2 r 0) := h2 (ix2 p 0) (ix2 r 0) hr
  simp only [e0, e1, e2, h3, h4, h5]

/-! ## What a grid point writes back -/

variable (V : (c : Dev nD) → (b : Ref sig .tc) → Buf (Elt Ideal) ((c : Thread nD τ).loc b))

/-- The layer's formula of the arrays the region finds. -/
abbrev G1 (c : Dev nD) : S100000x20.Idx → EReal :=
  Spec.sage 100000 100 20 (V c main_v20) (V c main_v30) (V c main_v8) (V c main_arg4) (V c main_arg5)
    (fun j => V c main_v31 (ix2 (0 : Fin 1) (j 0)))

/-- The zero offsets of a whole-buffer access, as a constant function. -/
theorem zero_off1 : (![0, 0] : Fin 2 → Nat) = fun _ => 0 := funext fun a => by fin_cases a <;> rfl

/-- The block indices over the grid: at point t the three row-blocked inputs and the output are at block row t,
    the weights and the bias at block (0, 0). -/
theorem block_index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- What point t writes back is block t of the layer's formula: row p of each row-blocked input's block is row
    4000·t + p of its array, and so is row p of the output's block. -/
theorem flushed1_eq (c : Dev nD) (t : Fin cfg1.N) :
    (Hand.dat1 (F := Ideal) V c).flushed 6 t = ((cfg1.win 6).blk t).view.read (Elt Ideal) (G1 V c) := by
  show (cfg1.win 6).cut (grid1.coords t) ((Hand.dat1 (F := Ideal) V c).after 6 t) = _
  rw [Hand.after1_6]
  unfold Hand.out1_6
  rw [View.canon_unit_zero zero_off1]
  simp only [View.ld_unit_zero (S := S4000x100) zero_off1, View.ld_unit_zero (S := S4000x1) zero_off1,
    View.ld_unit_zero (S := S100x20) zero_off1, View.ld_unit_zero (S := S1x20) zero_off1]
  obtain ⟨a00, a01, a10, a11, a20, a21, a30, a31, a40, a41, a50, a51, a60, a61⟩ := block_index1 t
  funext j
  show k1_pay1 (F := Ideal) (Hand.iblk1 V c 0 t) (Hand.iblk1 V c 1 t) (Hand.iblk1 V c 2 t) (Hand.iblk1 V c 3 t)
      (Hand.iblk1 V c 4 t) (Hand.iblk1 V c 5 t) j = G1 V c (((cfg1.win 6).blk t).view.emb j)
  refine sage1_pay_block (V c main_v20) (V c main_v30) (V c main_v8) (V c main_arg4) (V c main_arg5) (V c main_v31)
    _ _ _ _ _ _ t.val ?_ ?_ ?_ ?_ ?_ ?_ j _ ?_ ?_
  · intro y z hz0 hz1
    show V c main_v20 (((cfg1.win 0).blk t).view.emb y) = V c main_v20 z
    refine congrArg _ (funext fun a => Fin.ext ?_)
    match a with
    | ⟨0, _⟩ => show win1_0.index t (0 : Fin 2) * 4000 + 1 * (y 0).val = (z 0).val; omega
    | ⟨1, _⟩ => show win1_0.index t (1 : Fin 2) * 100 + 1 * (y 1).val = (z 1).val; omega
  · intro y z hz0 hz1
    show V c main_v30 (((cfg1.win 1).blk t).view.emb y) = V c main_v30 z
    refine congrArg _ (funext fun a => Fin.ext ?_)
    match a with
    | ⟨0, _⟩ => show win1_1.index t (0 : Fin 2) * 4000 + 1 * (y 0).val = (z 0).val; omega
    | ⟨1, _⟩ => show win1_1.index t (1 : Fin 2) * 100 + 1 * (y 1).val = (z 1).val; omega
  · intro y z hz0
    have hy1 : (y 1).val < 1 := (y 1).isLt
    have hz1 : (z 1).val < 1 := (z 1).isLt
    show V c main_v8 (((cfg1.win 2).blk t).view.emb y) = V c main_v8 z
    refine congrArg _ (funext fun a => Fin.ext ?_)
    match a with
    | ⟨0, _⟩ => show win1_2.index t (0 : Fin 2) * 4000 + 1 * (y 0).val = (z 0).val; omega
    | ⟨1, _⟩ => show win1_2.index t (1 : Fin 2) * 1 + 1 * (y 1).val = (z 1).val; omega
  · funext y
    show V c main_arg4 (((cfg1.win 3).blk t).view.emb y) = V c main_arg4 y
    refine congrArg _ (funext fun a => Fin.ext ?_)
    match a with
    | ⟨0, _⟩ => show win1_3.index t (0 : Fin 2) * 100 + 1 * (y 0).val = (y 0).val; omega
    | ⟨1, _⟩ => show win1_3.index t (1 : Fin 2) * 20 + 1 * (y 1).val = (y 1).val; omega
  · funext y
    show V c main_arg5 (((cfg1.win 4).blk t).view.emb y) = V c main_arg5 y
    refine congrArg _ (funext fun a => Fin.ext ?_)
    match a with
    | ⟨0, _⟩ => show win1_4.index t (0 : Fin 2) * 100 + 1 * (y 0).val = (y 0).val; omega
    | ⟨1, _⟩ => show win1_4.index t (1 : Fin 2) * 20 + 1 * (y 1).val = (y 1).val; omega
  · funext y
    show V c main_v31 (((cfg1.win 5).blk t).view.emb y) = V c main_v31 y
    refine congrArg _ (funext fun a => Fin.ext ?_)
    match a with
    | ⟨0, _⟩ => show win1_5.index t (0 : Fin 2) * 1 + 1 * (y 0).val = (y 0).val; omega
    | ⟨1, _⟩ => show win1_5.index t (1 : Fin 2) * 20 + 1 * (y 1).val = (y 1).val; omega
  · show win1_6.index t (0 : Fin 2) * 4000 + 1 * (j 0).val = t.val * 4000 + (j 0).val; omega
  · show win1_6.index t (1 : Fin 2) * 20 + 1 * (j 1).val = (j 1).val; omega

/-! ## The blocks cover the array -/

/-- Row r of the output lies in the block of point r / 4000. -/
theorem cover1 (i : S100000x20.Idx) :
    ∃ t : Fin cfg1.N, (cfg1.win 6).flush t = true ∧ i ∈ ((cfg1.win 6).blk t).view.set := by
  have hi0 : (i 0).val < 100000 := (i 0).isLt
  have hi1 : (i 1).val < 20 := (i 1).isLt
  have ht : (i 0).val / 4000 < cfg1.N := by show _ < 25; omega
  obtain ⟨t, htv⟩ : ∃ t : Fin cfg1.N, t.val = (i 0).val / 4000 := ⟨⟨_, ht⟩, rfl⟩
  obtain ⟨-, -, -, -, -, -, -, -, -, -, -, -, a60, a61⟩ := block_index1 t
  refine ⟨t, flush1_6 t, ?_⟩
  show i ∈ ((View.whole main_v32).slice (win1_6.rect t)).set
  rw [View.set_slice_whole, Rect.mem_set_unit]
  intro a
  match a with
  | ⟨0, _⟩ => show win1_6.index t (0 : Fin 2) * 4000 ≤ (i 0).val ∧ (i 0).val < win1_6.index t (0 : Fin 2) * 4000 + 4000; omega
  | ⟨1, _⟩ => show win1_6.index t (1 : Fin 2) * 20 ≤ (i 1).val ∧ (i 1).val < win1_6.index t (1 : Fin 2) * 20 + 20; omega

/-! ## The output array after the region -/

/-- After all 25 write-backs the output array is the layer's formula of the arrays the region finds. -/
theorem sage1_final (c : Dev nD) :
    (Hand.dat1 (F := Ideal) V c).arrAt 6 cfg1.N
      = Cert.Spec.sage 100000 100 20 (V c main_v20) (V c main_v30) (V c main_v8) (V c main_arg4) (V c main_arg5)
          (fun j => V c main_v31 (ValueIdx.ix2 (0 : Fin 1) (j 0))) :=
  (Hand.dat1 (F := Ideal) V c).arrAt_eq_of_cover 6 (G1 V c) (fun t _ => flushed1_eq V c t) (cover1)

end Cert.KernelIdeal.HandVal

end
-- ==== Proof.Val.Chain.lean ====
/-
  From the kernel program's buffers to the reference's stages.  The kernel program's host stretches apply the same
  gathers, scatter-sums and reshapes the reference applies, so what each region finds in its input arrays is a stage of the
  reference at the same arguments; each SAGE region leaves the layer's formula of what it found, which is the reference's
  hidden layer; and the readout region leaves the per-graph mean through the perceptron, which is the reference's result.
  Hence the kernel program's result array ends holding the reference's result stage of the launch arguments.
-/
import proofs.«423883_j31576599560691_3_alg».proof.Proof.KI.Fold
import proofs.«423883_j31576599560691_3_alg».proof.Proof.KI.Readout
import proofs.«423883_j31576599560691_3_alg».proof.Proof.Val.ReadoutVal
import proofs.«423883_j31576599560691_3_alg».proof.Proof.RefValue
import proofs.«423883_j31576599560691_3_alg».proof.Proof.Val.SageVal0
import proofs.«423883_j31576599560691_3_alg».proof.Proof.Val.SageVal1
import proofs.«423883_j31576599560691_3_alg».proof.Proof.Gen.ReferenceIdeal.Read
import proofs.«423883_j31576599560691_3_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.HandVal

open Idealize.ShloMosaic Idealize.ShloMosaic.TcCoe Idealize.ShloMosaic.StableHlo Idealize.ShloMosaic.ValueIdx
open Idealize.SL Idealize.SL.Sem
open Cert.KernelIdeal Cert.KernelIdeal.Gen Cert.KernelIdeal.Hand

variable (m : (ℓ : Loc nD τ sig) → Buf (Elt Ideal) ℓ) (ρ : Dev nD → PrngReg) (c : Dev nD)

/-- An array of core `c` as launched. -/
abbrev arg (r : Ref sig .tc) : Buf (Elt Ideal) ((c : Thread nD τ).loc r) := m ((c : Thread nD τ).loc r)

/-! ## Reshapes read at an index -/

/-- A vector reshaped to a column, read at row `i`: the vector's entry `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Buffers nothing has written yet hold their launch contents -/

theorem V1_kept (r : Ref sig .tc) (h : r ∉ hostOps0_W) : V1 m ρ c r = arg m c r :=
  StableHlo.after_of_writes_sub hostOps0 _ hostOps0_writes h
theorem W2_kept (r : Ref sig .tc) (h0 : r ∉ hostOps0_W) (hr : r ≠ main_v20) : W2 m ρ c (Proc.devRef .tc r) = arg m c r :=
  (W2_keep m ρ c r hr).trans (V1_kept m ρ c r h0)
theorem V3_kept (r : Ref sig .tc) (h0 : r ∉ hostOps0_W) (h1 : r ∉ hostOps1_W) (hr : r ≠ main_v20) : V3 m ρ c r = arg m c r :=
  (StableHlo.after_of_writes_sub hostOps1 _ hostOps1_writes h1).trans (W2_kept m ρ c r h0 hr)
theorem W4_kept (r : Ref sig .tc) (h0 : r ∉ hostOps0_W) (h1 : r ∉ hostOps1_W) (hr : r ≠ main_v20) (hr' : r ≠ main_v32) :
    W4 m ρ c (Proc.devRef .tc r) = arg m c r :=
  (W4_keep m ρ c r hr').trans (V3_kept m ρ c r h0 h1 hr)
theorem V5_kept (r : Ref sig .tc) (h0 : r ∉ hostOps0_W) (h1 : r ∉ hostOps1_W) (h2 : r ∉ hostOps2_W) (hr : r ≠ main_v20) (hr' : r ≠ main_v32) :
    V5 m ρ c r = arg m c r :=
  (StableHlo.after_of_writes_sub hostOps2 _ hostOps2_writes h2).trans (W4_kept m ρ c r h0 h1 hr hr')

/-! ## Layer 1: what region 0 finds, and what it leaves -/

set_option maxHeartbeats 4000000 in
/-- The first host stretch leaves in `main_v18` the same gather-and-sum of neighbour features the reference forms. -/
theorem V1_v18 : V1 m ρ c main_v18 = Cert.ReferenceIdeal.Read.val_main_v18 (F := Ideal) (arg m c main_arg0) (arg m c main_arg11) (arg m c main_arg12) := by
  show StableHlo.after hostOps0 (W0 m ρ c) (Proc.devRef .tc main_v18) = _
  after_results_simp
  rfl
set_option maxHeartbeats 4000000 in
/-- and in `main_v8` the same column of reciprocal in-degrees. -/
theorem V1_v8 : V1 m ρ c main_v8 = Cert.ReferenceIdeal.Read.val_main_v8 (F := Ideal) (arg m c main_arg12) := by
  show StableHlo.after hostOps0 (W0 m ρ c) (Proc.devRef .tc main_v8) = _
  after_results_simp
  rfl
set_option maxHeartbeats 4000000 in
/-- The bias enters region 0 as a row. -/
theorem V1_v19 : V1 m ρ c main_v19 = shapeCast S1x100 (arg m c main_arg3) shapeCasts_S100_S1x100 := by
  show StableHlo.after hostOps0 (W0 m ρ c) (Proc.devRef .tc main_v19) = _
  after_results_simp
  rfl
theorem bias_row_100 : (fun j : S100.Idx => V1 m ρ c main_v19 (ix2 (0 : Fin 1) (j 0))) = arg m c main_arg3 := by
  funext j
  rw [V1_v19]
  exact (shapeCast_a_1a_apply (arg m c main_arg3) shapeCasts_S100_S1x100 (0 : Fin 1) (j 0 : Fin 100)).trans (congrArg _ (eq_ix1 j).symm)

/-- Region 0 leaves the reference's first hidden layer in `main_v20`: the kernel's blocks are the layer's formula
    (region 0's value), and so is the reference's stage. -/
theorem W2_v20 : W2 m ρ c (Proc.devRef .tc main_v20) = Cert.ReferenceIdeal.Read.val_main_v27 (F := Ideal) (arg m c main_arg0) (arg m c main_arg1) (arg m c main_arg2) (arg m c main_arg3) (arg m c main_arg11) (arg m c main_arg12) := by
  rw [show W2 m ρ c (Proc.devRef .tc main_v20) = (dat0 (V1 m ρ) c).arrAt 6 cfg0.N from W2_arr m ρ c 6,
    sage0_final (V1 m ρ) c, V1_kept m ρ c main_arg0 (by decide), V1_kept m ρ c main_arg1 (by decide), V1_kept m ρ c main_arg2 (by decide),
    V1_v18, V1_v8, bias_row_100]
  exact (Cert.ReferenceIdeal.RefValue.ref_h1 _ _ _ _ _ _).symm
theorem V3_v20 : V3 m ρ c main_v20 = Cert.ReferenceIdeal.Read.val_main_v27 (F := Ideal) (arg m c main_arg0) (arg m c main_arg1) (arg m c main_arg2) (arg m c main_arg3) (arg m c main_arg11) (arg m c main_arg12) :=
  (StableHlo.after_of_writes_sub hostOps1 _ hostOps1_writes (by decide)).trans (W2_v20 m ρ c)

/-! ## Layer 2 -/

set_option maxHeartbeats 4000000 in
/-- The second host stretch gathers and sums the first hidden layer exactly as the reference does. -/
theorem V3_v30 : V3 m ρ c main_v30 = Cert.ReferenceIdeal.Read.val_main_v37 (F := Ideal) (arg m c main_arg0) (arg m c main_arg1) (arg m c main_arg2) (arg m c main_arg3) (arg m c main_arg11) (arg m c main_arg12) := by
  show StableHlo.after hostOps1 (W2 m ρ c) (Proc.devRef .tc main_v30) = _
  after_results_simp
  rw [W2_v20, W2_kept m ρ c main_arg11 (by decide) (by decide), W2_kept m ρ c main_arg12 (by decide) (by decide)]
  rfl
theorem V3_v8 : V3 m ρ c main_v8 = Cert.ReferenceIdeal.Read.val_main_v8 (F := Ideal) (arg m c main_arg12) :=
  (StableHlo.after_of_writes_sub hostOps1 _ hostOps1_writes (by decide)).trans ((W2_keep m ρ c main_v8 (by decide)).trans (V1_v8 m ρ c))
set_option maxHeartbeats 4000000 in
theorem V3_v31 : V3 m ρ c main_v31 = shapeCast S1x20 (arg m c main_arg6) shapeCasts_S20_S1x20 := by
  show StableHlo.after hostOps1 (W2 m ρ c) (Proc.devRef .tc main_v31) = _
  after_results_simp
  rw [W2_kept m ρ c main_arg6 (by decide) (by decide)]
  rfl
theorem bias_row_20 : (fun j : S20.Idx => V3 m ρ c main_v31 (ix2 (0 : Fin 1) (j 0))) = arg m c main_arg6 := by
  funext j
  rw [V3_v31]
  exact (shapeCast_a_1a_apply (arg m c main_arg6) shapeCasts_S20_S1x20 (0 : Fin 1) (j 0 : Fin 20)).trans (congrArg _ (eq_ix1 j).symm)

/-- Region 1 leaves the reference's second hidden layer in `main_v32`. -/
theorem W4_v32 : W4 m ρ c (Proc.devRef .tc main_v32) = Cert.ReferenceIdeal.Read.val_main_v46 (F := Ideal) (arg m c main_arg0) (arg m c main_arg1) (arg m c main_arg2) (arg m c main_arg3) (arg m c main_arg4) (arg m c main_arg5) (arg m c main_arg6) (arg m c main_arg11) (arg m c main_arg12) := by
  rw [show W4 m ρ c (Proc.devRef .tc main_v32) = (dat1 (V3 m ρ) c).arrAt 6 cfg1.N from W4_arr m ρ c 6,
    sage1_final (V3 m ρ) c, V3_v20, V3_v30, V3_v8, V3_kept m ρ c main_arg4 (by decide) (by decide) (by decide),
    V3_kept m ρ c main_arg5 (by decide) (by decide) (by decide), bias_row_20]
  exact (Cert.ReferenceIdeal.RefValue.ref_h2 _ _ _ _ _ _ _ _ _).symm
theorem V5_v32 : V5 m ρ c main_v32 = Cert.ReferenceIdeal.Read.val_main_v46 (F := Ideal) (arg m c main_arg0) (arg m c main_arg1) (arg m c main_arg2) (arg m c main_arg3) (arg m c main_arg4) (arg m c main_arg5) (arg m c main_arg6) (arg m c main_arg11) (arg m c main_arg12) :=
  (StableHlo.after_of_writes_sub hostOps2 _ hostOps2_writes (by decide)).trans (W4_v32 m ρ c)

/-! ## The readout's small inputs -/

set_option maxHeartbeats 4000000 in
theorem V5_v33 : V5 m ρ c main_v33 = shapeCast S100000x1 (arg m c main_arg13) shapeCasts_S100000_S100000x1 := by
  show StableHlo.after hostOps2 (W4 m ρ c) (Proc.devRef .tc main_v33) = _
  after_results_simp
  rw [W4_kept m ρ c main_arg13 (by decide) (by decide) (by decide) (by decide)]
  rfl
theorem gid_col : (fun j : S100000.Idx => V5 m ρ c main_v33 (ix2 (j 0) (0 : Fin 1))) = arg m c main_arg13 := by
  funext j
  rw [V5_v33]
  exact (shapeCast_a_a1_apply (arg m c main_arg13) shapeCasts_S100000_S100000x1 (j 0 : Fin 100000) (0 : Fin 1)).trans (congrArg _ (eq_ix1 j).symm)
set_option maxHeartbeats 4000000 in
theorem V5_v34 : V5 m ρ c main_v34 = shapeCast S1x10 (arg m c main_arg8) shapeCasts_S10_S1x10 := by
  show StableHlo.after hostOps2 (W4 m ρ c) (Proc.devRef .tc main_v34) = _
  after_results_simp
  rw [W4_kept m ρ c main_arg8 (by decide) (by decide) (by decide) (by decide)]
  rfl
theorem bias_row_10 : (fun j : S10.Idx => V5 m ρ c main_v34 (ix2 (0 : Fin 1) (j 0))) = arg m c main_arg8 := by
  funext j
  rw [V5_v34]
  exact (shapeCast_a_1a_apply (arg m c main_arg8) shapeCasts_S10_S1x10 (0 : Fin 1) (j 0 : Fin 10)).trans (congrArg _ (eq_ix1 j).symm)
set_option maxHeartbeats 4000000 in
theorem V5_v35 : V5 m ρ c main_v35 = shapeCast S1x1 (arg m c main_arg10) shapeCasts_S1_S1x1 := by
  show StableHlo.after hostOps2 (W4 m ρ c) (Proc.devRef .tc main_v35) = _
  after_results_simp
  rw [W4_kept m ρ c main_arg10 (by decide) (by decide) (by decide) (by decide)]
  rfl
theorem bias_row_1 : (fun j : S1.Idx => V5 m ρ c main_v35 (ix2 (0 : Fin 1) (j 0))) = arg m c main_arg10 := by
  funext j
  rw [V5_v35]
  exact (shapeCast_a_1a_apply (arg m c main_arg10) shapeCasts_S1_S1x1 (0 : Fin 1) (j 0 : Fin 1)).trans (congrArg _ (eq_ix1 j).symm)

/-! ## The result -/

/-- THE KERNEL PROGRAM'S RESULT IS THE REFERENCE'S: region 2's output array after its last write-back is the readout of
    the second hidden layer, which is the reference's result stage at the same arguments. -/
theorem kernel_out : (dat2 (F := Ideal) (V5 m ρ) c).arrAt 6 cfg2.N = Cert.ReferenceIdeal.Read.val_main_v67 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) := by
  rw [readout_final (V5 m ρ) c, gid_col, V5_v32,
    V5_kept m ρ c main_arg7 (by decide) (by decide) (by decide) (by decide) (by decide), bias_row_10,
    V5_kept m ρ c main_arg9 (by decide) (by decide) (by decide) (by decide) (by decide), bias_row_1]
  exact (Cert.ReferenceIdeal.RefValue.ref_out _ _ _ _ _ _ _ _ _ _ _ _ _ _).symm

end Cert.KernelIdeal.HandVal

end
-- ==== Proof.lean ====
/-
  The certificate: the Pallas GraphSAGE kernel program (two SAGE layers, each a pallas_call over 25 blocks of 4000 nodes, and a
  readout pallas_call that pools the nodes of each graph with a one-hot mask matmul accumulated over the 25 blocks and applies a
  two-layer perceptron) computes, over the extended reals, what the jnp reference computes.

  * Frames.  The word-level program and its idealization are the same text read at two float instances; their frame is the
    launch of the three regions over @main's six segments (`Hand.frame`): no argument array is ever written.  The reference is
    host operations only; its frame is its run with the result dropped.
  * The idealization rewrote nothing, so `preserves` has no conjunct.
  * The value.  The kernel program's result array ends holding region 2's output after its last write-back
    (`Hand.run_result`), which is the reference's result stage at the launch arguments (`HandVal.kernel_out`): each host
    stretch of the kernel program is a stretch of the reference; each SAGE region leaves
    max(x·Wself + (agg ⊙ inv)·Wneigh + b, 0) of what it found; the readout's accumulated mask products are the per-graph sums
    and counts the reference forms by scatter-add (a node whose graph id is no graph's contributes to neither side), divided
    and passed through the same perceptron.  No step needs the inputs finite: only 1·x = x, 0·x = 0 and the commutativity and
    associativity of addition on the extended reals are used.
-/
import proofs.«423883_j31576599560691_3_alg».proof.Defs
import proofs.«423883_j31576599560691_3_alg».proof.Proof.Gen.Kernel
import proofs.«423883_j31576599560691_3_alg».proof.Proof.Gen.KernelIdeal
import proofs.«423883_j31576599560691_3_alg».proof.Proof.Gen.ReferenceIdeal
import proofs.«423883_j31576599560691_3_alg».proof.Proof.Gen.Pre_finite_inputs
import proofs.«423883_j31576599560691_3_alg».proof.Proof.Gen.ReferenceIdeal.Run
import proofs.«423883_j31576599560691_3_alg».proof.Proof.Gen.ReferenceIdeal.Read
import proofs.«423883_j31576599560691_3_alg».proof.Proof.K.Run
import proofs.«423883_j31576599560691_3_alg».proof.Proof.KI.Run
import proofs.«423883_j31576599560691_3_alg».proof.Proof.Val.Chain
import Idealize.ShloMosaic.Adequacy
import Idealize.ShloMosaic.Init

noncomputable section

namespace Cert.Proof

open Idealize.ShloMosaic Idealize.SL.Sem

/-- The word-level program runs to its end, faults nowhere and leaves its arguments as launched. -/
theorem frame_k : Cert.frame_Kernel := fun m ρ _ => Cert.Kernel.Hand.frame (F := Bits) m ρ
/-- So does its idealization. -/
theorem frame_ki : Cert.frame_KernelIdeal := fun m ρ _ => Cert.KernelIdeal.Hand.frame (F := Ideal) m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both idealized programs run, and end with equal results: region 2's final output
    array on the kernel side, which is the reference's result stage at the same arguments. -/
theorem algebraic : Cert.algebraic_KernelIdeal_ReferenceIdeal := by
  intro m ρ m' ρ' _ hagree
  refine ⟨fun c => (Cert.KernelIdeal.Hand.dat2 (F := Ideal) (Cert.KernelIdeal.Hand.V5 m ρ) c).arrAt 6 Cert.KernelIdeal.cfg2.N, Cert.KernelIdeal.Hand.run_result (F := Ideal) m ρ, ?_⟩
  refine (θ_run Cert.ReferenceIdeal.defs _ _).mono (fun _ h c => ⟨(h c).1.trans ?_, (h c).2⟩) (Cert.ReferenceIdeal.Value.run (F := Ideal) m' ρ')
  rw [Cert.ReferenceIdeal.Read.val_main_v67_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]
  exact (Cert.KernelIdeal.HandVal.kernel_out m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
